-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S6x4096 : Shape := ⟨2, ![6, 4096]⟩
abbrev S4096 : Shape := ⟨1, ![4096]⟩
abbrev S6 : Shape := ⟨1, ![6]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S6x4096 : S_.BroadcastsInDim S6x4096 (![] : Fin 0 → Fin S6x4096.rank)
  reducesTo_S6x4096_S_d0_1 : S6x4096.ReducesTo [0, 1] S_
  bcast_S_S4096 : S_.BroadcastsInDim S4096 (![] : Fin 0 → Fin S4096.rank)
  reducesTo_S4096_S_d0 : S4096.ReducesTo [0] S_
  bcast_S_S6 : S_.BroadcastsInDim S6 (![] : Fin 0 → Fin S6.rank)
  reducesTo_S6_S_d0 : S6.ReducesTo [0] S_

variable [Facts]

def fn_part2 {F : FTy → Type} [FloatOps F] (main_arg7 : FVec F S4096 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  main_v38

def fn_part1 {F : FTy → Type} [FloatOps F] (main_arg4 : FVec F S6x4096 .f32) (main_arg5 : FVec F S6 .f32) (main_arg6 : FVec F S4096x4096 .f32) (main_arg7 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S6x4096 .f32 := Host.absf main_arg4
  let main_cst_6 : FVec F S_ .f32 := constant S_ .f32 0x7F800000#32
  let main_v20 : FVec F S6x4096 .f32 := broadcastInDim S6x4096 ![] bcast_S_S6x4096 main_cst_6
  let main_v21 : IVec S6x4096 1 := cmpf .olt main_v19 main_v20
  let main_c_7 : IVec S_ 1 := constantI S_ 1 1#1
  let main_v22 : IVec S_ 1 := (fun x v => Host.reduce IntOp.andi x v reducesTo_S6x4096_S_d0_1 h_S_) main_v21 main_c_7
  let main_v23 : IVec S_ 1 := andi main_v18 main_v22
  let main_v24 : FVec F S6 .f32 := Host.absf main_arg5
  let main_cst_8 : FVec F S_ .f32 := constant S_ .f32 0x7F800000#32
  let main_v25 : FVec F S6 .f32 := broadcastInDim S6 ![] bcast_S_S6 main_cst_8
  let main_v26 : IVec S6 1 := cmpf .olt main_v24 main_v25
  let main_c_9 : IVec S_ 1 := constantI S_ 1 1#1
  let main_v27 : IVec S_ 1 := (fun x v => Host.reduce IntOp.andi x v reducesTo_S6_S_d0 h_S_) main_v26 main_c_9
  let main_v28 : IVec S_ 1 := andi main_v23 main_v27
  let main_v29 : FVec F S4096x4096 .f32 := Host.absf main_arg6
  let main_cst_10 : FVec F S_ .f32 := constant S_ .f32 0x7F800000#32
  let main_v30 : FVec F S4096x4096 .f32 := broadcastInDim S4096x4096 ![] bcast_S_S4096x4096 main_cst_10
  let main_v31 : IVec S4096x4096 1 := cmpf .olt main_v29 main_v30
  let main_c_11 : IVec S_ 1 := constantI S_ 1 1#1
  let main_v32 : IVec S_ 1 := (fun x v => Host.reduce IntOp.andi x v reducesTo_S4096x4096_S_d0_1 h_S_) main_v31 main_c_11
  let main_v33 : IVec S_ 1 := andi main_v28 main_v32
  fn_part2 (F := F) main_arg7 main_v33

def fn {F : FTy → Type} [FloatOps F] (main_arg0 : FVec F S4096x4096 .f32) (main_arg1 : FVec F S6x4096 .f32) (main_arg2 : FVec F S4096x4096 .f32) (main_arg3 : FVec F S4096 .f32) (main_arg4 : FVec F S6x4096 .f32) (main_arg5 : FVec F S6 .f32) (main_arg6 : FVec F S4096x4096 .f32) (main_arg7 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S6x4096 .f32 := Host.absf main_arg1
  let main_cst_0 : FVec F S_ .f32 := constant S_ .f32 0x7F800000#32
  let main_v5 : FVec F S6x4096 .f32 := broadcastInDim S6x4096 ![] bcast_S_S6x4096 main_cst_0
  let main_v6 : IVec S6x4096 1 := cmpf .olt main_v4 main_v5
  let main_c_1 : IVec S_ 1 := constantI S_ 1 1#1
  let main_v7 : IVec S_ 1 := (fun x v => Host.reduce IntOp.andi x v reducesTo_S6x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_v13 main_v16
-- ==== Kernel.lean ====
abbrev S4096x4096 : Shape := ⟨2, ![4096, 4096]⟩
abbrev S6x4096 : Shape := ⟨2, ![6, 4096]⟩
abbrev S4096 : Shape := ⟨1, ![4096]⟩
abbrev S6 : Shape := ⟨1, ![6]⟩
abbrev S1x4096 : Shape := ⟨2, ![1, 4096]⟩
abbrev S1024x2048 : Shape := ⟨2, ![1024, 2048]⟩
abbrev S2048x1024 : Shape := ⟨2, ![2048, 1024]⟩
abbrev S1x1024 : Shape := ⟨2, ![1, 1024]⟩
abbrev S1024x1024 : Shape := ⟨2, ![1024, 1024]⟩
abbrev S6x1 : Shape := ⟨2, ![6, 1]⟩
abbrev S512x4096 : Shape := ⟨2, ![512, 4096]⟩
abbrev S6x512 : Shape := ⟨2, ![6, 512]⟩
abbrev S4096x6 : Shape := ⟨2, ![4096, 6]⟩
abbrev S2048x6 : Shape := ⟨2, ![2048, 6]⟩
abbrev S1024x6 : Shape := ⟨2, ![1024, 6]⟩

abbrev nBuf : Space → Nat
  | .hbm => 22
  | .vmem => 29
  | .smem => 0
  | _ => 0

abbrev bufTy : (tb : Table) → Fin (tcTables nBuf tb) → BufTy
  | .hbm, ⟨0, _⟩ => ⟨S4096x4096, .f32⟩
  | .hbm, ⟨1, _⟩ => ⟨S6x4096, .f32⟩
  | .hbm, ⟨2, _⟩ => ⟨S4096x4096, .f32⟩
  | .hbm, ⟨3, _⟩ => ⟨S4096, .f32⟩
  | .hbm, ⟨4, _⟩ => ⟨S6x4096, .f32⟩
  | .hbm, ⟨5, _⟩ => ⟨S6, .f32⟩
  | .hbm, ⟨6, _⟩ => ⟨S4096x4096, .f32⟩
  | .hbm, ⟨7, _⟩ => ⟨S4096, .f32⟩
  | .hbm, ⟨8, _⟩ => ⟨S4096x4096, .bf16⟩
  | .hbm, ⟨9, _⟩ => ⟨S4096x4096, .f32⟩
  | .hbm, ⟨10, _⟩ => ⟨S4096x4096, .bf16⟩
  | .hbm, ⟨11, _⟩ => ⟨S1x4096, .f32⟩
  | .hbm, ⟨12, _⟩ => ⟨S4096x4096, .bf16⟩
  | .hbm, ⟨13, _⟩ => ⟨S6x4096, .bf16⟩
  | .hbm, ⟨14, _⟩ => ⟨S6x1, .f32⟩
  | .hbm, ⟨15, _⟩ => ⟨S6x4096, .bf16⟩
  | .hbm, ⟨16, _⟩ => ⟨S4096x4096, .f32⟩
  | .hbm, ⟨17, _⟩ => ⟨S4096x4096, .bf16⟩
  | .hbm, ⟨18, _⟩ => ⟨S1x4096, .f32⟩
  | .hbm, ⟨19, _⟩ => ⟨S6x4096, .bf16⟩
  | .hbm, ⟨20, _⟩ => ⟨S4096x6, .bf16⟩
  | .hbm, ⟨21, _⟩ => ⟨S4096x6, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S512x4096, .bf16⟩
  | .local _ .vmem, ⟨10, _⟩ => ⟨S512x4096, .bf16⟩
  | .local _ .vmem, ⟨11, _⟩ => ⟨S6x512, .bf16⟩
  | .local _ .vmem, ⟨12, _⟩ => ⟨S6x512, .bf16⟩
  | .local _ .vmem, ⟨13, _⟩ => ⟨S6x1, .f32⟩
  | .local _ .vmem, ⟨14, _⟩ => ⟨S6x512, .bf16⟩
  | .local _ .vmem, ⟨15, _⟩ => ⟨S6x512, .bf16⟩
  | .local _ .vmem, ⟨16, _⟩ => ⟨S512x4096, .bf16⟩
  | .local _ .vmem, ⟨17, _⟩ => ⟨S512x4096, .bf16⟩
  | .local _ .vmem, ⟨18, _⟩ => ⟨S1x4096, .f32⟩
  | .local _ .vmem, ⟨19, _⟩ => ⟨S6x4096, .bf16⟩
  | .local _ .vmem, ⟨20, _⟩ => ⟨S6x4096, .f32⟩
  | .local _ .vmem, ⟨21, _⟩ => ⟨S6x4096, .f32⟩
  | .local _ .vmem, ⟨22, _⟩ => ⟨S1024x2048, .bf16⟩
  | .local _ .vmem, ⟨23, _⟩ => ⟨S1024x2048, .bf16⟩
  | .local _ .vmem, ⟨24, _⟩ => ⟨S2048x6, .bf16⟩
  | .local _ .vmem, ⟨25, _⟩ => ⟨S2048x6, .bf16⟩
  | .local _ .vmem, ⟨26, _⟩ => ⟨S1024x6, .f32⟩
  | .local _ .vmem, ⟨27, _⟩ => ⟨S1024x6, .f32⟩
  | .local _ .vmem, ⟨28, _⟩ => ⟨S1024x6, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg6_0 : Ref sig .tc := ⟨.vmem, 19, rfl⟩
abbrev cc1_scratch0 : Ref sig .tc := ⟨.vmem, 20, rfl⟩
abbrev cc1_scratch1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem6_0 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24

abbrev nD : Nat := 1
abbrev τ : Topo := Topo.v7x

variable {F : FTy → Type} [FloatOps F]

abbrev grid0 : Pipeline.Grid := ⟨3, ![4, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨1, ![8], ![false]⟩

def k1_cond2 (i : grid1.Coords) : BitVec 1 :=
  let arg0 : BitVec 32 := BitVec.ofNat 32 (i 0).val
  let c7_i32 : BitVec 32 := 7#32
  let v23 : BitVec 1 := Scalar.cmpi .eq arg0 c7_i32
  let v24 : BitVec 32 := Scalar.extui v23
  let c0_i32_17 : BitVec 32 := 0#32
  let v25 : BitVec 1 := Scalar.cmpi .ne v24 c0_i32_17
  v25

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S6x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S6x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x4096 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x4096 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S6x4096 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨2, ![4, 2], ![false, false]⟩

def k2_cond2 (i : grid2.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x6 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x6 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

class Facts₀ : Prop where
  bitsLt_bf16_f32 : FTy.bits .bf16 < FTy.bits .f32
  transposes_S4096x4096_S4096x4096_1_0 : S4096x4096.Transposes [1, 0] S4096x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  shapeCasts_S6_S6x1 : S6.ShapeCasts S6x1
  inb_S6x4096_S6x4096_0_0 : ∀ a, (![0, 0] : Fin 2 → Nat) a + S6x4096.size a ≤ S6x4096.size a
  h_S6x4096 : 0 < S6x4096.numel
  shapeCasts_S6x4096_S6x4096 : S6x4096.ShapeCasts S6x4096
  inb_S6x512_S6x512_0_0 : ∀ a, (![0, 0] : Fin 2 → Nat) a + S6x512.size a ≤ S6x512.size a
  h_S6x512 : 0 < S6x512.numel
  shapeCasts_S6x512_S6x512 : S6x512.ShapeCasts S6x512
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S6x1_S6x1_0_0 : ∀ a, (![0, 0] : Fin 2 → Nat) a + S6x1.size a ≤ S6x1.size a
  h_S6x1 : 0 < S6x1.numel
  shapeCasts_S6x1_S6x1 : S6x1.ShapeCasts S6x1
  broadcasts_S6x1_S6x4096 : S6x1.Broadcasts S6x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S6x4096 : S1x4096.Broadcasts S6x4096
  packedbf16_S6x4096_S6x4096_0_0 : (Rect.unit (s := S6x4096) ![0, 0] S6x4096.size inb_S6x4096_S6x4096_0_0).PackedRows (EltTy.packing .bf16)
  transposes_S6x4096_S4096x6_1_0 : S6x4096.Transposes [1, 0] S4096x6
  inb_S1024x6_S1024x6_0_0 : ∀ a, (![0, 0] : Fin 2 → Nat) a + S1024x6.size a ≤ S1024x6.size a
  h_S1024x6 : 0 < S1024x6.numel
  shapeCasts_S1024x6_S1024x6 : S1024x6.ShapeCasts S1024x6
  inb_S2048x6_S2048x6_0_0 : ∀ a, (![0, 0] : Fin 2 → Nat) a + S2048x6.size a ≤ S2048x6.size a
  h_S2048x6 : 0 < S2048x6.numel
  shapeCasts_S2048x6_S2048x6 : S2048x6.ShapeCasts S2048x6
  dot_S1024x2048_S2048x1024_S1024x1024_1_0_0_1_n_n_wf : DotDims.WF S1024x2048 S2048x1024 S1024x1024 [1] [0] [0] [1] [] []
  dot_S6x512_S512x4096_S6x4096_1_0_0_1_n_n_wf : DotDims.WF S6x512 S512x4096 S6x4096 [1] [0] [0] [1] [] []
  dot_S1024x2048_S2048x6_S1024x6_1_0_0_1_n_n_wf : DotDims.WF S1024x2048 S2048x6 S1024x6 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x4096.size a
  hwx0_0 : ∀ i : grid0.Coords, EltTy.bits .bf16 = 32 ∨ (Rect.block (s := S4096x4096) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S4096x4096.size a
  hwx0_1 : ∀ i : grid0.Coords, EltTy.bits .bf16 = 32 ∨ (Rect.block (s := S4096x4096) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .bf16 = 32 ∨ (Rect.block (s := S4096x4096) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .bf16 = 32 ∨ (Rect.block (s := S4096x4096) S512x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6x512.size a ≤ S6x4096.size a
  hwx1_1 : ∀ i : grid1.Coords, EltTy.bits .bf16 = 32 ∨ (Rect.block (s := S6x4096) S6x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S6x1.size a ≤ S6x1.size a
  hwx1_2 : ∀ i : grid1.Coords, EltTy.bits .f32 = 32 ∨ (Rect.block (s := S6x1) S6x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S6x512.size a ≤ S6x4096.size a
  hwx1_3 : ∀ i : grid1.Coords, EltTy.bits .bf16 = 32 ∨ (Rect.block (s := S6x4096) S6x512.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x4096.size a ≤ S4096x4096.size a
  hwx1_4 : ∀ i : grid1.Coords, EltTy.bits .bf16 = 32 ∨ (Rect.block (s := S4096x4096) S512x4096.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x4096.size a ≤ S1x4096.size a
  hwx1_5 : ∀ i : grid1.Coords, EltTy.bits .f32 = 32 ∨ (Rect.block (s := S1x4096) S1x4096.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S6x4096.size a ≤ S6x4096.size a
  hwx1_6 : ∀ i : grid1.Coords, EltTy.bits .bf16 = 32 ∨ (Rect.block (s := S6x4096) S6x4096.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S4096x4096.size a
  hwx2_0 : ∀ i : grid2.Coords, EltTy.bits .bf16 = 32 ∨ (Rect.block (s := S4096x4096) S1024x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x6.size a ≤ S4096x6.size a
  hwx2_1 : ∀ i : grid2.Coords, EltTy.bits .bf16 = 32 ∨ (Rect.block (s := S4096x6) S2048x6.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x6.size a ≤ S4096x6.size a
  hwx2_2 : ∀ i : grid2.Coords, EltTy.bits .f32 = 32 ∨ (Rect.block (s := S4096x6) S1024x6.size (cc2_transform_2 i) (hinb2_2 i)).WholeWords (EltTy.packing .f32)

variable [Facts₀]

def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf
def dot_S6x512_S512x4096_S6x4096_1_0_0_1_n_n : DotDims S6x512 S512x4096 S6x4096 where
  lhsContracting := [1]
  rhsContracting := [0]
  lhsNonContracting := [0]
  rhsNonContracting := [1]
  lhsBatch := []
  rhsBatch := []
  wf := dot_S6x512_S512x4096_S6x4096_1_0_0_1_n_n_wf
def dot_S1024x2048_S2048x6_S1024x6_1_0_0_1_n_n : DotDims S1024x2048 S2048x6 S1024x6 where
  lhsContracting := [1]
  rhsContracting := [0]
  lhsNonContracting := [0]
  rhsNonContracting := [1]
  lhsBatch := []
  rhsBatch := []
  wf := dot_S1024x2048_S2048x6_S1024x6_1_0_0_1_n_n_wf

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v4) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S6x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S6x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S6x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v9) S512x4096.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v10) S1x4096.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v11) S6x4096.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

abbrev win2_0 : Pipeline.Window sig grid2 :=
  Pipeline.Window.ofSpec (Memref.whole main_v4) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S2048x6.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v13) S1024x6.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S4096x4096 : Shape := ⟨2, ![4096, 4096]⟩
abbrev S6x4096 : Shape := ⟨2, ![6, 4096]⟩
abbrev S4096 : Shape := ⟨1, ![4096]⟩
abbrev S6 : Shape := ⟨1, ![6]⟩
abbrev S1x4096 : Shape := ⟨2, ![1, 4096]⟩
abbrev S4096x6 : Shape := ⟨2, ![4096, 6]⟩
abbrev S1x6 : Shape := ⟨2, ![1, 6]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S6x4096, .f32⟩
  | .hbm, ⟨2, _⟩ => ⟨S4096x4096, .f32⟩
  | .hbm, ⟨3, _⟩ => ⟨S4096, .f32⟩
  | .hbm, ⟨4, _⟩ => ⟨S6x4096, .f32⟩
  | .hbm, ⟨5, _⟩ => ⟨S6, .f32⟩
  | .hbm, ⟨6, _⟩ => ⟨S4096x4096, .f32⟩
  | .hbm, ⟨7, _⟩ => ⟨S4096, .f32⟩
  | .hbm, ⟨8, _⟩ => ⟨S4096x4096, .f32⟩
  | .hbm, ⟨9, _⟩ => ⟨S4096x4096, .f32⟩
  | .hbm, ⟨10, _⟩ => ⟨S1x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x6, .f32⟩
  | .hbm, ⟨15, _⟩ => ⟨S4096x6, .f32⟩
  | .hbm, ⟨16, _⟩ => ⟨S1x6, .f32⟩
  | .hbm, ⟨17, _⟩ => ⟨S4096x6, .f32⟩
  | .hbm, ⟨18, _⟩ => ⟨S4096x6, .f32⟩
  | .hbm, ⟨19, _⟩ => ⟨S4096x4096, .f32⟩
  | .hbm, ⟨20, _⟩ => ⟨S6x4096, .f32⟩
  | .hbm, ⟨21, _⟩ => ⟨S1x4096, .f32⟩
  | .hbm, ⟨22, _⟩ => ⟨S6x4096, .f32⟩
  | .hbm, ⟨23, _⟩ => ⟨S6x4096, .f32⟩
  | .hbm, ⟨24, _⟩ => ⟨S6x4096, .f32⟩
  | .hbm, ⟨25, _⟩ => ⟨S6x4096, .f32⟩
  | .hbm, ⟨26, _⟩ => ⟨S_, .f32⟩
  | .hbm, ⟨27, _⟩ => ⟨S6x4096, .f32⟩
  | .hbm, ⟨28, _⟩ => ⟨S6x4096, .f32⟩
  | .hbm, ⟨29, _⟩ => ⟨S6x4096, .f32⟩
  | .hbm, ⟨30, _⟩ => ⟨S6x4096, .f32⟩
  | .hbm, ⟨31, _⟩ => ⟨S_, .f32⟩
  | .hbm, ⟨32, _⟩ => ⟨S6x4096, .f32⟩
  | .hbm, ⟨33, _⟩ => ⟨S6x4096, .f32⟩
  | .hbm, ⟨34, _⟩ => ⟨S6x4096, .f32⟩
  | .hbm, ⟨35, _⟩ => ⟨S6x4096, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S6x4096, .f32⟩
  | .hbm, ⟨40, _⟩ => ⟨S6x4096, .f32⟩
  | .hbm, ⟨41, _⟩ => ⟨S_, .f32⟩
  | .hbm, ⟨42, _⟩ => ⟨S6x4096, .f32⟩
  | .hbm, ⟨43, _⟩ => ⟨S6x4096, .f32⟩
  | .hbm, ⟨44, _⟩ => ⟨S4096x6, .f32⟩
  | .hbm, ⟨45, _⟩ => ⟨S4096x6, .f32⟩
  | .hbm, ⟨46, _⟩ => ⟨S_, .f32⟩
  | .hbm, ⟨47, _⟩ => ⟨S4096x6, .f32⟩
  | .hbm, ⟨48, _⟩ => ⟨S4096x6, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_0 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_1 : Ref sig .tc := ⟨.hbm, 36, rfl⟩
abbrev main_cst_2 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩

abbrev nD : Nat := 1
abbrev τ : Topo := Topo.v7x

variable {F : FTy → Type} [FloatOps F]

class Facts₀ : Prop where
  transposes_S4096x4096_S4096x4096_1_0 : S4096x4096.Transposes [1, 0] S4096x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  transposes_S6x4096_S4096x6_1_0 : S6x4096.Transposes [1, 0] S4096x6
  bcast_S6_S1x6_1 : S6.BroadcastsInDim S1x6 (![1] : Fin 1 → Fin S1x6.rank)
  bcast_S1x6_S4096x6_0_1 : S1x6.BroadcastsInDim S4096x6 (![0, 1] : Fin 2 → Fin S4096x6.rank)
  bcast_S1x4096_S6x4096_0_1 : S1x4096.BroadcastsInDim S6x4096 (![0, 1] : Fin 2 → Fin S6x4096.rank)
  transposes_S4096x6_S6x4096_1_0 : S4096x6.Transposes [1, 0] S6x4096
  bcast_S_S6x4096 : S_.BroadcastsInDim S6x4096 (![] : Fin 0 → Fin S6x4096.rank)
  bcast_S_S4096x6 : S_.BroadcastsInDim S4096x6 (![] : Fin 0 → Fin S4096x6.rank)
  dot_S4096x4096_S4096x4096_S4096x4096_1_0_0_1_n_n_wf : DotDims.WF S4096x4096 S4096x4096 S4096x4096 [1] [0] [0] [1] [] []
  dot_S4096x4096_S4096x6_S4096x6_1_0_0_1_n_n_wf : DotDims.WF S4096x4096 S4096x6 S4096x6 [1] [0] [0] [1] [] []
  dot_S6x4096_S4096x4096_S6x4096_1_0_0_1_n_n_wf : DotDims.WF S6x4096 S4096x4096 S6x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf
def dot_S4096x4096_S4096x6_S4096x6_1_0_0_1_n_n : DotDims S4096x4096 S4096x6 S4096x6 where
  lhsContracting := [1]
  rhsContracting := [0]
  lhsNonContracting := [0]
  rhsNonContracting := [1]
  lhsBatch := []
  rhsBatch := []
  wf := dot_S4096x4096_S4096x6_S4096x6_1_0_0_1_n_n_wf
def dot_S6x4096_S4096x4096_S6x4096_1_0_0_1_n_n : DotDims S6x4096 S4096x4096 S6x4096 where
  lhsContracting := [1]
  rhsContracting := [0]
  lhsNonContracting := [0]
  rhsNonContracting := [1]
  lhsBatch := []
  rhsBatch := []
  wf := dot_S6x4096_S4096x4096_S6x4096_1_0_0_1_n_n_wf

class Facts : Prop extends Facts₀ where

variable [Facts]
-- ==== Proof.KR0Base.lean ====
/-
  Region 0 of the program (the projection q = x · Wᵀ + b, a 4 × 4 grid of 1024 × 1024 output tiles, each
  accumulated over two halves of the contracted axis in a scratch tile): the blocks the pipeline hands the body,
  what the scratch tile holds after each grid point, what the body stores into the output tile at the points
  that end an accumulation, the region's invariant and its proof data — all as explicit functions of the
  arrays as the region finds them (`V`).
-/
import proofs.«159061_j38019050504386_1_alg».proof.Proof.Gen.Kernel.Launch
import proofs.«159061_j38019050504386_1_alg».proof.Proof.Gen.Kernel.Skeleton
import proofs.«159061_j38019050504386_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The two branch conditions of the body, decided over the grid

The last grid axis (extent 2) runs fastest, so an even point starts an accumulation (the scratch tile is reset)
and an odd point ends it (the output tile is stored). -/

/-- The body's first `scf.if`: the contracted-axis coordinate is 0. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 2 = 0 :=
  (by decide +kernel : ∀ t : Fin grid0.N, cond0_0 (grid0.coords t) ↔ t.val % 2 = 0)
/-- The body's second `scf.if`: the contracted-axis coordinate is the last one. -/
abbrev cond0_1 (i : grid0.Coords) : Prop := k0_cond2 i = 1#1
theorem hcond0_1 : ∀ t : Fin cfg0.N, cond0_1 (grid0.coords t) ↔ t.val % 2 = 1 :=
  (by decide +kernel : ∀ t : Fin grid0.N, cond0_1 (grid0.coords t) ↔ t.val % 2 = 1)

/-! ## The memrefs the body is called with -/

abbrev ms0_0 (t : Fin cfg0.N) : Memref sig .tc .vmem S1024x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
/-- The scratch tile: a whole scoped buffer of the kernel's own. -/
abbrev scM0_0 : Memref sig .tc .vmem S1024x1024 .f32 := Memref.whole cc0_scratch0

/-! ## What the scratch tile and the output tile hold -/

/-- The scratch tile after the body at point `n`: the product of the point's two blocks added to zero at an even
    point, to what the point before left at an odd one. -/
def sc0 (c : Dev nD) : (n : ℕ) → n < cfg0.N → Vec F S1024x1024 .f32
  | 0, hn => k0_pay2 (k0_pay1 (F := F)) (iblk0 V c 0 ⟨0, hn⟩) (iblk0 V c 1 ⟨0, hn⟩)
  | n + 1, hn => k0_pay2 (if (n + 1) % 2 = 0 then k0_pay1 (F := F) else sc0 c n (Nat.lt_of_succ_lt hn))
      (iblk0 V c 0 ⟨n + 1, hn⟩) (iblk0 V c 1 ⟨n + 1, hn⟩)

/-- What the body stores into the output tile at a point that ends an accumulation: the scratch tile plus the bias row. -/
def out0 (c : Dev nD) (t : Fin cfg0.N) : Vec F S1024x1024 .bf16 :=
  k0_pay3 (sc0 V c t.val t.isLt) (iblk0 V c 2 t)

/-! ## The invariant -/

/-- The scoped buffers the region never opens: every scoped buffer but its own staging buffers and its scratch tile. -/
abbrev rest0 (c : Dev nD) : sProp 𝕄 :=
  Pipeline.scopedRestBut (Ix := Unit) (Name := ℕ) (U := UR sig nD τ) (Lvl := ℕ) (Val := Elt F) spec0 c [cc0_scratch0]

/-- Before the first point every scoped buffer is at anything; after point `n` the scratch tile holds `sc0 n`. -/
def PhiS0 (c : Dev nD) : (n : ℕ) → n ≤ cfg0.N → sProp 𝕄
  | 0, _ => Pipeline.ΦA spec0 c
  | n + 1, hn => iprop(owns (c : Thread nD τ) scM0_0 fullShare (sc0 V c n hn) ∗ rest0 (F := F) c ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(owns (c : Thread nD τ) scM0_0 fullShare (sc0 V c n hn) ∗ rest0 (F := F) c ∗ (∃ r, prngReg c r)) := rfl
theorem PhiS0_pos (c : Dev nD) (n : ℕ) (h : n ≤ cfg0.N) (hz : n ≠ 0) :
    PhiS0 V c n h = iprop(owns (c : Thread nD τ) scM0_0 fullShare (sc0 V c (n - 1) (by omega)) ∗ rest0 (F := F) c ∗ (∃ r, prngReg c r)) := by
  cases n with
  | zero => exact absurd rfl hz
  | succ n => rfl

/-! ## The proof data -/

/-- The region's proof data on core `c`: the arrays as found; after the body each input window's buffer at its block,
    the output window's at `out0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0 V c t := by dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]

end Cert.Kernel.Hand

end
-- ==== Proof.KR0RunA.lean ====
/-
  Region 0, the body at a point that starts an accumulation (the contracted-axis coordinate is 0 and is not the
  last): the scratch tile is reset to zero and the product of the two input tiles is added to it; the bias row
  and the output tile are not touched.
-/
import proofs.«159061_j38019050504386_1_alg».proof.Proof.KR0Base
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The offsets of every rectangle of the body are zero. -/
theorem hz0 : (![0, 0] : Fin 2 → Nat) = fun _ => 0 := funext fun a => by fin_cases a <;> rfl

set_option maxHeartbeats 1000000 in
/-- The body run on whole memrefs at a point that starts an accumulation: from the two input tiles at `x0`, `x1`
    and the scratch tile at anything, to the input tiles as they were and the scratch tile with the pieces the
    two stores wrote (the witness, last store first). -/
noncomputable def kernelRun0_A (c : Dev nD) (i : grid0.Coords)
    (arg3 : Memref sig .tc .vmem S1024x2048 .bf16) (harg3 : arg3.IsWhole)
    (arg4 : Memref sig .tc .vmem S2048x1024 .bf16) (harg4 : arg4.IsWhole)
    (arg5 : Memref sig .tc .vmem S1x1024 .f32) (harg5 : arg5.IsWhole)
    (arg6 : Memref sig .tc .vmem S1024x1024 .bf16) (harg6 : arg6.IsWhole)
    (arg7 : Memref sig .tc .vmem S1024x1024 .f32) (harg7 : arg7.IsWhole)
    (hc0 : cond0_0 i) (hc1 : ¬cond0_1 i)
    (x0 : Vec F S1024x2048 .bf16) (x1 : Vec F S2048x1024 .bf16) :
    { LS0 : List (View.Piece (Elt F) S1024x1024 .f32) //
      ∀ (E : Set ℕ) (K : PUnit → sProp 𝕄),
        iprop(owns (c : Thread nD τ) arg3 fullShare x0 ∗ owns (c : Thread nD τ) arg4 fullShare x1
            ∗ (∃ d, owns (c : Thread nD τ) arg7 fullShare d)
            ∗ (iprop(owns (c : Thread nD τ) arg3 fullShare x0 ∗ owns (c : Thread nD τ) arg4 fullShare x1
                ∗ (∃ f, arg7.view.loc (c : Thread nD τ) ↦[arg7.view.set]{fullShare} arg7.view.writes (Elt F) f LS0)) -∗ K ⟨⟩))
          ⊢ wp frame (wpE (defs₀ (F := F)) Variants.none c none) E (cc0__qmm_kernel i arg3 harg3 arg4 harg4 arg5 harg5 arg6 harg6 arg7 harg7) K } := by
  refine ⟨?_, fun E K => ?run⟩
  case run =>
    simp only [cc0__qmm_kernel_eq_skeleton]; unfold cc0__qmm_kernel_skel
    unfold owns
    iintro ⟨⟨%f0, %hf0, H0⟩, ⟨%f1, %hf1, H1⟩, ⟨%ds0, %fs0, -, HS0⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact HS0

/-- The two stores of such a point cover the scratch tile. -/
theorem scover0_A (c : Dev nD) (i : grid0.Coords)
    (arg3 : Memref sig .tc .vmem S1024x2048 .bf16) (harg3 : arg3.IsWhole)
    (arg4 : Memref sig .tc .vmem S2048x1024 .bf16) (harg4 : arg4.IsWhole)
    (arg5 : Memref sig .tc .vmem S1x1024 .f32) (harg5 : arg5.IsWhole)
    (arg6 : Memref sig .tc .vmem S1024x1024 .bf16) (harg6 : arg6.IsWhole)
    (arg7 : Memref sig .tc .vmem S1024x1024 .f32) (harg7 : arg7.IsWhole)
    (hc0 : cond0_0 i) (hc1 : ¬cond0_1 i)
    (x0 : Vec F S1024x2048 .bf16) (x1 : Vec F S2048x1024 .bf16) (y : S1024x1024.Idx) :
    ∃ pc ∈ (kernelRun0_A c i arg3 harg3 arg4 harg4 arg5 harg5 arg6 harg6 arg7 harg7 hc0 hc1 x0 x1).1, y ∈ pc.1.set :=
  View.cover_of_tiledL (kernelRun0_A c i arg3 harg3 arg4 harg4 arg5 harg5 arg6 harg6 arg7 harg7 hc0 hc1 x0 x1).1 S1024x1024.size (by sl_kernel_rfl) y

/-- What they leave there: the product of the two input tiles added to the zero tile. -/
theorem canon0_A (c : Dev nD) (i : grid0.Coords)
    (arg3 : Memref sig .tc .vmem S1024x2048 .bf16) (harg3 : arg3.IsWhole)
    (arg4 : Memref sig .tc .vmem S2048x1024 .bf16) (harg4 : arg4.IsWhole)
    (arg5 : Memref sig .tc .vmem S1x1024 .f32) (harg5 : arg5.IsWhole)
    (arg6 : Memref sig .tc .vmem S1024x1024 .bf16) (harg6 : arg6.IsWhole)
    (arg7 : Memref sig .tc .vmem S1024x1024 .f32) (harg7 : arg7.IsWhole)
    (hc0 : cond0_0 i) (hc1 : ¬cond0_1 i)
    (x0 : Vec F S1024x2048 .bf16) (x1 : Vec F S2048x1024 .bf16) :
    View.canon (kernelRun0_A c i arg3 harg3 arg4 harg4 arg5 harg5 arg6 harg6 arg7 harg7 hc0 hc1 x0 x1).1
      = k0_pay2 (k0_pay1 (F := F)) x0 x1 := by
  unfold kernelRun0_A
  dsimp only
  sl_unfold_words
  rw [View.canon_cons_unit_zero (S := S1024x1024) hz0, View.readCov_unit_zero (S := S1024x1024) _ hz0]
  simp only [View.readAt_eq_ld, harg3.read_unread, harg4.read_unread, View.ld_unit_zero (S := S1024x2048) hz0,
    View.ld_unit_zero (S := S2048x1024) hz0]

end Cert.Kernel.Hand

end
-- ==== Proof.KR0RunB.lean ====
/-
  Region 0, the body at a point that ends an accumulation (the contracted-axis coordinate is the last one and is
  not 0): the product of the two input tiles is added to what the point before left in the scratch tile, and the
  scratch tile plus the bias row is stored into the output tile.
-/
import proofs.«159061_j38019050504386_1_alg».proof.Proof.KR0RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body run on whole memrefs at a point that ends an accumulation: from the two input tiles at `x0`, `x1`, the
    bias row at `x2`, the output tile at anything and the scratch tile at `xs0`, to the inputs as they were and
    the output tile and the scratch tile with the pieces the stores wrote (the witnesses, last store first). -/
noncomputable def kernelRun0_B (c : Dev nD) (i : grid0.Coords)
    (arg3 : Memref sig .tc .vmem S1024x2048 .bf16) (harg3 : arg3.IsWhole)
    (arg4 : Memref sig .tc .vmem S2048x1024 .bf16) (harg4 : arg4.IsWhole)
    (arg5 : Memref sig .tc .vmem S1x1024 .f32) (harg5 : arg5.IsWhole)
    (arg6 : Memref sig .tc .vmem S1024x1024 .bf16) (harg6 : arg6.IsWhole)
    (arg7 : Memref sig .tc .vmem S1024x1024 .f32) (harg7 : arg7.IsWhole)
    (hc0 : ¬cond0_0 i) (hc1 : cond0_1 i)
    (x0 : Vec F S1024x2048 .bf16) (x1 : Vec F S2048x1024 .bf16) (x2 : Vec F S1x1024 .f32) (xs0 : Vec F S1024x1024 .f32) :
    Σ' (L3 : List (View.Piece (Elt F) S1024x1024 .bf16)), { LS0 : List (View.Piece (Elt F) S1024x1024 .f32) //
      ∀ (E : Set ℕ) (K : PUnit → sProp 𝕄),
        iprop(owns (c : Thread nD τ) arg3 fullShare x0 ∗ owns (c : Thread nD τ) arg4 fullShare x1
            ∗ owns (c : Thread nD τ) arg5 fullShare x2 ∗ (∃ d, owns (c : Thread nD τ) arg6 fullShare d)
            ∗ owns (c : Thread nD τ) arg7 fullShare xs0
            ∗ (iprop(owns (c : Thread nD τ) arg3 fullShare x0 ∗ owns (c : Thread nD τ) arg4 fullShare x1
                ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)) -∗ K ⟨⟩))
          ⊢ wp frame (wpE (defs₀ (F := F)) Variants.none c none) E (cc0__qmm_kernel i arg3 harg3 arg4 harg4 arg5 harg5 arg6 harg6 arg7 harg7) K } := by
  refine ⟨?_, ?_, fun E K => ?run⟩
  case run =>
    simp only [cc0__qmm_kernel_eq_skeleton]; unfold cc0__qmm_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2
    obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

/-- The one store into the scratch tile at such a point covers it. -/
theorem scover0_B (c : Dev nD) (i : grid0.Coords)
    (arg3 : Memref sig .tc .vmem S1024x2048 .bf16) (harg3 : arg3.IsWhole)
    (arg4 : Memref sig .tc .vmem S2048x1024 .bf16) (harg4 : arg4.IsWhole)
    (arg5 : Memref sig .tc .vmem S1x1024 .f32) (harg5 : arg5.IsWhole)
    (arg6 : Memref sig .tc .vmem S1024x1024 .bf16) (harg6 : arg6.IsWhole)
    (arg7 : Memref sig .tc .vmem S1024x1024 .f32) (harg7 : arg7.IsWhole)
    (hc0 : ¬cond0_0 i) (hc1 : cond0_1 i)
    (x0 : Vec F S1024x2048 .bf16) (x1 : Vec F S2048x1024 .bf16) (x2 : Vec F S1x1024 .f32) (xs0 : Vec F S1024x1024 .f32)
    (y : S1024x1024.Idx) :
    ∃ pc ∈ (kernelRun0_B c i arg3 harg3 arg4 harg4 arg5 harg5 arg6 harg6 arg7 harg7 hc0 hc1 x0 x1 x2 xs0).2.1, y ∈ pc.1.set :=
  View.cover_of_tiledL (kernelRun0_B c i arg3 harg3 arg4 harg4 arg5 harg5 arg6 harg6 arg7 harg7 hc0 hc1 x0 x1 x2 xs0).2.1 S1024x1024.size (by sl_kernel_rfl) y

/-- The one store into the output tile covers it. -/
theorem cover0_B (c : Dev nD) (i : grid0.Coords)
    (arg3 : Memref sig .tc .vmem S1024x2048 .bf16) (harg3 : arg3.IsWhole)
    (arg4 : Memref sig .tc .vmem S2048x1024 .bf16) (harg4 : arg4.IsWhole)
    (arg5 : Memref sig .tc .vmem S1x1024 .f32) (harg5 : arg5.IsWhole)
    (arg6 : Memref sig .tc .vmem S1024x1024 .bf16) (harg6 : arg6.IsWhole)
    (arg7 : Memref sig .tc .vmem S1024x1024 .f32) (harg7 : arg7.IsWhole)
    (hc0 : ¬cond0_0 i) (hc1 : cond0_1 i)
    (x0 : Vec F S1024x2048 .bf16) (x1 : Vec F S2048x1024 .bf16) (x2 : Vec F S1x1024 .f32) (xs0 : Vec F S1024x1024 .f32)
    (y : S1024x1024.Idx) :
    ∃ pc ∈ (kernelRun0_B c i arg3 harg3 arg4 harg4 arg5 harg5 arg6 harg6 arg7 harg7 hc0 hc1 x0 x1 x2 xs0).1, y ∈ pc.1.set :=
  View.cover_of_tiledL (kernelRun0_B c i arg3 harg3 arg4 harg4 arg5 harg5 arg6 harg6 arg7 harg7 hc0 hc1 x0 x1 x2 xs0).1 S1024x1024.size (by sl_kernel_rfl) y

/-- What the scratch tile is left at: the product of the two input tiles added to what it held. -/
theorem scanon0_B (c : Dev nD) (i : grid0.Coords)
    (arg3 : Memref sig .tc .vmem S1024x2048 .bf16) (harg3 : arg3.IsWhole)
    (arg4 : Memref sig .tc .vmem S2048x1024 .bf16) (harg4 : arg4.IsWhole)
    (arg5 : Memref sig .tc .vmem S1x1024 .f32) (harg5 : arg5.IsWhole)
    (arg6 : Memref sig .tc .vmem S1024x1024 .bf16) (harg6 : arg6.IsWhole)
    (arg7 : Memref sig .tc .vmem S1024x1024 .f32) (harg7 : arg7.IsWhole)
    (hc0 : ¬cond0_0 i) (hc1 : cond0_1 i)
    (x0 : Vec F S1024x2048 .bf16) (x1 : Vec F S2048x1024 .bf16) (x2 : Vec F S1x1024 .f32) (xs0 : Vec F S1024x1024 .f32) :
    View.canon (kernelRun0_B c i arg3 harg3 arg4 harg4 arg5 harg5 arg6 harg6 arg7 harg7 hc0 hc1 x0 x1 x2 xs0).2.1 = k0_pay2 xs0 x0 x1 := by
  unfold kernelRun0_B
  dsimp only
  sl_unfold_words
  rw [View.canon_unit_zero hz0]
  simp only [View.readAt_eq_ld, harg3.read_unread, harg4.read_unread, harg7.read_unread,
    View.ld_unit_zero (S := S1024x1024) hz0, View.ld_unit_zero (S := S1024x2048) hz0, View.ld_unit_zero (S := S2048x1024) hz0]

/-- What the output tile is left at: that scratch tile plus the bias row. -/
theorem canon0_B (c : Dev nD) (i : grid0.Coords)
    (arg3 : Memref sig .tc .vmem S1024x2048 .bf16) (harg3 : arg3.IsWhole)
    (arg4 : Memref sig .tc .vmem S2048x1024 .bf16) (harg4 : arg4.IsWhole)
    (arg5 : Memref sig .tc .vmem S1x1024 .f32) (harg5 : arg5.IsWhole)
    (arg6 : Memref sig .tc .vmem S1024x1024 .bf16) (harg6 : arg6.IsWhole)
    (arg7 : Memref sig .tc .vmem S1024x1024 .f32) (harg7 : arg7.IsWhole)
    (hc0 : ¬cond0_0 i) (hc1 : cond0_1 i)
    (x0 : Vec F S1024x2048 .bf16) (x1 : Vec F S2048x1024 .bf16) (x2 : Vec F S1x1024 .f32) (xs0 : Vec F S1024x1024 .f32) :
    View.canon (kernelRun0_B c i arg3 harg3 arg4 harg4 arg5 harg5 arg6 harg6 arg7 harg7 hc0 hc1 x0 x1 x2 xs0).1 = k0_pay3 (k0_pay2 xs0 x0 x1) x2 := by
  unfold kernelRun0_B
  dsimp only
  sl_unfold_words
  rw [View.canon_unit_zero hz0]
  simp only [View.readAt_eq_ld, harg3.read_unread, harg4.read_unread, harg5.read_unread, harg7.read_unread,
    View.readCov_unit_zero (S := S1024x1024) _ hz0,
    View.ld_unit_zero (S := S1024x1024) hz0, View.ld_unit_zero (S := S1024x2048) hz0, View.ld_unit_zero (S := S2048x1024) hz0,
    View.ld_unit_zero (S := S1x1024) hz0]

end Cert.Kernel.Hand

end
-- ==== Proof.KR0Body.lean ====
/-
  Region 0: the body run at every grid point against the region's proof data.
-/
import proofs.«159061_j38019050504386_1_alg».proof.Proof.KR0RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The invariant before the first point, with the scratch tile split off -/

/-- What the launch hands the region: the scratch tile at anything, the scoped buffers the region never opens, and
    the generator register at some state. -/
theorem PhiA0_eq (c : Dev nD) :
    (Pipeline.ΦA spec0 c : sProp 𝕄)
      = iprop(((∃ d, owns (c : Thread nD τ) scM0_0 fullShare d) ∗ rest0 (F := F) c) ∗ (∃ r, prngReg c r)) := by
  unfold Pipeline.ΦA
  rw [Pipeline.scopedRest_split_of_list spec0 c [cc0_scratch0] (by decide) (by decide)]
  simp only [bigSepL_singleton, scM0_0, owns_whole]
  try rfl

/-! ## Where the windows are idle and where the output tile is written back -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- At a point that starts an accumulation the output tile is idle, -/
theorem idleAt0_3_A : ∀ t : Fin cfg0.N, cond0_0 (grid0.coords t) → ¬cond0_1 (grid0.coords t) → cfg0.idle 3 (grid0.coords t) = true := by decide +kernel
/-- and is not written back. -/
theorem noFlush0_3_A : ∀ t : Fin cfg0.N, cond0_0 (grid0.coords t) → ¬cond0_1 (grid0.coords t) → (cfg0.win 3).flush t = false := by decide +kernel
/-- At a point that ends one it is live. -/
theorem liveAt0_3_B : ∀ t : Fin cfg0.N, ¬cond0_0 (grid0.coords t) → cond0_1 (grid0.coords t) → cfg0.idle 3 (grid0.coords t) = false := by decide +kernel

/-! ## What the body finds in the input windows' buffers -/

/-- Input window 0's buffer holds its block at every point, for any proof data over the arrays as found whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same of input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The same of input window 2 (the bias row), which is fetched only where its block index moves: at the other points
    its buffer still holds the same block. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The scratch tile's contents at a point of each kind -/

/-- At a point that starts an accumulation: the product added to the zero tile. -/
theorem sc0_even (c : Dev nD) (t : Fin cfg0.N) (h : t.val % 2 = 0) :
    sc0 V c t.val t.isLt = k0_pay2 (k0_pay1 (F := F)) (iblk0 V c 0 t) (iblk0 V c 1 t) := by
  obtain ⟨n, hn⟩ := t
  cases n with
  | zero => rfl
  | succ n =>
    show k0_pay2 (if (n + 1) % 2 = 0 then k0_pay1 (F := F) else sc0 V c n (Nat.lt_of_succ_lt hn)) _ _ = _
    rw [if_pos h]

/-- At a point that ends one: the product added to what the point before left. -/
theorem sc0_odd (c : Dev nD) (t : Fin cfg0.N) (h : t.val % 2 = 1) :
    sc0 V c t.val t.isLt
      = k0_pay2 (sc0 V c (t.val - 1) (Nat.lt_of_le_of_lt (Nat.sub_le _ _) t.isLt)) (iblk0 V c 0 t) (iblk0 V c 1 t) := by
  obtain ⟨n, hn⟩ := t
  cases n with
  | zero => exact absurd (show (0 : ℕ) % 2 = 1 from h) (by decide)
  | succ n =>
    have h' : (n + 1) % 2 = 1 := h
    show k0_pay2 (if (n + 1) % 2 = 0 then k0_pay1 (F := F) else sc0 V c n (Nat.lt_of_succ_lt hn)) _ _ = _
    rw [if_neg (by omega)]
    rfl

/-! ## The body obligation at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The input windows' buffers hold their blocks; the parity of the point says which of the
    two control cases it is in. At an even point the invariant hands over the scratch tile at anything (what the
    launch left, or what the accumulation before ended with) and takes it back at the product added to zero, the
    output tile's buffer going back as found; at an odd point it hands the scratch tile over at what the point
    before left and takes it back with the product added, the output tile's buffer at that plus the bias row. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  have hN : t.val < 32 := lt_of_lt_of_eq t.isLt (show cfg0.N = 32 from N_0)
  by_cases h0 : t.val % 2 = 0
  · have hc0 : cond0_0 (grid0.coords t) := (hcond0_0 t).mpr h0
    have hc1 : ¬cond0_1 (grid0.coords t) := fun h => by have := (hcond0_1 t).mp h; omega
    rw [Dat.leavesExact_idle (dat0 V c) 3 t (idleAt0_3_A t hc0 hc1) (noFlush0_3_A t hc0 hc1)]
    rw [sc0_even V c t h0]
    by_cases hz : t.val = 0
    · rw [PhiS0_castSucc V c t, PhiS0_zero V c _ _ hz, PhiA0_eq]
      iintro ⟨⟨⟨HS0, Hr⟩, Hg⟩, Ho, ⟨%d0, H0⟩, ⟨%d1, H1⟩, ⟨%d2, H2⟩, ⟨%d3, H3⟩⟩
      iapply ((kernelRun0_A c (grid0.coords t) (ms0_0 t) (hs0_0 t) (ms0_1 t) (hs0_1 t) (ms0_2 t) (hs0_2 t) (ms0_3 t) (hs0_3 t) scM0_0 (Memref.isWhole_whole _) hc0 hc1 (iblk0 V c 0 t) (iblk0 V c 1 t)).2 Set.univ _)
      isplitl [H0]; · iexact H0
      isplitl [H1]; · iexact H1
      isplitl [HS0]; · iexact HS0
      iintro ⟨H0, H1, ⟨%es0, HS0⟩⟩
      isplitl [HS0 Hr Hg]
      · isplitl [HS0]
        · unfold owns; iexists _; isplitr
          swap; · iexact HS0
          ipureintro
          rw [View.read_writes_eq_canon _ _ _ (scover0_A c (grid0.coords t) (ms0_0 t) (hs0_0 t) (ms0_1 t) (hs0_1 t) (ms0_2 t) (hs0_2 t) (ms0_3 t) (hs0_3 t) scM0_0 (Memref.isWhole_whole _) hc0 hc1 (iblk0 V c 0 t) (iblk0 V c 1 t))]
          exact canon0_A c (grid0.coords t) (ms0_0 t) (hs0_0 t) (ms0_1 t) (hs0_1 t) (ms0_2 t) (hs0_2 t) (ms0_3 t) (hs0_3 t) scM0_0 (Memref.isWhole_whole _) hc0 hc1 (iblk0 V c 0 t) (iblk0 V c 1 t)
        isplitl [Hr]; · iexact Hr
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨HS0, Hr, Hg⟩, Ho, ⟨%d0, H0⟩, ⟨%d1, H1⟩, ⟨%d2, H2⟩, ⟨%d3, H3⟩⟩
      iapply ((kernelRun0_A c (grid0.coords t) (ms0_0 t) (hs0_0 t) (ms0_1 t) (hs0_1 t) (ms0_2 t) (hs0_2 t) (ms0_3 t) (hs0_3 t) scM0_0 (Memref.isWhole_whole _) hc0 hc1 (iblk0 V c 0 t) (iblk0 V c 1 t)).2 Set.univ _)
      isplitl [H0]; · iexact H0
      isplitl [H1]; · iexact H1
      isplitl [HS0]; · iexists _; iexact HS0
      iintro ⟨H0, H1, ⟨%es0, HS0⟩⟩
      isplitl [HS0 Hr Hg]
      · isplitl [HS0]
        · unfold owns; iexists _; isplitr
          swap; · iexact HS0
          ipureintro
          rw [View.read_writes_eq_canon _ _ _ (scover0_A c (grid0.coords t) (ms0_0 t) (hs0_0 t) (ms0_1 t) (hs0_1 t) (ms0_2 t) (hs0_2 t) (ms0_3 t) (hs0_3 t) scM0_0 (Memref.isWhole_whole _) hc0 hc1 (iblk0 V c 0 t) (iblk0 V c 1 t))]
          exact canon0_A c (grid0.coords t) (ms0_0 t) (hs0_0 t) (ms0_1 t) (hs0_1 t) (ms0_2 t) (hs0_2 t) (ms0_3 t) (hs0_3 t) scM0_0 (Memref.isWhole_whole _) hc0 hc1 (iblk0 V c 0 t) (iblk0 V c 1 t)
        isplitl [Hr]; · iexact Hr
        iexact Hg
      isplitl [Ho]; · iexact Ho
      isplitl [H0]; · iexact H0
      isplitl [H1]; · iexact H1
      isplitl [H2]; · iexact H2
      iexists _; iexact H3
  · have h1 : t.val % 2 = 1 := by omega
    have hc0 : ¬cond0_0 (grid0.coords t) := fun h => h0 ((hcond0_0 t).mp h)
    have hc1 : cond0_1 (grid0.coords t) := (hcond0_1 t).mpr h1
    have hz : t.val ≠ 0 := by omega
    rw [show (dat0 V c).leavesExact 3 t = owns (c : Thread nD τ) (ms0_3 t) fullShare ((dat0 V c).after 3 t) from by
      unfold Dat.leavesExact; rw [liveAt0_3_B t hc0 hc1], after0_3]
    unfold out0
    rw [sc0_odd V c t h1]
    rw [PhiS0_castSucc V c t, PhiS0_pos V c _ _ hz]
    iintro ⟨⟨HS0, Hr, Hg⟩, Ho, ⟨%d0, H0⟩, ⟨%d1, H1⟩, ⟨%d2, H2⟩, ⟨%d3, H3⟩⟩
    iapply ((kernelRun0_B c (grid0.coords t) (ms0_0 t) (hs0_0 t) (ms0_1 t) (hs0_1 t) (ms0_2 t) (hs0_2 t) (ms0_3 t) (hs0_3 t) scM0_0 (Memref.isWhole_whole _) hc0 hc1 (iblk0 V c 0 t) (iblk0 V c 1 t) (iblk0 V c 2 t)
      (sc0 V c (t.val - 1) (Nat.lt_of_le_of_lt (Nat.sub_le _ _) t.isLt))).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hr Hg]
    · isplitl [HS0]
      · unfold owns; iexists _; isplitr
        swap; · iexact HS0
        ipureintro
        rw [View.read_writes_eq_canon _ _ _ (scover0_B c (grid0.coords t) (ms0_0 t) (hs0_0 t) (ms0_1 t) (hs0_1 t) (ms0_2 t) (hs0_2 t) (ms0_3 t) (hs0_3 t) scM0_0 (Memref.isWhole_whole _) hc0 hc1 (iblk0 V c 0 t) (iblk0 V c 1 t) (iblk0 V c 2 t)
          (sc0 V c (t.val - 1) (Nat.lt_of_le_of_lt (Nat.sub_le _ _) t.isLt)))]
        exact scanon0_B c (grid0.coords t) (ms0_0 t) (hs0_0 t) (ms0_1 t) (hs0_1 t) (ms0_2 t) (hs0_2 t) (ms0_3 t) (hs0_3 t) scM0_0 (Memref.isWhole_whole _) hc0 hc1 (iblk0 V c 0 t) (iblk0 V c 1 t) (iblk0 V c 2 t)
          (sc0 V c (t.val - 1) (Nat.lt_of_le_of_lt (Nat.sub_le _ _) t.isLt))
      isplitl [Hr]; · iexact Hr
      iexact Hg
    isplitl [Ho]; · iexact Ho
    isplitl [H0]; · iexact H0
    isplitl [H1]; · iexact H1
    isplitl [H2]; · iexact H2
    unfold owns; iexists _; isplitr
    swap; · iexact H3
    ipureintro
    rw [View.read_writes_eq_canon _ _ _ (cover0_B c (grid0.coords t) (ms0_0 t) (hs0_0 t) (ms0_1 t) (hs0_1 t) (ms0_2 t) (hs0_2 t) (ms0_3 t) (hs0_3 t) scM0_0 (Memref.isWhole_whole _) hc0 hc1 (iblk0 V c 0 t) (iblk0 V c 1 t) (iblk0 V c 2 t)
      (sc0 V c (t.val - 1) (Nat.lt_of_le_of_lt (Nat.sub_le _ _) t.isLt)))]
    exact canon0_B c (grid0.coords t) (ms0_0 t) (hs0_0 t) (ms0_1 t) (hs0_1 t) (ms0_2 t) (hs0_2 t) (ms0_3 t) (hs0_3 t) scM0_0 (Memref.isWhole_whole _) hc0 hc1 (iblk0 V c 0 t) (iblk0 V c 1 t) (iblk0 V c 2 t)
      (sc0 V c (t.val - 1) (Nat.lt_of_le_of_lt (Nat.sub_le _ _) t.isLt))

/-- The body obligation of region 0's pipeline at every grid point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the scoped buffers back at anything: what the scratch tile
    holds is forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨HS0, Hr, Hg⟩
  isplitl [HS0 Hr]
  · isplitl [HS0]
    · iexists _; iexact HS0
    iexact Hr
  iexact Hg

/-- After the last point the invariant gives the scoped buffers back at anything. -/
theorem hout0 (c : Dev nD) : (dat0 V c).Φ (Fin.last cfg0.N) ⊢ Pipeline.ΦA spec0 c :=
  Phi_out0 V c _ (by rw [Fin.val_last]; have : cfg0.N = 32 := N_0; omega)

end Cert.Kernel.Hand

end
-- ==== Proof.KR1Base.lean ====
/-
  Region 1 of the program (context = W_lin · q + b_lin and k = data_k · W_kᵀ + b_k, each accumulated over eight
  row blocks of 512 in a scratch of its own, then the modulated value clip(k² + 2k + context · (1 + |k|), 0, 6)
  stored at the last point): the blocks the pipeline hands the body, what the two scratch buffers hold after each
  grid point, what the body stores into the output at the last point, the region's invariant and its proof data —
  as explicit functions of the arrays as the region finds them (`V`).
-/
import proofs.«159061_j38019050504386_1_alg».proof.Proof.Gen.Kernel.Launch
import proofs.«159061_j38019050504386_1_alg».proof.Proof.Gen.Kernel.Skeleton
import proofs.«159061_j38019050504386_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The two branch conditions of the body, decided over the grid (eight points: reset at the first, store at the last) -/

/-- The body's first `scf.if`: the grid coordinate is 0. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The body's second `scf.if`: the grid coordinate is the last one. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## The memrefs the body is called with -/

abbrev ms1_0 (t : Fin cfg1.N) : Memref sig .tc .vmem S512x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S6x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S6x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S6x512 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x4096 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x4096 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S6x4096 .bf16 := win1_6.stage (cfg1.slots t 6)
abbrev hs1_6 (t : Fin cfg1.N) : (ms1_6 t).IsWhole := hstage1_6 ((cfg1.slots t 6).cast nbuf1_6)
/-- The two scratch accumulators: whole scoped buffers of the kernel's own (context, then k). -/
abbrev scM1_0 : Memref sig .tc .vmem S6x4096 .f32 := Memref.whole cc1_scratch0
abbrev scM1_1 : Memref sig .tc .vmem S6x4096 .f32 := Memref.whole cc1_scratch1

/-! ## What the scratch buffers and the output hold -/

/-- The context accumulator after the body at point `n`: W_lin's block times q's block, added to zero at the first
    point and to what the point before left afterwards. -/
def sc1a (c : Dev nD) : (n : ℕ) → n < cfg1.N → Vec F S6x4096 .f32
  | 0, hn => k1_pay3 (k1_pay1 (F := F)) (iblk1 V c 1 ⟨0, hn⟩) (iblk1 V c 0 ⟨0, hn⟩)
  | n + 1, hn => k1_pay3 (sc1a c n (Nat.lt_of_succ_lt hn)) (iblk1 V c 1 ⟨n + 1, hn⟩) (iblk1 V c 0 ⟨n + 1, hn⟩)

/-- The k accumulator after the body at point `n`: data_k's block times W_kᵀ's block, added likewise. -/
def sc1b (c : Dev nD) : (n : ℕ) → n < cfg1.N → Vec F S6x4096 .f32
  | 0, hn => k1_pay4 (k1_pay2 (F := F)) (iblk1 V c 3 ⟨0, hn⟩) (iblk1 V c 4 ⟨0, hn⟩)
  | n + 1, hn => k1_pay4 (sc1b c n (Nat.lt_of_succ_lt hn)) (iblk1 V c 3 ⟨n + 1, hn⟩) (iblk1 V c 4 ⟨n + 1, hn⟩)

/-- What the body stores into the output at the last point: the modulated value of the two accumulators and the two biases. -/
def out1 (c : Dev nD) (t : Fin cfg1.N) : Vec F S6x4096 .bf16 :=
  k1_pay5 (sc1a V c t.val t.isLt) (iblk1 V c 2 t) (sc1b V c t.val t.isLt) (iblk1 V c 5 t)

/-! ## The invariant -/

/-- The scoped buffers the region never opens: every scoped buffer but its own staging buffers and its two accumulators. -/
abbrev rest1 (c : Dev nD) : sProp 𝕄 :=
  Pipeline.scopedRestBut (Ix := Unit) (Name := ℕ) (U := UR sig nD τ) (Lvl := ℕ) (Val := Elt F) spec1 c [cc1_scratch0, cc1_scratch1]

/-- Before the first point every scoped buffer is at anything; after point `n` the accumulators hold `sc1a n`, `sc1b n`. -/
def PhiS1 (c : Dev nD) : (n : ℕ) → n ≤ cfg1.N → sProp 𝕄
  | 0, _ => Pipeline.ΦA spec1 c
  | n + 1, hn => iprop(owns (c : Thread nD τ) scM1_0 fullShare (sc1a V c n hn) ∗ owns (c : Thread nD τ) scM1_1 fullShare (sc1b V c n hn)
      ∗ rest1 (F := F) c ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) scM1_0 fullShare (sc1a V c n hn) ∗ owns (c : Thread nD τ) scM1_1 fullShare (sc1b V c n hn)
      ∗ rest1 (F := F) c ∗ (∃ r, prngReg c r)) := rfl
theorem PhiS1_pos (c : Dev nD) (n : ℕ) (h : n ≤ cfg1.N) (hz : n ≠ 0) :
    PhiS1 V c n h = iprop(owns (c : Thread nD τ) scM1_0 fullShare (sc1a V c (n - 1) (by omega)) ∗ owns (c : Thread nD τ) scM1_1 fullShare (sc1b V c (n - 1) (by omega))
      ∗ rest1 (F := F) c ∗ (∃ r, prngReg c r)) := by
  cases n with
  | zero => exact absurd rfl hz
  | succ n => rfl

/-! ## The proof data -/

/-- The region's proof data on core `c`: the arrays as found; after the body each input window's buffer at its block,
    the output window's at `out1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1 V c t := by dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]

end Cert.Kernel.Hand

end
-- ==== Proof.KR1RunA.lean ====
/-
  Region 1, the first grid point (the grid coordinate is 0 and not the last one): both accumulators are reset to zero,
  then each block product is added; nothing is stored into the output. The body's run on any whole memrefs, with the
  pieces each accumulator ends with as the witness.
-/
import proofs.«159061_j38019050504386_1_alg».proof.Proof.KR1Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body where the first condition holds and the second does not: from the six input memrefs at their contents, the
    output's at contents handed back as found, the two accumulators at anything, it runs to the continuation holding
    the inputs and the output as they were and each accumulator with its pieces written (last first). -/
noncomputable def kernelRun1_A (c : Dev nD) (i : grid1.Coords)
    (arg1 : Memref sig .tc .vmem S512x4096 .bf16) (harg1 : arg1.IsWhole)
    (arg2 : Memref sig .tc .vmem S6x512 .bf16) (harg2 : arg2.IsWhole)
    (arg3 : Memref sig .tc .vmem S6x1 .f32) (harg3 : arg3.IsWhole)
    (arg4 : Memref sig .tc .vmem S6x512 .bf16) (harg4 : arg4.IsWhole)
    (arg5 : Memref sig .tc .vmem S512x4096 .bf16) (harg5 : arg5.IsWhole)
    (arg6 : Memref sig .tc .vmem S1x4096 .f32) (harg6 : arg6.IsWhole)
    (arg7 : Memref sig .tc .vmem S6x4096 .bf16) (harg7 : arg7.IsWhole)
    (arg8 : Memref sig .tc .vmem S6x4096 .f32) (harg8 : arg8.IsWhole)
    (arg9 : Memref sig .tc .vmem S6x4096 .f32) (harg9 : arg9.IsWhole)
    (hc0 : cond1_0 i) (hc1 : ¬cond1_1 i)
    (x0 : Vec F S512x4096 .bf16) (x1 : Vec F S6x512 .bf16) (x2 : Vec F S6x1 .f32) (x3 : Vec F S6x512 .bf16) (x4 : Vec F S512x4096 .bf16) (x5 : Vec F S1x4096 .f32) :
    Σ' (LS0 : List (View.Piece (Elt F) S6x4096 .f32)), { LS1 : List (View.Piece (Elt F) S6x4096 .f32) //
      ∀ (xi6 : Vec F S6x4096 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6
            ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__kctx_kernel i arg1 harg1 arg2 harg2 arg3 harg3 arg4 harg4 arg5 harg5 arg6 harg6 arg7 harg7 arg8 harg8 arg9 harg9) K } := by
  refine ⟨?_, ?_, fun xi6 E K => ?run⟩
  case run =>
    simp only [cc1__kctx_kernel_eq_skeleton]; unfold cc1__kctx_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

end Cert.Kernel.Hand

end
-- ==== Proof.KR1RunB.lean ====
/-
  Region 1, a grid point that is neither the first nor the last: each block product is added to what the point before
  left in its accumulator; nothing is stored into the output. The body's run on any whole memrefs, with the pieces
  each accumulator ends with as the witness.
-/
import proofs.«159061_j38019050504386_1_alg».proof.Proof.KR1RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body where neither condition holds: from the six input memrefs at their contents, the output's at contents
    handed back as found, the two accumulators at the contents `xs0`, `xs1` the point before left, it runs to the
    continuation holding the inputs and the output as they were and each accumulator with its pieces written. -/
noncomputable def kernelRun1_B (c : Dev nD) (i : grid1.Coords)
    (arg1 : Memref sig .tc .vmem S512x4096 .bf16) (harg1 : arg1.IsWhole)
    (arg2 : Memref sig .tc .vmem S6x512 .bf16) (harg2 : arg2.IsWhole)
    (arg3 : Memref sig .tc .vmem S6x1 .f32) (harg3 : arg3.IsWhole)
    (arg4 : Memref sig .tc .vmem S6x512 .bf16) (harg4 : arg4.IsWhole)
    (arg5 : Memref sig .tc .vmem S512x4096 .bf16) (harg5 : arg5.IsWhole)
    (arg6 : Memref sig .tc .vmem S1x4096 .f32) (harg6 : arg6.IsWhole)
    (arg7 : Memref sig .tc .vmem S6x4096 .bf16) (harg7 : arg7.IsWhole)
    (arg8 : Memref sig .tc .vmem S6x4096 .f32) (harg8 : arg8.IsWhole)
    (arg9 : Memref sig .tc .vmem S6x4096 .f32) (harg9 : arg9.IsWhole)
    (hc0 : ¬cond1_0 i) (hc1 : ¬cond1_1 i)
    (x0 : Vec F S512x4096 .bf16) (x1 : Vec F S6x512 .bf16) (x2 : Vec F S6x1 .f32) (x3 : Vec F S6x512 .bf16) (x4 : Vec F S512x4096 .bf16) (x5 : Vec F S1x4096 .f32) (xs0 : Vec F S6x4096 .f32) (xs1 : Vec F S6x4096 .f32) :
    Σ' (LS0 : List (View.Piece (Elt F) S6x4096 .f32)), { LS1 : List (View.Piece (Elt F) S6x4096 .f32) //
      ∀ (xi6 : Vec F S6x4096 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6
            ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__kctx_kernel i arg1 harg1 arg2 harg2 arg3 harg3 arg4 harg4 arg5 harg5 arg6 harg6 arg7 harg7 arg8 harg8 arg9 harg9) K } := by
  refine ⟨?_, ?_, fun xi6 E K => ?run⟩
  case run =>
    simp only [cc1__kctx_kernel_eq_skeleton]; unfold cc1__kctx_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

end Cert.Kernel.Hand

end
-- ==== Proof.KR1RunC.lean ====
/-
  Region 1, the last grid point: each block product is added to what the point before left in its accumulator, then the
  modulated value of the two accumulators and the two biases is stored into the output. The body's run on any whole
  memrefs, with the pieces the output and each accumulator end with as the witness.
-/
import proofs.«159061_j38019050504386_1_alg».proof.Proof.KR1RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body where the first condition fails and the second holds: from the six input memrefs at their contents, the
    output's at anything, the two accumulators at the contents `xs0`, `xs1` the point before left, it runs to the
    continuation holding the inputs as they were and the output and each accumulator with its pieces written. -/
noncomputable def kernelRun1_C (c : Dev nD) (i : grid1.Coords)
    (arg1 : Memref sig .tc .vmem S512x4096 .bf16) (harg1 : arg1.IsWhole)
    (arg2 : Memref sig .tc .vmem S6x512 .bf16) (harg2 : arg2.IsWhole)
    (arg3 : Memref sig .tc .vmem S6x1 .f32) (harg3 : arg3.IsWhole)
    (arg4 : Memref sig .tc .vmem S6x512 .bf16) (harg4 : arg4.IsWhole)
    (arg5 : Memref sig .tc .vmem S512x4096 .bf16) (harg5 : arg5.IsWhole)
    (arg6 : Memref sig .tc .vmem S1x4096 .f32) (harg6 : arg6.IsWhole)
    (arg7 : Memref sig .tc .vmem S6x4096 .bf16) (harg7 : arg7.IsWhole)
    (arg8 : Memref sig .tc .vmem S6x4096 .f32) (harg8 : arg8.IsWhole)
    (arg9 : Memref sig .tc .vmem S6x4096 .f32) (harg9 : arg9.IsWhole)
    (hc0 : ¬cond1_0 i) (hc1 : cond1_1 i)
    (x0 : Vec F S512x4096 .bf16) (x1 : Vec F S6x512 .bf16) (x2 : Vec F S6x1 .f32) (x3 : Vec F S6x512 .bf16) (x4 : Vec F S512x4096 .bf16) (x5 : Vec F S1x4096 .f32) (xs0 : Vec F S6x4096 .f32) (xs1 : Vec F S6x4096 .f32) :
    Σ' (L6 : List (View.Piece (Elt F) S6x4096 .bf16)) (LS0 : List (View.Piece (Elt F) S6x4096 .f32)), { LS1 : List (View.Piece (Elt F) S6x4096 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
            ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__kctx_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc1__kctx_kernel_eq_skeleton]; unfold cc1__kctx_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [HS0]; · iexists _; iexact HS0
    iexists _; iexact HS1

end Cert.Kernel.Hand

end
-- ==== Proof.KR1Body.lean ====
/-
  Region 1: the body run at every grid point against the region's proof data.
-/
import proofs.«159061_j38019050504386_1_alg».proof.Proof.KR1RunC
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Reading back what the body's stores leave

Every store and load of the body is of a whole buffer (the unit rectangle at zero offsets of the buffer's own sizes), so
the last store into a buffer leaves its payload, and a load reads the contents. -/

/-- The zero offsets, however spelt. -/
theorem hz2 : (![0, 0] : Fin 2 → ℕ) = fun _ => 0 := by funext a; fin_cases a <;> rfl

/-- At the first point the context accumulator's two stores (the reset, then the update) cover it. -/
theorem scover1_A_0 (c : Dev nD) (i : grid1.Coords)
    (arg1 : Memref sig .tc .vmem S512x4096 .bf16) (harg1 : arg1.IsWhole)
    (arg2 : Memref sig .tc .vmem S6x512 .bf16) (harg2 : arg2.IsWhole)
    (arg3 : Memref sig .tc .vmem S6x1 .f32) (harg3 : arg3.IsWhole)
    (arg4 : Memref sig .tc .vmem S6x512 .bf16) (harg4 : arg4.IsWhole)
    (arg5 : Memref sig .tc .vmem S512x4096 .bf16) (harg5 : arg5.IsWhole)
    (arg6 : Memref sig .tc .vmem S1x4096 .f32) (harg6 : arg6.IsWhole)
    (arg7 : Memref sig .tc .vmem S6x4096 .bf16) (harg7 : arg7.IsWhole)
    (arg8 : Memref sig .tc .vmem S6x4096 .f32) (harg8 : arg8.IsWhole)
    (arg9 : Memref sig .tc .vmem S6x4096 .f32) (harg9 : arg9.IsWhole)
    (hc0 : cond1_0 i) (hc1 : ¬cond1_1 i)
    (x0 : Vec F S512x4096 .bf16) (x1 : Vec F S6x512 .bf16) (x2 : Vec F S6x1 .f32) (x3 : Vec F S6x512 .bf16) (x4 : Vec F S512x4096 .bf16) (x5 : Vec F S1x4096 .f32) (y : S6x4096.Idx) :
    ∃ pc ∈ (kernelRun1_A c i arg1 harg1 arg2 harg2 arg3 harg3 arg4 harg4 arg5 harg5 arg6 harg6 arg7 harg7 arg8 harg8 arg9 harg9 hc0 hc1 x0 x1 x2 x3 x4 x5).1, y ∈ pc.1.set :=
  View.cover_of_tiledL (kernelRun1_A c i arg1 harg1 arg2 harg2 arg3 harg3 arg4 harg4 arg5 harg5 arg6 harg6 arg7 harg7 arg8 harg8 arg9 harg9 hc0 hc1 x0 x1 x2 x3 x4 x5).1 S6x4096.size (by sl_kernel_rfl) y

/-- At the first point the k accumulator's two stores cover it. -/
theorem scover1_A_1 (c : Dev nD) (i : grid1.Coords)
    (arg1 : Memref sig .tc .vmem S512x4096 .bf16) (harg1 : arg1.IsWhole)
    (arg2 : Memref sig .tc .vmem S6x512 .bf16) (harg2 : arg2.IsWhole)
    (arg3 : Memref sig .tc .vmem S6x1 .f32) (harg3 : arg3.IsWhole)
    (arg4 : Memref sig .tc .vmem S6x512 .bf16) (harg4 : arg4.IsWhole)
    (arg5 : Memref sig .tc .vmem S512x4096 .bf16) (harg5 : arg5.IsWhole)
    (arg6 : Memref sig .tc .vmem S1x4096 .f32) (harg6 : arg6.IsWhole)
    (arg7 : Memref sig .tc .vmem S6x4096 .bf16) (harg7 : arg7.IsWhole)
    (arg8 : Memref sig .tc .vmem S6x4096 .f32) (harg8 : arg8.IsWhole)
    (arg9 : Memref sig .tc .vmem S6x4096 .f32) (harg9 : arg9.IsWhole)
    (hc0 : cond1_0 i) (hc1 : ¬cond1_1 i)
    (x0 : Vec F S512x4096 .bf16) (x1 : Vec F S6x512 .bf16) (x2 : Vec F S6x1 .f32) (x3 : Vec F S6x512 .bf16) (x4 : Vec F S512x4096 .bf16) (x5 : Vec F S1x4096 .f32) (y : S6x4096.Idx) :
    ∃ pc ∈ (kernelRun1_A c i arg1 harg1 arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun1_A c i arg1 harg1 arg2 harg2 arg3 harg3 arg4 harg4 arg5 harg5 arg6 harg6 arg7 harg7 arg8 harg8 arg9 harg9 hc0 hc1 x0 x1 x2 x3 x4 x5).2.1 S6x4096.size (by sl_kernel_rfl) y

/-- At a middle point the context accumulator's one store covers it. -/
theorem scover1_B_0 (c : Dev nD) (i : grid1.Coords)
    (arg1 : Memref sig .tc .vmem S512x4096 .bf16) (harg1 : arg1.IsWhole)
    (arg2 : Memref sig .tc .vmem S6x512 .bf16) (harg2 : arg2.IsWhole)
    (arg3 : Memref sig .tc .vmem S6x1 .f32) (harg3 : arg3.IsWhole)
    (arg4 : Memref sig .tc .vmem S6x512 .bf16) (harg4 : arg4.IsWhole)
    (arg5 : Memref sig .tc .vmem S512x4096 .bf16) (harg5 : arg5.IsWhole)
    (arg6 : Memref sig .tc .vmem S1x4096 .f32) (harg6 : arg6.IsWhole)
    (arg7 : Memref sig .tc .vmem S6x4096 .bf16) (harg7 : arg7.IsWhole)
    (arg8 : Memref sig .tc .vmem S6x4096 .f32) (harg8 : arg8.IsWhole)
    (arg9 : Memref sig .tc .vmem S6x4096 .f32) (harg9 : arg9.IsWhole)
    (hc0 : ¬cond1_0 i) (hc1 : ¬cond1_1 i)
    (x0 : Vec F S512x4096 .bf16) (x1 : Vec F S6x512 .bf16) (x2 : Vec F S6x1 .f32) (x3 : Vec F S6x512 .bf16) (x4 : Vec F S512x4096 .bf16) (x5 : Vec F S1x4096 .f32) (xs0 : Vec F S6x4096 .f32) (xs1 : Vec F S6x4096 .f32) (y : S6x4096.Idx) :
    ∃ pc ∈ (kernelRun1_B c i arg1 harg1 arg2 harg2 arg3 harg3 arg4 harg4 arg5 harg5 arg6 harg6 arg7 harg7 arg8 harg8 arg9 harg9 hc0 hc1 x0 x1 x2 x3 x4 x5 xs0 xs1).1, y ∈ pc.1.set :=
  View.cover_of_tiledL (kernelRun1_B c i arg1 harg1 arg2 harg2 arg3 harg3 arg4 harg4 arg5 harg5 arg6 harg6 arg7 harg7 arg8 harg8 arg9 harg9 hc0 hc1 x0 x1 x2 x3 x4 x5 xs0 xs1).1 S6x4096.size (by sl_kernel_rfl) y

/-- At a middle point the k accumulator's one store covers it. -/
theorem scover1_B_1 (c : Dev nD) (i : grid1.Coords)
    (arg1 : Memref sig .tc .vmem S512x4096 .bf16) (harg1 : arg1.IsWhole)
    (arg2 : Memref sig .tc .vmem S6x512 .bf16) (harg2 : arg2.IsWhole)
    (arg3 : Memref sig .tc .vmem S6x1 .f32) (harg3 : arg3.IsWhole)
    (arg4 : Memref sig .tc .vmem S6x512 .bf16) (harg4 : arg4.IsWhole)
    (arg5 : Memref sig .tc .vmem S512x4096 .bf16) (harg5 : arg5.IsWhole)
    (arg6 : Memref sig .tc .vmem S1x4096 .f32) (harg6 : arg6.IsWhole)
    (arg7 : Memref sig .tc .vmem S6x4096 .bf16) (harg7 : arg7.IsWhole)
    (arg8 : Memref sig .tc .vmem S6x4096 .f32) (harg8 : arg8.IsWhole)
    (arg9 : Memref sig .tc .vmem S6x4096 .f32) (harg9 : arg9.IsWhole)
    (hc0 : ¬cond1_0 i) (hc1 : ¬cond1_1 i)
    (x0 : Vec F S512x4096 .bf16) (x1 : Vec F S6x512 .bf16) (x2 : Vec F S6x1 .f32) (x3 : Vec F S6x512 .bf16) (x4 : Vec F S512x4096 .bf16) (x5 : Vec F S1x4096 .f32) (xs0 : Vec F S6x4096 .f32) (xs1 : Vec F S6x4096 .f32) (y : S6x4096.Idx) :
    ∃ pc ∈ (kernelRun1_B c i arg1 harg1 arg2 harg2 arg3 harg3 arg4 harg4 arg5 harg5 arg6 harg6 arg7 harg7 arg8 harg8 arg9 harg9 hc0 hc1 x0 x1 x2 x3 x4 x5 xs0 xs1).2.1, y ∈ pc.1.set :=
  View.cover_of_tiledL (kernelRun1_B c i arg1 harg1 arg2 harg2 arg3 harg3 arg4 harg4 arg5 harg5 arg6 harg6 arg7 harg7 arg8 harg8 arg9 harg9 hc0 hc1 x0 x1 x2 x3 x4 x5 xs0 xs1).2.1 S6x4096.size (by sl_kernel_rfl) y

/-- At the last point the one store into the output covers its block. -/
theorem cover1_C_6 (c : Dev nD) (i : grid1.Coords)
    (arg1 : Memref sig .tc .vmem S512x4096 .bf16) (harg1 : arg1.IsWhole)
    (arg2 : Memref sig .tc .vmem S6x512 .bf16) (harg2 : arg2.IsWhole)
    (arg3 : Memref sig .tc .vmem S6x1 .f32) (harg3 : arg3.IsWhole)
    (arg4 : Memref sig .tc .vmem S6x512 .bf16) (harg4 : arg4.IsWhole)
    (arg5 : Memref sig .tc .vmem S512x4096 .bf16) (harg5 : arg5.IsWhole)
    (arg6 : Memref sig .tc .vmem S1x4096 .f32) (harg6 : arg6.IsWhole)
    (arg7 : Memref sig .tc .vmem S6x4096 .bf16) (harg7 : arg7.IsWhole)
    (arg8 : Memref sig .tc .vmem S6x4096 .f32) (harg8 : arg8.IsWhole)
    (arg9 : Memref sig .tc .vmem S6x4096 .f32) (harg9 : arg9.IsWhole)
    (hc0 : ¬cond1_0 i) (hc1 : cond1_1 i)
    (x0 : Vec F S512x4096 .bf16) (x1 : Vec F S6x512 .bf16) (x2 : Vec F S6x1 .f32) (x3 : Vec F S6x512 .bf16) (x4 : Vec F S512x4096 .bf16) (x5 : Vec F S1x4096 .f32) (xs0 : Vec F S6x4096 .f32) (xs1 : Vec F S6x4096 .f32) (y : S6x4096.Idx) :
    ∃ pc ∈ (kernelRun1_C c i arg1 harg1 arg2 harg2 arg3 harg3 arg4 harg4 arg5 harg5 arg6 harg6 arg7 harg7 arg8 harg8 arg9 harg9 hc0 hc1 x0 x1 x2 x3 x4 x5 xs0 xs1).1, y ∈ pc.1.set :=
  View.cover_of_tiledL (kernelRun1_C c i arg1 harg1 arg2 harg2 arg3 harg3 arg4 harg4 arg5 harg5 arg6 harg6 arg7 harg7 arg8 harg8 arg9 harg9 hc0 hc1 x0 x1 x2 x3 x4 x5 xs0 xs1).1 S6x4096.size (by sl_kernel_rfl) y

/-- At the last point the context accumulator's one store covers it. -/
theorem scover1_C_0 (c : Dev nD) (i : grid1.Coords)
    (arg1 : Memref sig .tc .vmem S512x4096 .bf16) (harg1 : arg1.IsWhole)
    (arg2 : Memref sig .tc .vmem S6x512 .bf16) (harg2 : arg2.IsWhole)
    (arg3 : Memref sig .tc .vmem S6x1 .f32) (harg3 : arg3.IsWhole)
    (arg4 : Memref sig .tc .vmem S6x512 .bf16) (harg4 : arg4.IsWhole)
    (arg5 : Memref sig .tc .vmem S512x4096 .bf16) (harg5 : arg5.IsWhole)
    (arg6 : Memref sig .tc .vmem S1x4096 .f32) (harg6 : arg6.IsWhole)
    (arg7 : Memref sig .tc .vmem S6x4096 .bf16) (harg7 : arg7.IsWhole)
    (arg8 : Memref sig .tc .vmem S6x4096 .f32) (harg8 : arg8.IsWhole)
    (arg9 : Memref sig .tc .vmem S6x4096 .f32) (harg9 : arg9.IsWhole)
    (hc0 : ¬cond1_0 i) (hc1 : cond1_1 i)
    (x0 : Vec F S512x4096 .bf16) (x1 : Vec F S6x512 .bf16) (x2 : Vec F S6x1 .f32) (x3 : Vec F S6x512 .bf16) (x4 : Vec F S512x4096 .bf16) (x5 : Vec F S1x4096 .f32) (xs0 : Vec F S6x4096 .f32) (xs1 : Vec F S6x4096 .f32) (y : S6x4096.Idx) :
    ∃ pc ∈ (kernelRun1_C c i arg1 harg1 arg2 harg2 arg3 harg3 arg4 harg4 arg5 harg5 arg6 harg6 arg7 harg7 arg8 harg8 arg9 harg9 hc0 hc1 x0 x1 x2 x3 x4 x5 xs0 xs1).2.1, y ∈ pc.1.set :=
  View.cover_of_tiledL (kernelRun1_C c i arg1 harg1 arg2 harg2 arg3 harg3 arg4 harg4 arg5 harg5 arg6 harg6 arg7 harg7 arg8 harg8 arg9 harg9 hc0 hc1 x0 x1 x2 x3 x4 x5 xs0 xs1).2.1 S6x4096.size (by sl_kernel_rfl) y

/-- At the last point the k accumulator's one store covers it. -/
theorem scover1_C_1 (c : Dev nD) (i : grid1.Coords)
    (arg1 : Memref sig .tc .vmem S512x4096 .bf16) (harg1 : arg1.IsWhole)
    (arg2 : Memref sig .tc .vmem S6x512 .bf16) (harg2 : arg2.IsWhole)
    (arg3 : Memref sig .tc .vmem S6x1 .f32) (harg3 : arg3.IsWhole)
    (arg4 : Memref sig .tc .vmem S6x512 .bf16) (harg4 : arg4.IsWhole)
    (arg5 : Memref sig .tc .vmem S512x4096 .bf16) (harg5 : arg5.IsWhole)
    (arg6 : Memref sig .tc .vmem S1x4096 .f32) (harg6 : arg6.IsWhole)
    (arg7 : Memref sig .tc .vmem S6x4096 .bf16) (harg7 : arg7.IsWhole)
    (arg8 : Memref sig .tc .vmem S6x4096 .f32) (harg8 : arg8.IsWhole)
    (arg9 : Memref sig .tc .vmem S6x4096 .f32) (harg9 : arg9.IsWhole)
    (hc0 : ¬cond1_0 i) (hc1 : cond1_1 i)
    (x0 : Vec F S512x4096 .bf16) (x1 : Vec F S6x512 .bf16) (x2 : Vec F S6x1 .f32) (x3 : Vec F S6x512 .bf16) (x4 : Vec F S512x4096 .bf16) (x5 : Vec F S1x4096 .f32) (xs0 : Vec F S6x4096 .f32) (xs1 : Vec F S6x4096 .f32) (y : S6x4096.Idx) :
    ∃ pc ∈ (kernelRun1_C c i arg1 harg1 arg2 harg2 arg3 harg3 arg4 harg4 arg5 harg5 arg6 harg6 arg7 harg7 arg8 harg8 arg9 harg9 hc0 hc1 x0 x1 x2 x3 x4 x5 xs0 xs1).2.2.1, y ∈ pc.1.set :=
  View.cover_of_tiledL (kernelRun1_C c i arg1 harg1 arg2 harg2 arg3 harg3 arg4 harg4 arg5 harg5 arg6 harg6 arg7 harg7 arg8 harg8 arg9 harg9 hc0 hc1 x0 x1 x2 x3 x4 x5 xs0 xs1).2.2.1 S6x4096.size (by sl_kernel_rfl) y

/-- At the first point the context accumulator ends at the block product added to zero: the update is the later store and
    covers, and what it loaded back is the reset's zero. -/
theorem canon1_A_0 (c : Dev nD) (i : grid1.Coords)
    (arg1 : Memref sig .tc .vmem S512x4096 .bf16) (harg1 : arg1.IsWhole)
    (arg2 : Memref sig .tc .vmem S6x512 .bf16) (harg2 : arg2.IsWhole)
    (arg3 : Memref sig .tc .vmem S6x1 .f32) (harg3 : arg3.IsWhole)
    (arg4 : Memref sig .tc .vmem S6x512 .bf16) (harg4 : arg4.IsWhole)
    (arg5 : Memref sig .tc .vmem S512x4096 .bf16) (harg5 : arg5.IsWhole)
    (arg6 : Memref sig .tc .vmem S1x4096 .f32) (harg6 : arg6.IsWhole)
    (arg7 : Memref sig .tc .vmem S6x4096 .bf16) (harg7 : arg7.IsWhole)
    (arg8 : Memref sig .tc .vmem S6x4096 .f32) (harg8 : arg8.IsWhole)
    (arg9 : Memref sig .tc .vmem S6x4096 .f32) (harg9 : arg9.IsWhole)
    (hc0 : cond1_0 i) (hc1 : ¬cond1_1 i)
    (x0 : Vec F S512x4096 .bf16) (x1 : Vec F S6x512 .bf16) (x2 : Vec F S6x1 .f32) (x3 : Vec F S6x512 .bf16) (x4 : Vec F S512x4096 .bf16) (x5 : Vec F S1x4096 .f32) :
    View.canon (kernelRun1_A c i arg1 harg1 arg2 harg2 arg3 harg3 arg4 harg4 arg5 harg5 arg6 harg6 arg7 harg7 arg8 harg8 arg9 harg9 hc0 hc1 x0 x1 x2 x3 x4 x5).1 = k1_pay3 (k1_pay1 (F := F)) x1 x0 := by
  unfold kernelRun1_A; dsimp only; sl_unfold_words
  rw [View.canon_cons_unit_zero (S := S6x4096) hz2, View.readCov_unit_zero (S := S6x4096) _ hz2]
  simp only [View.readAt_eq_ld, harg1.read_unread, harg2.read_unread, View.ld_unit_zero (S := S6x512) hz2, View.ld_unit_zero (S := S512x4096) hz2, View.ld_unit_zero (S := S6x4096) hz2, View.ld_unit_zero (S := S6x1) hz2, View.ld_unit_zero (S := S1x4096) hz2]

/-- Likewise the k accumulator. -/
theorem canon1_A_1 (c : Dev nD) (i : grid1.Coords)
    (arg1 : Memref sig .tc .vmem S512x4096 .bf16) (harg1 : arg1.IsWhole)
    (arg2 : Memref sig .tc .vmem S6x512 .bf16) (harg2 : arg2.IsWhole)
    (arg3 : Memref sig .tc .vmem S6x1 .f32) (harg3 : arg3.IsWhole)
    (arg4 : Memref sig .tc .vmem S6x512 .bf16) (harg4 : arg4.IsWhole)
    (arg5 : Memref sig .tc .vmem S512x4096 .bf16) (harg5 : arg5.IsWhole)
    (arg6 : Memref sig .tc .vmem S1x4096 .f32) (harg6 : arg6.IsWhole)
    (arg7 : Memref sig .tc .vmem S6x4096 .bf16) (harg7 : arg7.IsWhole)
    (arg8 : Memref sig .tc .vmem S6x4096 .f32) (harg8 : arg8.IsWhole)
    (arg9 : Memref sig .tc .vmem S6x4096 .f32) (harg9 : arg9.IsWhole)
    (hc0 : cond1_0 i) (hc1 : ¬cond1_1 i)
    (x0 : Vec F S512x4096 .bf16) (x1 : Vec F S6x512 .bf16) (x2 : Vec F S6x1 .f32) (x3 : Vec F S6x512 .bf16) (x4 : Vec F S512x4096 .bf16) (x5 : Vec F S1x4096 .f32) :
    View.canon (kernelRun1_A c i arg1 harg1 arg2 harg2 arg3 harg3 arg4 harg4 arg5 harg5 arg6 harg6 arg7 harg7 arg8 harg8 arg9 harg9 hc0 hc1 x0 x1 x2 x3 x4 x5).2.1 = k1_pay4 (k1_pay2 (F := F)) x3 x4 := by
  unfold kernelRun1_A; dsimp only; sl_unfold_words
  rw [View.canon_cons_unit_zero (S := S6x4096) hz2, View.readCov_unit_zero (S := S6x4096) _ hz2]
  simp only [View.readAt_eq_ld, harg4.read_unread, harg5.read_unread, View.ld_unit_zero (S := S6x512) hz2, View.ld_unit_zero (S := S512x4096) hz2, View.ld_unit_zero (S := S6x4096) hz2, View.ld_unit_zero (S := S6x1) hz2, View.ld_unit_zero (S := S1x4096) hz2]

/-- At a middle point the context accumulator ends at the block product added to what it held. -/
theorem canon1_B_0 (c : Dev nD) (i : grid1.Coords)
    (arg1 : Memref sig .tc .vmem S512x4096 .bf16) (harg1 : arg1.IsWhole)
    (arg2 : Memref sig .tc .vmem S6x512 .bf16) (harg2 : arg2.IsWhole)
    (arg3 : Memref sig .tc .vmem S6x1 .f32) (harg3 : arg3.IsWhole)
    (arg4 : Memref sig .tc .vmem S6x512 .bf16) (harg4 : arg4.IsWhole)
    (arg5 : Memref sig .tc .vmem S512x4096 .bf16) (harg5 : arg5.IsWhole)
    (arg6 : Memref sig .tc .vmem S1x4096 .f32) (harg6 : arg6.IsWhole)
    (arg7 : Memref sig .tc .vmem S6x4096 .bf16) (harg7 : arg7.IsWhole)
    (arg8 : Memref sig .tc .vmem S6x4096 .f32) (harg8 : arg8.IsWhole)
    (arg9 : Memref sig .tc .vmem S6x4096 .f32) (harg9 : arg9.IsWhole)
    (hc0 : ¬cond1_0 i) (hc1 : ¬cond1_1 i)
    (x0 : Vec F S512x4096 .bf16) (x1 : Vec F S6x512 .bf16) (x2 : Vec F S6x1 .f32) (x3 : Vec F S6x512 .bf16) (x4 : Vec F S512x4096 .bf16) (x5 : Vec F S1x4096 .f32) (xs0 : Vec F S6x4096 .f32) (xs1 : Vec F S6x4096 .f32) :
    View.canon (kernelRun1_B c i arg1 harg1 arg2 harg2 arg3 harg3 arg4 harg4 arg5 harg5 arg6 harg6 arg7 harg7 arg8 harg8 arg9 harg9 hc0 hc1 x0 x1 x2 x3 x4 x5 xs0 xs1).1 = k1_pay3 xs0 x1 x0 := by
  unfold kernelRun1_B; dsimp only; sl_unfold_words
  rw [View.canon_unit_zero (S := S6x4096) hz2]
  simp only [View.readAt_eq_ld, harg1.read_unread, harg2.read_unread, harg8.read_unread, View.ld_unit_zero (S := S6x512) hz2, View.ld_unit_zero (S := S512x4096) hz2, View.ld_unit_zero (S := S6x4096) hz2, View.ld_unit_zero (S := S6x1) hz2, View.ld_unit_zero (S := S1x4096) hz2]

/-- Likewise the k accumulator. -/
theorem canon1_B_1 (c : Dev nD) (i : grid1.Coords)
    (arg1 : Memref sig .tc .vmem S512x4096 .bf16) (harg1 : arg1.IsWhole)
    (arg2 : Memref sig .tc .vmem S6x512 .bf16) (harg2 : arg2.IsWhole)
    (arg3 : Memref sig .tc .vmem S6x1 .f32) (harg3 : arg3.IsWhole)
    (arg4 : Memref sig .tc .vmem S6x512 .bf16) (harg4 : arg4.IsWhole)
    (arg5 : Memref sig .tc .vmem S512x4096 .bf16) (harg5 : arg5.IsWhole)
    (arg6 : Memref sig .tc .vmem S1x4096 .f32) (harg6 : arg6.IsWhole)
    (arg7 : Memref sig .tc .vmem S6x4096 .bf16) (harg7 : arg7.IsWhole)
    (arg8 : Memref sig .tc .vmem S6x4096 .f32) (harg8 : arg8.IsWhole)
    (arg9 : Memref sig .tc .vmem S6x4096 .f32) (harg9 : arg9.IsWhole)
    (hc0 : ¬cond1_0 i) (hc1 : ¬cond1_1 i)
    (x0 : Vec F S512x4096 .bf16) (x1 : Vec F S6x512 .bf16) (x2 : Vec F S6x1 .f32) (x3 : Vec F S6x512 .bf16) (x4 : Vec F S512x4096 .bf16) (x5 : Vec F S1x4096 .f32) (xs0 : Vec F S6x4096 .f32) (xs1 : Vec F S6x4096 .f32) :
    View.canon (kernelRun1_B c i arg1 harg1 arg2 harg2 arg3 harg3 arg4 harg4 arg5 harg5 arg6 harg6 arg7 harg7 arg8 harg8 arg9 harg9 hc0 hc1 x0 x1 x2 x3 x4 x5 xs0 xs1).2.1 = k1_pay4 xs1 x3 x4 := by
  unfold kernelRun1_B; dsimp only; sl_unfold_words
  rw [View.canon_unit_zero (S := S6x4096) hz2]
  simp only [View.readAt_eq_ld, harg4.read_unread, harg5.read_unread, harg9.read_unread, View.ld_unit_zero (S := S6x512) hz2, View.ld_unit_zero (S := S512x4096) hz2, View.ld_unit_zero (S := S6x4096) hz2, View.ld_unit_zero (S := S6x1) hz2, View.ld_unit_zero (S := S1x4096) hz2]

/-- At the last point the context accumulator ends at the block product added to what it held. -/
theorem canon1_C_0 (c : Dev nD) (i : grid1.Coords)
    (arg1 : Memref sig .tc .vmem S512x4096 .bf16) (harg1 : arg1.IsWhole)
    (arg2 : Memref sig .tc .vmem S6x512 .bf16) (harg2 : arg2.IsWhole)
    (arg3 : Memref sig .tc .vmem S6x1 .f32) (harg3 : arg3.IsWhole)
    (arg4 : Memref sig .tc .vmem S6x512 .bf16) (harg4 : arg4.IsWhole)
    (arg5 : Memref sig .tc .vmem S512x4096 .bf16) (harg5 : arg5.IsWhole)
    (arg6 : Memref sig .tc .vmem S1x4096 .f32) (harg6 : arg6.IsWhole)
    (arg7 : Memref sig .tc .vmem S6x4096 .bf16) (harg7 : arg7.IsWhole)
    (arg8 : Memref sig .tc .vmem S6x4096 .f32) (harg8 : arg8.IsWhole)
    (arg9 : Memref sig .tc .vmem S6x4096 .f32) (harg9 : arg9.IsWhole)
    (hc0 : ¬cond1_0 i) (hc1 : cond1_1 i)
    (x0 : Vec F S512x4096 .bf16) (x1 : Vec F S6x512 .bf16) (x2 : Vec F S6x1 .f32) (x3 : Vec F S6x512 .bf16) (x4 : Vec F S512x4096 .bf16) (x5 : Vec F S1x4096 .f32) (xs0 : Vec F S6x4096 .f32) (xs1 : Vec F S6x4096 .f32) :
    View.canon (kernelRun1_C c i arg1 harg1 arg2 harg2 arg3 harg3 arg4 harg4 arg5 harg5 arg6 harg6 arg7 harg7 arg8 harg8 arg9 harg9 hc0 hc1 x0 x1 x2 x3 x4 x5 xs0 xs1).2.1 = k1_pay3 xs0 x1 x0 := by
  unfold kernelRun1_C; dsimp only; sl_unfold_words
  rw [View.canon_unit_zero (S := S6x4096) hz2]
  simp only [View.readAt_eq_ld, harg1.read_unread, harg2.read_unread, harg8.read_unread, View.ld_unit_zero (S := S6x512) hz2, View.ld_unit_zero (S := S512x4096) hz2, View.ld_unit_zero (S := S6x4096) hz2, View.ld_unit_zero (S := S6x1) hz2, View.ld_unit_zero (S := S1x4096) hz2]

/-- Likewise the k accumulator. -/
theorem canon1_C_1 (c : Dev nD) (i : grid1.Coords)
    (arg1 : Memref sig .tc .vmem S512x4096 .bf16) (harg1 : arg1.IsWhole)
    (arg2 : Memref sig .tc .vmem S6x512 .bf16) (harg2 : arg2.IsWhole)
    (arg3 : Memref sig .tc .vmem S6x1 .f32) (harg3 : arg3.IsWhole)
    (arg4 : Memref sig .tc .vmem S6x512 .bf16) (harg4 : arg4.IsWhole)
    (arg5 : Memref sig .tc .vmem S512x4096 .bf16) (harg5 : arg5.IsWhole)
    (arg6 : Memref sig .tc .vmem S1x4096 .f32) (harg6 : arg6.IsWhole)
    (arg7 : Memref sig .tc .vmem S6x4096 .bf16) (harg7 : arg7.IsWhole)
    (arg8 : Memref sig .tc .vmem S6x4096 .f32) (harg8 : arg8.IsWhole)
    (arg9 : Memref sig .tc .vmem S6x4096 .f32) (harg9 : arg9.IsWhole)
    (hc0 : ¬cond1_0 i) (hc1 : cond1_1 i)
    (x0 : Vec F S512x4096 .bf16) (x1 : Vec F S6x512 .bf16) (x2 : Vec F S6x1 .f32) (x3 : Vec F S6x512 .bf16) (x4 : Vec F S512x4096 .bf16) (x5 : Vec F S1x4096 .f32) (xs0 : Vec F S6x4096 .f32) (xs1 : Vec F S6x4096 .f32) :
    View.canon (kernelRun1_C c i arg1 harg1 arg2 harg2 arg3 harg3 arg4 harg4 arg5 harg5 arg6 harg6 arg7 harg7 arg8 harg8 arg9 harg9 hc0 hc1 x0 x1 x2 x3 x4 x5 xs0 xs1).2.2.1 = k1_pay4 xs1 x3 x4 := by
  unfold kernelRun1_C; dsimp only; sl_unfold_words
  rw [View.canon_unit_zero (S := S6x4096) hz2]
  simp only [View.readAt_eq_ld, harg4.read_unread, harg5.read_unread, harg9.read_unread, View.ld_unit_zero (S := S6x512) hz2, View.ld_unit_zero (S := S512x4096) hz2, View.ld_unit_zero (S := S6x4096) hz2, View.ld_unit_zero (S := S6x1) hz2, View.ld_unit_zero (S := S1x4096) hz2]

/-- At the last point the output's block ends at the modulated value of the two accumulators as just updated (each loaded
    back after its store) and the two bias blocks. -/
theorem canon1_C_6 (c : Dev nD) (i : grid1.Coords)
    (arg1 : Memref sig .tc .vmem S512x4096 .bf16) (harg1 : arg1.IsWhole)
    (arg2 : Memref sig .tc .vmem S6x512 .bf16) (harg2 : arg2.IsWhole)
    (arg3 : Memref sig .tc .vmem S6x1 .f32) (harg3 : arg3.IsWhole)
    (arg4 : Memref sig .tc .vmem S6x512 .bf16) (harg4 : arg4.IsWhole)
    (arg5 : Memref sig .tc .vmem S512x4096 .bf16) (harg5 : arg5.IsWhole)
    (arg6 : Memref sig .tc .vmem S1x4096 .f32) (harg6 : arg6.IsWhole)
    (arg7 : Memref sig .tc .vmem S6x4096 .bf16) (harg7 : arg7.IsWhole)
    (arg8 : Memref sig .tc .vmem S6x4096 .f32) (harg8 : arg8.IsWhole)
    (arg9 : Memref sig .tc .vmem S6x4096 .f32) (harg9 : arg9.IsWhole)
    (hc0 : ¬cond1_0 i) (hc1 : cond1_1 i)
    (x0 : Vec F S512x4096 .bf16) (x1 : Vec F S6x512 .bf16) (x2 : Vec F S6x1 .f32) (x3 : Vec F S6x512 .bf16) (x4 : Vec F S512x4096 .bf16) (x5 : Vec F S1x4096 .f32) (xs0 : Vec F S6x4096 .f32) (xs1 : Vec F S6x4096 .f32) :
    View.canon (kernelRun1_C c i arg1 harg1 arg2 harg2 arg3 harg3 arg4 harg4 arg5 harg5 arg6 harg6 arg7 harg7 arg8 harg8 arg9 harg9 hc0 hc1 x0 x1 x2 x3 x4 x5 xs0 xs1).1 = k1_pay5 (k1_pay3 xs0 x1 x0) x2 (k1_pay4 xs1 x3 x4) x5 := by
  unfold kernelRun1_C; dsimp only; sl_unfold_words
  rw [View.canon_unit_zero (S := S6x4096) hz2]
  simp only [View.readCov_unit_zero (S := S6x4096) _ hz2, View.readAt_eq_ld, harg1.read_unread, harg2.read_unread, harg3.read_unread, harg4.read_unread, harg5.read_unread, harg6.read_unread, harg8.read_unread, harg9.read_unread, View.ld_unit_zero (S := S6x512) hz2, View.ld_unit_zero (S := S512x4096) hz2, View.ld_unit_zero (S := S6x4096) hz2, View.ld_unit_zero (S := S6x1) hz2, View.ld_unit_zero (S := S1x4096) hz2]

/-! ## The accumulators point by point -/

theorem sc1a_zero (c : Dev nD) (t : Fin cfg1.N) (hz : t.val = 0) :
    sc1a V c t.val t.isLt = k1_pay3 (k1_pay1 (F := F)) (iblk1 V c 1 t) (iblk1 V c 0 t) := by
  obtain ⟨n, hn⟩ := t; subst hz; rfl
theorem sc1b_zero (c : Dev nD) (t : Fin cfg1.N) (hz : t.val = 0) :
    sc1b V c t.val t.isLt = k1_pay4 (k1_pay2 (F := F)) (iblk1 V c 3 t) (iblk1 V c 4 t) := by
  obtain ⟨n, hn⟩ := t; subst hz; rfl
theorem sc1a_pos (c : Dev nD) (t : Fin cfg1.N) (hz : t.val ≠ 0) :
    sc1a V c t.val t.isLt = k1_pay3 (sc1a V c (t.val - 1) (Nat.lt_of_le_of_lt (Nat.sub_le _ _) t.isLt)) (iblk1 V c 1 t) (iblk1 V c 0 t) := by
  obtain ⟨n, hn⟩ := t
  cases n with
  | zero => exact absurd rfl hz
  | succ n => rfl
theorem sc1b_pos (c : Dev nD) (t : Fin cfg1.N) (hz : t.val ≠ 0) :
    sc1b V c t.val t.isLt = k1_pay4 (sc1b V c (t.val - 1) (Nat.lt_of_le_of_lt (Nat.sub_le _ _) t.isLt)) (iblk1 V c 3 t) (iblk1 V c 4 t) := by
  obtain ⟨n, hn⟩ := t
  cases n with
  | zero => exact absurd rfl hz
  | succ n => rfl

/-! ## The invariant before the first point, with the two accumulators split off -/

/-- Every scoped buffer at anything is: the two accumulators at anything, the scoped buffers the region never opens,
    the generator register at some state. -/
theorem PhiA1_eq (c : Dev nD) :
    (Pipeline.ΦA spec1 c : sProp 𝕄)
      = iprop((((∃ d, owns (c : Thread nD τ) scM1_0 fullShare d) ∗ (∃ d, owns (c : Thread nD τ) scM1_1 fullShare d)) ∗ rest1 (F := F) c) ∗ (∃ r, prngReg c r)) := by
  unfold Pipeline.ΦA
  rw [Pipeline.scopedRest_split_of_list spec1 c [cc1_scratch0, cc1_scratch1] (by decide) (by decide)]
  simp only [bigSepL_cons_cons, bigSepL_singleton, scM1_0, scM1_1, owns_whole]; try rfl

/-! ## The inputs' staging buffers hold their blocks at every point, fetched there or not -/

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
      (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
      (fun t => by rw [after1_5]; unfold Dat.blockOf iblk1; rw [A_eq1]; try rfl) t d).trans
    (by unfold Dat.fetched Dat.blockOf iblk1; rw [A_eq1]; try rfl)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
/-- Where the second condition fails the output is idle and not written back. -/
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
/-- Where it holds the output is live. -/
theorem liveAt1_6 : ∀ t : Fin cfg1.N, cond1_1 (grid1.coords t) → cfg1.idle 6 (grid1.coords t) = false := by decide +kernel

/-! ## The body at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point. The inputs' memrefs hold their blocks; the closed forms of the two conditions say which of the
    three cases the point is in, and that case's run applies. The invariant hands the body the two accumulators (at
    anything at the first point, at what the point before left afterwards) and takes them back at this point's
    contents: what each accumulator's stores leave, read back, is the payload over the blocks. The output's buffer
    is handed back as found where nothing is stored, and at the modulated value at the last point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 8 := lt_of_lt_of_eq t.isLt (show cfg1.N = 8 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  by_cases h0 : t.val % 8 = 0
  · by_cases h1 : t.val % 8 = 7
    · exfalso; omega
    · -- the first point: both accumulators reset, then updated
      have hz : t.val = 0 := by omega
      rw [Dat.leavesExact_idle (dat1 V c) 6 t (idleAt1_6 t (fun h => h1 ((hcond1_1 t).mp h))) (noFlush1_6 t (fun h => h1 ((hcond1_1 t).mp h)))]
      rw [PhiS1_castSucc V c t, PhiS1_zero V c _ _ hz, PhiA1_eq]
      rw [sc1a_zero V c t hz, sc1b_zero V c t hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HS0 HS1 Hr Hg]
      · isplitl [HS0]
        · unfold owns; iexists _; isplitr
          swap; · iexact HS0
          ipureintro
          exact (View.read_writes_eq_canon _ _ _ (scover1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t))).trans (canon1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t))
        isplitl [HS1]
        · unfold owns; iexists _; isplitr
          swap; · iexact HS1
          ipureintro
          exact (View.read_writes_eq_canon _ _ _ (scover1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t))).trans (canon1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t))
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := by omega
    rw [PhiS1_castSucc V c t, PhiS1_pos V c _ _ hz]
    rw [sc1a_pos V c t hz, sc1b_pos V c t hz]
    by_cases h1 : t.val % 8 = 7
    · -- the last point: both accumulators updated, then the modulated value stored into the output
      rw [show (dat1 V c).leavesExact 6 t = owns (c : Thread nD τ) (ms1_6 t) fullShare ((dat1 V c).after 6 t) from by
        unfold Dat.leavesExact; rw [liveAt1_6 t ((hcond1_1 t).mpr h1)], after1_6]
      unfold out1
      rw [sc1a_pos V c t hz, sc1b_pos V c t hz]
      iintro ⟨⟨HS0, HS1, Hr, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, ⟨%e6, H6⟩, ⟨%es0, HS0⟩, ⟨%es1, HS1⟩⟩
      isplitl [HS0 HS1 Hr Hg]
      · isplitl [HS0]
        · unfold owns; iexists _; isplitr
          swap; · iexact HS0
          ipureintro
          exact (View.read_writes_eq_canon _ _ _ (scover1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (sc1a V c (t.val - 1) (Nat.lt_of_le_of_lt (Nat.sub_le _ _) t.isLt)) (sc1b V c (t.val - 1) (Nat.lt_of_le_of_lt (Nat.sub_le _ _) t.isLt)))).trans (canon1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (sc1a V c (t.val - 1) (Nat.lt_of_le_of_lt (Nat.sub_le _ _) t.isLt)) (sc1b V c (t.val - 1) (Nat.lt_of_le_of_lt (Nat.sub_le _ _) t.isLt)))
        isplitl [HS1]
        · unfold owns; iexists _; isplitr
          swap; · iexact HS1
          ipureintro
          exact (View.read_writes_eq_canon _ _ _ (scover1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (sc1a V c (t.val - 1) (Nat.lt_of_le_of_lt (Nat.sub_le _ _) t.isLt)) (sc1b V c (t.val - 1) (Nat.lt_of_le_of_lt (Nat.sub_le _ _) t.isLt)))).trans (canon1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (sc1a V c (t.val - 1) (Nat.lt_of_le_of_lt (Nat.sub_le _ _) t.isLt)) (sc1b V c (t.val - 1) (Nat.lt_of_le_of_lt (Nat.sub_le _ _) t.isLt)))
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro
      exact (View.read_writes_eq_canon _ _ _ (cover1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (sc1a V c (t.val - 1) (Nat.lt_of_le_of_lt (Nat.sub_le _ _) t.isLt)) (sc1b V c (t.val - 1) (Nat.lt_of_le_of_lt (Nat.sub_le _ _) t.isLt)))).trans (canon1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (sc1a V c (t.val - 1) (Nat.lt_of_le_of_lt (Nat.sub_le _ _) t.isLt)) (sc1b V c (t.val - 1) (Nat.lt_of_le_of_lt (Nat.sub_le _ _) t.isLt)))
    · -- a middle point: both accumulators updated
      rw [Dat.leavesExact_idle (dat1 V c) 6 t (idleAt1_6 t (fun h => h1 ((hcond1_1 t).mp h))) (noFlush1_6 t (fun h => h1 ((hcond1_1 t).mp h)))]
      iintro ⟨⟨HS0, HS1, Hr, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _ _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HS0 HS1 Hr Hg]
      · isplitl [HS0]
        · unfold owns; iexists _; isplitr
          swap; · iexact HS0
          ipureintro
          exact (View.read_writes_eq_canon _ _ _ (scover1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (sc1a V c (t.val - 1) (Nat.lt_of_le_of_lt (Nat.sub_le _ _) t.isLt)) (sc1b V c (t.val - 1) (Nat.lt_of_le_of_lt (Nat.sub_le _ _) t.isLt)))).trans (canon1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (sc1a V c (t.val - 1) (Nat.lt_of_le_of_lt (Nat.sub_le _ _) t.isLt)) (sc1b V c (t.val - 1) (Nat.lt_of_le_of_lt (Nat.sub_le _ _) t.isLt)))
        isplitl [HS1]
        · unfold owns; iexists _; isplitr
          swap; · iexact HS1
          ipureintro
          exact (View.read_writes_eq_canon _ _ _ (scover1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (sc1a V c (t.val - 1) (Nat.lt_of_le_of_lt (Nat.sub_le _ _) t.isLt)) (sc1b V c (t.val - 1) (Nat.lt_of_le_of_lt (Nat.sub_le _ _) t.isLt)))).trans (canon1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (sc1a V c (t.val - 1) (Nat.lt_of_le_of_lt (Nat.sub_le _ _) t.isLt)) (sc1b V c (t.val - 1) (Nat.lt_of_le_of_lt (Nat.sub_le _ _) t.isLt)))
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The body obligation of region 1's pipeline at every grid point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the scoped buffers back at anything. -/
theorem hout1 (c : Dev nD) : (dat1 V c).Φ (Fin.last cfg1.N) ⊢ Pipeline.ΦA spec1 c := by
  have hne : (Fin.last cfg1.N).val ≠ 0 := by rw [Fin.val_last]; have : cfg1.N = 8 := N_1; omega
  rw [show (dat1 V c).Φ (Fin.last cfg1.N) = PhiS1 V c (Fin.last cfg1.N).val (Nat.le_of_lt_succ (Fin.last cfg1.N).isLt) from rfl,
    PhiS1_pos V c _ _ hne, PhiA1_eq]
  iintro ⟨HS0, HS1, Hr, Hg⟩
  isplitl [HS0 HS1 Hr]
  · isplitl [HS0 HS1]
    · isplitl [HS0]
      · iexists _; iexact HS0
      iexists _; iexact HS1
    iexact Hr
  iexact Hg

end Cert.Kernel.Hand

end
-- ==== Proof.KR2Base.lean ====
/-
  Region 2 of the program (out = (q · k_modᵀ) · 1/64, four row tiles of 1024, each accumulated over two halves of
  the contracted axis in a scratch tile and scaled when stored): the blocks the pipeline hands the body, what the
  scratch tile holds after each grid point, what the body stores into the output tile at the points that end an
  accumulation, the region's invariant and its proof data — as explicit functions of the arrays as the region
  finds them (`V`).
-/
import proofs.«159061_j38019050504386_1_alg».proof.Proof.Gen.Kernel.Launch
import proofs.«159061_j38019050504386_1_alg».proof.Proof.Gen.Kernel.Skeleton
import proofs.«159061_j38019050504386_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The two branch conditions of the body, decided over the grid

The last grid axis (extent 2) runs fastest: an even point starts an accumulation, an odd point ends it. -/

/-- The body's first `scf.if`: the contracted-axis coordinate is 0. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 2 = 0 :=
  (by decide +kernel : ∀ t : Fin grid2.N, cond2_0 (grid2.coords t) ↔ t.val % 2 = 0)
/-- The body's second `scf.if`: the contracted-axis coordinate is the last one. -/
abbrev cond2_1 (i : grid2.Coords) : Prop := k2_cond2 i = 1#1
theorem hcond2_1 : ∀ t : Fin cfg2.N, cond2_1 (grid2.coords t) ↔ t.val % 2 = 1 :=
  (by decide +kernel : ∀ t : Fin grid2.N, cond2_1 (grid2.coords t) ↔ t.val % 2 = 1)

/-! ## The memrefs the body is called with -/

abbrev ms2_0 (t : Fin cfg2.N) : Memref sig .tc .vmem S1024x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x6 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x6 .f32 := win2_2.stage (cfg2.slots t 2)
abbrev hs2_2 (t : Fin cfg2.N) : (ms2_2 t).IsWhole := hstage2_2 ((cfg2.slots t 2).cast nbuf2_2)
/-- The scratch tile: a whole scoped buffer of the kernel's own. -/
abbrev scM2_0 : Memref sig .tc .vmem S1024x6 .f32 := Memref.whole cc2_scratch0

/-! ## What the scratch tile and the output tile hold -/

/-- The scratch tile after the body at point `n`: the product of the point's two blocks added to zero at an even
    point, to what the point before left at an odd one. -/
def sc2 (c : Dev nD) : (n : ℕ) → n < cfg2.N → Vec F S1024x6 .f32
  | 0, hn => k2_pay2 (k2_pay1 (F := F)) (iblk2 V c 0 ⟨0, hn⟩) (iblk2 V c 1 ⟨0, hn⟩)
  | n + 1, hn => k2_pay2 (if (n + 1) % 2 = 0 then k2_pay1 (F := F) else sc2 c n (Nat.lt_of_succ_lt hn))
      (iblk2 V c 0 ⟨n + 1, hn⟩) (iblk2 V c 1 ⟨n + 1, hn⟩)

/-- What the body stores into the output tile at a point that ends an accumulation: the scratch tile scaled. -/
def out2 (c : Dev nD) (t : Fin cfg2.N) : Vec F S1024x6 .f32 :=
  k2_pay3 (sc2 V c t.val t.isLt)

/-! ## The invariant -/

/-- The scoped buffers the region never opens: every scoped buffer but its own staging buffers and its scratch tile. -/
abbrev rest2 (c : Dev nD) : sProp 𝕄 :=
  Pipeline.scopedRestBut (Ix := Unit) (Name := ℕ) (U := UR sig nD τ) (Lvl := ℕ) (Val := Elt F) spec2 c [cc2_scratch0]

/-- Before the first point every scoped buffer is at anything; after point `n` the scratch tile holds `sc2 n`. -/
def PhiS2 (c : Dev nD) : (n : ℕ) → n ≤ cfg2.N → sProp 𝕄
  | 0, _ => Pipeline.ΦA spec2 c
  | n + 1, hn => iprop(owns (c : Thread nD τ) scM2_0 fullShare (sc2 V c n hn) ∗ rest2 (F := F) c ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(owns (c : Thread nD τ) scM2_0 fullShare (sc2 V c n hn) ∗ rest2 (F := F) c ∗ (∃ r, prngReg c r)) := rfl
theorem PhiS2_pos (c : Dev nD) (n : ℕ) (h : n ≤ cfg2.N) (hz : n ≠ 0) :
    PhiS2 V c n h = iprop(owns (c : Thread nD τ) scM2_0 fullShare (sc2 V c (n - 1) (by omega)) ∗ rest2 (F := F) c ∗ (∃ r, prngReg c r)) := by
  cases n with
  | zero => exact absurd rfl hz
  | succ n => rfl

/-! ## The proof data -/

/-- The region's proof data on core `c`: the arrays as found; after the body each input window's buffer at its block,
    the output window's at `out2`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2 V c t := by dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]

end Cert.Kernel.Hand

end
-- ==== Proof.KR2RunA.lean ====
/-
  Region 2, the body at a point that STARTS an accumulation (contracted-axis coordinate 0, not the last one):
  the scratch tile is reset to zero, then the product of the point's two blocks is added to it; the output tile
  is not touched.
-/
import proofs.«159061_j38019050504386_1_alg».proof.Proof.KR2Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body run at a starting point, on whole memrefs: the two input tiles at their contents `x0`, `x1`, the output
    tile at whatever it holds (`xi2`, handed back as found), the scratch tile at anything. It ends with the inputs and
    the output tile as they were and the scratch tile with the stores of this run written into it: those stores
    (latest first) are the witness the run finds. -/
noncomputable def kernelRun2_A (c : Dev nD) (i : grid2.Coords)
    (arg2 : Memref sig .tc .vmem S1024x2048 .bf16) (harg2 : arg2.IsWhole)
    (arg3 : Memref sig .tc .vmem S2048x6 .bf16) (harg3 : arg3.IsWhole)
    (arg4 : Memref sig .tc .vmem S1024x6 .f32) (harg4 : arg4.IsWhole)
    (arg5 : Memref sig .tc .vmem S1024x6 .f32) (harg5 : arg5.IsWhole)
    (hc0 : cond2_0 i) (hc1 : ¬cond2_1 i)
    (x0 : Vec F S1024x2048 .bf16) (x1 : Vec F S2048x6 .bf16) :
    { LS0 : List (View.Piece (Elt F) S1024x6 .f32) //
      ∀ (xi2 : Vec F S1024x6 .f32) (E : Set ℕ) (K : PUnit → sProp 𝕄),
        iprop(owns (c : Thread nD τ) arg2 fullShare x0 ∗ owns (c : Thread nD τ) arg3 fullShare x1
            ∗ owns (c : Thread nD τ) arg4 fullShare xi2 ∗ (∃ d, owns (c : Thread nD τ) arg5 fullShare d)
            ∗ (iprop(owns (c : Thread nD τ) arg2 fullShare x0 ∗ owns (c : Thread nD τ) arg3 fullShare x1
                ∗ owns (c : Thread nD τ) arg4 fullShare xi2
                ∗ (∃ f, arg5.view.loc (c : Thread nD τ) ↦[arg5.view.set]{fullShare} arg5.view.writes (Elt F) f LS0)) -∗ K ⟨⟩))
          ⊢ wp frame (wpE (defs₀ (F := F)) Variants.none c none) E (cc2__finaldot_kernel i arg2 harg2 arg3 harg3 arg4 harg4 arg5 harg5) K } := by
  refine ⟨?_, fun xi2 E K => ?run⟩
  case run =>
    simp only [cc2__finaldot_kernel_eq_skeleton]; unfold cc2__finaldot_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.KR2RunB.lean ====
/-
  Region 2, the body at a point that ENDS an accumulation (contracted-axis coordinate the last one, not 0):
  the product of the point's two blocks is added to what the scratch tile holds, and the scratch tile, scaled, is
  stored into the output tile.
-/
import proofs.«159061_j38019050504386_1_alg».proof.Proof.KR2RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body run at an ending point, on whole memrefs: the two input tiles at their contents `x0`, `x1`, the scratch
    tile at what the point before left (`xs0`), the output tile at anything. It ends with the inputs as they were and
    the scratch tile and the output tile each with the stores of this run written into it: those stores (latest
    first; the output tile's, then the scratch tile's) are the witness the run finds. -/
noncomputable def kernelRun2_B (c : Dev nD) (i : grid2.Coords)
    (arg2 : Memref sig .tc .vmem S1024x2048 .bf16) (harg2 : arg2.IsWhole)
    (arg3 : Memref sig .tc .vmem S2048x6 .bf16) (harg3 : arg3.IsWhole)
    (arg4 : Memref sig .tc .vmem S1024x6 .f32) (harg4 : arg4.IsWhole)
    (arg5 : Memref sig .tc .vmem S1024x6 .f32) (harg5 : arg5.IsWhole)
    (hc0 : ¬cond2_0 i) (hc1 : cond2_1 i)
    (x0 : Vec F S1024x2048 .bf16) (x1 : Vec F S2048x6 .bf16) (xs0 : Vec F S1024x6 .f32) :
    Σ' (L2 : List (View.Piece (Elt F) S1024x6 .f32)), { LS0 : List (View.Piece (Elt F) S1024x6 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ owns (c : Thread nD τ) arg5 fullShare xs0
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)) -∗ K ⟨⟩))
          ⊢ wp frame (wpE (defs₀ (F := F)) Variants.none c none) E (cc2__finaldot_kernel i arg2 harg2 arg3 harg3 arg4 harg4 arg5 harg5) K } := by
  refine ⟨?_, ?_, fun E K => ?run⟩
  case run =>
    simp only [cc2__finaldot_kernel_eq_skeleton]; unfold cc2__finaldot_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.KR2Body.lean ====
/-
  Region 2: the body run at every grid point against the region's proof data.
-/
import proofs.«159061_j38019050504386_1_alg».proof.Proof.KR2RunB
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Where the windows are idle, and when the output tile is written back -/

/-- The two input windows are never idle. -/
theorem liveAt2_0 : ∀ t : Fin cfg2.N, cfg2.idle 0 (grid2.coords t) = false := by decide +kernel
theorem liveAt2_1 : ∀ t : Fin cfg2.N, cfg2.idle 1 (grid2.coords t) = false := by decide +kernel
/-- At a point that starts an accumulation the output window is idle, and its tile is not written back. -/
theorem idleAt2_2_start : ∀ t : Fin cfg2.N, cond2_0 (grid2.coords t) → ¬cond2_1 (grid2.coords t) → cfg2.idle 2 (grid2.coords t) = true := by decide +kernel
theorem noFlush2_2_start : ∀ t : Fin cfg2.N, cond2_0 (grid2.coords t) → ¬cond2_1 (grid2.coords t) → (cfg2.win 2).flush t = false := by decide +kernel
/-- At a point that ends one it is live. -/
theorem liveAt2_2_end : ∀ t : Fin cfg2.N, ¬cond2_0 (grid2.coords t) → cond2_1 (grid2.coords t) → cfg2.idle 2 (grid2.coords t) = false := by decide +kernel

/-! ## The launch's invariant with the scratch tile split off -/

/-- Every scoped buffer at anything: the scratch tile, owned as a memref at some contents, beside the buffers the
    region never opens and the generator register. -/
theorem PhiA2_eq (c : Dev nD) :
    (Pipeline.ΦA spec2 c : sProp 𝕄)
      = iprop(((∃ d, owns (c : Thread nD τ) scM2_0 fullShare d) ∗ rest2 (F := F) c) ∗ (∃ r, prngReg c r)) := by
  unfold Pipeline.ΦA
  rw [Pipeline.scopedRest_split_of_list spec2 c [cc2_scratch0] (by decide) (by decide)]
  simp only [bigSepL_singleton, scM2_0, owns_whole]; try rfl

/-! ## The input tiles hold their blocks -/

/-- Input window 0's current staging buffer holds the point's block, for any proof data over the arrays as found
    whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The same for input window 1. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The scratch tile's contents, by the kind of point -/

/-- After a point that starts an accumulation: the product of its two blocks added to zero. -/
theorem sc2_start (c : Dev nD) (t : Fin cfg2.N) (h : t.val % 2 = 0) :
    sc2 V c t.val t.isLt = k2_pay2 (k2_pay1 (F := F)) (iblk2 V c 0 t) (iblk2 V c 1 t) := by
  obtain ⟨n, hn⟩ := t
  cases n with
  | zero => rfl
  | succ n =>
    show k2_pay2 (if (n + 1) % 2 = 0 then k2_pay1 (F := F) else sc2 V c n (Nat.lt_of_succ_lt hn)) _ _ = _
    rw [if_pos h]

/-- After a point that ends one: the product added to what the point before left. -/
theorem sc2_end (c : Dev nD) (t : Fin cfg2.N) (h : t.val % 2 = 1) :
    sc2 V c t.val t.isLt
      = k2_pay2 (sc2 V c (t.val - 1) (Nat.lt_of_le_of_lt (Nat.sub_le _ _) t.isLt)) (iblk2 V c 0 t) (iblk2 V c 1 t) := by
  obtain ⟨n, hn⟩ := t
  cases n with
  | zero => exfalso; dsimp only at h; omega
  | succ n =>
    show k2_pay2 (if (n + 1) % 2 = 0 then k2_pay1 (F := F) else sc2 V c n (Nat.lt_of_succ_lt hn)) _ _ = _
    rw [if_neg (by dsimp only at h; omega)]; rfl

/-! ## What the runs leave, read back

Every store and load of the body is of a whole tile (the unit rectangle at offsets zero of the tile's own sizes), so
a tile's contents after a run are the payload of the last store into it, and every load reads the contents. -/

theorem hz2 : (![0, 0] : Fin 2 → Nat) = fun _ => 0 := funext fun a => by fin_cases a <;> rfl

/-- At a starting point the stores into the scratch tile cover it. -/
theorem scover2_A (c : Dev nD) (i : grid2.Coords) (arg2 : Memref sig .tc .vmem S1024x2048 .bf16) (harg2 : arg2.IsWhole) (arg3 : Memref sig .tc .vmem S2048x6 .bf16) (harg3 : arg3.IsWhole) (arg4 : Memref sig .tc .vmem S1024x6 .f32) (harg4 : arg4.IsWhole) (arg5 : Memref sig .tc .vmem S1024x6 .f32) (harg5 : arg5.IsWhole) (hc0 : cond2_0 i) (hc1 : ¬cond2_1 i) (x0 : Vec F S1024x2048 .bf16) (x1 : Vec F S2048x6 .bf16) (y : S1024x6.Idx) :
    ∃ pc ∈ (kernelRun2_A c i arg2 harg2 arg3 harg3 arg4 harg4 arg5 harg5 hc0 hc1 x0 x1).1, y ∈ pc.1.set :=
  View.cover_of_tiledL (kernelRun2_A c i arg2 harg2 arg3 harg3 arg4 harg4 arg5 harg5 hc0 hc1 x0 x1).1 S1024x6.size (by sl_kernel_rfl) y

/-- So the scratch tile ends at the product of the two blocks added to zero: the reset, read back, is the addend. -/
theorem sread2_A (c : Dev nD) (i : grid2.Coords) (arg2 : Memref sig .tc .vmem S1024x2048 .bf16) (harg2 : arg2.IsWhole) (arg3 : Memref sig .tc .vmem S2048x6 .bf16) (harg3 : arg3.IsWhole) (arg4 : Memref sig .tc .vmem S1024x6 .f32) (harg4 : arg4.IsWhole) (arg5 : Memref sig .tc .vmem S1024x6 .f32) (harg5 : arg5.IsWhole) (hc0 : cond2_0 i) (hc1 : ¬cond2_1 i) (x0 : Vec F S1024x2048 .bf16) (x1 : Vec F S2048x6 .bf16)
    (f : arg5.view.ty.Contents (Elt F)) :
    arg5.view.read (Elt F) (arg5.view.writes (Elt F) f (kernelRun2_A c i arg2 harg2 arg3 harg3 arg4 harg4 arg5 harg5 hc0 hc1 x0 x1).1) = k2_pay2 (k2_pay1 (F := F)) x0 x1 := by
  rw [View.read_writes_eq_canon _ _ _ (scover2_A c i arg2 harg2 arg3 harg3 arg4 harg4 arg5 harg5 hc0 hc1 x0 x1)]
  unfold kernelRun2_A
  dsimp only
  sl_unfold_words
  rw [View.canon_cons_unit_zero (S := S1024x6) hz2, View.readCov_unit_zero (S := S1024x6) _ hz2]
  simp only [View.readAt_eq_ld, harg2.read_unread, harg3.read_unread, harg5.read_unread, View.ld_unit_zero (S := S1024x2048) hz2, View.ld_unit_zero (S := S2048x6) hz2, View.ld_unit_zero (S := S1024x6) hz2]

/-- At an ending point the one store into the scratch tile covers it, -/
theorem scover2_B (c : Dev nD) (i : grid2.Coords) (arg2 : Memref sig .tc .vmem S1024x2048 .bf16) (harg2 : arg2.IsWhole) (arg3 : Memref sig .tc .vmem S2048x6 .bf16) (harg3 : arg3.IsWhole) (arg4 : Memref sig .tc .vmem S1024x6 .f32) (harg4 : arg4.IsWhole) (arg5 : Memref sig .tc .vmem S1024x6 .f32) (harg5 : arg5.IsWhole) (hc0 : ¬cond2_0 i) (hc1 : cond2_1 i) (x0 : Vec F S1024x2048 .bf16) (x1 : Vec F S2048x6 .bf16) (xs0 : Vec F S1024x6 .f32) (y : S1024x6.Idx) :
    ∃ pc ∈ (kernelRun2_B c i arg2 harg2 arg3 harg3 arg4 harg4 arg5 harg5 hc0 hc1 x0 x1 xs0).2.1, y ∈ pc.1.set :=
  View.cover_of_tiledL (kernelRun2_B c i arg2 harg2 arg3 harg3 arg4 harg4 arg5 harg5 hc0 hc1 x0 x1 xs0).2.1 S1024x6.size (by sl_kernel_rfl) y

/-- and the one store into the output tile covers that. -/
theorem ocover2_B (c : Dev nD) (i : grid2.Coords) (arg2 : Memref sig .tc .vmem S1024x2048 .bf16) (harg2 : arg2.IsWhole) (arg3 : Memref sig .tc .vmem S2048x6 .bf16) (harg3 : arg3.IsWhole) (arg4 : Memref sig .tc .vmem S1024x6 .f32) (harg4 : arg4.IsWhole) (arg5 : Memref sig .tc .vmem S1024x6 .f32) (harg5 : arg5.IsWhole) (hc0 : ¬cond2_0 i) (hc1 : cond2_1 i) (x0 : Vec F S1024x2048 .bf16) (x1 : Vec F S2048x6 .bf16) (xs0 : Vec F S1024x6 .f32) (y : S1024x6.Idx) :
    ∃ pc ∈ (kernelRun2_B c i arg2 harg2 arg3 harg3 arg4 harg4 arg5 harg5 hc0 hc1 x0 x1 xs0).1, y ∈ pc.1.set :=
  View.cover_of_tiledL (kernelRun2_B c i arg2 harg2 arg3 harg3 arg4 harg4 arg5 harg5 hc0 hc1 x0 x1 xs0).1 S1024x6.size (by sl_kernel_rfl) y

/-- So the scratch tile ends at the product added to what it held, -/
theorem sread2_B (c : Dev nD) (i : grid2.Coords) (arg2 : Memref sig .tc .vmem S1024x2048 .bf16) (harg2 : arg2.IsWhole) (arg3 : Memref sig .tc .vmem S2048x6 .bf16) (harg3 : arg3.IsWhole) (arg4 : Memref sig .tc .vmem S1024x6 .f32) (harg4 : arg4.IsWhole) (arg5 : Memref sig .tc .vmem S1024x6 .f32) (harg5 : arg5.IsWhole) (hc0 : ¬cond2_0 i) (hc1 : cond2_1 i) (x0 : Vec F S1024x2048 .bf16) (x1 : Vec F S2048x6 .bf16) (xs0 : Vec F S1024x6 .f32)
    (f : arg5.view.ty.Contents (Elt F)) :
    arg5.view.read (Elt F) (arg5.view.writes (Elt F) f (kernelRun2_B c i arg2 harg2 arg3 harg3 arg4 harg4 arg5 harg5 hc0 hc1 x0 x1 xs0).2.1) = k2_pay2 xs0 x0 x1 := by
  rw [View.read_writes_eq_canon _ _ _ (scover2_B c i arg2 harg2 arg3 harg3 arg4 harg4 arg5 harg5 hc0 hc1 x0 x1 xs0)]
  unfold kernelRun2_B
  dsimp only
  sl_unfold_words
  rw [View.canon_unit_zero (S := S1024x6) hz2]
  simp only [View.readAt_eq_ld, harg2.read_unread, harg3.read_unread, harg5.read_unread, View.ld_unit_zero (S := S1024x2048) hz2, View.ld_unit_zero (S := S2048x6) hz2, View.ld_unit_zero (S := S1024x6) hz2]

/-- and the output tile at that, scaled: the scratch tile read back after its store. -/
theorem oread2_B (c : Dev nD) (i : grid2.Coords) (arg2 : Memref sig .tc .vmem S1024x2048 .bf16) (harg2 : arg2.IsWhole) (arg3 : Memref sig .tc .vmem S2048x6 .bf16) (harg3 : arg3.IsWhole) (arg4 : Memref sig .tc .vmem S1024x6 .f32) (harg4 : arg4.IsWhole) (arg5 : Memref sig .tc .vmem S1024x6 .f32) (harg5 : arg5.IsWhole) (hc0 : ¬cond2_0 i) (hc1 : cond2_1 i) (x0 : Vec F S1024x2048 .bf16) (x1 : Vec F S2048x6 .bf16) (xs0 : Vec F S1024x6 .f32)
    (f : arg4.view.ty.Contents (Elt F)) :
    arg4.view.read (Elt F) (arg4.view.writes (Elt F) f (kernelRun2_B c i arg2 harg2 arg3 harg3 arg4 harg4 arg5 harg5 hc0 hc1 x0 x1 xs0).1) = k2_pay3 (k2_pay2 xs0 x0 x1) := by
  rw [View.read_writes_eq_canon _ _ _ (ocover2_B c i arg2 harg2 arg3 harg3 arg4 harg4 arg5 harg5 hc0 hc1 x0 x1 xs0)]
  unfold kernelRun2_B
  dsimp only
  sl_unfold_words
  rw [View.canon_unit_zero (S := S1024x6) hz2, View.readCov_unit_zero (S := S1024x6) _ hz2]
  simp only [View.readAt_eq_ld, harg2.read_unread, harg3.read_unread, harg5.read_unread, View.ld_unit_zero (S := S1024x2048) hz2, View.ld_unit_zero (S := S2048x6) hz2, View.ld_unit_zero (S := S1024x6) hz2]

/-! ## The body at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point. The input tiles hold the point's blocks. At an even point (an accumulation starts) the
    invariant hands over the scratch tile at anything — at the first point from the launch, later forgetting what
    the point before left —, the output window is idle and its tile goes back as found, and the scratch tile comes
    back at the product added to zero. At an odd point (the accumulation ends) the scratch tile is handed over at
    what the point before left and comes back with the product added, and the output tile comes back at that,
    scaled. The core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  have hN : t.val < 8 := lt_of_lt_of_eq t.isLt (show cfg2.N = 8 from N_2)
  by_cases h0 : t.val % 2 = 0
  · have hc0 : cond2_0 (grid2.coords t) := (hcond2_0 t).mpr h0
    have hc1 : ¬cond2_1 (grid2.coords t) := fun h => by have := (hcond2_1 t).mp h; omega
    rw [Dat.leavesExact_idle (dat2 V c) 2 t (idleAt2_2_start t hc0 hc1) (noFlush2_2_start t hc0 hc1)]
    rw [sc2_start V c t h0]
    by_cases hz : t.val = 0
    · rw [PhiS2_castSucc V c t, PhiS2_zero V c _ _ hz, PhiA2_eq]
      iintro ⟨⟨⟨HS0, Hr⟩, Hg⟩, Ho, ⟨%d0, H0⟩, ⟨%d1, H1⟩, ⟨%d2, H2⟩⟩
      iapply ((kernelRun2_A c (grid2.coords t) (ms2_0 t) (hs2_0 t) (ms2_1 t) (hs2_1 t) (ms2_2 t) (hs2_2 t) scM2_0 (Memref.isWhole_whole _) hc0 hc1 (iblk2 V c 0 t) (iblk2 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0]
        · unfold owns; iexists _; isplitr
          swap; · iexact HS0
          ipureintro
          exact sread2_A c (grid2.coords t) (ms2_0 t) (hs2_0 t) (ms2_1 t) (hs2_1 t) (ms2_2 t) (hs2_2 t) scM2_0 (Memref.isWhole_whole _) hc0 hc1 (iblk2 V c 0 t) (iblk2 V c 1 t) es0
        isplitl [Hr]; · iexact Hr
        iexact Hg
      isplitl [Ho]; · iexact Ho
      isplitl [H0]; · iexact H0
      isplitl [H1]; · iexact H1
      iexists _; iexact H2
    · rw [PhiS2_castSucc V c t, PhiS2_pos V c _ _ hz]
      iintro ⟨⟨HS0, Hr, Hg⟩, Ho, ⟨%d0, H0⟩, ⟨%d1, H1⟩, ⟨%d2, H2⟩⟩
      iapply ((kernelRun2_A c (grid2.coords t) (ms2_0 t) (hs2_0 t) (ms2_1 t) (hs2_1 t) (ms2_2 t) (hs2_2 t) scM2_0 (Memref.isWhole_whole _) hc0 hc1 (iblk2 V c 0 t) (iblk2 V c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hr Hg]
      · isplitl [HS0]
        · unfold owns; iexists _; isplitr
          swap; · iexact HS0
          ipureintro
          exact sread2_A c (grid2.coords t) (ms2_0 t) (hs2_0 t) (ms2_1 t) (hs2_1 t) (ms2_2 t) (hs2_2 t) scM2_0 (Memref.isWhole_whole _) hc0 hc1 (iblk2 V c 0 t) (iblk2 V c 1 t) es0
        isplitl [Hr]; · iexact Hr
        iexact Hg
      isplitl [Ho]; · iexact Ho
      isplitl [H0]; · iexact H0
      isplitl [H1]; · iexact H1
      iexists _; iexact H2
  · have h1 : t.val % 2 = 1 := by omega
    have hc0 : ¬cond2_0 (grid2.coords t) := fun h => h0 ((hcond2_0 t).mp h)
    have hc1 : cond2_1 (grid2.coords t) := (hcond2_1 t).mpr h1
    have hz : t.val ≠ 0 := by omega
    rw [show (dat2 V c).leavesExact 2 t = owns (c : Thread nD τ) (ms2_2 t) fullShare ((dat2 V c).after 2 t) from by
      unfold Dat.leavesExact; rw [liveAt2_2_end t hc0 hc1], after2_2]
    unfold out2
    rw [sc2_end V c t h1]
    rw [PhiS2_castSucc V c t, PhiS2_pos V c _ _ hz]
    iintro ⟨⟨HS0, Hr, Hg⟩, Ho, ⟨%d0, H0⟩, ⟨%d1, H1⟩, ⟨%d2, H2⟩⟩
    iapply ((kernelRun2_B c (grid2.coords t) (ms2_0 t) (hs2_0 t) (ms2_1 t) (hs2_1 t) (ms2_2 t) (hs2_2 t) scM2_0 (Memref.isWhole_whole _) hc0 hc1 (iblk2 V c 0 t) (iblk2 V c 1 t)
      (sc2 V c (t.val - 1) (Nat.lt_of_le_of_lt (Nat.sub_le _ _) t.isLt))).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hr Hg]
    · isplitl [HS0]
      · unfold owns; iexists _; isplitr
        swap; · iexact HS0
        ipureintro
        exact sread2_B c (grid2.coords t) (ms2_0 t) (hs2_0 t) (ms2_1 t) (hs2_1 t) (ms2_2 t) (hs2_2 t) scM2_0 (Memref.isWhole_whole _) hc0 hc1 (iblk2 V c 0 t) (iblk2 V c 1 t)
          (sc2 V c (t.val - 1) (Nat.lt_of_le_of_lt (Nat.sub_le _ _) t.isLt)) es0
      isplitl [Hr]; · iexact Hr
      iexact Hg
    isplitl [Ho]; · iexact Ho
    isplitl [H0]; · iexact H0
    isplitl [H1]; · iexact H1
    unfold owns; iexists _; isplitr
    swap; · iexact H2
    ipureintro
    exact oread2_B c (grid2.coords t) (ms2_0 t) (hs2_0 t) (ms2_1 t) (hs2_1 t) (ms2_2 t) (hs2_2 t) scM2_0 (Memref.isWhole_whole _) hc0 hc1 (iblk2 V c 0 t) (iblk2 V c 1 t)
      (sc2 V c (t.val - 1) (Nat.lt_of_le_of_lt (Nat.sub_le _ _) t.isLt)) e2

/-- The body obligation of region 2's pipeline at every grid point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the scoped buffers back at anything. -/
theorem hout2 (c : Dev nD) : (dat2 V c).Φ (Fin.last cfg2.N) ⊢ Pipeline.ΦA spec2 c := by
  have hne : (Fin.last cfg2.N).val ≠ 0 := by rw [Fin.val_last]; have : cfg2.N = 8 := N_2; omega
  rw [show (dat2 V c).Φ (Fin.last cfg2.N) = PhiS2 V c (Fin.last cfg2.N).val (Nat.le_of_lt_succ (Fin.last cfg2.N).isLt) from rfl,
    PhiS2_pos V c _ _ hne, PhiA2_eq]
  iintro ⟨HS0, Hr, Hg⟩
  isplitl [HS0 Hr]
  · isplitl [HS0]
    · iexists _; iexact HS0
    iexact Hr
  iexact Hg

end Cert.Kernel.Hand

end
-- ==== Proof.KRun.lean ====
/-
  The whole program's run: @main is three stretches of host operations and three kernel regions, in turn. The buffer
  contents at each boundary are a fold from the launch memory — a host stretch applies its operations, a region
  leaves its output array at what its write-backs make of it and everything else as entered — and every weakly
  fair execution terminates with every unscoped buffer at the fold's last stage. The eight arguments are written
  by no stretch and no region, so they end as launched.
-/
import proofs.«159061_j38019050504386_1_alg».proof.Proof.KR0Body
import proofs.«159061_j38019050504386_1_alg».proof.Proof.KR1Body
import proofs.«159061_j38019050504386_1_alg».proof.Proof.KR2Body
import proofs.«159061_j38019050504386_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev B0 : Dev nD → Valuation τ sig (Elt F) := fun c b => m (c, b)
/-- After the first host stretch (region 0's entry). -/
abbrev B1 : Dev nD → Valuation τ sig (Elt F) := fun c => StableHlo.after hostOps0 (B0 m c)
abbrev U1 : (c : Dev nD) → (b : Ref sig .tc) → Buf (Elt F) ((c : Thread nD τ).loc b) := fun c b => B1 m c b

/-- At region 0's exit: its arrays at what the pipeline leaves (an input as entered, the output's write-backs folded in),
    every other buffer as entered. -/
def B2 (c : Dev nD) : Valuation τ sig (Elt F) :=
  Pipeline.withArrays spec0 c (B1 m c) fun w => (dat0 (U1 m) c).arrAt w cfg0.N
theorem B2_arr (c : Dev nD) (w : Fin cfg0.W) :
    B2 m c (Proc.devRef .tc (Pipeline.arrRef spec0 w)) = (dat0 (U1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
/-- The same read at the TensorCore's references. -/
abbrev U2 : (c : Dev nD) → (b : Ref sig .tc) → Buf (Elt F) ((c : Thread nD τ).loc b) := fun c b => B2 m c b
theorem hF0 (c : Dev nD) (w : Fin cfg0.W) : (dat0 (U1 m) c).arrAt w cfg0.N = U2 m c (Pipeline.arrRef spec0 w) :=
  (B2_arr m c w).symm
theorem hrest0 (c : Dev nD) : ∀ b, b ∉ Finset.univ.image (Pipeline.arrRef spec0) → U2 m c b = U1 m c b :=
  fun b hb => B2_of_ne m c b fun w e => hb (Finset.mem_image.mpr ⟨w, Finset.mem_univ _, e⟩)

/-- After the second host stretch (region 1's entry). -/
abbrev B3 : Dev nD → Valuation τ sig (Elt F) := fun c => StableHlo.after hostOps1 (B2 m c)
abbrev U3 : (c : Dev nD) → (b : Ref sig .tc) → Buf (Elt F) ((c : Thread nD τ).loc b) := fun c b => B3 m c b

/-- At region 1's exit: its arrays at what the pipeline leaves (an input as entered, the output's write-backs folded in),
    every other buffer as entered. -/
def B4 (c : Dev nD) : Valuation τ sig (Elt F) :=
  Pipeline.withArrays spec1 c (B3 m c) fun w => (dat1 (U3 m) c).arrAt w cfg1.N
theorem B4_arr (c : Dev nD) (w : Fin cfg1.W) :
    B4 m c (Proc.devRef .tc (Pipeline.arrRef spec1 w)) = (dat1 (U3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
/-- The same read at the TensorCore's references. -/
abbrev U4 : (c : Dev nD) → (b : Ref sig .tc) → Buf (Elt F) ((c : Thread nD τ).loc b) := fun c b => B4 m c b
theorem hF1 (c : Dev nD) (w : Fin cfg1.W) : (dat1 (U3 m) c).arrAt w cfg1.N = U4 m c (Pipeline.arrRef spec1 w) :=
  (B4_arr m c w).symm
theorem hrest1 (c : Dev nD) : ∀ b, b ∉ Finset.univ.image (Pipeline.arrRef spec1) → U4 m c b = U3 m c b :=
  fun b hb => B4_of_ne m c b fun w e => hb (Finset.mem_image.mpr ⟨w, Finset.mem_univ _, e⟩)

/-- After the third host stretch (region 2's entry). -/
abbrev B5 : Dev nD → Valuation τ sig (Elt F) := fun c => StableHlo.after hostOps2 (B4 m c)
abbrev U5 : (c : Dev nD) → (b : Ref sig .tc) → Buf (Elt F) ((c : Thread nD τ).loc b) := fun c b => B5 m c b

/-- At region 2's exit: its arrays at what the pipeline leaves (an input as entered, the output's write-backs folded in),
    every other buffer as entered. -/
def B6 (c : Dev nD) : Valuation τ sig (Elt F) :=
  Pipeline.withArrays spec2 c (B5 m c) fun w => (dat2 (U5 m) c).arrAt w cfg2.N
theorem B6_arr (c : Dev nD) (w : Fin cfg2.W) :
    B6 m c (Proc.devRef .tc (Pipeline.arrRef spec2 w)) = (dat2 (U5 m) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m c (Proc.devRef .tc b) = B5 m c (Proc.devRef .tc b) := by
  unfold B6; exact Pipeline.withArrays_of_ne spec2 c _ _ b hb
/-- The same read at the TensorCore's references. -/
abbrev U6 : (c : Dev nD) → (b : Ref sig .tc) → Buf (Elt F) ((c : Thread nD τ).loc b) := fun c b => B6 m c b
theorem hF2 (c : Dev nD) (w : Fin cfg2.W) : (dat2 (U5 m) c).arrAt w cfg2.N = U6 m c (Pipeline.arrRef spec2 w) :=
  (B6_arr m c w).symm
theorem hrest2 (c : Dev nD) : ∀ b, b ∉ Finset.univ.image (Pipeline.arrRef spec2) → U6 m c b = U5 m c b :=
  fun b hb => B6_of_ne m c b fun w e => hb (Finset.mem_image.mpr ⟨w, Finset.mem_univ _, e⟩)

/-! ## The arguments end as launched -/

theorem B6_main_arg0 (c : Dev nD) : B6 m c (Proc.devRef .tc main_arg0) = m ((c : Thread nD τ).loc main_arg0) :=
  (B6_of_ne m c main_arg0 (by decide)).trans <| (StableHlo.after_of_writes_sub hostOps2 _ hostOps2_writes (r := main_arg0) (by decide)).trans <|
  (B4_of_ne m c main_arg0 (by decide)).trans <| (StableHlo.after_of_writes_sub hostOps1 _ hostOps1_writes (r := main_arg0) (by decide)).trans <|
  (B2_of_ne m c main_arg0 (by decide)).trans <| (StableHlo.after_of_writes_sub hostOps0 _ hostOps0_writes (r := main_arg0) (by decide)).trans rfl
theorem B6_main_arg1 (c : Dev nD) : B6 m c (Proc.devRef .tc main_arg1) = m ((c : Thread nD τ).loc main_arg1) :=
  (B6_of_ne m c main_arg1 (by decide)).trans <| (StableHlo.after_of_writes_sub hostOps2 _ hostOps2_writes (r := main_arg1) (by decide)).trans <|
  (B4_of_ne m c main_arg1 (by decide)).trans <| (StableHlo.after_of_writes_sub hostOps1 _ hostOps1_writes (r := main_arg1) (by decide)).trans <|
  (B2_of_ne m c main_arg1 (by decide)).trans <| (StableHlo.after_of_writes_sub hostOps0 _ hostOps0_writes (r := main_arg1) (by decide)).trans rfl
theorem B6_main_arg2 (c : Dev nD) : B6 m c (Proc.devRef .tc main_arg2) = m ((c : Thread nD τ).loc main_arg2) :=
  (B6_of_ne m c main_arg2 (by decide)).trans <| (StableHlo.after_of_writes_sub hostOps2 _ hostOps2_writes (r := main_arg2) (by decide)).trans <|
  (B4_of_ne m c main_arg2 (by decide)).trans <| (StableHlo.after_of_writes_sub hostOps1 _ hostOps1_writes (r := main_arg2) (by decide)).trans <|
  (B2_of_ne m c main_arg2 (by decide)).trans <| (StableHlo.after_of_writes_sub hostOps0 _ hostOps0_writes (r := main_arg2) (by decide)).trans rfl
theorem B6_main_arg3 (c : Dev nD) : B6 m c (Proc.devRef .tc main_arg3) = m ((c : Thread nD τ).loc main_arg3) :=
  (B6_of_ne m c main_arg3 (by decide)).trans <| (StableHlo.after_of_writes_sub hostOps2 _ hostOps2_writes (r := main_arg3) (by decide)).trans <|
  (B4_of_ne m c main_arg3 (by decide)).trans <| (StableHlo.after_of_writes_sub hostOps1 _ hostOps1_writes (r := main_arg3) (by decide)).trans <|
  (B2_of_ne m c main_arg3 (by decide)).trans <| (StableHlo.after_of_writes_sub hostOps0 _ hostOps0_writes (r := main_arg3) (by decide)).trans rfl
theorem B6_main_arg4 (c : Dev nD) : B6 m c (Proc.devRef .tc main_arg4) = m ((c : Thread nD τ).loc main_arg4) :=
  (B6_of_ne m c main_arg4 (by decide)).trans <| (StableHlo.after_of_writes_sub hostOps2 _ hostOps2_writes (r := main_arg4) (by decide)).trans <|
  (B4_of_ne m c main_arg4 (by decide)).trans <| (StableHlo.after_of_writes_sub hostOps1 _ hostOps1_writes (r := main_arg4) (by decide)).trans <|
  (B2_of_ne m c main_arg4 (by decide)).trans <| (StableHlo.after_of_writes_sub hostOps0 _ hostOps0_writes (r := main_arg4) (by decide)).trans rfl
theorem B6_main_arg5 (c : Dev nD) : B6 m c (Proc.devRef .tc main_arg5) = m ((c : Thread nD τ).loc main_arg5) :=
  (B6_of_ne m c main_arg5 (by decide)).trans <| (StableHlo.after_of_writes_sub hostOps2 _ hostOps2_writes (r := main_arg5) (by decide)).trans <|
  (B4_of_ne m c main_arg5 (by decide)).trans <| (StableHlo.after_of_writes_sub hostOps1 _ hostOps1_writes (r := main_arg5) (by decide)).trans <|
  (B2_of_ne m c main_arg5 (by decide)).trans <| (StableHlo.after_of_writes_sub hostOps0 _ hostOps0_writes (r := main_arg5) (by decide)).trans rfl
theorem B6_main_arg6 (c : Dev nD) : B6 m c (Proc.devRef .tc main_arg6) = m ((c : Thread nD τ).loc main_arg6) :=
  (B6_of_ne m c main_arg6 (by decide)).trans <| (StableHlo.after_of_writes_sub hostOps2 _ hostOps2_writes (r := main_arg6) (by decide)).trans <|
  (B4_of_ne m c main_arg6 (by decide)).trans <| (StableHlo.after_of_writes_sub hostOps1 _ hostOps1_writes (r := main_arg6) (by decide)).trans <|
  (B2_of_ne m c main_arg6 (by decide)).trans <| (StableHlo.after_of_writes_sub hostOps0 _ hostOps0_writes (r := main_arg6) (by decide)).trans rfl
theorem B6_main_arg7 (c : Dev nD) : B6 m c (Proc.devRef .tc main_arg7) = m ((c : Thread nD τ).loc main_arg7) :=
  (B6_of_ne m c main_arg7 (by decide)).trans <| (StableHlo.after_of_writes_sub hostOps2 _ hostOps2_writes (r := main_arg7) (by decide)).trans <|
  (B4_of_ne m c main_arg7 (by decide)).trans <| (StableHlo.after_of_writes_sub hostOps1 _ hostOps1_writes (r := main_arg7) (by decide)).trans <|
  (B2_of_ne m c main_arg7 (by decide)).trans <| (StableHlo.after_of_writes_sub hostOps0 _ hostOps0_writes (r := main_arg7) (by decide)).trans rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
  | ⟨2, _⟩ => fun c => dat2 (U5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register at some state. -/
abbrev Tₙ (c : Dev nD) : sProp 𝕄 := iprop(StableHlo.held (c : Thread nD τ) (Pipeline.ucRefs τ sig) (B6 m c) ∗ ∃ r, prngReg c r)

/-! ## The regions as segments -/

set_option backward.isDefEq.respectTransparency.types false in
/-- Region 0 over the thread state: entered with every unscoped buffer at `B1`, left with them at `B2`. Its
    arrays are split out of the unscoped buffers and put back at what the write-backs leave; the generator register and the
    scoped buffers go into the region's invariant and come back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (U1 m) c).Φ 0 from rfl]
    have key : ∀ {P : sProp 𝕄}, (P ⊢ Pipeline.ΦA spec0 c) → (P ⊢ (dat0 (U1 m) c).Φ 0) := fun h => h.trans (hin0 (U1 m) c)
    refine key ?_
    unfold Pipeline.ΦA
    iintro ⟨Hp, -, Hr⟩
    isplitl [Hr]; · iexact Hr
    iexact Hp
  hout c := by
    rw [Pipeline.ownSems0_none, show (pdats m 0 c).Φ (Fin.last _) = (dat0 (U1 m) c).Φ (Fin.last cfg0.N) from rfl]
    have key : ∀ {Q : sProp 𝕄}, (Pipeline.ΦA spec0 c ⊢ Q) → ((dat0 (U1 m) c).Φ (Fin.last cfg0.N) ⊢ Q) := fun h => (hout0 (U1 m) c).trans h
    refine key ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `B3`, left with them at `B4`. Its
    arrays are split out of the unscoped buffers and put back at what the write-backs leave; the generator register and the
    scoped buffers go into the region's invariant and come back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (B3 m c) ∗ R c)
  post c := iprop(StableHlo.held (c : Thread nD τ) (Pipeline.ucRefs τ sig) (B4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (U3 m) c).Φ 0 from rfl]
    have key : ∀ {P : sProp 𝕄}, (P ⊢ Pipeline.ΦA spec1 c) → (P ⊢ (dat1 (U3 m) c).Φ 0) := fun h => h.trans (hin1 (U3 m) c)
    refine key ?_
    unfold Pipeline.ΦA
    iintro ⟨Hp, -, Hr⟩
    isplitl [Hr]; · iexact Hr
    iexact Hp
  hout c := by
    rw [Pipeline.ownSems0_none, show (pdats m 1 c).Φ (Fin.last _) = (dat1 (U3 m) c).Φ (Fin.last cfg1.N) from rfl]
    have key : ∀ {Q : sProp 𝕄}, (Pipeline.ΦA spec1 c ⊢ Q) → ((dat1 (U3 m) c).Φ (Fin.last cfg1.N) ⊢ Q) := fun h => (hout1 (U3 m) c).trans h
    refine key ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `B5`, left with them at `B6`. Its
    arrays are split out of the unscoped buffers and put back at what the write-backs leave; the generator register and the
    scoped buffers go into the region's invariant and come back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m) c).loose
  hwaits := Pipeline.hwaits_of_owed_zero _ _ _ _ L lv 2 fun _ _ => rfl
  pre c := iprop(StableHlo.held (c : Thread nD τ) (Pipeline.ucRefs τ sig) (B5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (U5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (U5 m) c).Φ 0 from rfl]
    have key : ∀ {P : sProp 𝕄}, (P ⊢ Pipeline.ΦA spec2 c) → (P ⊢ (dat2 (U5 m) c).Φ 0) := fun h => h.trans (hin2 (U5 m) c)
    refine key ?_
    unfold Pipeline.ΦA
    iintro ⟨Hp, -, Hr⟩
    isplitl [Hr]; · iexact Hr
    iexact Hp
  hout c := by
    rw [Pipeline.ownSems0_none, show (pdats m 2 c).Φ (Fin.last _) = (dat2 (U5 m) c).Φ (Fin.last cfg2.N) from rfl]
    have key : ∀ {Q : sProp 𝕄}, (Pipeline.ΦA spec2 c ⊢ Q) → ((dat2 (U5 m) c).Φ (Fin.last cfg2.N) ⊢ Q) := fun h => (hout2 (U5 m) c).trans h
    refine key ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U5 m c) (U6 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's six segments in order. -/
abbrev segs : List (Pipeline.Seg (pcfgs (F := F)) adm (pdats m) () defs₀ 𝒱₀ L lv) :=
  [ .host (hseg hostOps0 hostOps0_sub hostOps0_fresh (B0 m)),
    .region (reg0 m),
    .host (hseg hostOps1 hostOps1_sub hostOps1_fresh (B2 m)),
    .region (reg1 m),
    .host (hseg hostOps2 hostOps2_sub hostOps2_fresh (B4 m)),
    .region (reg2 m) ]
/-- @main is the run of the segments. -/
theorem main_run (c : Dev nD) : main (F := F) c = Pipeline.Seg.run (segs m) := (main_chain c).trans (by chain_rfl)

set_option backward.isDefEq.respectTransparency.types false in
/-- From any memory with zero counters every weakly fair execution of @main terminates, nothing faulting, and every
    final state has every unscoped buffer at the last boundary's contents `B6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B6 m c b)
    (hfin := fun c s' => by
      iintro ⟨⟨Hh, -⟩, HSI⟩
      unfold StableHlo.held
      imodintro
      iapply (pointsTo_read_all (Pipeline.ucRefs τ sig) (fun b => (((c : Thread nD τ)).1, b)) (B6 m c) s')
      isplitl [Hh] <;> iassumption)
    (hQ := fun s h c => h c)

/-- The frame: the eight argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (B6_main_arg0 m c),
     (h c _ (mem_uc main_arg1 (by decide))).trans (B6_main_arg1 m c),
     (h c _ (mem_uc main_arg2 (by decide))).trans (B6_main_arg2 m c),
     (h c _ (mem_uc main_arg3 (by decide))).trans (B6_main_arg3 m c),
     (h c _ (mem_uc main_arg4 (by decide))).trans (B6_main_arg4 m c),
     (h c _ (mem_uc main_arg5 (by decide))).trans (B6_main_arg5 m c),
     (h c _ (mem_uc main_arg6 (by decide))).trans (B6_main_arg6 m c),
     (h c _ (mem_uc main_arg7 (by decide))).trans (B6_main_arg7 m c)⟩) (run_all m ρ)

end Cert.Kernel.Hand

end
-- ==== Proof.R0Base.lean ====
/-
  Region 0 of the program (the projection q = x · Wᵀ + b, a 4 × 4 grid of 1024 × 1024 output tiles, each
  accumulated over two halves of the contracted axis in a scratch tile): the blocks the pipeline hands the body,
  what the scratch tile holds after each grid point, what the body stores into the output tile at the points
  that end an accumulation, the region's invariant and its proof data — all as explicit functions of the
  arrays as the region finds them (`V`).
-/
import proofs.«159061_j38019050504386_1_alg».proof.Proof.Gen.KernelIdeal.Launch
import proofs.«159061_j38019050504386_1_alg».proof.Proof.Gen.KernelIdeal.Skeleton
import proofs.«159061_j38019050504386_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The two branch conditions of the body, decided over the grid

The last grid axis (extent 2) runs fastest, so an even point starts an accumulation (the scratch tile is reset)
and an odd point ends it (the output tile is stored). -/

/-- The body's first `scf.if`: the contracted-axis coordinate is 0. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 2 = 0 :=
  (by decide +kernel : ∀ t : Fin grid0.N, cond0_0 (grid0.coords t) ↔ t.val % 2 = 0)
/-- The body's second `scf.if`: the contracted-axis coordinate is the last one. -/
abbrev cond0_1 (i : grid0.Coords) : Prop := k0_cond2 i = 1#1
theorem hcond0_1 : ∀ t : Fin cfg0.N, cond0_1 (grid0.coords t) ↔ t.val % 2 = 1 :=
  (by decide +kernel : ∀ t : Fin grid0.N, cond0_1 (grid0.coords t) ↔ t.val % 2 = 1)

/-! ## The memrefs the body is called with -/

abbrev ms0_0 (t : Fin cfg0.N) : Memref sig .tc .vmem S1024x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
/-- The scratch tile: a whole scoped buffer of the kernel's own. -/
abbrev scM0_0 : Memref sig .tc .vmem S1024x1024 .f32 := Memref.whole cc0_scratch0

/-! ## What the scratch tile and the output tile hold -/

/-- The scratch tile after the body at point `n`: the product of the point's two blocks added to zero at an even
    point, to what the point before left at an odd one. -/
def sc0 (c : Dev nD) : (n : ℕ) → n < cfg0.N → Vec F S1024x1024 .f32
  | 0, hn => k0_pay2 (k0_pay1 (F := F)) (iblk0 V c 0 ⟨0, hn⟩) (iblk0 V c 1 ⟨0, hn⟩)
  | n + 1, hn => k0_pay2 (if (n + 1) % 2 = 0 then k0_pay1 (F := F) else sc0 c n (Nat.lt_of_succ_lt hn))
      (iblk0 V c 0 ⟨n + 1, hn⟩) (iblk0 V c 1 ⟨n + 1, hn⟩)

/-- What the body stores into the output tile at a point that ends an accumulation: the scratch tile plus the bias row. -/
def out0 (c : Dev nD) (t : Fin cfg0.N) : Vec F S1024x1024 .bf16 :=
  k0_pay3 (sc0 V c t.val t.isLt) (iblk0 V c 2 t)

/-! ## The invariant -/

/-- The scoped buffers the region never opens: every scoped buffer but its own staging buffers and its scratch tile. -/
abbrev rest0 (c : Dev nD) : sProp 𝕄 :=
  Pipeline.scopedRestBut (Ix := Unit) (Name := ℕ) (U := UR sig nD τ) (Lvl := ℕ) (Val := Elt F) spec0 c [cc0_scratch0]

/-- Before the first point every scoped buffer is at anything; after point `n` the scratch tile holds `sc0 n`. -/
def PhiS0 (c : Dev nD) : (n : ℕ) → n ≤ cfg0.N → sProp 𝕄
  | 0, _ => Pipeline.ΦA spec0 c
  | n + 1, hn => iprop(owns (c : Thread nD τ) scM0_0 fullShare (sc0 V c n hn) ∗ rest0 (F := F) c ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(owns (c : Thread nD τ) scM0_0 fullShare (sc0 V c n hn) ∗ rest0 (F := F) c ∗ (∃ r, prngReg c r)) := rfl
theorem PhiS0_pos (c : Dev nD) (n : ℕ) (h : n ≤ cfg0.N) (hz : n ≠ 0) :
    PhiS0 V c n h = iprop(owns (c : Thread nD τ) scM0_0 fullShare (sc0 V c (n - 1) (by omega)) ∗ rest0 (F := F) c ∗ (∃ r, prngReg c r)) := by
  cases n with
  | zero => exact absurd rfl hz
  | succ n => rfl

/-! ## The proof data -/

/-- The region's proof data on core `c`: the arrays as found; after the body each input window's buffer at its block,
    the output window's at `out0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0 V c t := by dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]

end Cert.KernelIdeal.Hand

end
-- ==== Proof.R0RunA.lean ====
/-
  Region 0, the body at a point that starts an accumulation (the contracted-axis coordinate is 0 and is not the
  last): the scratch tile is reset to zero and the product of the two input tiles is added to it; the bias row
  and the output tile are not touched.
-/
import proofs.«159061_j38019050504386_1_alg».proof.Proof.R0Base
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The offsets of every rectangle of the body are zero. -/
theorem hz0 : (![0, 0] : Fin 2 → Nat) = fun _ => 0 := funext fun a => by fin_cases a <;> rfl

set_option maxHeartbeats 1000000 in
/-- The body run on whole memrefs at a point that starts an accumulation: from the two input tiles at `x0`, `x1`
    and the scratch tile at anything, to the input tiles as they were and the scratch tile with the pieces the
    two stores wrote (the witness, last store first). -/
noncomputable def kernelRun0_A (c : Dev nD) (i : grid0.Coords)
    (arg3 : Memref sig .tc .vmem S1024x2048 .bf16) (harg3 : arg3.IsWhole)
    (arg4 : Memref sig .tc .vmem S2048x1024 .bf16) (harg4 : arg4.IsWhole)
    (arg5 : Memref sig .tc .vmem S1x1024 .f32) (harg5 : arg5.IsWhole)
    (arg6 : Memref sig .tc .vmem S1024x1024 .bf16) (harg6 : arg6.IsWhole)
    (arg7 : Memref sig .tc .vmem S1024x1024 .f32) (harg7 : arg7.IsWhole)
    (hc0 : cond0_0 i) (hc1 : ¬cond0_1 i)
    (x0 : Vec F S1024x2048 .bf16) (x1 : Vec F S2048x1024 .bf16) :
    { LS0 : List (View.Piece (Elt F) S1024x1024 .f32) //
      ∀ (E : Set ℕ) (K : PUnit → sProp 𝕄),
        iprop(owns (c : Thread nD τ) arg3 fullShare x0 ∗ owns (c : Thread nD τ) arg4 fullShare x1
            ∗ (∃ d, owns (c : Thread nD τ) arg7 fullShare d)
            ∗ (iprop(owns (c : Thread nD τ) arg3 fullShare x0 ∗ owns (c : Thread nD τ) arg4 fullShare x1
                ∗ (∃ f, arg7.view.loc (c : Thread nD τ) ↦[arg7.view.set]{fullShare} arg7.view.writes (Elt F) f LS0)) -∗ K ⟨⟩))
          ⊢ wp frame (wpE (defs₀ (F := F)) Variants.none c none) E (cc0__qmm_kernel i arg3 harg3 arg4 harg4 arg5 harg5 arg6 harg6 arg7 harg7) K } := by
  refine ⟨?_, fun E K => ?run⟩
  case run =>
    simp only [cc0__qmm_kernel_eq_skeleton]; unfold cc0__qmm_kernel_skel
    unfold owns
    iintro ⟨⟨%f0, %hf0, H0⟩, ⟨%f1, %hf1, H1⟩, ⟨%ds0, %fs0, -, HS0⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact HS0

/-- The two stores of such a point cover the scratch tile. -/
theorem scover0_A (c : Dev nD) (i : grid0.Coords)
    (arg3 : Memref sig .tc .vmem S1024x2048 .bf16) (harg3 : arg3.IsWhole)
    (arg4 : Memref sig .tc .vmem S2048x1024 .bf16) (harg4 : arg4.IsWhole)
    (arg5 : Memref sig .tc .vmem S1x1024 .f32) (harg5 : arg5.IsWhole)
    (arg6 : Memref sig .tc .vmem S1024x1024 .bf16) (harg6 : arg6.IsWhole)
    (arg7 : Memref sig .tc .vmem S1024x1024 .f32) (harg7 : arg7.IsWhole)
    (hc0 : cond0_0 i) (hc1 : ¬cond0_1 i)
    (x0 : Vec F S1024x2048 .bf16) (x1 : Vec F S2048x1024 .bf16) (y : S1024x1024.Idx) :
    ∃ pc ∈ (kernelRun0_A c i arg3 harg3 arg4 harg4 arg5 harg5 arg6 harg6 arg7 harg7 hc0 hc1 x0 x1).1, y ∈ pc.1.set :=
  View.cover_of_tiledL (kernelRun0_A c i arg3 harg3 arg4 harg4 arg5 harg5 arg6 harg6 arg7 harg7 hc0 hc1 x0 x1).1 S1024x1024.size (by sl_kernel_rfl) y

/-- What they leave there: the product of the two input tiles added to the zero tile. -/
theorem canon0_A (c : Dev nD) (i : grid0.Coords)
    (arg3 : Memref sig .tc .vmem S1024x2048 .bf16) (harg3 : arg3.IsWhole)
    (arg4 : Memref sig .tc .vmem S2048x1024 .bf16) (harg4 : arg4.IsWhole)
    (arg5 : Memref sig .tc .vmem S1x1024 .f32) (harg5 : arg5.IsWhole)
    (arg6 : Memref sig .tc .vmem S1024x1024 .bf16) (harg6 : arg6.IsWhole)
    (arg7 : Memref sig .tc .vmem S1024x1024 .f32) (harg7 : arg7.IsWhole)
    (hc0 : cond0_0 i) (hc1 : ¬cond0_1 i)
    (x0 : Vec F S1024x2048 .bf16) (x1 : Vec F S2048x1024 .bf16) :
    View.canon (kernelRun0_A c i arg3 harg3 arg4 harg4 arg5 harg5 arg6 harg6 arg7 harg7 hc0 hc1 x0 x1).1
      = k0_pay2 (k0_pay1 (F := F)) x0 x1 := by
  unfold kernelRun0_A
  dsimp only
  sl_unfold_words
  rw [View.canon_cons_unit_zero (S := S1024x1024) hz0, View.readCov_unit_zero (S := S1024x1024) _ hz0]
  simp only [View.readAt_eq_ld, harg3.read_unread, harg4.read_unread, View.ld_unit_zero (S := S1024x2048) hz0,
    View.ld_unit_zero (S := S2048x1024) hz0]

end Cert.KernelIdeal.Hand

end
-- ==== Proof.R0RunB.lean ====
/-
  Region 0, the body at a point that ends an accumulation (the contracted-axis coordinate is the last one and is
  not 0): the product of the two input tiles is added to what the point before left in the scratch tile, and the
  scratch tile plus the bias row is stored into the output tile.
-/
import proofs.«159061_j38019050504386_1_alg».proof.Proof.R0RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body run on whole memrefs at a point that ends an accumulation: from the two input tiles at `x0`, `x1`, the
    bias row at `x2`, the output tile at anything and the scratch tile at `xs0`, to the inputs as they were and
    the output tile and the scratch tile with the pieces the stores wrote (the witnesses, last store first). -/
noncomputable def kernelRun0_B (c : Dev nD) (i : grid0.Coords)
    (arg3 : Memref sig .tc .vmem S1024x2048 .bf16) (harg3 : arg3.IsWhole)
    (arg4 : Memref sig .tc .vmem S2048x1024 .bf16) (harg4 : arg4.IsWhole)
    (arg5 : Memref sig .tc .vmem S1x1024 .f32) (harg5 : arg5.IsWhole)
    (arg6 : Memref sig .tc .vmem S1024x1024 .bf16) (harg6 : arg6.IsWhole)
    (arg7 : Memref sig .tc .vmem S1024x1024 .f32) (harg7 : arg7.IsWhole)
    (hc0 : ¬cond0_0 i) (hc1 : cond0_1 i)
    (x0 : Vec F S1024x2048 .bf16) (x1 : Vec F S2048x1024 .bf16) (x2 : Vec F S1x1024 .f32) (xs0 : Vec F S1024x1024 .f32) :
    Σ' (L3 : List (View.Piece (Elt F) S1024x1024 .bf16)), { LS0 : List (View.Piece (Elt F) S1024x1024 .f32) //
      ∀ (E : Set ℕ) (K : PUnit → sProp 𝕄),
        iprop(owns (c : Thread nD τ) arg3 fullShare x0 ∗ owns (c : Thread nD τ) arg4 fullShare x1
            ∗ owns (c : Thread nD τ) arg5 fullShare x2 ∗ (∃ d, owns (c : Thread nD τ) arg6 fullShare d)
            ∗ owns (c : Thread nD τ) arg7 fullShare xs0
            ∗ (iprop(owns (c : Thread nD τ) arg3 fullShare x0 ∗ owns (c : Thread nD τ) arg4 fullShare x1
                ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)) -∗ K ⟨⟩))
          ⊢ wp frame (wpE (defs₀ (F := F)) Variants.none c none) E (cc0__qmm_kernel i arg3 harg3 arg4 harg4 arg5 harg5 arg6 harg6 arg7 harg7) K } := by
  refine ⟨?_, ?_, fun E K => ?run⟩
  case run =>
    simp only [cc0__qmm_kernel_eq_skeleton]; unfold cc0__qmm_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2
    obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

/-- The one store into the scratch tile at such a point covers it. -/
theorem scover0_B (c : Dev nD) (i : grid0.Coords)
    (arg3 : Memref sig .tc .vmem S1024x2048 .bf16) (harg3 : arg3.IsWhole)
    (arg4 : Memref sig .tc .vmem S2048x1024 .bf16) (harg4 : arg4.IsWhole)
    (arg5 : Memref sig .tc .vmem S1x1024 .f32) (harg5 : arg5.IsWhole)
    (arg6 : Memref sig .tc .vmem S1024x1024 .bf16) (harg6 : arg6.IsWhole)
    (arg7 : Memref sig .tc .vmem S1024x1024 .f32) (harg7 : arg7.IsWhole)
    (hc0 : ¬cond0_0 i) (hc1 : cond0_1 i)
    (x0 : Vec F S1024x2048 .bf16) (x1 : Vec F S2048x1024 .bf16) (x2 : Vec F S1x1024 .f32) (xs0 : Vec F S1024x1024 .f32)
    (y : S1024x1024.Idx) :
    ∃ pc ∈ (kernelRun0_B c i arg3 harg3 arg4 harg4 arg5 harg5 arg6 harg6 arg7 harg7 hc0 hc1 x0 x1 x2 xs0).2.1, y ∈ pc.1.set :=
  View.cover_of_tiledL (kernelRun0_B c i arg3 harg3 arg4 harg4 arg5 harg5 arg6 harg6 arg7 harg7 hc0 hc1 x0 x1 x2 xs0).2.1 S1024x1024.size (by sl_kernel_rfl) y

/-- The one store into the output tile covers it. -/
theorem cover0_B (c : Dev nD) (i : grid0.Coords)
    (arg3 : Memref sig .tc .vmem S1024x2048 .bf16) (harg3 : arg3.IsWhole)
    (arg4 : Memref sig .tc .vmem S2048x1024 .bf16) (harg4 : arg4.IsWhole)
    (arg5 : Memref sig .tc .vmem S1x1024 .f32) (harg5 : arg5.IsWhole)
    (arg6 : Memref sig .tc .vmem S1024x1024 .bf16) (harg6 : arg6.IsWhole)
    (arg7 : Memref sig .tc .vmem S1024x1024 .f32) (harg7 : arg7.IsWhole)
    (hc0 : ¬cond0_0 i) (hc1 : cond0_1 i)
    (x0 : Vec F S1024x2048 .bf16) (x1 : Vec F S2048x1024 .bf16) (x2 : Vec F S1x1024 .f32) (xs0 : Vec F S1024x1024 .f32)
    (y : S1024x1024.Idx) :
    ∃ pc ∈ (kernelRun0_B c i arg3 harg3 arg4 harg4 arg5 harg5 arg6 harg6 arg7 harg7 hc0 hc1 x0 x1 x2 xs0).1, y ∈ pc.1.set :=
  View.cover_of_tiledL (kernelRun0_B c i arg3 harg3 arg4 harg4 arg5 harg5 arg6 harg6 arg7 harg7 hc0 hc1 x0 x1 x2 xs0).1 S1024x1024.size (by sl_kernel_rfl) y

/-- What the scratch tile is left at: the product of the two input tiles added to what it held. -/
theorem scanon0_B (c : Dev nD) (i : grid0.Coords)
    (arg3 : Memref sig .tc .vmem S1024x2048 .bf16) (harg3 : arg3.IsWhole)
    (arg4 : Memref sig .tc .vmem S2048x1024 .bf16) (harg4 : arg4.IsWhole)
    (arg5 : Memref sig .tc .vmem S1x1024 .f32) (harg5 : arg5.IsWhole)
    (arg6 : Memref sig .tc .vmem S1024x1024 .bf16) (harg6 : arg6.IsWhole)
    (arg7 : Memref sig .tc .vmem S1024x1024 .f32) (harg7 : arg7.IsWhole)
    (hc0 : ¬cond0_0 i) (hc1 : cond0_1 i)
    (x0 : Vec F S1024x2048 .bf16) (x1 : Vec F S2048x1024 .bf16) (x2 : Vec F S1x1024 .f32) (xs0 : Vec F S1024x1024 .f32) :
    View.canon (kernelRun0_B c i arg3 harg3 arg4 harg4 arg5 harg5 arg6 harg6 arg7 harg7 hc0 hc1 x0 x1 x2 xs0).2.1 = k0_pay2 xs0 x0 x1 := by
  unfold kernelRun0_B
  dsimp only
  sl_unfold_words
  rw [View.canon_unit_zero hz0]
  simp only [View.readAt_eq_ld, harg3.read_unread, harg4.read_unread, harg7.read_unread,
    View.ld_unit_zero (S := S1024x1024) hz0, View.ld_unit_zero (S := S1024x2048) hz0, View.ld_unit_zero (S := S2048x1024) hz0]

/-- What the output tile is left at: that scratch tile plus the bias row. -/
theorem canon0_B (c : Dev nD) (i : grid0.Coords)
    (arg3 : Memref sig .tc .vmem S1024x2048 .bf16) (harg3 : arg3.IsWhole)
    (arg4 : Memref sig .tc .vmem S2048x1024 .bf16) (harg4 : arg4.IsWhole)
    (arg5 : Memref sig .tc .vmem S1x1024 .f32) (harg5 : arg5.IsWhole)
    (arg6 : Memref sig .tc .vmem S1024x1024 .bf16) (harg6 : arg6.IsWhole)
    (arg7 : Memref sig .tc .vmem S1024x1024 .f32) (harg7 : arg7.IsWhole)
    (hc0 : ¬cond0_0 i) (hc1 : cond0_1 i)
    (x0 : Vec F S1024x2048 .bf16) (x1 : Vec F S2048x1024 .bf16) (x2 : Vec F S1x1024 .f32) (xs0 : Vec F S1024x1024 .f32) :
    View.canon (kernelRun0_B c i arg3 harg3 arg4 harg4 arg5 harg5 arg6 harg6 arg7 harg7 hc0 hc1 x0 x1 x2 xs0).1 = k0_pay3 (k0_pay2 xs0 x0 x1) x2 := by
  unfold kernelRun0_B
  dsimp only
  sl_unfold_words
  rw [View.canon_unit_zero hz0]
  simp only [View.readAt_eq_ld, harg3.read_unread, harg4.read_unread, harg5.read_unread, harg7.read_unread,
    View.readCov_unit_zero (S := S1024x1024) _ hz0,
    View.ld_unit_zero (S := S1024x1024) hz0, View.ld_unit_zero (S := S1024x2048) hz0, View.ld_unit_zero (S := S2048x1024) hz0,
    View.ld_unit_zero (S := S1x1024) hz0]

end Cert.KernelIdeal.Hand

end
-- ==== Proof.R0Body.lean ====
/-
  Region 0: the body run at every grid point against the region's proof data.
-/
import proofs.«159061_j38019050504386_1_alg».proof.Proof.R0RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The invariant before the first point, with the scratch tile split off -/

/-- What the launch hands the region: the scratch tile at anything, the scoped buffers the region never opens, and
    the generator register at some state. -/
theorem PhiA0_eq (c : Dev nD) :
    (Pipeline.ΦA spec0 c : sProp 𝕄)
      = iprop(((∃ d, owns (c : Thread nD τ) scM0_0 fullShare d) ∗ rest0 (F := F) c) ∗ (∃ r, prngReg c r)) := by
  unfold Pipeline.ΦA
  rw [Pipeline.scopedRest_split_of_list spec0 c [cc0_scratch0] (by decide) (by decide)]
  simp only [bigSepL_singleton, scM0_0, owns_whole]
  try rfl

/-! ## Where the windows are idle and where the output tile is written back -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- At a point that starts an accumulation the output tile is idle, -/
theorem idleAt0_3_A : ∀ t : Fin cfg0.N, cond0_0 (grid0.coords t) → ¬cond0_1 (grid0.coords t) → cfg0.idle 3 (grid0.coords t) = true := by decide +kernel
/-- and is not written back. -/
theorem noFlush0_3_A : ∀ t : Fin cfg0.N, cond0_0 (grid0.coords t) → ¬cond0_1 (grid0.coords t) → (cfg0.win 3).flush t = false := by decide +kernel
/-- At a point that ends one it is live. -/
theorem liveAt0_3_B : ∀ t : Fin cfg0.N, ¬cond0_0 (grid0.coords t) → cond0_1 (grid0.coords t) → cfg0.idle 3 (grid0.coords t) = false := by decide +kernel

/-! ## What the body finds in the input windows' buffers -/

/-- Input window 0's buffer holds its block at every point, for any proof data over the arrays as found whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same of input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The same of input window 2 (the bias row), which is fetched only where its block index moves: at the other points
    its buffer still holds the same block. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The scratch tile's contents at a point of each kind -/

/-- At a point that starts an accumulation: the product added to the zero tile. -/
theorem sc0_even (c : Dev nD) (t : Fin cfg0.N) (h : t.val % 2 = 0) :
    sc0 V c t.val t.isLt = k0_pay2 (k0_pay1 (F := F)) (iblk0 V c 0 t) (iblk0 V c 1 t) := by
  obtain ⟨n, hn⟩ := t
  cases n with
  | zero => rfl
  | succ n =>
    show k0_pay2 (if (n + 1) % 2 = 0 then k0_pay1 (F := F) else sc0 V c n (Nat.lt_of_succ_lt hn)) _ _ = _
    rw [if_pos h]

/-- At a point that ends one: the product added to what the point before left. -/
theorem sc0_odd (c : Dev nD) (t : Fin cfg0.N) (h : t.val % 2 = 1) :
    sc0 V c t.val t.isLt
      = k0_pay2 (sc0 V c (t.val - 1) (Nat.lt_of_le_of_lt (Nat.sub_le _ _) t.isLt)) (iblk0 V c 0 t) (iblk0 V c 1 t) := by
  obtain ⟨n, hn⟩ := t
  cases n with
  | zero => exact absurd (show (0 : ℕ) % 2 = 1 from h) (by decide)
  | succ n =>
    have h' : (n + 1) % 2 = 1 := h
    show k0_pay2 (if (n + 1) % 2 = 0 then k0_pay1 (F := F) else sc0 V c n (Nat.lt_of_succ_lt hn)) _ _ = _
    rw [if_neg (by omega)]
    rfl

/-! ## The body obligation at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The input windows' buffers hold their blocks; the parity of the point says which of the
    two control cases it is in. At an even point the invariant hands over the scratch tile at anything (what the
    launch left, or what the accumulation before ended with) and takes it back at the product added to zero, the
    output tile's buffer going back as found; at an odd point it hands the scratch tile over at what the point
    before left and takes it back with the product added, the output tile's buffer at that plus the bias row. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  have hN : t.val < 32 := lt_of_lt_of_eq t.isLt (show cfg0.N = 32 from N_0)
  by_cases h0 : t.val % 2 = 0
  · have hc0 : cond0_0 (grid0.coords t) := (hcond0_0 t).mpr h0
    have hc1 : ¬cond0_1 (grid0.coords t) := fun h => by have := (hcond0_1 t).mp h; omega
    rw [Dat.leavesExact_idle (dat0 V c) 3 t (idleAt0_3_A t hc0 hc1) (noFlush0_3_A t hc0 hc1)]
    rw [sc0_even V c t h0]
    by_cases hz : t.val = 0
    · rw [PhiS0_castSucc V c t, PhiS0_zero V c _ _ hz, PhiA0_eq]
      iintro ⟨⟨⟨HS0, Hr⟩, Hg⟩, Ho, ⟨%d0, H0⟩, ⟨%d1, H1⟩, ⟨%d2, H2⟩, ⟨%d3, H3⟩⟩
      iapply ((kernelRun0_A c (grid0.coords t) (ms0_0 t) (hs0_0 t) (ms0_1 t) (hs0_1 t) (ms0_2 t) (hs0_2 t) (ms0_3 t) (hs0_3 t) scM0_0 (Memref.isWhole_whole _) hc0 hc1 (iblk0 V c 0 t) (iblk0 V c 1 t)).2 Set.univ _)
      isplitl [H0]; · iexact H0
      isplitl [H1]; · iexact H1
      isplitl [HS0]; · iexact HS0
      iintro ⟨H0, H1, ⟨%es0, HS0⟩⟩
      isplitl [HS0 Hr Hg]
      · isplitl [HS0]
        · unfold owns; iexists _; isplitr
          swap; · iexact HS0
          ipureintro
          rw [View.read_writes_eq_canon _ _ _ (scover0_A c (grid0.coords t) (ms0_0 t) (hs0_0 t) (ms0_1 t) (hs0_1 t) (ms0_2 t) (hs0_2 t) (ms0_3 t) (hs0_3 t) scM0_0 (Memref.isWhole_whole _) hc0 hc1 (iblk0 V c 0 t) (iblk0 V c 1 t))]
          exact canon0_A c (grid0.coords t) (ms0_0 t) (hs0_0 t) (ms0_1 t) (hs0_1 t) (ms0_2 t) (hs0_2 t) (ms0_3 t) (hs0_3 t) scM0_0 (Memref.isWhole_whole _) hc0 hc1 (iblk0 V c 0 t) (iblk0 V c 1 t)
        isplitl [Hr]; · iexact Hr
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨HS0, Hr, Hg⟩, Ho, ⟨%d0, H0⟩, ⟨%d1, H1⟩, ⟨%d2, H2⟩, ⟨%d3, H3⟩⟩
      iapply ((kernelRun0_A c (grid0.coords t) (ms0_0 t) (hs0_0 t) (ms0_1 t) (hs0_1 t) (ms0_2 t) (hs0_2 t) (ms0_3 t) (hs0_3 t) scM0_0 (Memref.isWhole_whole _) hc0 hc1 (iblk0 V c 0 t) (iblk0 V c 1 t)).2 Set.univ _)
      isplitl [H0]; · iexact H0
      isplitl [H1]; · iexact H1
      isplitl [HS0]; · iexists _; iexact HS0
      iintro ⟨H0, H1, ⟨%es0, HS0⟩⟩
      isplitl [HS0 Hr Hg]
      · isplitl [HS0]
        · unfold owns; iexists _; isplitr
          swap; · iexact HS0
          ipureintro
          rw [View.read_writes_eq_canon _ _ _ (scover0_A c (grid0.coords t) (ms0_0 t) (hs0_0 t) (ms0_1 t) (hs0_1 t) (ms0_2 t) (hs0_2 t) (ms0_3 t) (hs0_3 t) scM0_0 (Memref.isWhole_whole _) hc0 hc1 (iblk0 V c 0 t) (iblk0 V c 1 t))]
          exact canon0_A c (grid0.coords t) (ms0_0 t) (hs0_0 t) (ms0_1 t) (hs0_1 t) (ms0_2 t) (hs0_2 t) (ms0_3 t) (hs0_3 t) scM0_0 (Memref.isWhole_whole _) hc0 hc1 (iblk0 V c 0 t) (iblk0 V c 1 t)
        isplitl [Hr]; · iexact Hr
        iexact Hg
      isplitl [Ho]; · iexact Ho
      isplitl [H0]; · iexact H0
      isplitl [H1]; · iexact H1
      isplitl [H2]; · iexact H2
      iexists _; iexact H3
  · have h1 : t.val % 2 = 1 := by omega
    have hc0 : ¬cond0_0 (grid0.coords t) := fun h => h0 ((hcond0_0 t).mp h)
    have hc1 : cond0_1 (grid0.coords t) := (hcond0_1 t).mpr h1
    have hz : t.val ≠ 0 := by omega
    rw [show (dat0 V c).leavesExact 3 t = owns (c : Thread nD τ) (ms0_3 t) fullShare ((dat0 V c).after 3 t) from by
      unfold Dat.leavesExact; rw [liveAt0_3_B t hc0 hc1], after0_3]
    unfold out0
    rw [sc0_odd V c t h1]
    rw [PhiS0_castSucc V c t, PhiS0_pos V c _ _ hz]
    iintro ⟨⟨HS0, Hr, Hg⟩, Ho, ⟨%d0, H0⟩, ⟨%d1, H1⟩, ⟨%d2, H2⟩, ⟨%d3, H3⟩⟩
    iapply ((kernelRun0_B c (grid0.coords t) (ms0_0 t) (hs0_0 t) (ms0_1 t) (hs0_1 t) (ms0_2 t) (hs0_2 t) (ms0_3 t) (hs0_3 t) scM0_0 (Memref.isWhole_whole _) hc0 hc1 (iblk0 V c 0 t) (iblk0 V c 1 t) (iblk0 V c 2 t)
      (sc0 V c (t.val - 1) (Nat.lt_of_le_of_lt (Nat.sub_le _ _) t.isLt))).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hr Hg]
    · isplitl [HS0]
      · unfold owns; iexists _; isplitr
        swap; · iexact HS0
        ipureintro
        rw [View.read_writes_eq_canon _ _ _ (scover0_B c (grid0.coords t) (ms0_0 t) (hs0_0 t) (ms0_1 t) (hs0_1 t) (ms0_2 t) (hs0_2 t) (ms0_3 t) (hs0_3 t) scM0_0 (Memref.isWhole_whole _) hc0 hc1 (iblk0 V c 0 t) (iblk0 V c 1 t) (iblk0 V c 2 t)
          (sc0 V c (t.val - 1) (Nat.lt_of_le_of_lt (Nat.sub_le _ _) t.isLt)))]
        exact scanon0_B c (grid0.coords t) (ms0_0 t) (hs0_0 t) (ms0_1 t) (hs0_1 t) (ms0_2 t) (hs0_2 t) (ms0_3 t) (hs0_3 t) scM0_0 (Memref.isWhole_whole _) hc0 hc1 (iblk0 V c 0 t) (iblk0 V c 1 t) (iblk0 V c 2 t)
          (sc0 V c (t.val - 1) (Nat.lt_of_le_of_lt (Nat.sub_le _ _) t.isLt))
      isplitl [Hr]; · iexact Hr
      iexact Hg
    isplitl [Ho]; · iexact Ho
    isplitl [H0]; · iexact H0
    isplitl [H1]; · iexact H1
    isplitl [H2]; · iexact H2
    unfold owns; iexists _; isplitr
    swap; · iexact H3
    ipureintro
    rw [View.read_writes_eq_canon _ _ _ (cover0_B c (grid0.coords t) (ms0_0 t) (hs0_0 t) (ms0_1 t) (hs0_1 t) (ms0_2 t) (hs0_2 t) (ms0_3 t) (hs0_3 t) scM0_0 (Memref.isWhole_whole _) hc0 hc1 (iblk0 V c 0 t) (iblk0 V c 1 t) (iblk0 V c 2 t)
      (sc0 V c (t.val - 1) (Nat.lt_of_le_of_lt (Nat.sub_le _ _) t.isLt)))]
    exact canon0_B c (grid0.coords t) (ms0_0 t) (hs0_0 t) (ms0_1 t) (hs0_1 t) (ms0_2 t) (hs0_2 t) (ms0_3 t) (hs0_3 t) scM0_0 (Memref.isWhole_whole _) hc0 hc1 (iblk0 V c 0 t) (iblk0 V c 1 t) (iblk0 V c 2 t)
      (sc0 V c (t.val - 1) (Nat.lt_of_le_of_lt (Nat.sub_le _ _) t.isLt))

/-- The body obligation of region 0's pipeline at every grid point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the scoped buffers back at anything: what the scratch tile
    holds is forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨HS0, Hr, Hg⟩
  isplitl [HS0 Hr]
  · isplitl [HS0]
    · iexists _; iexact HS0
    iexact Hr
  iexact Hg

/-- After the last point the invariant gives the scoped buffers back at anything. -/
theorem hout0 (c : Dev nD) : (dat0 V c).Φ (Fin.last cfg0.N) ⊢ Pipeline.ΦA spec0 c :=
  Phi_out0 V c _ (by rw [Fin.val_last]; have : cfg0.N = 32 := N_0; omega)

end Cert.KernelIdeal.Hand

end
-- ==== Proof.R1Base.lean ====
/-
  Region 1 of the program (context = W_lin · q + b_lin and k = data_k · W_kᵀ + b_k, each accumulated over eight
  row blocks of 512 in a scratch of its own, then the modulated value clip(k² + 2k + context · (1 + |k|), 0, 6)
  stored at the last point): the blocks the pipeline hands the body, what the two scratch buffers hold after each
  grid point, what the body stores into the output at the last point, the region's invariant and its proof data —
  as explicit functions of the arrays as the region finds them (`V`).
-/
import proofs.«159061_j38019050504386_1_alg».proof.Proof.Gen.KernelIdeal.Launch
import proofs.«159061_j38019050504386_1_alg».proof.Proof.Gen.KernelIdeal.Skeleton
import proofs.«159061_j38019050504386_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The two branch conditions of the body, decided over the grid (eight points: reset at the first, store at the last) -/

/-- The body's first `scf.if`: the grid coordinate is 0. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The body's second `scf.if`: the grid coordinate is the last one. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## The memrefs the body is called with -/

abbrev ms1_0 (t : Fin cfg1.N) : Memref sig .tc .vmem S512x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S6x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S6x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S6x512 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x4096 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x4096 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S6x4096 .bf16 := win1_6.stage (cfg1.slots t 6)
abbrev hs1_6 (t : Fin cfg1.N) : (ms1_6 t).IsWhole := hstage1_6 ((cfg1.slots t 6).cast nbuf1_6)
/-- The two scratch accumulators: whole scoped buffers of the kernel's own (context, then k). -/
abbrev scM1_0 : Memref sig .tc .vmem S6x4096 .f32 := Memref.whole cc1_scratch0
abbrev scM1_1 : Memref sig .tc .vmem S6x4096 .f32 := Memref.whole cc1_scratch1

/-! ## What the scratch buffers and the output hold -/

/-- The context accumulator after the body at point `n`: W_lin's block times q's block, added to zero at the first
    point and to what the point before left afterwards. -/
def sc1a (c : Dev nD) : (n : ℕ) → n < cfg1.N → Vec F S6x4096 .f32
  | 0, hn => k1_pay3 (k1_pay1 (F := F)) (iblk1 V c 1 ⟨0, hn⟩) (iblk1 V c 0 ⟨0, hn⟩)
  | n + 1, hn => k1_pay3 (sc1a c n (Nat.lt_of_succ_lt hn)) (iblk1 V c 1 ⟨n + 1, hn⟩) (iblk1 V c 0 ⟨n + 1, hn⟩)

/-- The k accumulator after the body at point `n`: data_k's block times W_kᵀ's block, added likewise. -/
def sc1b (c : Dev nD) : (n : ℕ) → n < cfg1.N → Vec F S6x4096 .f32
  | 0, hn => k1_pay4 (k1_pay2 (F := F)) (iblk1 V c 3 ⟨0, hn⟩) (iblk1 V c 4 ⟨0, hn⟩)
  | n + 1, hn => k1_pay4 (sc1b c n (Nat.lt_of_succ_lt hn)) (iblk1 V c 3 ⟨n + 1, hn⟩) (iblk1 V c 4 ⟨n + 1, hn⟩)

/-- What the body stores into the output at the last point: the modulated value of the two accumulators and the two biases. -/
def out1 (c : Dev nD) (t : Fin cfg1.N) : Vec F S6x4096 .bf16 :=
  k1_pay5 (sc1a V c t.val t.isLt) (iblk1 V c 2 t) (sc1b V c t.val t.isLt) (iblk1 V c 5 t)

/-! ## The invariant -/

/-- The scoped buffers the region never opens: every scoped buffer but its own staging buffers and its two accumulators. -/
abbrev rest1 (c : Dev nD) : sProp 𝕄 :=
  Pipeline.scopedRestBut (Ix := Unit) (Name := ℕ) (U := UR sig nD τ) (Lvl := ℕ) (Val := Elt F) spec1 c [cc1_scratch0, cc1_scratch1]

/-- Before the first point every scoped buffer is at anything; after point `n` the accumulators hold `sc1a n`, `sc1b n`. -/
def PhiS1 (c : Dev nD) : (n : ℕ) → n ≤ cfg1.N → sProp 𝕄
  | 0, _ => Pipeline.ΦA spec1 c
  | n + 1, hn => iprop(owns (c : Thread nD τ) scM1_0 fullShare (sc1a V c n hn) ∗ owns (c : Thread nD τ) scM1_1 fullShare (sc1b V c n hn)
      ∗ rest1 (F := F) c ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) scM1_0 fullShare (sc1a V c n hn) ∗ owns (c : Thread nD τ) scM1_1 fullShare (sc1b V c n hn)
      ∗ rest1 (F := F) c ∗ (∃ r, prngReg c r)) := rfl
theorem PhiS1_pos (c : Dev nD) (n : ℕ) (h : n ≤ cfg1.N) (hz : n ≠ 0) :
    PhiS1 V c n h = iprop(owns (c : Thread nD τ) scM1_0 fullShare (sc1a V c (n - 1) (by omega)) ∗ owns (c : Thread nD τ) scM1_1 fullShare (sc1b V c (n - 1) (by omega))
      ∗ rest1 (F := F) c ∗ (∃ r, prngReg c r)) := by
  cases n with
  | zero => exact absurd rfl hz
  | succ n => rfl

/-! ## The proof data -/

/-- The region's proof data on core `c`: the arrays as found; after the body each input window's buffer at its block,
    the output window's at `out1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1 V c t := by dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]

end Cert.KernelIdeal.Hand

end
-- ==== Proof.R1RunA.lean ====
/-
  Region 1, the first grid point (the grid coordinate is 0 and not the last one): both accumulators are reset to zero,
  then each block product is added; nothing is stored into the output. The body's run on any whole memrefs, with the
  pieces each accumulator ends with as the witness.
-/
import proofs.«159061_j38019050504386_1_alg».proof.Proof.R1Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body where the first condition holds and the second does not: from the six input memrefs at their contents, the
    output's at contents handed back as found, the two accumulators at anything, it runs to the continuation holding
    the inputs and the output as they were and each accumulator with its pieces written (last first). -/
noncomputable def kernelRun1_A (c : Dev nD) (i : grid1.Coords)
    (arg1 : Memref sig .tc .vmem S512x4096 .bf16) (harg1 : arg1.IsWhole)
    (arg2 : Memref sig .tc .vmem S6x512 .bf16) (harg2 : arg2.IsWhole)
    (arg3 : Memref sig .tc .vmem S6x1 .f32) (harg3 : arg3.IsWhole)
    (arg4 : Memref sig .tc .vmem S6x512 .bf16) (harg4 : arg4.IsWhole)
    (arg5 : Memref sig .tc .vmem S512x4096 .bf16) (harg5 : arg5.IsWhole)
    (arg6 : Memref sig .tc .vmem S1x4096 .f32) (harg6 : arg6.IsWhole)
    (arg7 : Memref sig .tc .vmem S6x4096 .bf16) (harg7 : arg7.IsWhole)
    (arg8 : Memref sig .tc .vmem S6x4096 .f32) (harg8 : arg8.IsWhole)
    (arg9 : Memref sig .tc .vmem S6x4096 .f32) (harg9 : arg9.IsWhole)
    (hc0 : cond1_0 i) (hc1 : ¬cond1_1 i)
    (x0 : Vec F S512x4096 .bf16) (x1 : Vec F S6x512 .bf16) (x2 : Vec F S6x1 .f32) (x3 : Vec F S6x512 .bf16) (x4 : Vec F S512x4096 .bf16) (x5 : Vec F S1x4096 .f32) :
    Σ' (LS0 : List (View.Piece (Elt F) S6x4096 .f32)), { LS1 : List (View.Piece (Elt F) S6x4096 .f32) //
      ∀ (xi6 : Vec F S6x4096 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6
            ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__kctx_kernel i arg1 harg1 arg2 harg2 arg3 harg3 arg4 harg4 arg5 harg5 arg6 harg6 arg7 harg7 arg8 harg8 arg9 harg9) K } := by
  refine ⟨?_, ?_, fun xi6 E K => ?run⟩
  case run =>
    simp only [cc1__kctx_kernel_eq_skeleton]; unfold cc1__kctx_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

end Cert.KernelIdeal.Hand

end
-- ==== Proof.R1RunB.lean ====
/-
  Region 1, a grid point that is neither the first nor the last: each block product is added to what the point before
  left in its accumulator; nothing is stored into the output. The body's run on any whole memrefs, with the pieces
  each accumulator ends with as the witness.
-/
import proofs.«159061_j38019050504386_1_alg».proof.Proof.R1RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body where neither condition holds: from the six input memrefs at their contents, the output's at contents
    handed back as found, the two accumulators at the contents `xs0`, `xs1` the point before left, it runs to the
    continuation holding the inputs and the output as they were and each accumulator with its pieces written. -/
noncomputable def kernelRun1_B (c : Dev nD) (i : grid1.Coords)
    (arg1 : Memref sig .tc .vmem S512x4096 .bf16) (harg1 : arg1.IsWhole)
    (arg2 : Memref sig .tc .vmem S6x512 .bf16) (harg2 : arg2.IsWhole)
    (arg3 : Memref sig .tc .vmem S6x1 .f32) (harg3 : arg3.IsWhole)
    (arg4 : Memref sig .tc .vmem S6x512 .bf16) (harg4 : arg4.IsWhole)
    (arg5 : Memref sig .tc .vmem S512x4096 .bf16) (harg5 : arg5.IsWhole)
    (arg6 : Memref sig .tc .vmem S1x4096 .f32) (harg6 : arg6.IsWhole)
    (arg7 : Memref sig .tc .vmem S6x4096 .bf16) (harg7 : arg7.IsWhole)
    (arg8 : Memref sig .tc .vmem S6x4096 .f32) (harg8 : arg8.IsWhole)
    (arg9 : Memref sig .tc .vmem S6x4096 .f32) (harg9 : arg9.IsWhole)
    (hc0 : ¬cond1_0 i) (hc1 : ¬cond1_1 i)
    (x0 : Vec F S512x4096 .bf16) (x1 : Vec F S6x512 .bf16) (x2 : Vec F S6x1 .f32) (x3 : Vec F S6x512 .bf16) (x4 : Vec F S512x4096 .bf16) (x5 : Vec F S1x4096 .f32) (xs0 : Vec F S6x4096 .f32) (xs1 : Vec F S6x4096 .f32) :
    Σ' (LS0 : List (View.Piece (Elt F) S6x4096 .f32)), { LS1 : List (View.Piece (Elt F) S6x4096 .f32) //
      ∀ (xi6 : Vec F S6x4096 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6
            ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__kctx_kernel i arg1 harg1 arg2 harg2 arg3 harg3 arg4 harg4 arg5 harg5 arg6 harg6 arg7 harg7 arg8 harg8 arg9 harg9) K } := by
  refine ⟨?_, ?_, fun xi6 E K => ?run⟩
  case run =>
    simp only [cc1__kctx_kernel_eq_skeleton]; unfold cc1__kctx_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

end Cert.KernelIdeal.Hand

end
-- ==== Proof.R1RunC.lean ====
/-
  Region 1, the last grid point: each block product is added to what the point before left in its accumulator, then the
  modulated value of the two accumulators and the two biases is stored into the output. The body's run on any whole
  memrefs, with the pieces the output and each accumulator end with as the witness.
-/
import proofs.«159061_j38019050504386_1_alg».proof.Proof.R1RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body where the first condition fails and the second holds: from the six input memrefs at their contents, the
    output's at anything, the two accumulators at the contents `xs0`, `xs1` the point before left, it runs to the
    continuation holding the inputs as they were and the output and each accumulator with its pieces written. -/
noncomputable def kernelRun1_C (c : Dev nD) (i : grid1.Coords)
    (arg1 : Memref sig .tc .vmem S512x4096 .bf16) (harg1 : arg1.IsWhole)
    (arg2 : Memref sig .tc .vmem S6x512 .bf16) (harg2 : arg2.IsWhole)
    (arg3 : Memref sig .tc .vmem S6x1 .f32) (harg3 : arg3.IsWhole)
    (arg4 : Memref sig .tc .vmem S6x512 .bf16) (harg4 : arg4.IsWhole)
    (arg5 : Memref sig .tc .vmem S512x4096 .bf16) (harg5 : arg5.IsWhole)
    (arg6 : Memref sig .tc .vmem S1x4096 .f32) (harg6 : arg6.IsWhole)
    (arg7 : Memref sig .tc .vmem S6x4096 .bf16) (harg7 : arg7.IsWhole)
    (arg8 : Memref sig .tc .vmem S6x4096 .f32) (harg8 : arg8.IsWhole)
    (arg9 : Memref sig .tc .vmem S6x4096 .f32) (harg9 : arg9.IsWhole)
    (hc0 : ¬cond1_0 i) (hc1 : cond1_1 i)
    (x0 : Vec F S512x4096 .bf16) (x1 : Vec F S6x512 .bf16) (x2 : Vec F S6x1 .f32) (x3 : Vec F S6x512 .bf16) (x4 : Vec F S512x4096 .bf16) (x5 : Vec F S1x4096 .f32) (xs0 : Vec F S6x4096 .f32) (xs1 : Vec F S6x4096 .f32) :
    Σ' (L6 : List (View.Piece (Elt F) S6x4096 .bf16)) (LS0 : List (View.Piece (Elt F) S6x4096 .f32)), { LS1 : List (View.Piece (Elt F) S6x4096 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
            ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__kctx_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc1__kctx_kernel_eq_skeleton]; unfold cc1__kctx_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [HS0]; · iexists _; iexact HS0
    iexists _; iexact HS1

end Cert.KernelIdeal.Hand

end
-- ==== Proof.R1Body.lean ====
/-
  Region 1: the body run at every grid point against the region's proof data.
-/
import proofs.«159061_j38019050504386_1_alg».proof.Proof.R1RunC
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Reading back what the body's stores leave

Every store and load of the body is of a whole buffer (the unit rectangle at zero offsets of the buffer's own sizes), so
the last store into a buffer leaves its payload, and a load reads the contents. -/

/-- The zero offsets, however spelt. -/
theorem hz2 : (![0, 0] : Fin 2 → ℕ) = fun _ => 0 := by funext a; fin_cases a <;> rfl

/-- At the first point the context accumulator's two stores (the reset, then the update) cover it. -/
theorem scover1_A_0 (c : Dev nD) (i : grid1.Coords)
    (arg1 : Memref sig .tc .vmem S512x4096 .bf16) (harg1 : arg1.IsWhole)
    (arg2 : Memref sig .tc .vmem S6x512 .bf16) (harg2 : arg2.IsWhole)
    (arg3 : Memref sig .tc .vmem S6x1 .f32) (harg3 : arg3.IsWhole)
    (arg4 : Memref sig .tc .vmem S6x512 .bf16) (harg4 : arg4.IsWhole)
    (arg5 : Memref sig .tc .vmem S512x4096 .bf16) (harg5 : arg5.IsWhole)
    (arg6 : Memref sig .tc .vmem S1x4096 .f32) (harg6 : arg6.IsWhole)
    (arg7 : Memref sig .tc .vmem S6x4096 .bf16) (harg7 : arg7.IsWhole)
    (arg8 : Memref sig .tc .vmem S6x4096 .f32) (harg8 : arg8.IsWhole)
    (arg9 : Memref sig .tc .vmem S6x4096 .f32) (harg9 : arg9.IsWhole)
    (hc0 : cond1_0 i) (hc1 : ¬cond1_1 i)
    (x0 : Vec F S512x4096 .bf16) (x1 : Vec F S6x512 .bf16) (x2 : Vec F S6x1 .f32) (x3 : Vec F S6x512 .bf16) (x4 : Vec F S512x4096 .bf16) (x5 : Vec F S1x4096 .f32) (y : S6x4096.Idx) :
    ∃ pc ∈ (kernelRun1_A c i arg1 harg1 arg2 harg2 arg3 harg3 arg4 harg4 arg5 harg5 arg6 harg6 arg7 harg7 arg8 harg8 arg9 harg9 hc0 hc1 x0 x1 x2 x3 x4 x5).1, y ∈ pc.1.set :=
  View.cover_of_tiledL (kernelRun1_A c i arg1 harg1 arg2 harg2 arg3 harg3 arg4 harg4 arg5 harg5 arg6 harg6 arg7 harg7 arg8 harg8 arg9 harg9 hc0 hc1 x0 x1 x2 x3 x4 x5).1 S6x4096.size (by sl_kernel_rfl) y

/-- At the first point the k accumulator's two stores cover it. -/
theorem scover1_A_1 (c : Dev nD) (i : grid1.Coords)
    (arg1 : Memref sig .tc .vmem S512x4096 .bf16) (harg1 : arg1.IsWhole)
    (arg2 : Memref sig .tc .vmem S6x512 .bf16) (harg2 : arg2.IsWhole)
    (arg3 : Memref sig .tc .vmem S6x1 .f32) (harg3 : arg3.IsWhole)
    (arg4 : Memref sig .tc .vmem S6x512 .bf16) (harg4 : arg4.IsWhole)
    (arg5 : Memref sig .tc .vmem S512x4096 .bf16) (harg5 : arg5.IsWhole)
    (arg6 : Memref sig .tc .vmem S1x4096 .f32) (harg6 : arg6.IsWhole)
    (arg7 : Memref sig .tc .vmem S6x4096 .bf16) (harg7 : arg7.IsWhole)
    (arg8 : Memref sig .tc .vmem S6x4096 .f32) (harg8 : arg8.IsWhole)
    (arg9 : Memref sig .tc .vmem S6x4096 .f32) (harg9 : arg9.IsWhole)
    (hc0 : cond1_0 i) (hc1 : ¬cond1_1 i)
    (x0 : Vec F S512x4096 .bf16) (x1 : Vec F S6x512 .bf16) (x2 : Vec F S6x1 .f32) (x3 : Vec F S6x512 .bf16) (x4 : Vec F S512x4096 .bf16) (x5 : Vec F S1x4096 .f32) (y : S6x4096.Idx) :
    ∃ pc ∈ (kernelRun1_A c i arg1 harg1 arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun1_A c i arg1 harg1 arg2 harg2 arg3 harg3 arg4 harg4 arg5 harg5 arg6 harg6 arg7 harg7 arg8 harg8 arg9 harg9 hc0 hc1 x0 x1 x2 x3 x4 x5).2.1 S6x4096.size (by sl_kernel_rfl) y

/-- At a middle point the context accumulator's one store covers it. -/
theorem scover1_B_0 (c : Dev nD) (i : grid1.Coords)
    (arg1 : Memref sig .tc .vmem S512x4096 .bf16) (harg1 : arg1.IsWhole)
    (arg2 : Memref sig .tc .vmem S6x512 .bf16) (harg2 : arg2.IsWhole)
    (arg3 : Memref sig .tc .vmem S6x1 .f32) (harg3 : arg3.IsWhole)
    (arg4 : Memref sig .tc .vmem S6x512 .bf16) (harg4 : arg4.IsWhole)
    (arg5 : Memref sig .tc .vmem S512x4096 .bf16) (harg5 : arg5.IsWhole)
    (arg6 : Memref sig .tc .vmem S1x4096 .f32) (harg6 : arg6.IsWhole)
    (arg7 : Memref sig .tc .vmem S6x4096 .bf16) (harg7 : arg7.IsWhole)
    (arg8 : Memref sig .tc .vmem S6x4096 .f32) (harg8 : arg8.IsWhole)
    (arg9 : Memref sig .tc .vmem S6x4096 .f32) (harg9 : arg9.IsWhole)
    (hc0 : ¬cond1_0 i) (hc1 : ¬cond1_1 i)
    (x0 : Vec F S512x4096 .bf16) (x1 : Vec F S6x512 .bf16) (x2 : Vec F S6x1 .f32) (x3 : Vec F S6x512 .bf16) (x4 : Vec F S512x4096 .bf16) (x5 : Vec F S1x4096 .f32) (xs0 : Vec F S6x4096 .f32) (xs1 : Vec F S6x4096 .f32) (y : S6x4096.Idx) :
    ∃ pc ∈ (kernelRun1_B c i arg1 harg1 arg2 harg2 arg3 harg3 arg4 harg4 arg5 harg5 arg6 harg6 arg7 harg7 arg8 harg8 arg9 harg9 hc0 hc1 x0 x1 x2 x3 x4 x5 xs0 xs1).1, y ∈ pc.1.set :=
  View.cover_of_tiledL (kernelRun1_B c i arg1 harg1 arg2 harg2 arg3 harg3 arg4 harg4 arg5 harg5 arg6 harg6 arg7 harg7 arg8 harg8 arg9 harg9 hc0 hc1 x0 x1 x2 x3 x4 x5 xs0 xs1).1 S6x4096.size (by sl_kernel_rfl) y

/-- At a middle point the k accumulator's one store covers it. -/
theorem scover1_B_1 (c : Dev nD) (i : grid1.Coords)
    (arg1 : Memref sig .tc .vmem S512x4096 .bf16) (harg1 : arg1.IsWhole)
    (arg2 : Memref sig .tc .vmem S6x512 .bf16) (harg2 : arg2.IsWhole)
    (arg3 : Memref sig .tc .vmem S6x1 .f32) (harg3 : arg3.IsWhole)
    (arg4 : Memref sig .tc .vmem S6x512 .bf16) (harg4 : arg4.IsWhole)
    (arg5 : Memref sig .tc .vmem S512x4096 .bf16) (harg5 : arg5.IsWhole)
    (arg6 : Memref sig .tc .vmem S1x4096 .f32) (harg6 : arg6.IsWhole)
    (arg7 : Memref sig .tc .vmem S6x4096 .bf16) (harg7 : arg7.IsWhole)
    (arg8 : Memref sig .tc .vmem S6x4096 .f32) (harg8 : arg8.IsWhole)
    (arg9 : Memref sig .tc .vmem S6x4096 .f32) (harg9 : arg9.IsWhole)
    (hc0 : ¬cond1_0 i) (hc1 : ¬cond1_1 i)
    (x0 : Vec F S512x4096 .bf16) (x1 : Vec F S6x512 .bf16) (x2 : Vec F S6x1 .f32) (x3 : Vec F S6x512 .bf16) (x4 : Vec F S512x4096 .bf16) (x5 : Vec F S1x4096 .f32) (xs0 : Vec F S6x4096 .f32) (xs1 : Vec F S6x4096 .f32) (y : S6x4096.Idx) :
    ∃ pc ∈ (kernelRun1_B c i arg1 harg1 arg2 harg2 arg3 harg3 arg4 harg4 arg5 harg5 arg6 harg6 arg7 harg7 arg8 harg8 arg9 harg9 hc0 hc1 x0 x1 x2 x3 x4 x5 xs0 xs1).2.1, y ∈ pc.1.set :=
  View.cover_of_tiledL (kernelRun1_B c i arg1 harg1 arg2 harg2 arg3 harg3 arg4 harg4 arg5 harg5 arg6 harg6 arg7 harg7 arg8 harg8 arg9 harg9 hc0 hc1 x0 x1 x2 x3 x4 x5 xs0 xs1).2.1 S6x4096.size (by sl_kernel_rfl) y

/-- At the last point the one store into the output covers its block. -/
theorem cover1_C_6 (c : Dev nD) (i : grid1.Coords)
    (arg1 : Memref sig .tc .vmem S512x4096 .bf16) (harg1 : arg1.IsWhole)
    (arg2 : Memref sig .tc .vmem S6x512 .bf16) (harg2 : arg2.IsWhole)
    (arg3 : Memref sig .tc .vmem S6x1 .f32) (harg3 : arg3.IsWhole)
    (arg4 : Memref sig .tc .vmem S6x512 .bf16) (harg4 : arg4.IsWhole)
    (arg5 : Memref sig .tc .vmem S512x4096 .bf16) (harg5 : arg5.IsWhole)
    (arg6 : Memref sig .tc .vmem S1x4096 .f32) (harg6 : arg6.IsWhole)
    (arg7 : Memref sig .tc .vmem S6x4096 .bf16) (harg7 : arg7.IsWhole)
    (arg8 : Memref sig .tc .vmem S6x4096 .f32) (harg8 : arg8.IsWhole)
    (arg9 : Memref sig .tc .vmem S6x4096 .f32) (harg9 : arg9.IsWhole)
    (hc0 : ¬cond1_0 i) (hc1 : cond1_1 i)
    (x0 : Vec F S512x4096 .bf16) (x1 : Vec F S6x512 .bf16) (x2 : Vec F S6x1 .f32) (x3 : Vec F S6x512 .bf16) (x4 : Vec F S512x4096 .bf16) (x5 : Vec F S1x4096 .f32) (xs0 : Vec F S6x4096 .f32) (xs1 : Vec F S6x4096 .f32) (y : S6x4096.Idx) :
    ∃ pc ∈ (kernelRun1_C c i arg1 harg1 arg2 harg2 arg3 harg3 arg4 harg4 arg5 harg5 arg6 harg6 arg7 harg7 arg8 harg8 arg9 harg9 hc0 hc1 x0 x1 x2 x3 x4 x5 xs0 xs1).1, y ∈ pc.1.set :=
  View.cover_of_tiledL (kernelRun1_C c i arg1 harg1 arg2 harg2 arg3 harg3 arg4 harg4 arg5 harg5 arg6 harg6 arg7 harg7 arg8 harg8 arg9 harg9 hc0 hc1 x0 x1 x2 x3 x4 x5 xs0 xs1).1 S6x4096.size (by sl_kernel_rfl) y

/-- At the last point the context accumulator's one store covers it. -/
theorem scover1_C_0 (c : Dev nD) (i : grid1.Coords)
    (arg1 : Memref sig .tc .vmem S512x4096 .bf16) (harg1 : arg1.IsWhole)
    (arg2 : Memref sig .tc .vmem S6x512 .bf16) (harg2 : arg2.IsWhole)
    (arg3 : Memref sig .tc .vmem S6x1 .f32) (harg3 : arg3.IsWhole)
    (arg4 : Memref sig .tc .vmem S6x512 .bf16) (harg4 : arg4.IsWhole)
    (arg5 : Memref sig .tc .vmem S512x4096 .bf16) (harg5 : arg5.IsWhole)
    (arg6 : Memref sig .tc .vmem S1x4096 .f32) (harg6 : arg6.IsWhole)
    (arg7 : Memref sig .tc .vmem S6x4096 .bf16) (harg7 : arg7.IsWhole)
    (arg8 : Memref sig .tc .vmem S6x4096 .f32) (harg8 : arg8.IsWhole)
    (arg9 : Memref sig .tc .vmem S6x4096 .f32) (harg9 : arg9.IsWhole)
    (hc0 : ¬cond1_0 i) (hc1 : cond1_1 i)
    (x0 : Vec F S512x4096 .bf16) (x1 : Vec F S6x512 .bf16) (x2 : Vec F S6x1 .f32) (x3 : Vec F S6x512 .bf16) (x4 : Vec F S512x4096 .bf16) (x5 : Vec F S1x4096 .f32) (xs0 : Vec F S6x4096 .f32) (xs1 : Vec F S6x4096 .f32) (y : S6x4096.Idx) :
    ∃ pc ∈ (kernelRun1_C c i arg1 harg1 arg2 harg2 arg3 harg3 arg4 harg4 arg5 harg5 arg6 harg6 arg7 harg7 arg8 harg8 arg9 harg9 hc0 hc1 x0 x1 x2 x3 x4 x5 xs0 xs1).2.1, y ∈ pc.1.set :=
  View.cover_of_tiledL (kernelRun1_C c i arg1 harg1 arg2 harg2 arg3 harg3 arg4 harg4 arg5 harg5 arg6 harg6 arg7 harg7 arg8 harg8 arg9 harg9 hc0 hc1 x0 x1 x2 x3 x4 x5 xs0 xs1).2.1 S6x4096.size (by sl_kernel_rfl) y

/-- At the last point the k accumulator's one store covers it. -/
theorem scover1_C_1 (c : Dev nD) (i : grid1.Coords)
    (arg1 : Memref sig .tc .vmem S512x4096 .bf16) (harg1 : arg1.IsWhole)
    (arg2 : Memref sig .tc .vmem S6x512 .bf16) (harg2 : arg2.IsWhole)
    (arg3 : Memref sig .tc .vmem S6x1 .f32) (harg3 : arg3.IsWhole)
    (arg4 : Memref sig .tc .vmem S6x512 .bf16) (harg4 : arg4.IsWhole)
    (arg5 : Memref sig .tc .vmem S512x4096 .bf16) (harg5 : arg5.IsWhole)
    (arg6 : Memref sig .tc .vmem S1x4096 .f32) (harg6 : arg6.IsWhole)
    (arg7 : Memref sig .tc .vmem S6x4096 .bf16) (harg7 : arg7.IsWhole)
    (arg8 : Memref sig .tc .vmem S6x4096 .f32) (harg8 : arg8.IsWhole)
    (arg9 : Memref sig .tc .vmem S6x4096 .f32) (harg9 : arg9.IsWhole)
    (hc0 : ¬cond1_0 i) (hc1 : cond1_1 i)
    (x0 : Vec F S512x4096 .bf16) (x1 : Vec F S6x512 .bf16) (x2 : Vec F S6x1 .f32) (x3 : Vec F S6x512 .bf16) (x4 : Vec F S512x4096 .bf16) (x5 : Vec F S1x4096 .f32) (xs0 : Vec F S6x4096 .f32) (xs1 : Vec F S6x4096 .f32) (y : S6x4096.Idx) :
    ∃ pc ∈ (kernelRun1_C c i arg1 harg1 arg2 harg2 arg3 harg3 arg4 harg4 arg5 harg5 arg6 harg6 arg7 harg7 arg8 harg8 arg9 harg9 hc0 hc1 x0 x1 x2 x3 x4 x5 xs0 xs1).2.2.1, y ∈ pc.1.set :=
  View.cover_of_tiledL (kernelRun1_C c i arg1 harg1 arg2 harg2 arg3 harg3 arg4 harg4 arg5 harg5 arg6 harg6 arg7 harg7 arg8 harg8 arg9 harg9 hc0 hc1 x0 x1 x2 x3 x4 x5 xs0 xs1).2.2.1 S6x4096.size (by sl_kernel_rfl) y

/-- At the first point the context accumulator ends at the block product added to zero: the update is the later store and
    covers, and what it loaded back is the reset's zero. -/
theorem canon1_A_0 (c : Dev nD) (i : grid1.Coords)
    (arg1 : Memref sig .tc .vmem S512x4096 .bf16) (harg1 : arg1.IsWhole)
    (arg2 : Memref sig .tc .vmem S6x512 .bf16) (harg2 : arg2.IsWhole)
    (arg3 : Memref sig .tc .vmem S6x1 .f32) (harg3 : arg3.IsWhole)
    (arg4 : Memref sig .tc .vmem S6x512 .bf16) (harg4 : arg4.IsWhole)
    (arg5 : Memref sig .tc .vmem S512x4096 .bf16) (harg5 : arg5.IsWhole)
    (arg6 : Memref sig .tc .vmem S1x4096 .f32) (harg6 : arg6.IsWhole)
    (arg7 : Memref sig .tc .vmem S6x4096 .bf16) (harg7 : arg7.IsWhole)
    (arg8 : Memref sig .tc .vmem S6x4096 .f32) (harg8 : arg8.IsWhole)
    (arg9 : Memref sig .tc .vmem S6x4096 .f32) (harg9 : arg9.IsWhole)
    (hc0 : cond1_0 i) (hc1 : ¬cond1_1 i)
    (x0 : Vec F S512x4096 .bf16) (x1 : Vec F S6x512 .bf16) (x2 : Vec F S6x1 .f32) (x3 : Vec F S6x512 .bf16) (x4 : Vec F S512x4096 .bf16) (x5 : Vec F S1x4096 .f32) :
    View.canon (kernelRun1_A c i arg1 harg1 arg2 harg2 arg3 harg3 arg4 harg4 arg5 harg5 arg6 harg6 arg7 harg7 arg8 harg8 arg9 harg9 hc0 hc1 x0 x1 x2 x3 x4 x5).1 = k1_pay3 (k1_pay1 (F := F)) x1 x0 := by
  unfold kernelRun1_A; dsimp only; sl_unfold_words
  rw [View.canon_cons_unit_zero (S := S6x4096) hz2, View.readCov_unit_zero (S := S6x4096) _ hz2]
  simp only [View.readAt_eq_ld, harg1.read_unread, harg2.read_unread, View.ld_unit_zero (S := S6x512) hz2, View.ld_unit_zero (S := S512x4096) hz2, View.ld_unit_zero (S := S6x4096) hz2, View.ld_unit_zero (S := S6x1) hz2, View.ld_unit_zero (S := S1x4096) hz2]

/-- Likewise the k accumulator. -/
theorem canon1_A_1 (c : Dev nD) (i : grid1.Coords)
    (arg1 : Memref sig .tc .vmem S512x4096 .bf16) (harg1 : arg1.IsWhole)
    (arg2 : Memref sig .tc .vmem S6x512 .bf16) (harg2 : arg2.IsWhole)
    (arg3 : Memref sig .tc .vmem S6x1 .f32) (harg3 : arg3.IsWhole)
    (arg4 : Memref sig .tc .vmem S6x512 .bf16) (harg4 : arg4.IsWhole)
    (arg5 : Memref sig .tc .vmem S512x4096 .bf16) (harg5 : arg5.IsWhole)
    (arg6 : Memref sig .tc .vmem S1x4096 .f32) (harg6 : arg6.IsWhole)
    (arg7 : Memref sig .tc .vmem S6x4096 .bf16) (harg7 : arg7.IsWhole)
    (arg8 : Memref sig .tc .vmem S6x4096 .f32) (harg8 : arg8.IsWhole)
    (arg9 : Memref sig .tc .vmem S6x4096 .f32) (harg9 : arg9.IsWhole)
    (hc0 : cond1_0 i) (hc1 : ¬cond1_1 i)
    (x0 : Vec F S512x4096 .bf16) (x1 : Vec F S6x512 .bf16) (x2 : Vec F S6x1 .f32) (x3 : Vec F S6x512 .bf16) (x4 : Vec F S512x4096 .bf16) (x5 : Vec F S1x4096 .f32) :
    View.canon (kernelRun1_A c i arg1 harg1 arg2 harg2 arg3 harg3 arg4 harg4 arg5 harg5 arg6 harg6 arg7 harg7 arg8 harg8 arg9 harg9 hc0 hc1 x0 x1 x2 x3 x4 x5).2.1 = k1_pay4 (k1_pay2 (F := F)) x3 x4 := by
  unfold kernelRun1_A; dsimp only; sl_unfold_words
  rw [View.canon_cons_unit_zero (S := S6x4096) hz2, View.readCov_unit_zero (S := S6x4096) _ hz2]
  simp only [View.readAt_eq_ld, harg4.read_unread, harg5.read_unread, View.ld_unit_zero (S := S6x512) hz2, View.ld_unit_zero (S := S512x4096) hz2, View.ld_unit_zero (S := S6x4096) hz2, View.ld_unit_zero (S := S6x1) hz2, View.ld_unit_zero (S := S1x4096) hz2]

/-- At a middle point the context accumulator ends at the block product added to what it held. -/
theorem canon1_B_0 (c : Dev nD) (i : grid1.Coords)
    (arg1 : Memref sig .tc .vmem S512x4096 .bf16) (harg1 : arg1.IsWhole)
    (arg2 : Memref sig .tc .vmem S6x512 .bf16) (harg2 : arg2.IsWhole)
    (arg3 : Memref sig .tc .vmem S6x1 .f32) (harg3 : arg3.IsWhole)
    (arg4 : Memref sig .tc .vmem S6x512 .bf16) (harg4 : arg4.IsWhole)
    (arg5 : Memref sig .tc .vmem S512x4096 .bf16) (harg5 : arg5.IsWhole)
    (arg6 : Memref sig .tc .vmem S1x4096 .f32) (harg6 : arg6.IsWhole)
    (arg7 : Memref sig .tc .vmem S6x4096 .bf16) (harg7 : arg7.IsWhole)
    (arg8 : Memref sig .tc .vmem S6x4096 .f32) (harg8 : arg8.IsWhole)
    (arg9 : Memref sig .tc .vmem S6x4096 .f32) (harg9 : arg9.IsWhole)
    (hc0 : ¬cond1_0 i) (hc1 : ¬cond1_1 i)
    (x0 : Vec F S512x4096 .bf16) (x1 : Vec F S6x512 .bf16) (x2 : Vec F S6x1 .f32) (x3 : Vec F S6x512 .bf16) (x4 : Vec F S512x4096 .bf16) (x5 : Vec F S1x4096 .f32) (xs0 : Vec F S6x4096 .f32) (xs1 : Vec F S6x4096 .f32) :
    View.canon (kernelRun1_B c i arg1 harg1 arg2 harg2 arg3 harg3 arg4 harg4 arg5 harg5 arg6 harg6 arg7 harg7 arg8 harg8 arg9 harg9 hc0 hc1 x0 x1 x2 x3 x4 x5 xs0 xs1).1 = k1_pay3 xs0 x1 x0 := by
  unfold kernelRun1_B; dsimp only; sl_unfold_words
  rw [View.canon_unit_zero (S := S6x4096) hz2]
  simp only [View.readAt_eq_ld, harg1.read_unread, harg2.read_unread, harg8.read_unread, View.ld_unit_zero (S := S6x512) hz2, View.ld_unit_zero (S := S512x4096) hz2, View.ld_unit_zero (S := S6x4096) hz2, View.ld_unit_zero (S := S6x1) hz2, View.ld_unit_zero (S := S1x4096) hz2]

/-- Likewise the k accumulator. -/
theorem canon1_B_1 (c : Dev nD) (i : grid1.Coords)
    (arg1 : Memref sig .tc .vmem S512x4096 .bf16) (harg1 : arg1.IsWhole)
    (arg2 : Memref sig .tc .vmem S6x512 .bf16) (harg2 : arg2.IsWhole)
    (arg3 : Memref sig .tc .vmem S6x1 .f32) (harg3 : arg3.IsWhole)
    (arg4 : Memref sig .tc .vmem S6x512 .bf16) (harg4 : arg4.IsWhole)
    (arg5 : Memref sig .tc .vmem S512x4096 .bf16) (harg5 : arg5.IsWhole)
    (arg6 : Memref sig .tc .vmem S1x4096 .f32) (harg6 : arg6.IsWhole)
    (arg7 : Memref sig .tc .vmem S6x4096 .bf16) (harg7 : arg7.IsWhole)
    (arg8 : Memref sig .tc .vmem S6x4096 .f32) (harg8 : arg8.IsWhole)
    (arg9 : Memref sig .tc .vmem S6x4096 .f32) (harg9 : arg9.IsWhole)
    (hc0 : ¬cond1_0 i) (hc1 : ¬cond1_1 i)
    (x0 : Vec F S512x4096 .bf16) (x1 : Vec F S6x512 .bf16) (x2 : Vec F S6x1 .f32) (x3 : Vec F S6x512 .bf16) (x4 : Vec F S512x4096 .bf16) (x5 : Vec F S1x4096 .f32) (xs0 : Vec F S6x4096 .f32) (xs1 : Vec F S6x4096 .f32) :
    View.canon (kernelRun1_B c i arg1 harg1 arg2 harg2 arg3 harg3 arg4 harg4 arg5 harg5 arg6 harg6 arg7 harg7 arg8 harg8 arg9 harg9 hc0 hc1 x0 x1 x2 x3 x4 x5 xs0 xs1).2.1 = k1_pay4 xs1 x3 x4 := by
  unfold kernelRun1_B; dsimp only; sl_unfold_words
  rw [View.canon_unit_zero (S := S6x4096) hz2]
  simp only [View.readAt_eq_ld, harg4.read_unread, harg5.read_unread, harg9.read_unread, View.ld_unit_zero (S := S6x512) hz2, View.ld_unit_zero (S := S512x4096) hz2, View.ld_unit_zero (S := S6x4096) hz2, View.ld_unit_zero (S := S6x1) hz2, View.ld_unit_zero (S := S1x4096) hz2]

/-- At the last point the context accumulator ends at the block product added to what it held. -/
theorem canon1_C_0 (c : Dev nD) (i : grid1.Coords)
    (arg1 : Memref sig .tc .vmem S512x4096 .bf16) (harg1 : arg1.IsWhole)
    (arg2 : Memref sig .tc .vmem S6x512 .bf16) (harg2 : arg2.IsWhole)
    (arg3 : Memref sig .tc .vmem S6x1 .f32) (harg3 : arg3.IsWhole)
    (arg4 : Memref sig .tc .vmem S6x512 .bf16) (harg4 : arg4.IsWhole)
    (arg5 : Memref sig .tc .vmem S512x4096 .bf16) (harg5 : arg5.IsWhole)
    (arg6 : Memref sig .tc .vmem S1x4096 .f32) (harg6 : arg6.IsWhole)
    (arg7 : Memref sig .tc .vmem S6x4096 .bf16) (harg7 : arg7.IsWhole)
    (arg8 : Memref sig .tc .vmem S6x4096 .f32) (harg8 : arg8.IsWhole)
    (arg9 : Memref sig .tc .vmem S6x4096 .f32) (harg9 : arg9.IsWhole)
    (hc0 : ¬cond1_0 i) (hc1 : cond1_1 i)
    (x0 : Vec F S512x4096 .bf16) (x1 : Vec F S6x512 .bf16) (x2 : Vec F S6x1 .f32) (x3 : Vec F S6x512 .bf16) (x4 : Vec F S512x4096 .bf16) (x5 : Vec F S1x4096 .f32) (xs0 : Vec F S6x4096 .f32) (xs1 : Vec F S6x4096 .f32) :
    View.canon (kernelRun1_C c i arg1 harg1 arg2 harg2 arg3 harg3 arg4 harg4 arg5 harg5 arg6 harg6 arg7 harg7 arg8 harg8 arg9 harg9 hc0 hc1 x0 x1 x2 x3 x4 x5 xs0 xs1).2.1 = k1_pay3 xs0 x1 x0 := by
  unfold kernelRun1_C; dsimp only; sl_unfold_words
  rw [View.canon_unit_zero (S := S6x4096) hz2]
  simp only [View.readAt_eq_ld, harg1.read_unread, harg2.read_unread, harg8.read_unread, View.ld_unit_zero (S := S6x512) hz2, View.ld_unit_zero (S := S512x4096) hz2, View.ld_unit_zero (S := S6x4096) hz2, View.ld_unit_zero (S := S6x1) hz2, View.ld_unit_zero (S := S1x4096) hz2]

/-- Likewise the k accumulator. -/
theorem canon1_C_1 (c : Dev nD) (i : grid1.Coords)
    (arg1 : Memref sig .tc .vmem S512x4096 .bf16) (harg1 : arg1.IsWhole)
    (arg2 : Memref sig .tc .vmem S6x512 .bf16) (harg2 : arg2.IsWhole)
    (arg3 : Memref sig .tc .vmem S6x1 .f32) (harg3 : arg3.IsWhole)
    (arg4 : Memref sig .tc .vmem S6x512 .bf16) (harg4 : arg4.IsWhole)
    (arg5 : Memref sig .tc .vmem S512x4096 .bf16) (harg5 : arg5.IsWhole)
    (arg6 : Memref sig .tc .vmem S1x4096 .f32) (harg6 : arg6.IsWhole)
    (arg7 : Memref sig .tc .vmem S6x4096 .bf16) (harg7 : arg7.IsWhole)
    (arg8 : Memref sig .tc .vmem S6x4096 .f32) (harg8 : arg8.IsWhole)
    (arg9 : Memref sig .tc .vmem S6x4096 .f32) (harg9 : arg9.IsWhole)
    (hc0 : ¬cond1_0 i) (hc1 : cond1_1 i)
    (x0 : Vec F S512x4096 .bf16) (x1 : Vec F S6x512 .bf16) (x2 : Vec F S6x1 .f32) (x3 : Vec F S6x512 .bf16) (x4 : Vec F S512x4096 .bf16) (x5 : Vec F S1x4096 .f32) (xs0 : Vec F S6x4096 .f32) (xs1 : Vec F S6x4096 .f32) :
    View.canon (kernelRun1_C c i arg1 harg1 arg2 harg2 arg3 harg3 arg4 harg4 arg5 harg5 arg6 harg6 arg7 harg7 arg8 harg8 arg9 harg9 hc0 hc1 x0 x1 x2 x3 x4 x5 xs0 xs1).2.2.1 = k1_pay4 xs1 x3 x4 := by
  unfold kernelRun1_C; dsimp only; sl_unfold_words
  rw [View.canon_unit_zero (S := S6x4096) hz2]
  simp only [View.readAt_eq_ld, harg4.read_unread, harg5.read_unread, harg9.read_unread, View.ld_unit_zero (S := S6x512) hz2, View.ld_unit_zero (S := S512x4096) hz2, View.ld_unit_zero (S := S6x4096) hz2, View.ld_unit_zero (S := S6x1) hz2, View.ld_unit_zero (S := S1x4096) hz2]

/-- At the last point the output's block ends at the modulated value of the two accumulators as just updated (each loaded
    back after its store) and the two bias blocks. -/
theorem canon1_C_6 (c : Dev nD) (i : grid1.Coords)
    (arg1 : Memref sig .tc .vmem S512x4096 .bf16) (harg1 : arg1.IsWhole)
    (arg2 : Memref sig .tc .vmem S6x512 .bf16) (harg2 : arg2.IsWhole)
    (arg3 : Memref sig .tc .vmem S6x1 .f32) (harg3 : arg3.IsWhole)
    (arg4 : Memref sig .tc .vmem S6x512 .bf16) (harg4 : arg4.IsWhole)
    (arg5 : Memref sig .tc .vmem S512x4096 .bf16) (harg5 : arg5.IsWhole)
    (arg6 : Memref sig .tc .vmem S1x4096 .f32) (harg6 : arg6.IsWhole)
    (arg7 : Memref sig .tc .vmem S6x4096 .bf16) (harg7 : arg7.IsWhole)
    (arg8 : Memref sig .tc .vmem S6x4096 .f32) (harg8 : arg8.IsWhole)
    (arg9 : Memref sig .tc .vmem S6x4096 .f32) (harg9 : arg9.IsWhole)
    (hc0 : ¬cond1_0 i) (hc1 : cond1_1 i)
    (x0 : Vec F S512x4096 .bf16) (x1 : Vec F S6x512 .bf16) (x2 : Vec F S6x1 .f32) (x3 : Vec F S6x512 .bf16) (x4 : Vec F S512x4096 .bf16) (x5 : Vec F S1x4096 .f32) (xs0 : Vec F S6x4096 .f32) (xs1 : Vec F S6x4096 .f32) :
    View.canon (kernelRun1_C c i arg1 harg1 arg2 harg2 arg3 harg3 arg4 harg4 arg5 harg5 arg6 harg6 arg7 harg7 arg8 harg8 arg9 harg9 hc0 hc1 x0 x1 x2 x3 x4 x5 xs0 xs1).1 = k1_pay5 (k1_pay3 xs0 x1 x0) x2 (k1_pay4 xs1 x3 x4) x5 := by
  unfold kernelRun1_C; dsimp only; sl_unfold_words
  rw [View.canon_unit_zero (S := S6x4096) hz2]
  simp only [View.readCov_unit_zero (S := S6x4096) _ hz2, View.readAt_eq_ld, harg1.read_unread, harg2.read_unread, harg3.read_unread, harg4.read_unread, harg5.read_unread, harg6.read_unread, harg8.read_unread, harg9.read_unread, View.ld_unit_zero (S := S6x512) hz2, View.ld_unit_zero (S := S512x4096) hz2, View.ld_unit_zero (S := S6x4096) hz2, View.ld_unit_zero (S := S6x1) hz2, View.ld_unit_zero (S := S1x4096) hz2]

/-! ## The accumulators point by point -/

theorem sc1a_zero (c : Dev nD) (t : Fin cfg1.N) (hz : t.val = 0) :
    sc1a V c t.val t.isLt = k1_pay3 (k1_pay1 (F := F)) (iblk1 V c 1 t) (iblk1 V c 0 t) := by
  obtain ⟨n, hn⟩ := t; subst hz; rfl
theorem sc1b_zero (c : Dev nD) (t : Fin cfg1.N) (hz : t.val = 0) :
    sc1b V c t.val t.isLt = k1_pay4 (k1_pay2 (F := F)) (iblk1 V c 3 t) (iblk1 V c 4 t) := by
  obtain ⟨n, hn⟩ := t; subst hz; rfl
theorem sc1a_pos (c : Dev nD) (t : Fin cfg1.N) (hz : t.val ≠ 0) :
    sc1a V c t.val t.isLt = k1_pay3 (sc1a V c (t.val - 1) (Nat.lt_of_le_of_lt (Nat.sub_le _ _) t.isLt)) (iblk1 V c 1 t) (iblk1 V c 0 t) := by
  obtain ⟨n, hn⟩ := t
  cases n with
  | zero => exact absurd rfl hz
  | succ n => rfl
theorem sc1b_pos (c : Dev nD) (t : Fin cfg1.N) (hz : t.val ≠ 0) :
    sc1b V c t.val t.isLt = k1_pay4 (sc1b V c (t.val - 1) (Nat.lt_of_le_of_lt (Nat.sub_le _ _) t.isLt)) (iblk1 V c 3 t) (iblk1 V c 4 t) := by
  obtain ⟨n, hn⟩ := t
  cases n with
  | zero => exact absurd rfl hz
  | succ n => rfl

/-! ## The invariant before the first point, with the two accumulators split off -/

/-- Every scoped buffer at anything is: the two accumulators at anything, the scoped buffers the region never opens,
    the generator register at some state. -/
theorem PhiA1_eq (c : Dev nD) :
    (Pipeline.ΦA spec1 c : sProp 𝕄)
      = iprop((((∃ d, owns (c : Thread nD τ) scM1_0 fullShare d) ∗ (∃ d, owns (c : Thread nD τ) scM1_1 fullShare d)) ∗ rest1 (F := F) c) ∗ (∃ r, prngReg c r)) := by
  unfold Pipeline.ΦA
  rw [Pipeline.scopedRest_split_of_list spec1 c [cc1_scratch0, cc1_scratch1] (by decide) (by decide)]
  simp only [bigSepL_cons_cons, bigSepL_singleton, scM1_0, scM1_1, owns_whole]; try rfl

/-! ## The inputs' staging buffers hold their blocks at every point, fetched there or not -/

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
      (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
      (fun t => by rw [after1_5]; unfold Dat.blockOf iblk1; rw [A_eq1]; try rfl) t d).trans
    (by unfold Dat.fetched Dat.blockOf iblk1; rw [A_eq1]; try rfl)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
/-- Where the second condition fails the output is idle and not written back. -/
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
/-- Where it holds the output is live. -/
theorem liveAt1_6 : ∀ t : Fin cfg1.N, cond1_1 (grid1.coords t) → cfg1.idle 6 (grid1.coords t) = false := by decide +kernel

/-! ## The body at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point. The inputs' memrefs hold their blocks; the closed forms of the two conditions say which of the
    three cases the point is in, and that case's run applies. The invariant hands the body the two accumulators (at
    anything at the first point, at what the point before left afterwards) and takes them back at this point's
    contents: what each accumulator's stores leave, read back, is the payload over the blocks. The output's buffer
    is handed back as found where nothing is stored, and at the modulated value at the last point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 8 := lt_of_lt_of_eq t.isLt (show cfg1.N = 8 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  by_cases h0 : t.val % 8 = 0
  · by_cases h1 : t.val % 8 = 7
    · exfalso; omega
    · -- the first point: both accumulators reset, then updated
      have hz : t.val = 0 := by omega
      rw [Dat.leavesExact_idle (dat1 V c) 6 t (idleAt1_6 t (fun h => h1 ((hcond1_1 t).mp h))) (noFlush1_6 t (fun h => h1 ((hcond1_1 t).mp h)))]
      rw [PhiS1_castSucc V c t, PhiS1_zero V c _ _ hz, PhiA1_eq]
      rw [sc1a_zero V c t hz, sc1b_zero V c t hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HS0 HS1 Hr Hg]
      · isplitl [HS0]
        · unfold owns; iexists _; isplitr
          swap; · iexact HS0
          ipureintro
          exact (View.read_writes_eq_canon _ _ _ (scover1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t))).trans (canon1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t))
        isplitl [HS1]
        · unfold owns; iexists _; isplitr
          swap; · iexact HS1
          ipureintro
          exact (View.read_writes_eq_canon _ _ _ (scover1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t))).trans (canon1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t))
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := by omega
    rw [PhiS1_castSucc V c t, PhiS1_pos V c _ _ hz]
    rw [sc1a_pos V c t hz, sc1b_pos V c t hz]
    by_cases h1 : t.val % 8 = 7
    · -- the last point: both accumulators updated, then the modulated value stored into the output
      rw [show (dat1 V c).leavesExact 6 t = owns (c : Thread nD τ) (ms1_6 t) fullShare ((dat1 V c).after 6 t) from by
        unfold Dat.leavesExact; rw [liveAt1_6 t ((hcond1_1 t).mpr h1)], after1_6]
      unfold out1
      rw [sc1a_pos V c t hz, sc1b_pos V c t hz]
      iintro ⟨⟨HS0, HS1, Hr, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, ⟨%e6, H6⟩, ⟨%es0, HS0⟩, ⟨%es1, HS1⟩⟩
      isplitl [HS0 HS1 Hr Hg]
      · isplitl [HS0]
        · unfold owns; iexists _; isplitr
          swap; · iexact HS0
          ipureintro
          exact (View.read_writes_eq_canon _ _ _ (scover1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (sc1a V c (t.val - 1) (Nat.lt_of_le_of_lt (Nat.sub_le _ _) t.isLt)) (sc1b V c (t.val - 1) (Nat.lt_of_le_of_lt (Nat.sub_le _ _) t.isLt)))).trans (canon1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (sc1a V c (t.val - 1) (Nat.lt_of_le_of_lt (Nat.sub_le _ _) t.isLt)) (sc1b V c (t.val - 1) (Nat.lt_of_le_of_lt (Nat.sub_le _ _) t.isLt)))
        isplitl [HS1]
        · unfold owns; iexists _; isplitr
          swap; · iexact HS1
          ipureintro
          exact (View.read_writes_eq_canon _ _ _ (scover1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (sc1a V c (t.val - 1) (Nat.lt_of_le_of_lt (Nat.sub_le _ _) t.isLt)) (sc1b V c (t.val - 1) (Nat.lt_of_le_of_lt (Nat.sub_le _ _) t.isLt)))).trans (canon1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (sc1a V c (t.val - 1) (Nat.lt_of_le_of_lt (Nat.sub_le _ _) t.isLt)) (sc1b V c (t.val - 1) (Nat.lt_of_le_of_lt (Nat.sub_le _ _) t.isLt)))
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro
      exact (View.read_writes_eq_canon _ _ _ (cover1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (sc1a V c (t.val - 1) (Nat.lt_of_le_of_lt (Nat.sub_le _ _) t.isLt)) (sc1b V c (t.val - 1) (Nat.lt_of_le_of_lt (Nat.sub_le _ _) t.isLt)))).trans (canon1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (sc1a V c (t.val - 1) (Nat.lt_of_le_of_lt (Nat.sub_le _ _) t.isLt)) (sc1b V c (t.val - 1) (Nat.lt_of_le_of_lt (Nat.sub_le _ _) t.isLt)))
    · -- a middle point: both accumulators updated
      rw [Dat.leavesExact_idle (dat1 V c) 6 t (idleAt1_6 t (fun h => h1 ((hcond1_1 t).mp h))) (noFlush1_6 t (fun h => h1 ((hcond1_1 t).mp h)))]
      iintro ⟨⟨HS0, HS1, Hr, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _ _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HS0 HS1 Hr Hg]
      · isplitl [HS0]
        · unfold owns; iexists _; isplitr
          swap; · iexact HS0
          ipureintro
          exact (View.read_writes_eq_canon _ _ _ (scover1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (sc1a V c (t.val - 1) (Nat.lt_of_le_of_lt (Nat.sub_le _ _) t.isLt)) (sc1b V c (t.val - 1) (Nat.lt_of_le_of_lt (Nat.sub_le _ _) t.isLt)))).trans (canon1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (sc1a V c (t.val - 1) (Nat.lt_of_le_of_lt (Nat.sub_le _ _) t.isLt)) (sc1b V c (t.val - 1) (Nat.lt_of_le_of_lt (Nat.sub_le _ _) t.isLt)))
        isplitl [HS1]
        · unfold owns; iexists _; isplitr
          swap; · iexact HS1
          ipureintro
          exact (View.read_writes_eq_canon _ _ _ (scover1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (sc1a V c (t.val - 1) (Nat.lt_of_le_of_lt (Nat.sub_le _ _) t.isLt)) (sc1b V c (t.val - 1) (Nat.lt_of_le_of_lt (Nat.sub_le _ _) t.isLt)))).trans (canon1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (sc1a V c (t.val - 1) (Nat.lt_of_le_of_lt (Nat.sub_le _ _) t.isLt)) (sc1b V c (t.val - 1) (Nat.lt_of_le_of_lt (Nat.sub_le _ _) t.isLt)))
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The body obligation of region 1's pipeline at every grid point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the scoped buffers back at anything. -/
theorem hout1 (c : Dev nD) : (dat1 V c).Φ (Fin.last cfg1.N) ⊢ Pipeline.ΦA spec1 c := by
  have hne : (Fin.last cfg1.N).val ≠ 0 := by rw [Fin.val_last]; have : cfg1.N = 8 := N_1; omega
  rw [show (dat1 V c).Φ (Fin.last cfg1.N) = PhiS1 V c (Fin.last cfg1.N).val (Nat.le_of_lt_succ (Fin.last cfg1.N).isLt) from rfl,
    PhiS1_pos V c _ _ hne, PhiA1_eq]
  iintro ⟨HS0, HS1, Hr, Hg⟩
  isplitl [HS0 HS1 Hr]
  · isplitl [HS0 HS1]
    · isplitl [HS0]
      · iexists _; iexact HS0
      iexists _; iexact HS1
    iexact Hr
  iexact Hg

end Cert.KernelIdeal.Hand

end
-- ==== Proof.R2Base.lean ====
/-
  Region 2 of the program (out = (q · k_modᵀ) · 1/64, four row tiles of 1024, each accumulated over two halves of
  the contracted axis in a scratch tile and scaled when stored): the blocks the pipeline hands the body, what the
  scratch tile holds after each grid point, what the body stores into the output tile at the points that end an
  accumulation, the region's invariant and its proof data — as explicit functions of the arrays as the region
  finds them (`V`).
-/
import proofs.«159061_j38019050504386_1_alg».proof.Proof.Gen.KernelIdeal.Launch
import proofs.«159061_j38019050504386_1_alg».proof.Proof.Gen.KernelIdeal.Skeleton
import proofs.«159061_j38019050504386_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The two branch conditions of the body, decided over the grid

The last grid axis (extent 2) runs fastest: an even point starts an accumulation, an odd point ends it. -/

/-- The body's first `scf.if`: the contracted-axis coordinate is 0. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 2 = 0 :=
  (by decide +kernel : ∀ t : Fin grid2.N, cond2_0 (grid2.coords t) ↔ t.val % 2 = 0)
/-- The body's second `scf.if`: the contracted-axis coordinate is the last one. -/
abbrev cond2_1 (i : grid2.Coords) : Prop := k2_cond2 i = 1#1
theorem hcond2_1 : ∀ t : Fin cfg2.N, cond2_1 (grid2.coords t) ↔ t.val % 2 = 1 :=
  (by decide +kernel : ∀ t : Fin grid2.N, cond2_1 (grid2.coords t) ↔ t.val % 2 = 1)

/-! ## The memrefs the body is called with -/

abbrev ms2_0 (t : Fin cfg2.N) : Memref sig .tc .vmem S1024x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x6 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x6 .f32 := win2_2.stage (cfg2.slots t 2)
abbrev hs2_2 (t : Fin cfg2.N) : (ms2_2 t).IsWhole := hstage2_2 ((cfg2.slots t 2).cast nbuf2_2)
/-- The scratch tile: a whole scoped buffer of the kernel's own. -/
abbrev scM2_0 : Memref sig .tc .vmem S1024x6 .f32 := Memref.whole cc2_scratch0

/-! ## What the scratch tile and the output tile hold -/

/-- The scratch tile after the body at point `n`: the product of the point's two blocks added to zero at an even
    point, to what the point before left at an odd one. -/
def sc2 (c : Dev nD) : (n : ℕ) → n < cfg2.N → Vec F S1024x6 .f32
  | 0, hn => k2_pay2 (k2_pay1 (F := F)) (iblk2 V c 0 ⟨0, hn⟩) (iblk2 V c 1 ⟨0, hn⟩)
  | n + 1, hn => k2_pay2 (if (n + 1) % 2 = 0 then k2_pay1 (F := F) else sc2 c n (Nat.lt_of_succ_lt hn))
      (iblk2 V c 0 ⟨n + 1, hn⟩) (iblk2 V c 1 ⟨n + 1, hn⟩)

/-- What the body stores into the output tile at a point that ends an accumulation: the scratch tile scaled. -/
def out2 (c : Dev nD) (t : Fin cfg2.N) : Vec F S1024x6 .f32 :=
  k2_pay3 (sc2 V c t.val t.isLt)

/-! ## The invariant -/

/-- The scoped buffers the region never opens: every scoped buffer but its own staging buffers and its scratch tile. -/
abbrev rest2 (c : Dev nD) : sProp 𝕄 :=
  Pipeline.scopedRestBut (Ix := Unit) (Name := ℕ) (U := UR sig nD τ) (Lvl := ℕ) (Val := Elt F) spec2 c [cc2_scratch0]

/-- Before the first point every scoped buffer is at anything; after point `n` the scratch tile holds `sc2 n`. -/
def PhiS2 (c : Dev nD) : (n : ℕ) → n ≤ cfg2.N → sProp 𝕄
  | 0, _ => Pipeline.ΦA spec2 c
  | n + 1, hn => iprop(owns (c : Thread nD τ) scM2_0 fullShare (sc2 V c n hn) ∗ rest2 (F := F) c ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(owns (c : Thread nD τ) scM2_0 fullShare (sc2 V c n hn) ∗ rest2 (F := F) c ∗ (∃ r, prngReg c r)) := rfl
theorem PhiS2_pos (c : Dev nD) (n : ℕ) (h : n ≤ cfg2.N) (hz : n ≠ 0) :
    PhiS2 V c n h = iprop(owns (c : Thread nD τ) scM2_0 fullShare (sc2 V c (n - 1) (by omega)) ∗ rest2 (F := F) c ∗ (∃ r, prngReg c r)) := by
  cases n with
  | zero => exact absurd rfl hz
  | succ n => rfl

/-! ## The proof data -/

/-- The region's proof data on core `c`: the arrays as found; after the body each input window's buffer at its block,
    the output window's at `out2`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2 V c t := by dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]

end Cert.KernelIdeal.Hand

end
-- ==== Proof.R2RunA.lean ====
/-
  Region 2, the body at a point that STARTS an accumulation (contracted-axis coordinate 0, not the last one):
  the scratch tile is reset to zero, then the product of the point's two blocks is added to it; the output tile
  is not touched.
-/
import proofs.«159061_j38019050504386_1_alg».proof.Proof.R2Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body run at a starting point, on whole memrefs: the two input tiles at their contents `x0`, `x1`, the output
    tile at whatever it holds (`xi2`, handed back as found), the scratch tile at anything. It ends with the inputs and
    the output tile as they were and the scratch tile with the stores of this run written into it: those stores
    (latest first) are the witness the run finds. -/
noncomputable def kernelRun2_A (c : Dev nD) (i : grid2.Coords)
    (arg2 : Memref sig .tc .vmem S1024x2048 .bf16) (harg2 : arg2.IsWhole)
    (arg3 : Memref sig .tc .vmem S2048x6 .bf16) (harg3 : arg3.IsWhole)
    (arg4 : Memref sig .tc .vmem S1024x6 .f32) (harg4 : arg4.IsWhole)
    (arg5 : Memref sig .tc .vmem S1024x6 .f32) (harg5 : arg5.IsWhole)
    (hc0 : cond2_0 i) (hc1 : ¬cond2_1 i)
    (x0 : Vec F S1024x2048 .bf16) (x1 : Vec F S2048x6 .bf16) :
    { LS0 : List (View.Piece (Elt F) S1024x6 .f32) //
      ∀ (xi2 : Vec F S1024x6 .f32) (E : Set ℕ) (K : PUnit → sProp 𝕄),
        iprop(owns (c : Thread nD τ) arg2 fullShare x0 ∗ owns (c : Thread nD τ) arg3 fullShare x1
            ∗ owns (c : Thread nD τ) arg4 fullShare xi2 ∗ (∃ d, owns (c : Thread nD τ) arg5 fullShare d)
            ∗ (iprop(owns (c : Thread nD τ) arg2 fullShare x0 ∗ owns (c : Thread nD τ) arg3 fullShare x1
                ∗ owns (c : Thread nD τ) arg4 fullShare xi2
                ∗ (∃ f, arg5.view.loc (c : Thread nD τ) ↦[arg5.view.set]{fullShare} arg5.view.writes (Elt F) f LS0)) -∗ K ⟨⟩))
          ⊢ wp frame (wpE (defs₀ (F := F)) Variants.none c none) E (cc2__finaldot_kernel i arg2 harg2 arg3 harg3 arg4 harg4 arg5 harg5) K } := by
  refine ⟨?_, fun xi2 E K => ?run⟩
  case run =>
    simp only [cc2__finaldot_kernel_eq_skeleton]; unfold cc2__finaldot_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.R2RunB.lean ====
/-
  Region 2, the body at a point that ENDS an accumulation (contracted-axis coordinate the last one, not 0):
  the product of the point's two blocks is added to what the scratch tile holds, and the scratch tile, scaled, is
  stored into the output tile.
-/
import proofs.«159061_j38019050504386_1_alg».proof.Proof.R2RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body run at an ending point, on whole memrefs: the two input tiles at their contents `x0`, `x1`, the scratch
    tile at what the point before left (`xs0`), the output tile at anything. It ends with the inputs as they were and
    the scratch tile and the output tile each with the stores of this run written into it: those stores (latest
    first; the output tile's, then the scratch tile's) are the witness the run finds. -/
noncomputable def kernelRun2_B (c : Dev nD) (i : grid2.Coords)
    (arg2 : Memref sig .tc .vmem S1024x2048 .bf16) (harg2 : arg2.IsWhole)
    (arg3 : Memref sig .tc .vmem S2048x6 .bf16) (harg3 : arg3.IsWhole)
    (arg4 : Memref sig .tc .vmem S1024x6 .f32) (harg4 : arg4.IsWhole)
    (arg5 : Memref sig .tc .vmem S1024x6 .f32) (harg5 : arg5.IsWhole)
    (hc0 : ¬cond2_0 i) (hc1 : cond2_1 i)
    (x0 : Vec F S1024x2048 .bf16) (x1 : Vec F S2048x6 .bf16) (xs0 : Vec F S1024x6 .f32) :
    Σ' (L2 : List (View.Piece (Elt F) S1024x6 .f32)), { LS0 : List (View.Piece (Elt F) S1024x6 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ owns (c : Thread nD τ) arg5 fullShare xs0
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)) -∗ K ⟨⟩))
          ⊢ wp frame (wpE (defs₀ (F := F)) Variants.none c none) E (cc2__finaldot_kernel i arg2 harg2 arg3 harg3 arg4 harg4 arg5 harg5) K } := by
  refine ⟨?_, ?_, fun E K => ?run⟩
  case run =>
    simp only [cc2__finaldot_kernel_eq_skeleton]; unfold cc2__finaldot_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.R2Body.lean ====
/-
  Region 2: the body run at every grid point against the region's proof data.
-/
import proofs.«159061_j38019050504386_1_alg».proof.Proof.R2RunB
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Where the windows are idle, and when the output tile is written back -/

/-- The two input windows are never idle. -/
theorem liveAt2_0 : ∀ t : Fin cfg2.N, cfg2.idle 0 (grid2.coords t) = false := by decide +kernel
theorem liveAt2_1 : ∀ t : Fin cfg2.N, cfg2.idle 1 (grid2.coords t) = false := by decide +kernel
/-- At a point that starts an accumulation the output window is idle, and its tile is not written back. -/
theorem idleAt2_2_start : ∀ t : Fin cfg2.N, cond2_0 (grid2.coords t) → ¬cond2_1 (grid2.coords t) → cfg2.idle 2 (grid2.coords t) = true := by decide +kernel
theorem noFlush2_2_start : ∀ t : Fin cfg2.N, cond2_0 (grid2.coords t) → ¬cond2_1 (grid2.coords t) → (cfg2.win 2).flush t = false := by decide +kernel
/-- At a point that ends one it is live. -/
theorem liveAt2_2_end : ∀ t : Fin cfg2.N, ¬cond2_0 (grid2.coords t) → cond2_1 (grid2.coords t) → cfg2.idle 2 (grid2.coords t) = false := by decide +kernel

/-! ## The launch's invariant with the scratch tile split off -/

/-- Every scoped buffer at anything: the scratch tile, owned as a memref at some contents, beside the buffers the
    region never opens and the generator register. -/
theorem PhiA2_eq (c : Dev nD) :
    (Pipeline.ΦA spec2 c : sProp 𝕄)
      = iprop(((∃ d, owns (c : Thread nD τ) scM2_0 fullShare d) ∗ rest2 (F := F) c) ∗ (∃ r, prngReg c r)) := by
  unfold Pipeline.ΦA
  rw [Pipeline.scopedRest_split_of_list spec2 c [cc2_scratch0] (by decide) (by decide)]
  simp only [bigSepL_singleton, scM2_0, owns_whole]; try rfl

/-! ## The input tiles hold their blocks -/

/-- Input window 0's current staging buffer holds the point's block, for any proof data over the arrays as found
    whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The same for input window 1. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The scratch tile's contents, by the kind of point -/

/-- After a point that starts an accumulation: the product of its two blocks added to zero. -/
theorem sc2_start (c : Dev nD) (t : Fin cfg2.N) (h : t.val % 2 = 0) :
    sc2 V c t.val t.isLt = k2_pay2 (k2_pay1 (F := F)) (iblk2 V c 0 t) (iblk2 V c 1 t) := by
  obtain ⟨n, hn⟩ := t
  cases n with
  | zero => rfl
  | succ n =>
    show k2_pay2 (if (n + 1) % 2 = 0 then k2_pay1 (F := F) else sc2 V c n (Nat.lt_of_succ_lt hn)) _ _ = _
    rw [if_pos h]

/-- After a point that ends one: the product added to what the point before left. -/
theorem sc2_end (c : Dev nD) (t : Fin cfg2.N) (h : t.val % 2 = 1) :
    sc2 V c t.val t.isLt
      = k2_pay2 (sc2 V c (t.val - 1) (Nat.lt_of_le_of_lt (Nat.sub_le _ _) t.isLt)) (iblk2 V c 0 t) (iblk2 V c 1 t) := by
  obtain ⟨n, hn⟩ := t
  cases n with
  | zero => exfalso; dsimp only at h; omega
  | succ n =>
    show k2_pay2 (if (n + 1) % 2 = 0 then k2_pay1 (F := F) else sc2 V c n (Nat.lt_of_succ_lt hn)) _ _ = _
    rw [if_neg (by dsimp only at h; omega)]; rfl

/-! ## What the runs leave, read back

Every store and load of the body is of a whole tile (the unit rectangle at offsets zero of the tile's own sizes), so
a tile's contents after a run are the payload of the last store into it, and every load reads the contents. -/

theorem hz2 : (![0, 0] : Fin 2 → Nat) = fun _ => 0 := funext fun a => by fin_cases a <;> rfl

/-- At a starting point the stores into the scratch tile cover it. -/
theorem scover2_A (c : Dev nD) (i : grid2.Coords) (arg2 : Memref sig .tc .vmem S1024x2048 .bf16) (harg2 : arg2.IsWhole) (arg3 : Memref sig .tc .vmem S2048x6 .bf16) (harg3 : arg3.IsWhole) (arg4 : Memref sig .tc .vmem S1024x6 .f32) (harg4 : arg4.IsWhole) (arg5 : Memref sig .tc .vmem S1024x6 .f32) (harg5 : arg5.IsWhole) (hc0 : cond2_0 i) (hc1 : ¬cond2_1 i) (x0 : Vec F S1024x2048 .bf16) (x1 : Vec F S2048x6 .bf16) (y : S1024x6.Idx) :
    ∃ pc ∈ (kernelRun2_A c i arg2 harg2 arg3 harg3 arg4 harg4 arg5 harg5 hc0 hc1 x0 x1).1, y ∈ pc.1.set :=
  View.cover_of_tiledL (kernelRun2_A c i arg2 harg2 arg3 harg3 arg4 harg4 arg5 harg5 hc0 hc1 x0 x1).1 S1024x6.size (by sl_kernel_rfl) y

/-- So the scratch tile ends at the product of the two blocks added to zero: the reset, read back, is the addend. -/
theorem sread2_A (c : Dev nD) (i : grid2.Coords) (arg2 : Memref sig .tc .vmem S1024x2048 .bf16) (harg2 : arg2.IsWhole) (arg3 : Memref sig .tc .vmem S2048x6 .bf16) (harg3 : arg3.IsWhole) (arg4 : Memref sig .tc .vmem S1024x6 .f32) (harg4 : arg4.IsWhole) (arg5 : Memref sig .tc .vmem S1024x6 .f32) (harg5 : arg5.IsWhole) (hc0 : cond2_0 i) (hc1 : ¬cond2_1 i) (x0 : Vec F S1024x2048 .bf16) (x1 : Vec F S2048x6 .bf16)
    (f : arg5.view.ty.Contents (Elt F)) :
    arg5.view.read (Elt F) (arg5.view.writes (Elt F) f (kernelRun2_A c i arg2 harg2 arg3 harg3 arg4 harg4 arg5 harg5 hc0 hc1 x0 x1).1) = k2_pay2 (k2_pay1 (F := F)) x0 x1 := by
  rw [View.read_writes_eq_canon _ _ _ (scover2_A c i arg2 harg2 arg3 harg3 arg4 harg4 arg5 harg5 hc0 hc1 x0 x1)]
  unfold kernelRun2_A
  dsimp only
  sl_unfold_words
  rw [View.canon_cons_unit_zero (S := S1024x6) hz2, View.readCov_unit_zero (S := S1024x6) _ hz2]
  simp only [View.readAt_eq_ld, harg2.read_unread, harg3.read_unread, harg5.read_unread, View.ld_unit_zero (S := S1024x2048) hz2, View.ld_unit_zero (S := S2048x6) hz2, View.ld_unit_zero (S := S1024x6) hz2]

/-- At an ending point the one store into the scratch tile covers it, -/
theorem scover2_B (c : Dev nD) (i : grid2.Coords) (arg2 : Memref sig .tc .vmem S1024x2048 .bf16) (harg2 : arg2.IsWhole) (arg3 : Memref sig .tc .vmem S2048x6 .bf16) (harg3 : arg3.IsWhole) (arg4 : Memref sig .tc .vmem S1024x6 .f32) (harg4 : arg4.IsWhole) (arg5 : Memref sig .tc .vmem S1024x6 .f32) (harg5 : arg5.IsWhole) (hc0 : ¬cond2_0 i) (hc1 : cond2_1 i) (x0 : Vec F S1024x2048 .bf16) (x1 : Vec F S2048x6 .bf16) (xs0 : Vec F S1024x6 .f32) (y : S1024x6.Idx) :
    ∃ pc ∈ (kernelRun2_B c i arg2 harg2 arg3 harg3 arg4 harg4 arg5 harg5 hc0 hc1 x0 x1 xs0).2.1, y ∈ pc.1.set :=
  View.cover_of_tiledL (kernelRun2_B c i arg2 harg2 arg3 harg3 arg4 harg4 arg5 harg5 hc0 hc1 x0 x1 xs0).2.1 S1024x6.size (by sl_kernel_rfl) y

/-- and the one store into the output tile covers that. -/
theorem ocover2_B (c : Dev nD) (i : grid2.Coords) (arg2 : Memref sig .tc .vmem S1024x2048 .bf16) (harg2 : arg2.IsWhole) (arg3 : Memref sig .tc .vmem S2048x6 .bf16) (harg3 : arg3.IsWhole) (arg4 : Memref sig .tc .vmem S1024x6 .f32) (harg4 : arg4.IsWhole) (arg5 : Memref sig .tc .vmem S1024x6 .f32) (harg5 : arg5.IsWhole) (hc0 : ¬cond2_0 i) (hc1 : cond2_1 i) (x0 : Vec F S1024x2048 .bf16) (x1 : Vec F S2048x6 .bf16) (xs0 : Vec F S1024x6 .f32) (y : S1024x6.Idx) :
    ∃ pc ∈ (kernelRun2_B c i arg2 harg2 arg3 harg3 arg4 harg4 arg5 harg5 hc0 hc1 x0 x1 xs0).1, y ∈ pc.1.set :=
  View.cover_of_tiledL (kernelRun2_B c i arg2 harg2 arg3 harg3 arg4 harg4 arg5 harg5 hc0 hc1 x0 x1 xs0).1 S1024x6.size (by sl_kernel_rfl) y

/-- So the scratch tile ends at the product added to what it held, -/
theorem sread2_B (c : Dev nD) (i : grid2.Coords) (arg2 : Memref sig .tc .vmem S1024x2048 .bf16) (harg2 : arg2.IsWhole) (arg3 : Memref sig .tc .vmem S2048x6 .bf16) (harg3 : arg3.IsWhole) (arg4 : Memref sig .tc .vmem S1024x6 .f32) (harg4 : arg4.IsWhole) (arg5 : Memref sig .tc .vmem S1024x6 .f32) (harg5 : arg5.IsWhole) (hc0 : ¬cond2_0 i) (hc1 : cond2_1 i) (x0 : Vec F S1024x2048 .bf16) (x1 : Vec F S2048x6 .bf16) (xs0 : Vec F S1024x6 .f32)
    (f : arg5.view.ty.Contents (Elt F)) :
    arg5.view.read (Elt F) (arg5.view.writes (Elt F) f (kernelRun2_B c i arg2 harg2 arg3 harg3 arg4 harg4 arg5 harg5 hc0 hc1 x0 x1 xs0).2.1) = k2_pay2 xs0 x0 x1 := by
  rw [View.read_writes_eq_canon _ _ _ (scover2_B c i arg2 harg2 arg3 harg3 arg4 harg4 arg5 harg5 hc0 hc1 x0 x1 xs0)]
  unfold kernelRun2_B
  dsimp only
  sl_unfold_words
  rw [View.canon_unit_zero (S := S1024x6) hz2]
  simp only [View.readAt_eq_ld, harg2.read_unread, harg3.read_unread, harg5.read_unread, View.ld_unit_zero (S := S1024x2048) hz2, View.ld_unit_zero (S := S2048x6) hz2, View.ld_unit_zero (S := S1024x6) hz2]

/-- and the output tile at that, scaled: the scratch tile read back after its store. -/
theorem oread2_B (c : Dev nD) (i : grid2.Coords) (arg2 : Memref sig .tc .vmem S1024x2048 .bf16) (harg2 : arg2.IsWhole) (arg3 : Memref sig .tc .vmem S2048x6 .bf16) (harg3 : arg3.IsWhole) (arg4 : Memref sig .tc .vmem S1024x6 .f32) (harg4 : arg4.IsWhole) (arg5 : Memref sig .tc .vmem S1024x6 .f32) (harg5 : arg5.IsWhole) (hc0 : ¬cond2_0 i) (hc1 : cond2_1 i) (x0 : Vec F S1024x2048 .bf16) (x1 : Vec F S2048x6 .bf16) (xs0 : Vec F S1024x6 .f32)
    (f : arg4.view.ty.Contents (Elt F)) :
    arg4.view.read (Elt F) (arg4.view.writes (Elt F) f (kernelRun2_B c i arg2 harg2 arg3 harg3 arg4 harg4 arg5 harg5 hc0 hc1 x0 x1 xs0).1) = k2_pay3 (k2_pay2 xs0 x0 x1) := by
  rw [View.read_writes_eq_canon _ _ _ (ocover2_B c i arg2 harg2 arg3 harg3 arg4 harg4 arg5 harg5 hc0 hc1 x0 x1 xs0)]
  unfold kernelRun2_B
  dsimp only
  sl_unfold_words
  rw [View.canon_unit_zero (S := S1024x6) hz2, View.readCov_unit_zero (S := S1024x6) _ hz2]
  simp only [View.readAt_eq_ld, harg2.read_unread, harg3.read_unread, harg5.read_unread, View.ld_unit_zero (S := S1024x2048) hz2, View.ld_unit_zero (S := S2048x6) hz2, View.ld_unit_zero (S := S1024x6) hz2]

/-! ## The body at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point. The input tiles hold the point's blocks. At an even point (an accumulation starts) the
    invariant hands over the scratch tile at anything — at the first point from the launch, later forgetting what
    the point before left —, the output window is idle and its tile goes back as found, and the scratch tile comes
    back at the product added to zero. At an odd point (the accumulation ends) the scratch tile is handed over at
    what the point before left and comes back with the product added, and the output tile comes back at that,
    scaled. The core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  have hN : t.val < 8 := lt_of_lt_of_eq t.isLt (show cfg2.N = 8 from N_2)
  by_cases h0 : t.val % 2 = 0
  · have hc0 : cond2_0 (grid2.coords t) := (hcond2_0 t).mpr h0
    have hc1 : ¬cond2_1 (grid2.coords t) := fun h => by have := (hcond2_1 t).mp h; omega
    rw [Dat.leavesExact_idle (dat2 V c) 2 t (idleAt2_2_start t hc0 hc1) (noFlush2_2_start t hc0 hc1)]
    rw [sc2_start V c t h0]
    by_cases hz : t.val = 0
    · rw [PhiS2_castSucc V c t, PhiS2_zero V c _ _ hz, PhiA2_eq]
      iintro ⟨⟨⟨HS0, Hr⟩, Hg⟩, Ho, ⟨%d0, H0⟩, ⟨%d1, H1⟩, ⟨%d2, H2⟩⟩
      iapply ((kernelRun2_A c (grid2.coords t) (ms2_0 t) (hs2_0 t) (ms2_1 t) (hs2_1 t) (ms2_2 t) (hs2_2 t) scM2_0 (Memref.isWhole_whole _) hc0 hc1 (iblk2 V c 0 t) (iblk2 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0]
        · unfold owns; iexists _; isplitr
          swap; · iexact HS0
          ipureintro
          exact sread2_A c (grid2.coords t) (ms2_0 t) (hs2_0 t) (ms2_1 t) (hs2_1 t) (ms2_2 t) (hs2_2 t) scM2_0 (Memref.isWhole_whole _) hc0 hc1 (iblk2 V c 0 t) (iblk2 V c 1 t) es0
        isplitl [Hr]; · iexact Hr
        iexact Hg
      isplitl [Ho]; · iexact Ho
      isplitl [H0]; · iexact H0
      isplitl [H1]; · iexact H1
      iexists _; iexact H2
    · rw [PhiS2_castSucc V c t, PhiS2_pos V c _ _ hz]
      iintro ⟨⟨HS0, Hr, Hg⟩, Ho, ⟨%d0, H0⟩, ⟨%d1, H1⟩, ⟨%d2, H2⟩⟩
      iapply ((kernelRun2_A c (grid2.coords t) (ms2_0 t) (hs2_0 t) (ms2_1 t) (hs2_1 t) (ms2_2 t) (hs2_2 t) scM2_0 (Memref.isWhole_whole _) hc0 hc1 (iblk2 V c 0 t) (iblk2 V c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hr Hg]
      · isplitl [HS0]
        · unfold owns; iexists _; isplitr
          swap; · iexact HS0
          ipureintro
          exact sread2_A c (grid2.coords t) (ms2_0 t) (hs2_0 t) (ms2_1 t) (hs2_1 t) (ms2_2 t) (hs2_2 t) scM2_0 (Memref.isWhole_whole _) hc0 hc1 (iblk2 V c 0 t) (iblk2 V c 1 t) es0
        isplitl [Hr]; · iexact Hr
        iexact Hg
      isplitl [Ho]; · iexact Ho
      isplitl [H0]; · iexact H0
      isplitl [H1]; · iexact H1
      iexists _; iexact H2
  · have h1 : t.val % 2 = 1 := by omega
    have hc0 : ¬cond2_0 (grid2.coords t) := fun h => h0 ((hcond2_0 t).mp h)
    have hc1 : cond2_1 (grid2.coords t) := (hcond2_1 t).mpr h1
    have hz : t.val ≠ 0 := by omega
    rw [show (dat2 V c).leavesExact 2 t = owns (c : Thread nD τ) (ms2_2 t) fullShare ((dat2 V c).after 2 t) from by
      unfold Dat.leavesExact; rw [liveAt2_2_end t hc0 hc1], after2_2]
    unfold out2
    rw [sc2_end V c t h1]
    rw [PhiS2_castSucc V c t, PhiS2_pos V c _ _ hz]
    iintro ⟨⟨HS0, Hr, Hg⟩, Ho, ⟨%d0, H0⟩, ⟨%d1, H1⟩, ⟨%d2, H2⟩⟩
    iapply ((kernelRun2_B c (grid2.coords t) (ms2_0 t) (hs2_0 t) (ms2_1 t) (hs2_1 t) (ms2_2 t) (hs2_2 t) scM2_0 (Memref.isWhole_whole _) hc0 hc1 (iblk2 V c 0 t) (iblk2 V c 1 t)
      (sc2 V c (t.val - 1) (Nat.lt_of_le_of_lt (Nat.sub_le _ _) t.isLt))).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hr Hg]
    · isplitl [HS0]
      · unfold owns; iexists _; isplitr
        swap; · iexact HS0
        ipureintro
        exact sread2_B c (grid2.coords t) (ms2_0 t) (hs2_0 t) (ms2_1 t) (hs2_1 t) (ms2_2 t) (hs2_2 t) scM2_0 (Memref.isWhole_whole _) hc0 hc1 (iblk2 V c 0 t) (iblk2 V c 1 t)
          (sc2 V c (t.val - 1) (Nat.lt_of_le_of_lt (Nat.sub_le _ _) t.isLt)) es0
      isplitl [Hr]; · iexact Hr
      iexact Hg
    isplitl [Ho]; · iexact Ho
    isplitl [H0]; · iexact H0
    isplitl [H1]; · iexact H1
    unfold owns; iexists _; isplitr
    swap; · iexact H2
    ipureintro
    exact oread2_B c (grid2.coords t) (ms2_0 t) (hs2_0 t) (ms2_1 t) (hs2_1 t) (ms2_2 t) (hs2_2 t) scM2_0 (Memref.isWhole_whole _) hc0 hc1 (iblk2 V c 0 t) (iblk2 V c 1 t)
      (sc2 V c (t.val - 1) (Nat.lt_of_le_of_lt (Nat.sub_le _ _) t.isLt)) e2

/-- The body obligation of region 2's pipeline at every grid point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the scoped buffers back at anything. -/
theorem hout2 (c : Dev nD) : (dat2 V c).Φ (Fin.last cfg2.N) ⊢ Pipeline.ΦA spec2 c := by
  have hne : (Fin.last cfg2.N).val ≠ 0 := by rw [Fin.val_last]; have : cfg2.N = 8 := N_2; omega
  rw [show (dat2 V c).Φ (Fin.last cfg2.N) = PhiS2 V c (Fin.last cfg2.N).val (Nat.le_of_lt_succ (Fin.last cfg2.N).isLt) from rfl,
    PhiS2_pos V c _ _ hne, PhiA2_eq]
  iintro ⟨HS0, Hr, Hg⟩
  isplitl [HS0 Hr]
  · isplitl [HS0]
    · iexists _; iexact HS0
    iexact Hr
  iexact Hg

end Cert.KernelIdeal.Hand

end
-- ==== Proof.Run.lean ====
/-
  The whole program's run: @main is three stretches of host operations and three kernel regions, in turn. The buffer
  contents at each boundary are a fold from the launch memory — a host stretch applies its operations, a region
  leaves its output array at what its write-backs make of it and everything else as entered — and every weakly
  fair execution terminates with every unscoped buffer at the fold's last stage. The eight arguments are written
  by no stretch and no region, so they end as launched.
-/
import proofs.«159061_j38019050504386_1_alg».proof.Proof.R0Body
import proofs.«159061_j38019050504386_1_alg».proof.Proof.R1Body
import proofs.«159061_j38019050504386_1_alg».proof.Proof.R2Body
import proofs.«159061_j38019050504386_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev B0 : Dev nD → Valuation τ sig (Elt F) := fun c b => m (c, b)
/-- After the first host stretch (region 0's entry). -/
abbrev B1 : Dev nD → Valuation τ sig (Elt F) := fun c => StableHlo.after hostOps0 (B0 m c)
abbrev U1 : (c : Dev nD) → (b : Ref sig .tc) → Buf (Elt F) ((c : Thread nD τ).loc b) := fun c b => B1 m c b

/-- At region 0's exit: its arrays at what the pipeline leaves (an input as entered, the output's write-backs folded in),
    every other buffer as entered. -/
def B2 (c : Dev nD) : Valuation τ sig (Elt F) :=
  Pipeline.withArrays spec0 c (B1 m c) fun w => (dat0 (U1 m) c).arrAt w cfg0.N
theorem B2_arr (c : Dev nD) (w : Fin cfg0.W) :
    B2 m c (Proc.devRef .tc (Pipeline.arrRef spec0 w)) = (dat0 (U1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
/-- The same read at the TensorCore's references. -/
abbrev U2 : (c : Dev nD) → (b : Ref sig .tc) → Buf (Elt F) ((c : Thread nD τ).loc b) := fun c b => B2 m c b
theorem hF0 (c : Dev nD) (w : Fin cfg0.W) : (dat0 (U1 m) c).arrAt w cfg0.N = U2 m c (Pipeline.arrRef spec0 w) :=
  (B2_arr m c w).symm
theorem hrest0 (c : Dev nD) : ∀ b, b ∉ Finset.univ.image (Pipeline.arrRef spec0) → U2 m c b = U1 m c b :=
  fun b hb => B2_of_ne m c b fun w e => hb (Finset.mem_image.mpr ⟨w, Finset.mem_univ _, e⟩)

/-- After the second host stretch (region 1's entry). -/
abbrev B3 : Dev nD → Valuation τ sig (Elt F) := fun c => StableHlo.after hostOps1 (B2 m c)
abbrev U3 : (c : Dev nD) → (b : Ref sig .tc) → Buf (Elt F) ((c : Thread nD τ).loc b) := fun c b => B3 m c b

/-- At region 1's exit: its arrays at what the pipeline leaves (an input as entered, the output's write-backs folded in),
    every other buffer as entered. -/
def B4 (c : Dev nD) : Valuation τ sig (Elt F) :=
  Pipeline.withArrays spec1 c (B3 m c) fun w => (dat1 (U3 m) c).arrAt w cfg1.N
theorem B4_arr (c : Dev nD) (w : Fin cfg1.W) :
    B4 m c (Proc.devRef .tc (Pipeline.arrRef spec1 w)) = (dat1 (U3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
/-- The same read at the TensorCore's references. -/
abbrev U4 : (c : Dev nD) → (b : Ref sig .tc) → Buf (Elt F) ((c : Thread nD τ).loc b) := fun c b => B4 m c b
theorem hF1 (c : Dev nD) (w : Fin cfg1.W) : (dat1 (U3 m) c).arrAt w cfg1.N = U4 m c (Pipeline.arrRef spec1 w) :=
  (B4_arr m c w).symm
theorem hrest1 (c : Dev nD) : ∀ b, b ∉ Finset.univ.image (Pipeline.arrRef spec1) → U4 m c b = U3 m c b :=
  fun b hb => B4_of_ne m c b fun w e => hb (Finset.mem_image.mpr ⟨w, Finset.mem_univ _, e⟩)

/-- After the third host stretch (region 2's entry). -/
abbrev B5 : Dev nD → Valuation τ sig (Elt F) := fun c => StableHlo.after hostOps2 (B4 m c)
abbrev U5 : (c : Dev nD) → (b : Ref sig .tc) → Buf (Elt F) ((c : Thread nD τ).loc b) := fun c b => B5 m c b

/-- At region 2's exit: its arrays at what the pipeline leaves (an input as entered, the output's write-backs folded in),
    every other buffer as entered. -/
def B6 (c : Dev nD) : Valuation τ sig (Elt F) :=
  Pipeline.withArrays spec2 c (B5 m c) fun w => (dat2 (U5 m) c).arrAt w cfg2.N
theorem B6_arr (c : Dev nD) (w : Fin cfg2.W) :
    B6 m c (Proc.devRef .tc (Pipeline.arrRef spec2 w)) = (dat2 (U5 m) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m c (Proc.devRef .tc b) = B5 m c (Proc.devRef .tc b) := by
  unfold B6; exact Pipeline.withArrays_of_ne spec2 c _ _ b hb
/-- The same read at the TensorCore's references. -/
abbrev U6 : (c : Dev nD) → (b : Ref sig .tc) → Buf (Elt F) ((c : Thread nD τ).loc b) := fun c b => B6 m c b
theorem hF2 (c : Dev nD) (w : Fin cfg2.W) : (dat2 (U5 m) c).arrAt w cfg2.N = U6 m c (Pipeline.arrRef spec2 w) :=
  (B6_arr m c w).symm
theorem hrest2 (c : Dev nD) : ∀ b, b ∉ Finset.univ.image (Pipeline.arrRef spec2) → U6 m c b = U5 m c b :=
  fun b hb => B6_of_ne m c b fun w e => hb (Finset.mem_image.mpr ⟨w, Finset.mem_univ _, e⟩)

/-! ## The arguments end as launched -/

theorem B6_main_arg0 (c : Dev nD) : B6 m c (Proc.devRef .tc main_arg0) = m ((c : Thread nD τ).loc main_arg0) :=
  (B6_of_ne m c main_arg0 (by decide)).trans <| (StableHlo.after_of_writes_sub hostOps2 _ hostOps2_writes (r := main_arg0) (by decide)).trans <|
  (B4_of_ne m c main_arg0 (by decide)).trans <| (StableHlo.after_of_writes_sub hostOps1 _ hostOps1_writes (r := main_arg0) (by decide)).trans <|
  (B2_of_ne m c main_arg0 (by decide)).trans <| (StableHlo.after_of_writes_sub hostOps0 _ hostOps0_writes (r := main_arg0) (by decide)).trans rfl
theorem B6_main_arg1 (c : Dev nD) : B6 m c (Proc.devRef .tc main_arg1) = m ((c : Thread nD τ).loc main_arg1) :=
  (B6_of_ne m c main_arg1 (by decide)).trans <| (StableHlo.after_of_writes_sub hostOps2 _ hostOps2_writes (r := main_arg1) (by decide)).trans <|
  (B4_of_ne m c main_arg1 (by decide)).trans <| (StableHlo.after_of_writes_sub hostOps1 _ hostOps1_writes (r := main_arg1) (by decide)).trans <|
  (B2_of_ne m c main_arg1 (by decide)).trans <| (StableHlo.after_of_writes_sub hostOps0 _ hostOps0_writes (r := main_arg1) (by decide)).trans rfl
theorem B6_main_arg2 (c : Dev nD) : B6 m c (Proc.devRef .tc main_arg2) = m ((c : Thread nD τ).loc main_arg2) :=
  (B6_of_ne m c main_arg2 (by decide)).trans <| (StableHlo.after_of_writes_sub hostOps2 _ hostOps2_writes (r := main_arg2) (by decide)).trans <|
  (B4_of_ne m c main_arg2 (by decide)).trans <| (StableHlo.after_of_writes_sub hostOps1 _ hostOps1_writes (r := main_arg2) (by decide)).trans <|
  (B2_of_ne m c main_arg2 (by decide)).trans <| (StableHlo.after_of_writes_sub hostOps0 _ hostOps0_writes (r := main_arg2) (by decide)).trans rfl
theorem B6_main_arg3 (c : Dev nD) : B6 m c (Proc.devRef .tc main_arg3) = m ((c : Thread nD τ).loc main_arg3) :=
  (B6_of_ne m c main_arg3 (by decide)).trans <| (StableHlo.after_of_writes_sub hostOps2 _ hostOps2_writes (r := main_arg3) (by decide)).trans <|
  (B4_of_ne m c main_arg3 (by decide)).trans <| (StableHlo.after_of_writes_sub hostOps1 _ hostOps1_writes (r := main_arg3) (by decide)).trans <|
  (B2_of_ne m c main_arg3 (by decide)).trans <| (StableHlo.after_of_writes_sub hostOps0 _ hostOps0_writes (r := main_arg3) (by decide)).trans rfl
theorem B6_main_arg4 (c : Dev nD) : B6 m c (Proc.devRef .tc main_arg4) = m ((c : Thread nD τ).loc main_arg4) :=
  (B6_of_ne m c main_arg4 (by decide)).trans <| (StableHlo.after_of_writes_sub hostOps2 _ hostOps2_writes (r := main_arg4) (by decide)).trans <|
  (B4_of_ne m c main_arg4 (by decide)).trans <| (StableHlo.after_of_writes_sub hostOps1 _ hostOps1_writes (r := main_arg4) (by decide)).trans <|
  (B2_of_ne m c main_arg4 (by decide)).trans <| (StableHlo.after_of_writes_sub hostOps0 _ hostOps0_writes (r := main_arg4) (by decide)).trans rfl
theorem B6_main_arg5 (c : Dev nD) : B6 m c (Proc.devRef .tc main_arg5) = m ((c : Thread nD τ).loc main_arg5) :=
  (B6_of_ne m c main_arg5 (by decide)).trans <| (StableHlo.after_of_writes_sub hostOps2 _ hostOps2_writes (r := main_arg5) (by decide)).trans <|
  (B4_of_ne m c main_arg5 (by decide)).trans <| (StableHlo.after_of_writes_sub hostOps1 _ hostOps1_writes (r := main_arg5) (by decide)).trans <|
  (B2_of_ne m c main_arg5 (by decide)).trans <| (StableHlo.after_of_writes_sub hostOps0 _ hostOps0_writes (r := main_arg5) (by decide)).trans rfl
theorem B6_main_arg6 (c : Dev nD) : B6 m c (Proc.devRef .tc main_arg6) = m ((c : Thread nD τ).loc main_arg6) :=
  (B6_of_ne m c main_arg6 (by decide)).trans <| (StableHlo.after_of_writes_sub hostOps2 _ hostOps2_writes (r := main_arg6) (by decide)).trans <|
  (B4_of_ne m c main_arg6 (by decide)).trans <| (StableHlo.after_of_writes_sub hostOps1 _ hostOps1_writes (r := main_arg6) (by decide)).trans <|
  (B2_of_ne m c main_arg6 (by decide)).trans <| (StableHlo.after_of_writes_sub hostOps0 _ hostOps0_writes (r := main_arg6) (by decide)).trans rfl
theorem B6_main_arg7 (c : Dev nD) : B6 m c (Proc.devRef .tc main_arg7) = m ((c : Thread nD τ).loc main_arg7) :=
  (B6_of_ne m c main_arg7 (by decide)).trans <| (StableHlo.after_of_writes_sub hostOps2 _ hostOps2_writes (r := main_arg7) (by decide)).trans <|
  (B4_of_ne m c main_arg7 (by decide)).trans <| (StableHlo.after_of_writes_sub hostOps1 _ hostOps1_writes (r := main_arg7) (by decide)).trans <|
  (B2_of_ne m c main_arg7 (by decide)).trans <| (StableHlo.after_of_writes_sub hostOps0 _ hostOps0_writes (r := main_arg7) (by decide)).trans rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
  | ⟨2, _⟩ => fun c => dat2 (U5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register at some state. -/
abbrev Tₙ (c : Dev nD) : sProp 𝕄 := iprop(StableHlo.held (c : Thread nD τ) (Pipeline.ucRefs τ sig) (B6 m c) ∗ ∃ r, prngReg c r)

/-! ## The regions as segments -/

set_option backward.isDefEq.respectTransparency.types false in
/-- Region 0 over the thread state: entered with every unscoped buffer at `B1`, left with them at `B2`. Its
    arrays are split out of the unscoped buffers and put back at what the write-backs leave; the generator register and the
    scoped buffers go into the region's invariant and come back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (U1 m) c).Φ 0 from rfl]
    have key : ∀ {P : sProp 𝕄}, (P ⊢ Pipeline.ΦA spec0 c) → (P ⊢ (dat0 (U1 m) c).Φ 0) := fun h => h.trans (hin0 (U1 m) c)
    refine key ?_
    unfold Pipeline.ΦA
    iintro ⟨Hp, -, Hr⟩
    isplitl [Hr]; · iexact Hr
    iexact Hp
  hout c := by
    rw [Pipeline.ownSems0_none, show (pdats m 0 c).Φ (Fin.last _) = (dat0 (U1 m) c).Φ (Fin.last cfg0.N) from rfl]
    have key : ∀ {Q : sProp 𝕄}, (Pipeline.ΦA spec0 c ⊢ Q) → ((dat0 (U1 m) c).Φ (Fin.last cfg0.N) ⊢ Q) := fun h => (hout0 (U1 m) c).trans h
    refine key ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `B3`, left with them at `B4`. Its
    arrays are split out of the unscoped buffers and put back at what the write-backs leave; the generator register and the
    scoped buffers go into the region's invariant and come back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (B3 m c) ∗ R c)
  post c := iprop(StableHlo.held (c : Thread nD τ) (Pipeline.ucRefs τ sig) (B4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (U3 m) c).Φ 0 from rfl]
    have key : ∀ {P : sProp 𝕄}, (P ⊢ Pipeline.ΦA spec1 c) → (P ⊢ (dat1 (U3 m) c).Φ 0) := fun h => h.trans (hin1 (U3 m) c)
    refine key ?_
    unfold Pipeline.ΦA
    iintro ⟨Hp, -, Hr⟩
    isplitl [Hr]; · iexact Hr
    iexact Hp
  hout c := by
    rw [Pipeline.ownSems0_none, show (pdats m 1 c).Φ (Fin.last _) = (dat1 (U3 m) c).Φ (Fin.last cfg1.N) from rfl]
    have key : ∀ {Q : sProp 𝕄}, (Pipeline.ΦA spec1 c ⊢ Q) → ((dat1 (U3 m) c).Φ (Fin.last cfg1.N) ⊢ Q) := fun h => (hout1 (U3 m) c).trans h
    refine key ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `B5`, left with them at `B6`. Its
    arrays are split out of the unscoped buffers and put back at what the write-backs leave; the generator register and the
    scoped buffers go into the region's invariant and come back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m) c).loose
  hwaits := Pipeline.hwaits_of_owed_zero _ _ _ _ L lv 2 fun _ _ => rfl
  pre c := iprop(StableHlo.held (c : Thread nD τ) (Pipeline.ucRefs τ sig) (B5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (U5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (U5 m) c).Φ 0 from rfl]
    have key : ∀ {P : sProp 𝕄}, (P ⊢ Pipeline.ΦA spec2 c) → (P ⊢ (dat2 (U5 m) c).Φ 0) := fun h => h.trans (hin2 (U5 m) c)
    refine key ?_
    unfold Pipeline.ΦA
    iintro ⟨Hp, -, Hr⟩
    isplitl [Hr]; · iexact Hr
    iexact Hp
  hout c := by
    rw [Pipeline.ownSems0_none, show (pdats m 2 c).Φ (Fin.last _) = (dat2 (U5 m) c).Φ (Fin.last cfg2.N) from rfl]
    have key : ∀ {Q : sProp 𝕄}, (Pipeline.ΦA spec2 c ⊢ Q) → ((dat2 (U5 m) c).Φ (Fin.last cfg2.N) ⊢ Q) := fun h => (hout2 (U5 m) c).trans h
    refine key ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U5 m c) (U6 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's six segments in order. -/
abbrev segs : List (Pipeline.Seg (pcfgs (F := F)) adm (pdats m) () defs₀ 𝒱₀ L lv) :=
  [ .host (hseg hostOps0 hostOps0_sub hostOps0_fresh (B0 m)),
    .region (reg0 m),
    .host (hseg hostOps1 hostOps1_sub hostOps1_fresh (B2 m)),
    .region (reg1 m),
    .host (hseg hostOps2 hostOps2_sub hostOps2_fresh (B4 m)),
    .region (reg2 m) ]
/-- @main is the run of the segments. -/
theorem main_run (c : Dev nD) : main (F := F) c = Pipeline.Seg.run (segs m) := (main_chain c).trans (by chain_rfl)

set_option backward.isDefEq.respectTransparency.types false in
/-- From any memory with zero counters every weakly fair execution of @main terminates, nothing faulting, and every
    final state has every unscoped buffer at the last boundary's contents `B6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B6 m c b)
    (hfin := fun c s' => by
      iintro ⟨⟨Hh, -⟩, HSI⟩
      unfold StableHlo.held
      imodintro
      iapply (pointsTo_read_all (Pipeline.ucRefs τ sig) (fun b => (((c : Thread nD τ)).1, b)) (B6 m c) s')
      isplitl [Hh] <;> iassumption)
    (hQ := fun s h c => h c)

/-- The frame: the eight argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (B6_main_arg0 m c),
     (h c _ (mem_uc main_arg1 (by decide))).trans (B6_main_arg1 m c),
     (h c _ (mem_uc main_arg2 (by decide))).trans (B6_main_arg2 m c),
     (h c _ (mem_uc main_arg3 (by decide))).trans (B6_main_arg3 m c),
     (h c _ (mem_uc main_arg4 (by decide))).trans (B6_main_arg4 m c),
     (h c _ (mem_uc main_arg5 (by decide))).trans (B6_main_arg5 m c),
     (h c _ (mem_uc main_arg6 (by decide))).trans (B6_main_arg6 m c),
     (h c _ (mem_uc main_arg7 (by decide))).trans (B6_main_arg7 m c)⟩) (run_all m ρ)

end Cert.KernelIdeal.Hand

end
-- ==== Proof.Spec.lean ====
/-
  The result as ONE function of the eight argument arrays, index by index, over the extended reals:

    q[n, m]       = Σ_i x[n, i] · W_q[m, i] + b_q[m]
    context[j, m] = Σ_n q[n, m] · W_lin[j, n] + b_lin[j]
    k[j, m]       = Σ_i data_k[j, i] · W_k[m, i] + b_k[m]
    k_mod[j, m]   = min 6 (max 0 ((k·k + 2·k) + context · (1 + |k|)))
    out[n, j]     = (Σ_m q[n, m] · k_mod[j, m]) / 64

  and the one law that is not a rearrangement of sums: dividing by 64 is multiplying by the word 1/64 (both exact
  dyadics), on every extended real. The float words are kept as words; only 64 and 1/64 are evaluated.
-/
import Idealize.ShloMosaic.PureOps.Ideal
import Idealize.ShloMosaic.Lib.ValueIdx

noncomputable section

namespace Cert.AttnSpec

open Idealize.ShloMosaic Idealize.ShloMosaic.ValueIdx

abbrev M44 : Shape := ⟨2, ![4096, 4096]⟩
abbrev M64 : Shape := ⟨2, ![6, 4096]⟩
abbrev M46 : Shape := ⟨2, ![4096, 6]⟩
abbrev V4 : Shape := ⟨1, ![4096]⟩
abbrev V6 : Shape := ⟨1, ![6]⟩

/-- The float words the two programs spell: 0, 1, 2, 6, 64 and 1/64. -/
abbrev w0 : EReal := Ideal.ofBits .f32 0x00000000#32
abbrev w1 : EReal := Ideal.ofBits .f32 0x3F800000#32
abbrev w2 : EReal := Ideal.ofBits .f32 0x40000000#32
abbrev w6 : EReal := Ideal.ofBits .f32 0x40C00000#32
abbrev w64 : EReal := Ideal.ofBits .f32 0x42800000#32
abbrev w64inv : EReal := Ideal.ofBits .f32 0x3C800000#32

/-- The query projection. -/
def qS (x wq : M44.Idx → EReal) (bq : V4.Idx → EReal) (n m : Fin 4096) : EReal :=
  (∑ i : Fin 4096, x (ix2 n i) * wq (ix2 m i)) + bq (ix1 m)

/-- The context: the second projection, of q's columns. -/
def ctxS (q : Fin 4096 → Fin 4096 → EReal) (wl : M64.Idx → EReal) (bl : V6.Idx → EReal) (j : Fin 6) (m : Fin 4096) : EReal :=
  (∑ n : Fin 4096, q n m * wl (ix2 j n)) + bl (ix1 j)

/-- The key projection. -/
def kS (dk : M64.Idx → EReal) (wk : M44.Idx → EReal) (bk : V4.Idx → EReal) (j : Fin 6) (m : Fin 4096) : EReal :=
  (∑ i : Fin 4096, dk (ix2 j i) * wk (ix2 m i)) + bk (ix1 m)

/-- The modulation of one key entry by one context entry, clipped to [0, 6]. -/
def modS (k ctx : EReal) : EReal :=
  min w6 (max w0 ((k * k + w2 * k) + ctx * (w1 + max k (-k))))

/-- The scaled product of q with the modulated keys. -/
def resS (q : Fin 4096 → Fin 4096 → EReal) (km : Fin 6 → Fin 4096 → EReal) (n : Fin 4096) (j : Fin 6) : EReal :=
  Ideal.div (∑ m : Fin 4096, q n m * km j m) w64

/-- The whole result array. -/
def resultS (x : M44.Idx → EReal) (dk : M64.Idx → EReal) (wq : M44.Idx → EReal) (bq : V4.Idx → EReal)
    (wl : M64.Idx → EReal) (bl : V6.Idx → EReal) (wk : M44.Idx → EReal) (bk : V4.Idx → EReal) : M46.Idx → EReal :=
  fun i => resS (qS x wq bq) (fun j m => modS (kS dk wk bk j m) (ctxS (qS x wq bq) wl bl j m)) (i 0) (i 1)

/-- The word 64.0 denotes the real 64, -/
theorem w64_eq : w64 = ((64 : ℝ) : EReal) := by
  simp [w64, Ideal.ofBits, Ideal.ieee, -EReal.coe_mul]; norm_num

/-- and the word 0.015625 the real 1/64. -/
theorem w64inv_eq : w64inv = ((1 / 64 : ℝ) : EReal) := by
  simp [w64inv, Ideal.ofBits, Ideal.ieee, -EReal.coe_mul]; norm_num

/-- Dividing by 64 is multiplying by 1/64, on every extended real. -/
theorem div64 (x : EReal) : Ideal.div x w64 = x * w64inv := by
  rw [w64_eq, w64inv_eq]; exact Ideal.div_coe (by norm_num) x

end Cert.AttnSpec

end
-- ==== Proof.Arrs.lean ====
/-
  The arrays the three regions read and write, each named at its literal shape over the extended reals (at the
  ideal instance a buffer's contents are a function from the shape's indices to the extended reals).
-/
import proofs.«159061_j38019050504386_1_alg».proof.Proof.R0Base
import proofs.«159061_j38019050504386_1_alg».proof.Proof.R1Base
import proofs.«159061_j38019050504386_1_alg».proof.Proof.R2Base
import Idealize.ShloMosaic.PureOps.Ideal

noncomputable section

namespace Cert.KernelIdeal.Hand

open Idealize.ShloMosaic Idealize.ShloMosaic.TcCoe
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- Region 0's inputs: x, W_qᵀ and the bias row. -/
abbrev v0A (c : Dev nD) : S4096x4096.Idx → EReal := V c main_v0
abbrev v2A (c : Dev nD) : S4096x4096.Idx → EReal := V c main_v2
abbrev v3A (c : Dev nD) : S1x4096.Idx → EReal := V c main_v3
/-- q, as regions 1 and 2 find it. -/
abbrev v4A (c : Dev nD) : S4096x4096.Idx → EReal := V c main_v4
/-- Region 1's other inputs: W_lin, b_lin as a column, data_k, W_kᵀ, b_k as a row. -/
abbrev v5A (c : Dev nD) : S6x4096.Idx → EReal := V c main_v5
abbrev v6A (c : Dev nD) : S6x1.Idx → EReal := V c main_v6
abbrev v7A (c : Dev nD) : S6x4096.Idx → EReal := V c main_v7
abbrev v9A (c : Dev nD) : S4096x4096.Idx → EReal := V c main_v9
abbrev v10A (c : Dev nD) : S1x4096.Idx → EReal := V c main_v10
/-- The modulated keys transposed, as region 2 finds them. -/
abbrev v12A (c : Dev nD) : S4096x6.Idx → EReal := V c main_v12

/-- What each region leaves in its output array. -/
abbrev o0A (c : Dev nD) : S4096x4096.Idx → EReal := (dat0 (F := Ideal) V c).arrAt 3 cfg0.N
abbrev o1A (c : Dev nD) : S6x4096.Idx → EReal := (dat1 (F := Ideal) V c).arrAt 6 cfg1.N
abbrev o2A (c : Dev nD) : S4096x6.Idx → EReal := (dat2 (F := Ideal) V c).arrAt 2 cfg2.N

end Cert.KernelIdeal.Hand

end
-- ==== Proof.LibPlainDot.lean ====
/-
  A plain matrix product [a, k] · [k, b] → [a, b]: no batch axis, one contracted axis of extent k (axis 1 of the left
  operand, axis 0 of the right), the rows from the left operand, the columns from the right.

  The dimension numbers place the coordinates: the left operand is read at (row of the result, contraction
  position), the right at (contraction position, column of the result). So at the ideal values, where both the
  kernel's product into a zero accumulator and the host's product are the exact sum over the contraction index,
  the entry (p, q) of either is  ∑ κ < k, l (p, κ) · r (κ, q).
-/
import Idealize.ShloMosaic.Lib.ValueIdx
import Idealize.ShloMosaic.PureOps.Ideal.Laws

namespace Cert.PlainDot

open Idealize.ShloMosaic Idealize.ShloMosaic.ValueIdx

variable {a k b : ℕ} (d : DotDims ⟨2, ![a, k]⟩ ⟨2, ![k, b]⟩ ⟨2, ![a, b]⟩)

/-- The dimension numbers of a plain matrix product. -/
structure Plain : Prop where
  lhsBatch : d.lhsBatch = []
  lhsNon : d.lhsNonContracting = [0]
  lhsContr : d.lhsContracting = [1]
  rhsBatch : d.rhsBatch = []
  rhsNon : d.rhsNonContracting = [1]
  rhsContr : d.rhsContracting = [0]

variable {d}

/-- The left operand's row is the result's row. -/
theorem lhs_row (h : Plain d) (j : (⟨2, ![a, b]⟩ : Shape).Idx) (q : d.contr.Idx) : (d.lhsIdx j q 0).val = (j 0).val := by
  unfold DotDims.lhsIdx
  rw [dif_neg (by rw [h.lhsBatch]; exact List.not_mem_nil), dif_pos (by rw [h.lhsNon]; exact List.mem_singleton.mpr rfl)]
  simp only [Fin.val_cast]
  have key : ∀ (p : Nat) (hp : p < 2), p = 0 → (j ⟨p, hp⟩).val = (j 0).val := fun p hp e => by subst e; rfl
  exact key _ _ (by simp [h.lhsBatch, h.lhsNon])

/-- The right operand's column is the result's column. -/
theorem rhs_col (h : Plain d) (j : (⟨2, ![a, b]⟩ : Shape).Idx) (q : d.contr.Idx) : (d.rhsIdx j q 1).val = (j 1).val := by
  unfold DotDims.rhsIdx
  rw [dif_neg (by rw [h.rhsBatch]; exact List.not_mem_nil), dif_pos (by rw [h.rhsNon]; exact List.mem_singleton.mpr rfl)]
  simp only [Fin.val_cast]
  have key : ∀ (p : Nat) (hp : p < 2), p = 1 → (j ⟨p, hp⟩).val = (j 1).val := fun p hp e => by subst e; rfl
  exact key _ _ (by simp [h.lhsBatch, h.lhsNon, h.rhsNon])

/-- The contraction over the record's own index type, re-indexed to κ < k. -/
theorem sum_contr (h : Plain d) (hr : d.contr.rank = 1) (hs : d.contr.size ⟨0, by omega⟩ = k)
    (l : (⟨2, ![a, k]⟩ : Shape).Idx → EReal) (r : (⟨2, ![k, b]⟩ : Shape).Idx → EReal) (p : Fin a) (q : Fin b) :
    ∑ κ : d.contr.Idx, l (d.lhsIdx (ix2 p q) κ) * r (d.rhsIdx (ix2 p q) κ) = ∑ κ : Fin k, l (ix2 p κ) * r (ix2 κ q) := by
  rw [← Equiv.sum_comp (contrEquiv1 d k hr hs).symm]
  refine Finset.sum_congr rfl fun κ _ => ?_
  have hk := contrEquiv1_symm_val d k hr hs κ
  have el : d.lhsIdx (ix2 p q) ((contrEquiv1 d k hr hs).symm κ) = ix2 p κ := funext fun x => Fin.ext (by
    match x with
    | ⟨0, _⟩ => exact lhs_row h _ _
    | ⟨1, _⟩ => exact (d.lhsIdx_val_of_single h.lhsContr _ _).trans hk)
  have er : d.rhsIdx (ix2 p q) ((contrEquiv1 d k hr hs).symm κ) = ix2 κ q := funext fun x => Fin.ext (by
    match x with
    | ⟨0, _⟩ => exact (d.rhsIdx_val_of_single h.rhsContr _ _).trans hk
    | ⟨1, _⟩ => exact rhs_col h _ _)
  rw [el, er]

/-- The kernel's matrix product into a zero accumulator, at an entry. -/
theorem matmul_zero_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    matmul d prec l r (constant ⟨2, ![a, b]⟩ .f32 0x00000000#32) (ix2 p q) = ∑ κ : Fin k, l (ix2 p κ) * r (ix2 κ q) :=
  (Ideal.matmul_constant_zero_apply d prec l r (ix2 p q)).trans (sum_contr h hr hs l r p q)

/-- The host's matrix product, at an entry. -/
theorem dotGeneral_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    Host.dotGeneral d prec l r (ix2 p q) = ∑ κ : Fin k, l (ix2 p κ) * r (ix2 κ q) := by
  simp only [Host.dotGeneral]
  exact (Ideal.dotGeneral_apply d prec _ l r (ix2 p q)).trans (sum_contr h hr hs l r p q)

end Cert.PlainDot
-- ==== Proof.Val0a.lean ====
/-
  Region 0 at the ideal values: what the body's three stored values are, entry by entry.

  The reset value is the zero tile; the accumulation step adds to a tile the product of a 1024 × 2048 block with a
  2048 × 1024 block, entry (p, q) of which is Σ_{κ < 2048} a[p, κ] · b[κ, q]; the stored output tile is the
  accumulated tile plus the bias row, broadcast down the rows (the narrowing to bf16 is the identity on extended reals).
-/
import proofs.«159061_j38019050504386_1_alg».proof.Proof.R0Base
import proofs.«159061_j38019050504386_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand.Val0

open Idealize.ShloMosaic Idealize.ShloMosaic.TcCoe
open Idealize.ShloMosaic.Pipeline (Dat Cfg Window)
open Cert.KernelIdeal Cert.KernelIdeal.Gen
open Idealize.ShloMosaic.ValueIdx
open scoped BigOperators

/-- The dimension numbers of the body's product are those of a plain matrix product. -/
theorem plain0 : Cert.PlainDot.Plain dot_S1024x2048_S2048x1024_S1024x1024_1_0_0_1_n_n := ⟨rfl, rfl, rfl, rfl, rfl, rfl⟩

/-- The reset tile is zero everywhere. -/
theorem pay1_apply (p q : Fin 1024) : (k0_pay1 (F := Ideal)) (ix2 p q) = 0 := by
  unfold k0_pay1
  rw [shapeCast_self]
  exact Ideal.ofBits_zero_f32

/-- The accumulation step at an entry: what the tile held plus the blocks' product there. -/
theorem pay2_apply (acc : FVec Ideal S1024x1024 .f32) (a : FVec Ideal S1024x2048 .bf16) (b : FVec Ideal S2048x1024 .bf16)
    (p q : Fin 1024) :
    k0_pay2 acc a b (ix2 p q) = acc (ix2 p q) + ∑ κ : Fin 2048, a (ix2 p κ) * b (ix2 κ q) := by
  unfold k0_pay2
  rw [shapeCast_self, shapeCast_self, shapeCast_self]
  refine (addf_apply _ _ _).trans ?_
  exact congrArg (acc (ix2 p q) + ·)
    (Cert.PlainDot.matmul_zero_apply (a := 1024) (k := 2048) (b := 1024) plain0 rfl rfl none a b p q)

/-- The stored output tile at an entry: the accumulated tile there plus the bias row at the column. -/
theorem pay3_apply (s : FVec Ideal S1024x1024 .f32) (r : FVec Ideal S1x1024 .f32) (p q : Fin 1024) :
    (k0_pay3 (F := Ideal) s r (ix2 p q) : EReal) = s (ix2 p q) + r (ix2 (0 : Fin 1) q) := by
  unfold k0_pay3
  rw [shapeCast_self]
  refine (truncf_apply (ψ := .bf16) (addf s (broadcastTo S1024x1024 r broadcasts_S1x1024_S1024x1024)) bitsLt_bf16_f32 (ix2 p q)).trans ?_
  refine (addf_apply _ _ _).trans ?_
  exact congrArg (s (ix2 p q) + ·) (broadcastTo_1b_ab_apply r _ p q)

/-- One finished accumulation and the store after it, at an entry: the two half-products and the bias. -/
theorem tile_apply (a0 a1 : FVec Ideal S1024x2048 .bf16) (b0 b1 : FVec Ideal S2048x1024 .bf16) (r : FVec Ideal S1x1024 .f32)
    (p q : Fin 1024) :
    (k0_pay3 (F := Ideal) (k0_pay2 (F := Ideal) (k0_pay2 (F := Ideal) (k0_pay1 (F := Ideal)) a0 b0) a1 b1) r (ix2 p q) : EReal)
      = ((∑ κ : Fin 2048, a0 (ix2 p κ) * b0 (ix2 κ q)) + ∑ κ : Fin 2048, a1 (ix2 p κ) * b1 (ix2 κ q)) + r (ix2 (0 : Fin 1) q) := by
  rw [pay3_apply, pay2_apply, pay2_apply, pay1_apply, zero_add]

/-- A sum over the contracted axis is the sum over its first half plus the sum over its second half. -/
theorem sum_halves (f : Fin 4096 → EReal) :
    (∑ k : Fin 4096, f k)
      = (∑ κ : Fin 2048, f ⟨κ.val, by have := κ.isLt; omega⟩) + ∑ κ : Fin 2048, f ⟨2048 + κ.val, by have := κ.isLt; omega⟩ :=
  Fin.sum_univ_add (a := 2048) (b := 2048) f

end Cert.KernelIdeal.Hand.Val0

end
-- ==== Proof.Val0.lean ====
/-
  Region 0 at the ideal values: the output array is the projection q = x · W + b, entry by entry.

  The grid is 4 × 4 × 2, the last axis fastest: point t works on output tile (t / 8, t / 2 mod 4) and on half t mod 2 of
  the contracted axis. An even point resets the scratch tile and adds the first half's product, the odd point after it
  adds the second half's and stores the tile plus the bias row. So entry (n, m) of the output, which lies in tile
  (n / 1024, m / 1024), is (0 + Σ_{κ < 2048} x[n, κ] · W[κ, m]) + Σ_{κ < 2048} x[n, 2048 + κ] · W[2048 + κ, m] + b[0, m],
  the whole sum over the contracted axis plus the bias.
-/
import proofs.«159061_j38019050504386_1_alg».proof.Proof.R0Base
import proofs.«159061_j38019050504386_1_alg».proof.Proof.Spec
import proofs.«159061_j38019050504386_1_alg».proof.Proof.Arrs
import proofs.«159061_j38019050504386_1_alg».proof.Proof.Val0a
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand.Val0

open Idealize.ShloMosaic Idealize.ShloMosaic.TcCoe
open Idealize.ShloMosaic.Pipeline (Dat Cfg Window)
open Cert.KernelIdeal Cert.KernelIdeal.Gen
open Idealize.ShloMosaic.ValueIdx
open scoped BigOperators

variable (V : (c : Dev nD) → (b : Ref sig .tc) → Buf (Elt Ideal) ((c : Thread nD τ).loc b))

/-! ## The blocks at their literal shapes -/

/-- The x block, the W block and the bias block the body finds at point `t`. -/
abbrev ablk (c : Dev nD) (t : Fin cfg0.N) : FVec Ideal S1024x2048 .bf16 := iblk0 V c 0 t
abbrev bblk (c : Dev nD) (t : Fin cfg0.N) : FVec Ideal S2048x1024 .bf16 := iblk0 V c 1 t
abbrev rblk (c : Dev nD) (t : Fin cfg0.N) : FVec Ideal S1x1024 .f32 := iblk0 V c 2 t

/-! ## The index maps, decided over the grid -/

/-- Point `t` is (t / 8, t / 2 mod 4, t mod 2): x's block is (t / 8, t mod 2), W's (t mod 2, t / 2 mod 4), the bias's
    (0, t / 2 mod 4), the output's (t / 8, t / 2 mod 4). -/
theorem idx0 : ∀ t : Fin cfg0.N,
    win0_0.index t (0 : Fin 2) = t.val / 8 ∧ win0_0.index t (1 : Fin 2) = t.val % 2
    ∧ win0_1.index t (0 : Fin 2) = t.val % 2 ∧ win0_1.index t (1 : Fin 2) = t.val / 2 % 4
    ∧ win0_2.index t (0 : Fin 2) = 0 ∧ win0_2.index t (1 : Fin 2) = t.val / 2 % 4
    ∧ win0_3.index t (0 : Fin 2) = t.val / 8 ∧ win0_3.index t (1 : Fin 2) = t.val / 2 % 4 :=
  (by decide +kernel : ∀ t : Fin grid0.N, _)

/-! ## Each block read where its rectangle says -/

theorem ablk_apply (c : Dev nD) (t : Fin cfg0.N) (p : Fin 1024) (κ : Fin 2048) (n k : Fin 4096)
    (hn : n.val = t.val / 8 * 1024 + p.val) (hk : k.val = t.val % 2 * 2048 + κ.val) :
    ablk V c t (ix2 p κ) = v0A V c (ix2 n k) := by
  obtain ⟨e0, e1, -⟩ := idx0 t
  show ((cfg0.win 0).blk t).view.read (Elt Ideal) (V c (Pipeline.arrRef spec0 0)) (ix2 p κ) = _
  rw [View.read_apply]
  show V c main_v0 _ = V c main_v0 _
  congr 1
  funext a
  apply Fin.ext
  match a with
  | ⟨0, _⟩ => show win0_0.index t (0 : Fin 2) * 1024 + 1 * p.val = n.val; rw [e0, hn]; omega
  | ⟨1, _⟩ => show win0_0.index t (1 : Fin 2) * 2048 + 1 * κ.val = k.val; rw [e1, hk]; omega

theorem bblk_apply (c : Dev nD) (t : Fin cfg0.N) (κ : Fin 2048) (q : Fin 1024) (k mm : Fin 4096)
    (hk : k.val = t.val % 2 * 2048 + κ.val) (hm : mm.val = t.val / 2 % 4 * 1024 + q.val) :
    bblk V c t (ix2 κ q) = v2A V c (ix2 k mm) := by
  obtain ⟨-, -, e2, e3, -⟩ := idx0 t
  show ((cfg0.win 1).blk t).view.read (Elt Ideal) (V c (Pipeline.arrRef spec0 1)) (ix2 κ q) = _
  rw [View.read_apply]
  show V c main_v2 _ = V c main_v2 _
  congr 1
  funext a
  apply Fin.ext
  match a with
  | ⟨0, _⟩ => show win0_1.index t (0 : Fin 2) * 2048 + 1 * κ.val = k.val; rw [e2, hk]; omega
  | ⟨1, _⟩ => show win0_1.index t (1 : Fin 2) * 1024 + 1 * q.val = mm.val; rw [e3, hm]; omega

theorem rblk_apply (c : Dev nD) (t : Fin cfg0.N) (q : Fin 1024) (mm : Fin 4096)
    (hm : mm.val = t.val / 2 % 4 * 1024 + q.val) :
    rblk V c t (ix2 (0 : Fin 1) q) = v3A V c (ix2 (0 : Fin 1) mm) := by
  obtain ⟨-, -, -, -, e4, e5, -⟩ := idx0 t
  show ((cfg0.win 2).blk t).view.read (Elt Ideal) (V c (Pipeline.arrRef spec0 2)) (ix2 (0 : Fin 1) q) = _
  rw [View.read_apply]
  show V c main_v3 _ = V c main_v3 _
  congr 1
  funext a
  apply Fin.ext
  match a with
  | ⟨0, _⟩ => show win0_2.index t (0 : Fin 2) * 1 + 1 * 0 = 0; rw [e4]
  | ⟨1, _⟩ => show win0_2.index t (1 : Fin 2) * 1024 + 1 * q.val = mm.val; rw [e5, hm]; omega

/-! ## The scratch tile over one accumulation -/

/-- At an even point the scratch tile is reset: zero plus the point's product. -/
theorem sc0_even (c : Dev nD) : ∀ (n : ℕ) (hn : n < cfg0.N), n % 2 = 0 →
    sc0 V c n hn = k0_pay2 (F := Ideal) (k0_pay1 (F := Ideal)) (ablk V c ⟨n, hn⟩) (bblk V c ⟨n, hn⟩)
  | 0, hn, _ => rfl
  | n + 1, hn, h => by rw [sc0, if_pos h]

/-- At an odd point it is what the point before left plus the point's product. -/
theorem sc0_odd (c : Dev nD) (n : ℕ) (hn : n + 1 < cfg0.N) (h : (n + 1) % 2 = 1) :
    sc0 V c (n + 1) hn
      = k0_pay2 (F := Ideal) (sc0 V c n (Nat.lt_of_succ_lt hn)) (ablk V c ⟨n + 1, hn⟩) (bblk V c ⟨n + 1, hn⟩) := by
  rw [sc0, if_neg (by omega)]

/-- What an odd point stores into the output tile, over the blocks of the point and of the even point before it. -/
theorem out0_odd (c : Dev nD) (t t' : Fin cfg0.N) (ht : t.val % 2 = 1) (ht' : t'.val + 1 = t.val) :
    out0 V c t = k0_pay3 (F := Ideal) (k0_pay2 (F := Ideal) (k0_pay2 (F := Ideal) (k0_pay1 (F := Ideal)) (ablk V c t') (bblk V c t'))
      (ablk V c t) (bblk V c t)) (rblk V c t) := by
  obtain ⟨n, hn⟩ := t
  obtain ⟨n', hn'⟩ := t'
  dsimp only at ht ht'
  subst ht'
  unfold out0
  dsimp only
  rw [sc0_odd V c n' hn ht, sc0_even V c n' hn' (by omega)]

/-! ## The projection -/

/-- Entry (n, m) of the projection: the sum over the contracted axis plus the bias. -/
def qent (c : Dev nD) (n mm : Fin 4096) : EReal :=
  (∑ k : Fin 4096, v0A V c (ix2 n k) * v2A V c (ix2 k mm)) + v3A V c (ix2 (0 : Fin 1) mm)

/-- The projection as contents of the output array. -/
def qarr (c : Dev nD) : S4096x4096.Idx → EReal :=
  fun i => qent V c ⟨(i 0).val, idx2_lt0 i⟩ ⟨(i 1).val, idx2_lt1 i⟩

/-- What an odd point stores, at an entry of its tile, is the projection at the entry's place in the array. -/
theorem out0_entry (c : Dev nD) (t : Fin cfg0.N) (ht : t.val % 2 = 1) (p q : Fin 1024) (n mm : Fin 4096)
    (hn : n.val = t.val / 8 * 1024 + p.val) (hm : mm.val = t.val / 2 % 4 * 1024 + q.val) :
    (out0 V c t : S1024x1024.Idx → EReal) (ix2 p q) = qent V c n mm := by
  have hN : cfg0.N = 32 := N_0
  have htl := t.isLt
  obtain ⟨t', ht'⟩ : ∃ t' : Fin cfg0.N, t'.val + 1 = t.val :=
    ⟨⟨t.val - 1, by omega⟩, by show t.val - 1 + 1 = t.val; omega⟩
  rw [out0_odd V c t t' ht ht']
  refine (tile_apply (ablk V c t') (ablk V c t) (bblk V c t') (bblk V c t) (rblk V c t) p q).trans ?_
  unfold qent
  rw [sum_halves]
  refine congrArg₂ (· + ·) (congrArg₂ (· + ·) ?_ ?_) ?_
  · refine Finset.sum_congr rfl fun κ _ => ?_
    have hκ := κ.isLt
    rw [ablk_apply V c t' p κ n ⟨κ.val, by omega⟩ (by omega) (by show κ.val = _; omega),
      bblk_apply V c t' κ q ⟨κ.val, by omega⟩ mm (by show κ.val = _; omega) (by omega)]
  · refine Finset.sum_congr rfl fun κ _ => ?_
    have hκ := κ.isLt
    rw [ablk_apply V c t p κ n ⟨2048 + κ.val, by omega⟩ (by omega) (by show 2048 + κ.val = _; omega),
      bblk_apply V c t κ q ⟨2048 + κ.val, by omega⟩ mm (by show 2048 + κ.val = _; omega) (by omega)]
  · exact rblk_apply V c t q mm hm

/-! ## From the tiles to the array -/

/-- What an odd point writes back is its tile of the projection. -/
theorem flushed0_eq (c : Dev nD) (t : Fin cfg0.N) (hf : (cfg0.win 3).flush t = true) :
    (dat0 V c).flushed 3 t = ((cfg0.win 3).blk t).view.read (Elt Ideal) (qarr V c) := by
  have ht : t.val % 2 = 1 := (flush0_3 t).mp hf
  obtain ⟨-, -, -, -, -, -, e6, e7⟩ := idx0 t
  show (cfg0.win 3).cut (grid0.coords t) ((dat0 V c).after 3 t) = _
  rw [after0_3]
  funext y
  rw [View.read_apply]
  show (out0 V c t : S1024x1024.Idx → EReal) y = qarr V c (((cfg0.win 3).blk t).view.emb y)
  refine (congrArg (out0 V c t : S1024x1024.Idx → EReal) (eq_ix2 (n0 := 1024) (n1 := 1024) y)).trans ?_
  unfold qarr
  exact out0_entry V c t ht (y 0) (y 1) _ _
    (by show win0_3.index t (0 : Fin 2) * 1024 + 1 * (y 0).val = _; rw [e6]; omega)
    (by show win0_3.index t (1 : Fin 2) * 1024 + 1 * (y 1).val = _; rw [e7]; omega)

/-- Every entry of the output array lies in the tile some odd point writes back. -/
theorem cover0 (i : S4096x4096.Idx) :
    ∃ t : Fin cfg0.N, (cfg0.win 3).flush t = true ∧ i ∈ ((cfg0.win 3).blk t).view.set := by
  have hN : cfg0.N = 32 := N_0
  have h0 : (i 0).val < 4096 := idx2_lt0 i
  have h1 : (i 1).val < 4096 := idx2_lt1 i
  obtain ⟨t, htv⟩ : ∃ t : Fin cfg0.N, t.val = ((i 0).val / 1024 * 4 + (i 1).val / 1024) * 2 + 1 :=
    ⟨⟨((i 0).val / 1024 * 4 + (i 1).val / 1024) * 2 + 1, by omega⟩, rfl⟩
  obtain ⟨-, -, -, -, -, -, e6, e7⟩ := idx0 t
  refine ⟨t, (flush0_3 t).mpr (by omega), ?_⟩
  show i ∈ ((View.whole main_v4).slice (win0_3.rect t)).set
  rw [View.set_slice_whole, Rect.mem_set_unit]
  intro a
  match a with
  | ⟨0, _⟩ =>
    show win0_3.index t (0 : Fin 2) * 1024 ≤ (i 0).val ∧ (i 0).val < win0_3.index t (0 : Fin 2) * 1024 + 1024
    rw [e6, htv]; omega
  | ⟨1, _⟩ =>
    show win0_3.index t (1 : Fin 2) * 1024 ≤ (i 1).val ∧ (i 1).val < win0_3.index t (1 : Fin 2) * 1024 + 1024
    rw [e7, htv]; omega

/-- THE OUTPUT ARRAY after region 0 is the projection. -/
theorem o0A_eq (c : Dev nD) : o0A V c = qarr V c :=
  (dat0 (F := Ideal) V c).arrAt_eq_of_cover 3 (qarr V c) (fun t hf => flushed0_eq V c t hf) cover0

/-- Entry by entry: q[n, m] = Σ_k x[n, k] · W[k, m] + b[0, m]. -/
theorem final0 (c : Dev nD) (n mm : Fin 4096) :
    o0A V c (ix2 n mm) = (∑ k : Fin 4096, v0A V c (ix2 n k) * v2A V c (ix2 k mm)) + v3A V c (ix2 0 mm) := by
  rw [o0A_eq]
  rfl

end Cert.KernelIdeal.Hand.Val0

end
-- ==== Proof.Val1.lean ====
/-
  Region 1 at the ideal values (every float an extended real, every operation exact): what the output array holds
  after the region, entry by entry.

  The two scratch accumulators are sums of eight block products, block b of the contracted axis being positions
  512·b … 512·b + 511; eight blocks of 512 are the whole axis of 4096. At the last point the body adds the two
  biases (one broadcast along the columns, one down the rows) and stores the modulated value
  min 6 (max 0 ((k·k + 2·k) + context · (1 + |k|))), which is the specification's `modS k context` word for word.
-/
import proofs.«159061_j38019050504386_1_alg».proof.Proof.Arrs
import proofs.«159061_j38019050504386_1_alg».proof.Proof.Spec
import proofs.«159061_j38019050504386_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand.Val1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx Cert.AttnSpec

/-! ## The arrays and blocks by their literal types -/

/-- A [6, 4096] array of extended reals. -/
abbrev A64 : Type := S6x4096.Idx → EReal
/-- A [4096, 4096] array. -/
abbrev A44 : Type := S4096x4096.Idx → EReal
/-- A [6, 512] block. -/
abbrev B65 : Type := S6x512.Idx → EReal
/-- A [512, 4096] block. -/
abbrev B54 : Type := S512x4096.Idx → EReal
/-- The [6, 1] bias column. -/
abbrev A61 : Type := S6x1.Idx → EReal
/-- The [1, 4096] bias row. -/
abbrev A14 : Type := S1x4096.Idx → EReal

/-! ## One column broadcast over many -/

/-- An `[a, 1]` array broadcast to `[a, b]` reads, at `(p, c)`, the operand's one column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The absolute value of a vector at an index, at the ideal values: the larger of the element and its negation. -/
theorem absf_apply {s : Shape} {φ : FTy} (a : FVec Ideal s φ) (i : s.Idx) : absf a i = max (a i) (-(a i)) := rfl

/-! ## The payloads at an entry -/

/-- The context accumulator starts from zero, -/
theorem pay1_apply (p : Fin 6) (q : Fin 4096) : k1_pay1 (F := Ideal) (ix2 p q) = 0 := by
  unfold k1_pay1
  rw [shapeCast_self]
  exact Ideal.ofBits_zero_f32

/-- and so does the k accumulator. -/
theorem pay2_apply (p : Fin 6) (q : Fin 4096) : k1_pay2 (F := Ideal) (ix2 p q) = 0 := by
  unfold k1_pay2
  rw [shapeCast_self]
  exact Ideal.ofBits_zero_f32

/-- The last point's store: the two accumulators with their biases, modulated. -/
theorem pay5_apply (ca : A64) (bl : A61) (ka : A64) (bk : A14) (p : Fin 6) (q : Fin 4096) :
    k1_pay5 (F := Ideal) ca bl ka bk (ix2 p q)
      = modS (ka (ix2 p q) + bk (ix2 (0 : Fin 1) q)) (ca (ix2 p q) + bl (ix2 p (0 : Fin 1))) := by
  unfold k1_pay5
  simp only [shapeCast_self]
  simp only [truncf_apply, minimumf_apply, maximumf_apply, addf_apply, mulf_apply, absf_apply, broadcast_apply]
  rw [broadcastTo_a1_ab_apply, broadcastTo_1b_ab_apply]
  rfl

/-- The two products of the body are plain matrix products [6, 512] · [512, 4096]. -/
theorem plain1 : Cert.PlainDot.Plain dot_S6x512_S512x4096_S6x4096_1_0_0_1_n_n := ⟨rfl, rfl, rfl, rfl, rfl, rfl⟩

/-- Entry (p, q) of the product of a [6, 512] block with a [512, 4096] block. -/
def blockProd (l : B65) (r : B54) (p : Fin 6) (q : Fin 4096) : EReal := ∑ κ : Fin 512, l (ix2 p κ) * r (ix2 κ q)

/-- One step of the context accumulator: what it held plus the product of the two blocks. -/
theorem pay3_apply (acc : A64) (l : B65) (r : B54) (p : Fin 6) (q : Fin 4096) :
    k1_pay3 (F := Ideal) acc l r (ix2 p q) = acc (ix2 p q) + blockProd l r p q := by
  unfold k1_pay3
  simp only [shapeCast_self, addf_apply]
  rw [Cert.PlainDot.matmul_zero_apply plain1 rfl rfl]
  rfl

/-- One step of the k accumulator, likewise. -/
theorem pay4_apply (acc : A64) (l : B65) (r : B54) (p : Fin 6) (q : Fin 4096) :
    k1_pay4 (F := Ideal) acc l r (ix2 p q) = acc (ix2 p q) + blockProd l r p q := by
  unfold k1_pay4
  simp only [shapeCast_self, addf_apply]
  rw [Cert.PlainDot.matmul_zero_apply plain1 rfl rfl]
  rfl

/-! ## The blocks, read off the arrays -/

variable (V : (c : Dev nD) → (b : Ref sig .tc) → Buf (Elt Ideal) ((c : Thread nD τ).loc b))

/-- The grid has eight points. -/
theorem tlt (t : Fin cfg1.N) : t.val < 8 := lt_of_lt_of_eq t.isLt N_1

/-- Position `κ` of block `b` of a contracted axis of 4096 cut into eight blocks of 512. -/
def gi (b : Fin 8) (κ : Fin 512) : Fin 4096 := ⟨κ.val + 512 * b.val, by have := b.isLt; have := κ.isLt; omega⟩

/-- The printed index maps, decided over the grid: the row-blocked windows sit at block row `t`, the column-blocked
    ones at block column `t`, the whole ones at the origin. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = t.val
    ∧ win1_2.index t (0 : Fin 2) = 0 ∧ win1_2.index t (1 : Fin 2) = 0
    ∧ win1_3.index t (0 : Fin 2) = 0 ∧ win1_3.index t (1 : Fin 2) = t.val
    ∧ win1_4.index t (0 : Fin 2) = t.val ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- q's block at point `t`: rows 512·t … 512·t + 511, every column. -/
theorem blk0_apply (c : Dev nD) (t : Fin cfg1.N) (κ : Fin 512) (q : Fin 4096) :
    (iblk1 V c 0 t : B54) (ix2 κ q) = v4A V c (ix2 (gi ⟨t.val, tlt t⟩ κ) q) := by
  obtain ⟨e0, e1, -⟩ := idx_facts1 t
  unfold iblk1
  rw [View.read_apply]
  show V c main_v4 _ = V c main_v4 _
  congr 1
  funext a
  apply Fin.ext
  match a with
  | ⟨0, _⟩ => show win1_0.index t (0 : Fin 2) * 512 + 1 * κ.val = κ.val + 512 * t.val; rw [e0]; omega
  | ⟨1, _⟩ => show win1_0.index t (1 : Fin 2) * 4096 + 1 * q.val = q.val; rw [e1]; omega

/-- W_lin's block at point `t`: every row, columns 512·t … 512·t + 511. -/
theorem blk1_apply (c : Dev nD) (t : Fin cfg1.N) (p : Fin 6) (κ : Fin 512) :
    (iblk1 V c 1 t : B65) (ix2 p κ) = v5A V c (ix2 p (gi ⟨t.val, tlt t⟩ κ)) := by
  obtain ⟨-, -, e0, e1, -⟩ := idx_facts1 t
  unfold iblk1
  rw [View.read_apply]
  show V c main_v5 _ = V c main_v5 _
  congr 1
  funext a
  apply Fin.ext
  match a with
  | ⟨0, _⟩ => show win1_1.index t (0 : Fin 2) * 6 + 1 * p.val = p.val; rw [e0]; omega
  | ⟨1, _⟩ => show win1_1.index t (1 : Fin 2) * 512 + 1 * κ.val = κ.val + 512 * t.val; rw [e1]; omega

/-- The bias column b_lin, whole at every point. -/
theorem blk2_apply (c : Dev nD) (t : Fin cfg1.N) (p : Fin 6) :
    (iblk1 V c 2 t : A61) (ix2 p (0 : Fin 1)) = v6A V c (ix2 p (0 : Fin 1)) := by
  obtain ⟨-, -, -, -, e0, e1, -⟩ := idx_facts1 t
  unfold iblk1
  rw [View.read_apply]
  show V c main_v6 _ = V c main_v6 _
  congr 1
  funext a
  apply Fin.ext
  match a with
  | ⟨0, _⟩ => show win1_2.index t (0 : Fin 2) * 6 + 1 * p.val = p.val; rw [e0]; omega
  | ⟨1, _⟩ => show win1_2.index t (1 : Fin 2) * 1 + 1 * (0 : Fin 1).val = (0 : Fin 1).val; rw [e1]; rfl

/-- data_k's block at point `t`: every row, columns 512·t … 512·t + 511. -/
theorem blk3_apply (c : Dev nD) (t : Fin cfg1.N) (p : Fin 6) (κ : Fin 512) :
    (iblk1 V c 3 t : B65) (ix2 p κ) = v7A V c (ix2 p (gi ⟨t.val, tlt t⟩ κ)) := by
  obtain ⟨-, -, -, -, -, -, e0, e1, -⟩ := idx_facts1 t
  unfold iblk1
  rw [View.read_apply]
  show V c main_v7 _ = V c main_v7 _
  congr 1
  funext a
  apply Fin.ext
  match a with
  | ⟨0, _⟩ => show win1_3.index t (0 : Fin 2) * 6 + 1 * p.val = p.val; rw [e0]; omega
  | ⟨1, _⟩ => show win1_3.index t (1 : Fin 2) * 512 + 1 * κ.val = κ.val + 512 * t.val; rw [e1]; omega

/-- W_kᵀ's block at point `t`: rows 512·t … 512·t + 511, every column. -/
theorem blk4_apply (c : Dev nD) (t : Fin cfg1.N) (κ : Fin 512) (q : Fin 4096) :
    (iblk1 V c 4 t : B54) (ix2 κ q) = v9A V c (ix2 (gi ⟨t.val, tlt t⟩ κ) q) := by
  obtain ⟨-, -, -, -, -, -, -, -, e0, e1, -⟩ := idx_facts1 t
  unfold iblk1
  rw [View.read_apply]
  show V c main_v9 _ = V c main_v9 _
  congr 1
  funext a
  apply Fin.ext
  match a with
  | ⟨0, _⟩ => show win1_4.index t (0 : Fin 2) * 512 + 1 * κ.val = κ.val + 512 * t.val; rw [e0]; omega
  | ⟨1, _⟩ => show win1_4.index t (1 : Fin 2) * 4096 + 1 * q.val = q.val; rw [e1]; omega

/-- The bias row b_k, whole at every point. -/
theorem blk5_apply (c : Dev nD) (t : Fin cfg1.N) (q : Fin 4096) :
    (iblk1 V c 5 t : A14) (ix2 (0 : Fin 1) q) = v10A V c (ix2 (0 : Fin 1) q) := by
  obtain ⟨-, -, -, -, -, -, -, -, -, -, e0, e1, -⟩ := idx_facts1 t
  unfold iblk1
  rw [View.read_apply]
  show V c main_v10 _ = V c main_v10 _
  congr 1
  funext a
  apply Fin.ext
  match a with
  | ⟨0, _⟩ => show win1_5.index t (0 : Fin 2) * 1 + 1 * (0 : Fin 1).val = (0 : Fin 1).val; rw [e0]; rfl
  | ⟨1, _⟩ => show win1_5.index t (1 : Fin 2) * 4096 + 1 * q.val = q.val; rw [e1]; omega

/-! ## The accumulators: a sum of block products -/

/-- Block `b`'s addend to the context at entry (p, q) (zero past the grid, so that the sum below needs no bound). -/
def blkSumA (c : Dev nD) (p : Fin 6) (q : Fin 4096) (b : ℕ) : EReal :=
  if h : b < cfg1.N then blockProd (iblk1 V c 1 ⟨b, h⟩) (iblk1 V c 0 ⟨b, h⟩) p q else 0

/-- Block `b`'s addend to k at entry (p, q). -/
def blkSumB (c : Dev nD) (p : Fin 6) (q : Fin 4096) (b : ℕ) : EReal :=
  if h : b < cfg1.N then blockProd (iblk1 V c 3 ⟨b, h⟩) (iblk1 V c 4 ⟨b, h⟩) p q else 0

/-- After point `n` the context accumulator holds the addends of blocks 0 … n: the zero it starts from is absorbed. -/
theorem sc1a_apply (c : Dev nD) (p : Fin 6) (q : Fin 4096) : ∀ (n : ℕ) (hn : n < cfg1.N),
    (sc1a V c n hn : A64) (ix2 p q) = ∑ b ∈ Finset.range (n + 1), blkSumA V c p q b
  | 0, hn => by
    show k1_pay3 (F := Ideal) (k1_pay1 (F := Ideal)) (iblk1 V c 1 ⟨0, hn⟩) (iblk1 V c 0 ⟨0, hn⟩) (ix2 p q) = _
    rw [pay3_apply, pay1_apply, zero_add, Finset.sum_range_one, blkSumA, dif_pos hn]
  | n + 1, hn => by
    show k1_pay3 (F := Ideal) (sc1a V c n (Nat.lt_of_succ_lt hn)) (iblk1 V c 1 ⟨n + 1, hn⟩) (iblk1 V c 0 ⟨n + 1, hn⟩) (ix2 p q) = _
    rw [pay3_apply, sc1a_apply c p q n (Nat.lt_of_succ_lt hn), Finset.sum_range_succ _ (n + 1)]
    congr 1
    rw [blkSumA, dif_pos hn]

/-- Likewise the k accumulator. -/
theorem sc1b_apply (c : Dev nD) (p : Fin 6) (q : Fin 4096) : ∀ (n : ℕ) (hn : n < cfg1.N),
    (sc1b V c n hn : A64) (ix2 p q) = ∑ b ∈ Finset.range (n + 1), blkSumB V c p q b
  | 0, hn => by
    show k1_pay4 (F := Ideal) (k1_pay2 (F := Ideal)) (iblk1 V c 3 ⟨0, hn⟩) (iblk1 V c 4 ⟨0, hn⟩) (ix2 p q) = _
    rw [pay4_apply, pay2_apply, zero_add, Finset.sum_range_one, blkSumB, dif_pos hn]
  | n + 1, hn => by
    show k1_pay4 (F := Ideal) (sc1b V c n (Nat.lt_of_succ_lt hn)) (iblk1 V c 3 ⟨n + 1, hn⟩) (iblk1 V c 4 ⟨n + 1, hn⟩) (ix2 p q) = _
    rw [pay4_apply, sc1b_apply c p q n (Nat.lt_of_succ_lt hn), Finset.sum_range_succ _ (n + 1)]
    congr 1
    rw [blkSumB, dif_pos hn]

/-- A block's addend to the context, over the arrays. -/
theorem blkSumA_eq (c : Dev nD) (p : Fin 6) (q : Fin 4096) (b : Fin 8) :
    blkSumA V c p q b.val = ∑ κ : Fin 512, v5A V c (ix2 p (gi b κ)) * v4A V c (ix2 (gi b κ) q) := by
  unfold blkSumA
  rw [dif_pos (show b.val < cfg1.N from lt_of_lt_of_eq b.isLt N_1.symm)]
  unfold blockProd
  refine Finset.sum_congr rfl fun κ _ => ?_
  rw [blk1_apply, blk0_apply]

/-- A block's addend to k, over the arrays. -/
theorem blkSumB_eq (c : Dev nD) (p : Fin 6) (q : Fin 4096) (b : Fin 8) :
    blkSumB V c p q b.val = ∑ κ : Fin 512, v7A V c (ix2 p (gi b κ)) * v9A V c (ix2 (gi b κ) q) := by
  unfold blkSumB
  rw [dif_pos (show b.val < cfg1.N from lt_of_lt_of_eq b.isLt N_1.symm)]
  unfold blockProd
  refine Finset.sum_congr rfl fun κ _ => ?_
  rw [blk3_apply, blk4_apply]

/-- Eight blocks of 512 are the whole axis of 4096: position κ of block b is κ + 512·b. -/
theorem sum_split (g : Fin 4096 → EReal) : ∑ b : Fin 8, ∑ κ : Fin 512, g (gi b κ) = ∑ n : Fin 4096, g n := by
  rw [← Equiv.sum_comp (@finProdFinEquiv 8 512) g, Fintype.sum_prod_type]
  rfl

/-- After the last point the context accumulator holds the whole product W_lin · q. -/
theorem sc1a_last (c : Dev nD) (p : Fin 6) (q : Fin 4096) (h : 7 < cfg1.N) :
    (sc1a V c 7 h : A64) (ix2 p q) = ∑ n : Fin 4096, v5A V c (ix2 p n) * v4A V c (ix2 n q) := by
  rw [sc1a_apply, Finset.sum_range, ← sum_split (fun n => v5A V c (ix2 p n) * v4A V c (ix2 n q))]
  exact Finset.sum_congr rfl fun b _ => blkSumA_eq V c p q b

/-- After the last point the k accumulator holds the whole product data_k · W_kᵀ. -/
theorem sc1b_last (c : Dev nD) (p : Fin 6) (q : Fin 4096) (h : 7 < cfg1.N) :
    (sc1b V c 7 h : A64) (ix2 p q) = ∑ n : Fin 4096, v7A V c (ix2 p n) * v9A V c (ix2 n q) := by
  rw [sc1b_apply, Finset.sum_range, ← sum_split (fun n => v7A V c (ix2 p n) * v9A V c (ix2 n q))]
  exact Finset.sum_congr rfl fun b _ => blkSumB_eq V c p q b

/-! ## The output array -/

/-- What the region leaves in its output array: at entry (j, m) the modulated value of k[j, m] = (data_k · W_kᵀ)[j, m] + b_k[m]
    and context[j, m] = (W_lin · q)[j, m] + b_lin[j]. -/
def G1 (c : Dev nD) : A64 := fun i =>
  modS ((∑ n : Fin 4096, v7A V c (ix2 (i 0) n) * v9A V c (ix2 n (i 1))) + v10A V c (ix2 (0 : Fin 1) (i 1)))
    ((∑ n : Fin 4096, v5A V c (ix2 (i 0) n) * v4A V c (ix2 n (i 1))) + v6A V c (ix2 (i 0) (0 : Fin 1)))

/-- The block the body stores at the last point, entry by entry. -/
theorem out1_apply (c : Dev nD) (t : Fin cfg1.N) (ht : t.val = 7) (p : Fin 6) (q : Fin 4096) :
    (out1 V c t : A64) (ix2 p q) = G1 V c (ix2 p q) := by
  obtain ⟨n, hn⟩ := t
  obtain rfl : n = 7 := ht
  show k1_pay5 (F := Ideal) (sc1a V c 7 hn) (iblk1 V c 2 ⟨7, hn⟩) (sc1b V c 7 hn) (iblk1 V c 5 ⟨7, hn⟩) (ix2 p q) = _
  rw [pay5_apply, sc1a_last, sc1b_last, blk2_apply, blk5_apply]
  rfl

/-- An index of the output array is in point `t`'s block iff each coordinate is in the block's range on its axis. -/
theorem mem_blk6 (t : Fin cfg1.N) (i : S6x4096.Idx) :
    i ∈ ((cfg1.win 6).blk t).view.set ↔ ∀ a : Fin 2, win1_6.index t a * S6x4096.size a ≤ (i a).val ∧ (i a).val < win1_6.index t a * S6x4096.size a + S6x4096.size a := by
  show i ∈ ((View.whole main_v11).slice (win1_6.rect t)).set ↔ _
  rw [View.set_slice_whole, Rect.mem_set_unit]
  exact Iff.rfl

/-- What the last point writes back is the whole of `G1`: the output window is the whole array. -/
theorem flushed1_eq (c : Dev nD) (t : Fin cfg1.N) (hf : (cfg1.win 6).flush t = true) :
    (dat1 (F := Ideal) V c).flushed 6 t = ((cfg1.win 6).blk t).view.read (Elt Ideal) (G1 V c) := by
  have h7 : t.val = 7 := by
    have h1 := (flush1_6 t).mp hf
    have h2 := tlt t
    omega
  obtain ⟨-, -, -, -, -, -, -, -, -, -, -, -, e0, e1⟩ := idx_facts1 t
  show (cfg1.win 6).cut (grid1.coords t) ((dat1 (F := Ideal) V c).after 6 t) = _
  rw [after1_6]
  funext y
  rw [View.read_apply]
  obtain ⟨p, q, rfl⟩ : ∃ (p : Fin 6) (q : Fin 4096), y = ix2 p q := ⟨y 0, y 1, eq_ix2 y⟩
  have hemb : ((cfg1.win 6).blk t).view.emb (ix2 p q) = ix2 p q := by
    funext a
    apply Fin.ext
    match a with
    | ⟨0, _⟩ => show win1_6.index t (0 : Fin 2) * 6 + 1 * p.val = p.val; rw [e0]; omega
    | ⟨1, _⟩ => show win1_6.index t (1 : Fin 2) * 4096 + 1 * q.val = q.val; rw [e1]; omega
  rw [hemb]
  exact out1_apply V c t h7 p q

/-- Every entry of the output array is in the block the last point writes back. -/
theorem cover1 (i : S6x4096.Idx) : ∃ t : Fin cfg1.N, (cfg1.win 6).flush t = true ∧ i ∈ ((cfg1.win 6).blk t).view.set := by
  obtain ⟨-, -, -, -, -, -, -, -, -, -, -, -, e0, e1⟩ := idx_facts1 t1_7
  refine ⟨t1_7, (flush1_6 t1_7).mpr (by decide), ?_⟩
  rw [mem_blk6]
  intro a
  match a with
  | ⟨0, _⟩ =>
    show win1_6.index t1_7 (0 : Fin 2) * 6 ≤ (i 0).val ∧ (i 0).val < win1_6.index t1_7 (0 : Fin 2) * 6 + 6
    have := idx2_lt0 i
    rw [e0]; omega
  | ⟨1, _⟩ =>
    show win1_6.index t1_7 (1 : Fin 2) * 4096 ≤ (i 1).val ∧ (i 1).val < win1_6.index t1_7 (1 : Fin 2) * 4096 + 4096
    have := idx2_lt1 i
    rw [e1]; omega

/-- The output array after the region. -/
theorem arr1_eq (c : Dev nD) : (dat1 (F := Ideal) V c).arrAt 6 cfg1.N = G1 V c :=
  (dat1 (F := Ideal) V c).arrAt_eq_of_cover 6 (G1 V c) (flushed1_eq V c) cover1

/-- REGION 1'S VALUE: entry (j, m) of the output array is the modulated value of
    k[j, m] = Σ_i data_k[j, i] · W_kᵀ[i, m] + b_k[m] and context[j, m] = Σ_n W_lin[j, n] · q[n, m] + b_lin[j]. -/
theorem final1 (c : Dev nD) (j : Fin 6) (mm : Fin 4096) :
    o1A V c (ix2 j mm) = Cert.AttnSpec.modS ((∑ i : Fin 4096, v7A V c (ix2 j i) * v9A V c (ix2 i mm)) + v10A V c (ix2 0 mm))
                                            ((∑ n : Fin 4096, v5A V c (ix2 j n) * v4A V c (ix2 n mm)) + v6A V c (ix2 j 0)) := by
  show (dat1 (F := Ideal) V c).arrAt 6 cfg1.N (ix2 j mm) = _
  rw [arr1_eq]
  rfl

end Cert.KernelIdeal.Hand.Val1

end
-- ==== Proof.Val2a.lean ====
/-
  Region 2's three payloads read at one entry, over the extended reals: the zero tile is 0 everywhere; the
  accumulation step adds to the carried tile's entry (p, q) the sum over the 2048 contracted positions of
  A[p, k] · B[k, q]; the stored tile is the carried one times the word 1/64.
-/
import proofs.«159061_j38019050504386_1_alg».proof.Proof.Gen.KernelIdeal.Skeleton
import proofs.«159061_j38019050504386_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand.Val2

open Idealize.ShloMosaic Idealize.ShloMosaic.TcCoe
open Idealize.ShloMosaic.ValueIdx
open Cert.KernelIdeal Cert.KernelIdeal.Gen
open scoped BigOperators

/-! ## The contraction's operand indices: output entry (p, q), contracted position k ↦ A at (p, k), B at (k, q) -/

theorem lhs2_0 (i : S1024x6.Idx) (q : dot_S1024x2048_S2048x6_S1024x6_1_0_0_1_n_n.contr.Idx) :
    (dot_S1024x2048_S2048x6_S1024x6_1_0_0_1_n_n.lhsIdx i q 0).val = (i 0).val := by
  unfold DotDims.lhsIdx
  rw [dif_neg (show ¬(0 : Fin S1024x2048.rank) ∈ dot_S1024x2048_S2048x6_S1024x6_1_0_0_1_n_n.lhsBatch by decide), dif_pos (show (0 : Fin S1024x2048.rank) ∈ dot_S1024x2048_S2048x6_S1024x6_1_0_0_1_n_n.lhsNonContracting by decide)]
  rfl
theorem lhs2_1 (i : S1024x6.Idx) (q : dot_S1024x2048_S2048x6_S1024x6_1_0_0_1_n_n.contr.Idx) :
    (dot_S1024x2048_S2048x6_S1024x6_1_0_0_1_n_n.lhsIdx i q 1).val = (q ⟨0, by decide⟩).val :=
  dot_S1024x2048_S2048x6_S1024x6_1_0_0_1_n_n.lhsIdx_val_of_single rfl i q
theorem rhs2_0 (i : S1024x6.Idx) (q : dot_S1024x2048_S2048x6_S1024x6_1_0_0_1_n_n.contr.Idx) :
    (dot_S1024x2048_S2048x6_S1024x6_1_0_0_1_n_n.rhsIdx i q 0).val = (q ⟨0, by decide⟩).val :=
  dot_S1024x2048_S2048x6_S1024x6_1_0_0_1_n_n.rhsIdx_val_of_single rfl i q
theorem rhs2_1 (i : S1024x6.Idx) (q : dot_S1024x2048_S2048x6_S1024x6_1_0_0_1_n_n.contr.Idx) :
    (dot_S1024x2048_S2048x6_S1024x6_1_0_0_1_n_n.rhsIdx i q 1).val = (i 1).val := by
  unfold DotDims.rhsIdx
  rw [dif_neg (show ¬(1 : Fin S2048x6.rank) ∈ dot_S1024x2048_S2048x6_S1024x6_1_0_0_1_n_n.rhsBatch by decide), dif_pos (show (1 : Fin S2048x6.rank) ∈ dot_S1024x2048_S2048x6_S1024x6_1_0_0_1_n_n.rhsNonContracting by decide)]
  rfl

/-- The tile product into the zero tile, at entry (p, q): the sum over the 2048 contracted positions. -/
theorem matmul2_apply (x : FVec Ideal S1024x2048 .bf16) (y : FVec Ideal S2048x6 .bf16) (p : Fin 1024) (q : Fin 6) :
    FloatOps.matmul dot_S1024x2048_S2048x6_S1024x6_1_0_0_1_n_n none x y (constant (F := Ideal) S1024x6 .f32 0x00000000#32) (ix2 p q)
      = ∑ k : Fin 2048, x (ix2 p k) * y (ix2 k q) := by
  rw [Ideal.matmul_constant_zero_apply, ← Equiv.sum_comp (contrEquiv1 dot_S1024x2048_S2048x6_S1024x6_1_0_0_1_n_n 2048 rfl rfl).symm]
  refine Finset.sum_congr rfl fun k _ => ?_
  have hk := contrEquiv1_symm_val dot_S1024x2048_S2048x6_S1024x6_1_0_0_1_n_n 2048 rfl rfl k
  have el : dot_S1024x2048_S2048x6_S1024x6_1_0_0_1_n_n.lhsIdx (ix2 p q) ((contrEquiv1 dot_S1024x2048_S2048x6_S1024x6_1_0_0_1_n_n 2048 rfl rfl).symm k) = ix2 p k := funext fun a => Fin.ext (by
    match a with
    | ⟨0, _⟩ => exact lhs2_0 _ _
    | ⟨1, _⟩ => exact (lhs2_1 _ _).trans hk)
  have er : dot_S1024x2048_S2048x6_S1024x6_1_0_0_1_n_n.rhsIdx (ix2 p q) ((contrEquiv1 dot_S1024x2048_S2048x6_S1024x6_1_0_0_1_n_n 2048 rfl rfl).symm k) = ix2 k q := funext fun a => Fin.ext (by
    match a with
    | ⟨0, _⟩ => exact (rhs2_0 _ _).trans hk
    | ⟨1, _⟩ => exact rhs2_1 _ _)
  rw [el, er]

/-! ## The three payloads at an entry -/

/-- The tile an accumulation starts from is zero everywhere. -/
theorem pay1_apply (p : Fin 1024) (q : Fin 6) : (k2_pay1 (F := Ideal)) (ix2 p q) = 0 := by
  unfold k2_pay1
  simp only [shapeCast_self]
  exact Ideal.ofBits_zero_f32

/-- One accumulation step: the carried entry plus the sum of the products along the contracted axis. -/
theorem pay2_apply (a : FVec Ideal S1024x6 .f32) (x : FVec Ideal S1024x2048 .bf16) (y : FVec Ideal S2048x6 .bf16)
    (p : Fin 1024) (q : Fin 6) :
    k2_pay2 (F := Ideal) a x y (ix2 p q) = a (ix2 p q) + ∑ k : Fin 2048, x (ix2 p k) * y (ix2 k q) := by
  unfold k2_pay2
  simp only [shapeCast_self]
  exact congrArg (a (ix2 p q) + ·) (matmul2_apply x y p q)

/-- The stored tile: the carried entry times the word 1/64. -/
theorem pay3_apply (v : FVec Ideal S1024x6 .f32) (p : Fin 1024) (q : Fin 6) :
    k2_pay3 (F := Ideal) v (ix2 p q) = v (ix2 p q) * Cert.AttnSpec.w64inv := by
  unfold k2_pay3
  rfl

end Cert.KernelIdeal.Hand.Val2

end
-- ==== Proof.Val2b.lean ====
/-
  Region 2's blocks as entries of the arrays the region finds. The grid is 4 row tiles × 2 halves of the
  contracted axis, the half running fastest: point t is row tile t / 2, half t % 2. Block t of A is rows
  1024·(t/2)…, columns 2048·(t%2)…; block t of B is rows 2048·(t%2)…; block t of the output is rows 1024·(t/2)….
-/
import proofs.«159061_j38019050504386_1_alg».proof.Proof.R2Base
import proofs.«159061_j38019050504386_1_alg».proof.Proof.Spec
import proofs.«159061_j38019050504386_1_alg».proof.Proof.Arrs
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand.Val2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx Cert.AttnSpec
open scoped BigOperators

variable (V : (c : Dev nD) → (b : Ref sig .tc) → Buf (Elt Ideal) ((c : Thread nD τ).loc b))

/-! ## The arrays and the blocks at their literal types -/

/-! The left factor A, [4096, 4096], is `v4A V c`; the right factor B, [4096, 6], is `v12A V c`. -/
/-- A's block at point t, [1024, 2048]. -/
abbrev qblk (c : Dev nD) (t : Fin cfg2.N) : FVec Ideal S1024x2048 .bf16 := iblk2 (F := Ideal) V c 0 t
/-- B's block at point t, [2048, 6]. -/
abbrev kblk (c : Dev nD) (t : Fin cfg2.N) : FVec Ideal S2048x6 .bf16 := iblk2 (F := Ideal) V c 1 t

/-! ## The index maps, decided over the grid -/

theorem idx_facts2 : ∀ t : Fin cfg2.N, win2_0.index t (0 : Fin 2) = t.val / 2 ∧ win2_0.index t (1 : Fin 2) = t.val % 2
    ∧ win2_1.index t (0 : Fin 2) = t.val % 2 ∧ win2_1.index t (1 : Fin 2) = 0
    ∧ win2_2.index t (0 : Fin 2) = t.val / 2 ∧ win2_2.index t (1 : Fin 2) = 0 :=
  (by decide +kernel : ∀ t : Fin grid2.N, _)

/-! ## A block's entry is the array's entry at block index × block size + the coordinate inside the block -/

theorem qblk_apply (c : Dev nD) (t : Fin cfg2.N) (p : Fin 1024) (k : Fin 2048) (r mm : Fin 4096)
    (hr : r.val = 1024 * (t.val / 2) + p.val) (hm : mm.val = 2048 * (t.val % 2) + k.val) :
    qblk V c t (ix2 p k) = v4A V c (ix2 r mm) := by
  obtain ⟨e0, e1, -, -, -, -⟩ := idx_facts2 t
  show V c main_v4 (((cfg2.win 0).blk t).view.emb (ix2 p k)) = V c main_v4 (ix2 r mm)
  congr 1
  funext a
  apply Fin.ext
  match a with
  | ⟨0, _⟩ => show win2_0.index t (0 : Fin 2) * 1024 + 1 * p.val = r.val; omega
  | ⟨1, _⟩ => show win2_0.index t (1 : Fin 2) * 2048 + 1 * k.val = mm.val; omega

theorem kblk_apply (c : Dev nD) (t : Fin cfg2.N) (k : Fin 2048) (q : Fin 6) (mm : Fin 4096)
    (hm : mm.val = 2048 * (t.val % 2) + k.val) :
    kblk V c t (ix2 k q) = v12A V c (ix2 mm q) := by
  obtain ⟨-, -, e0, e1, -, -⟩ := idx_facts2 t
  show V c main_v12 (((cfg2.win 1).blk t).view.emb (ix2 k q)) = V c main_v12 (ix2 mm q)
  congr 1
  funext a
  apply Fin.ext
  match a with
  | ⟨0, _⟩ => show win2_1.index t (0 : Fin 2) * 2048 + 1 * k.val = mm.val; omega
  | ⟨1, _⟩ => show win2_1.index t (1 : Fin 2) * 6 + 1 * q.val = q.val; omega

end Cert.KernelIdeal.Hand.Val2

end
-- ==== Proof.Val2c.lean ====
/-
  What region 2 stores at a point that ends an accumulation, entry by entry. The carried tile after an even point
  is 0 + A_blk·B_blk of that point; after the odd point that follows it is that plus the odd point's A_blk·B_blk;
  the stored tile is the carried one times 1/64. The two halves' sums over 2048 contracted positions are the sum
  over all 4096: entry (p, q) of the tile stored at point t is (Σ_m A[r, m]·B[m, q]) · 1/64 with r = 1024·(t/2) + p.
-/
import proofs.«159061_j38019050504386_1_alg».proof.Proof.R2Base
import proofs.«159061_j38019050504386_1_alg».proof.Proof.Spec
import proofs.«159061_j38019050504386_1_alg».proof.Proof.Val2a
import proofs.«159061_j38019050504386_1_alg».proof.Proof.Val2b
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand.Val2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx Cert.AttnSpec
open scoped BigOperators

variable (V : (c : Dev nD) → (b : Ref sig .tc) → Buf (Elt Ideal) ((c : Thread nD τ).loc b))

/-! ## The carried tile, one step of the recursion at a time -/

/-- At an even point the accumulation restarts from the zero tile. -/
theorem sc2_even (c : Dev nD) (n : ℕ) (hn : n < cfg2.N) (he : n % 2 = 0) :
    sc2 (F := Ideal) V c n hn = k2_pay2 (k2_pay1 (F := Ideal)) (iblk2 (F := Ideal) V c 0 ⟨n, hn⟩) (iblk2 (F := Ideal) V c 1 ⟨n, hn⟩) := by
  cases n with
  | zero => rfl
  | succ n => rw [sc2, if_pos he]

/-- At an odd point it goes on from what the point before left. -/
theorem sc2_odd (c : Dev nD) (n : ℕ) (hn : n + 1 < cfg2.N) (ho : (n + 1) % 2 = 1) :
    sc2 (F := Ideal) V c (n + 1) hn
      = k2_pay2 (sc2 (F := Ideal) V c n (Nat.lt_of_succ_lt hn)) (iblk2 (F := Ideal) V c 0 ⟨n + 1, hn⟩) (iblk2 (F := Ideal) V c 1 ⟨n + 1, hn⟩) := by
  rw [sc2, if_neg (by omega)]

/-- So after an odd point n + 1 the carried entry (p, q) is the two points' sums of products, added to zero. -/
theorem sc2_odd_apply (c : Dev nD) (n : ℕ) (hn : n + 1 < cfg2.N) (he : n % 2 = 0) (p : Fin 1024) (q : Fin 6) :
    (sc2 (F := Ideal) V c (n + 1) hn : FVec Ideal S1024x6 .f32) (ix2 p q)
      = (0 + ∑ k : Fin 2048, qblk V c ⟨n, Nat.lt_of_succ_lt hn⟩ (ix2 p k) * kblk V c ⟨n, Nat.lt_of_succ_lt hn⟩ (ix2 k q))
        + ∑ k : Fin 2048, qblk V c ⟨n + 1, hn⟩ (ix2 p k) * kblk V c ⟨n + 1, hn⟩ (ix2 k q) := by
  rw [sc2_odd V c n hn (by omega)]
  refine (pay2_apply (sc2 (F := Ideal) V c n (Nat.lt_of_succ_lt hn)) (qblk V c ⟨n + 1, hn⟩) (kblk V c ⟨n + 1, hn⟩) p q).trans ?_
  congr 1
  rw [sc2_even V c n (Nat.lt_of_succ_lt hn) he]
  refine (pay2_apply (k2_pay1 (F := Ideal)) (qblk V c ⟨n, Nat.lt_of_succ_lt hn⟩) (kblk V c ⟨n, Nat.lt_of_succ_lt hn⟩) p q).trans ?_
  congr 1
  exact pay1_apply p q

/-! ## The contracted axis in two halves -/

/-- A sum over 4096 positions is the sum over the first 2048 plus the sum over the last 2048. -/
theorem sum_halves (f : Fin 4096 → EReal) :
    ∑ mm : Fin 4096, f mm = (∑ k : Fin 2048, f ⟨k.val, by omega⟩) + ∑ k : Fin 2048, f ⟨2048 + k.val, by omega⟩ :=
  Fin.sum_univ_add (a := 2048) (b := 2048) f

/-! ## The stored tile -/

/-- Entry (p, q) of the tile stored at an odd point t: row r = 1024·(t/2) + p of A against column q of B, over the
    whole contracted axis, times the word 1/64. -/
theorem out2_apply (c : Dev nD) (t : Fin cfg2.N) (ho : t.val % 2 = 1) (p : Fin 1024) (q : Fin 6) (r : Fin 4096)
    (hr : r.val = 1024 * (t.val / 2) + p.val) :
    (out2 (F := Ideal) V c t : FVec Ideal S1024x6 .f32) (ix2 p q)
      = (∑ mm : Fin 4096, v4A V c (ix2 r mm) * v12A V c (ix2 mm q)) * w64inv := by
  obtain ⟨tv, ht⟩ := t
  cases tv with
  | zero => exact absurd (show (0 : ℕ) % 2 = 1 from ho) (by decide)
  | succ n =>
    have he : n % 2 = 0 := by have : (n + 1) % 2 = 1 := ho; omega
    have hr' : r.val = 1024 * ((n + 1) / 2) + p.val := hr
    unfold out2
    refine (pay3_apply (sc2 (F := Ideal) V c (n + 1) ht) p q).trans ?_
    congr 1
    rw [sc2_odd_apply V c n ht he p q, sum_halves (fun mm => v4A V c (ix2 r mm) * v12A V c (ix2 mm q)), zero_add]
    congr 1
    · refine Finset.sum_congr rfl fun k _ => ?_
      rw [qblk_apply V c ⟨n, Nat.lt_of_succ_lt ht⟩ p k r ⟨k.val, by omega⟩ (by show r.val = 1024 * (n / 2) + p.val; omega) (by show k.val = 2048 * (n % 2) + k.val; omega),
        kblk_apply V c ⟨n, Nat.lt_of_succ_lt ht⟩ k q ⟨k.val, by omega⟩ (by show k.val = 2048 * (n % 2) + k.val; omega)]
    · refine Finset.sum_congr rfl fun k _ => ?_
      rw [qblk_apply V c ⟨n + 1, ht⟩ p k r ⟨2048 + k.val, by omega⟩ (by show r.val = 1024 * ((n + 1) / 2) + p.val; omega) (by show 2048 + k.val = 2048 * ((n + 1) % 2) + k.val; omega),
        kblk_apply V c ⟨n + 1, ht⟩ k q ⟨2048 + k.val, by omega⟩ (by show 2048 + k.val = 2048 * ((n + 1) % 2) + k.val; omega)]

end Cert.KernelIdeal.Hand.Val2

end
-- ==== Proof.Val2.lean ====
/-
  Region 2's value: the output array after the run is, entry by entry, (Σ_m A[n, m]·B[m, j]) · 1/64 — A the
  [4096, 4096] array and B the [4096, 6] array the region finds. The tile stored at each odd point is its block of
  that one array function; the four odd points' blocks (rows 1024·i … 1024·i + 1023, all six columns) cover the
  output array, so the array ends holding the function.
-/
import proofs.«159061_j38019050504386_1_alg».proof.Proof.R2Base
import proofs.«159061_j38019050504386_1_alg».proof.Proof.Spec
import proofs.«159061_j38019050504386_1_alg».proof.Proof.Arrs
import proofs.«159061_j38019050504386_1_alg».proof.Proof.Val2c
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand.Val2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx Cert.AttnSpec
open scoped BigOperators

variable (V : (c : Dev nD) → (b : Ref sig .tc) → Buf (Elt Ideal) ((c : Thread nD τ).loc b))

/-! ## The array function -/

/-- Entry (n, j): row n of A against column j of B over the whole contracted axis, times the word 1/64. -/
def g2 (c : Dev nD) (n : Fin 4096) (j : Fin 6) : EReal :=
  (∑ mm : Fin 4096, v4A V c (ix2 n mm) * v12A V c (ix2 mm j)) * w64inv

/-- The same as a function of the array's index. -/
def G2 (c : Dev nD) : S4096x6.Idx → EReal := fun i => g2 V c (i 0) (i 1)

theorem G2_apply (c : Dev nD) (i : S4096x6.Idx) (r : Fin 4096) (q : Fin 6) (h0 : (i 0).val = r.val) (h1 : (i 1).val = q.val) :
    G2 V c i = g2 V c r q := by
  have e : i = ix2 r q := by
    funext a
    apply Fin.ext
    match a with
    | ⟨0, _⟩ => exact h0
    | ⟨1, _⟩ => exact h1
  subst e
  rfl

/-! ## What an odd point writes back is its block of the array function -/

theorem flushed2_eq (c : Dev nD) (t : Fin cfg2.N) (hf : (cfg2.win 2).flush t = true) :
    (dat2 (F := Ideal) V c).flushed 2 t = ((cfg2.win 2).blk t).view.read (Elt Ideal) (G2 V c) := by
  have ho : t.val % 2 = 1 := (flush2_2 t).mp hf
  have ht8 : t.val < 8 := lt_of_lt_of_eq t.isLt N_2
  obtain ⟨-, -, -, -, e0, e1⟩ := idx_facts2 t
  show (cfg2.win 2).cut (grid2.coords t) ((dat2 (F := Ideal) V c).after 2 t) = _
  rw [after2_2]
  funext y
  obtain ⟨p, q, hpq⟩ : ∃ (p : Fin 1024) (q : Fin 6), win2_2.xinj (grid2.coords t) y = (ix2 p q : S1024x6.Idx) :=
    ⟨_, _, eq_ix2 _⟩
  have hp : (y 0).val = p.val := congrArg Fin.val (congrFun hpq 0)
  have hq : (y 1).val = q.val := congrArg Fin.val (congrFun hpq 1)
  show (out2 (F := Ideal) V c t : FVec Ideal S1024x6 .f32) (win2_2.xinj (grid2.coords t) y) = G2 V c (((cfg2.win 2).blk t).view.emb y)
  rw [hpq]
  refine (out2_apply V c t ho p q ⟨1024 * (t.val / 2) + p.val, by omega⟩ rfl).trans ?_
  refine (G2_apply V c _ ⟨1024 * (t.val / 2) + p.val, by omega⟩ q ?_ ?_).symm
  · show win2_2.index t (0 : Fin 2) * 1024 + 1 * (y 0).val = 1024 * (t.val / 2) + p.val
    omega
  · show win2_2.index t (1 : Fin 2) * 6 + 1 * (y 1).val = q.val
    omega

/-! ## The odd points' blocks cover the array: entry (n, j) is in the block of point 2·(n / 1024) + 1 -/

theorem cover2 (i : S4096x6.Idx) :
    ∃ t : Fin cfg2.N, (cfg2.win 2).flush t = true ∧ i ∈ ((cfg2.win 2).blk t).view.set := by
  have hi0 : (i 0).val < 4096 := (i 0).isLt
  have hi1 : (i 1).val < 6 := (i 1).isLt
  obtain ⟨t, htv⟩ : ∃ t : Fin cfg2.N, t.val = 2 * ((i 0).val / 1024) + 1 :=
    ⟨⟨2 * ((i 0).val / 1024) + 1, by rw [show cfg2.N = 8 from N_2]; omega⟩, rfl⟩
  obtain ⟨-, -, -, -, e0, e1⟩ := idx_facts2 t
  refine ⟨t, (flush2_2 t).mpr (by omega), ?_⟩
  show i ∈ ((View.whole main_v13).slice (win2_2.rect t)).set
  rw [View.set_slice_whole, Rect.mem_set_unit]
  intro a
  match a with
  | ⟨0, _⟩ =>
    show win2_2.index t (0 : Fin 2) * 1024 ≤ (i 0).val ∧ (i 0).val < win2_2.index t (0 : Fin 2) * 1024 + 1024
    omega
  | ⟨1, _⟩ =>
    show win2_2.index t (1 : Fin 2) * 6 ≤ (i 1).val ∧ (i 1).val < win2_2.index t (1 : Fin 2) * 6 + 6
    omega

/-! ## The array after the run -/

theorem arr2_eq (c : Dev nD) : (dat2 (F := Ideal) V c).arrAt 2 cfg2.N = G2 V c :=
  (dat2 (F := Ideal) V c).arrAt_eq_of_cover 2 (G2 V c) (fun t hf => flushed2_eq V c t hf) (fun i => cover2 i)

/-- Region 2's output, entry (n, j): (Σ_m A[n, m]·B[m, j]) · 1/64. -/
theorem final2 (c : Dev nD) (n : Fin 4096) (j : Fin 6) :
    o2A V c (ix2 n j) = (∑ mm : Fin 4096, v4A V c (ix2 n mm) * v12A V c (ix2 mm j)) * Cert.AttnSpec.w64inv := by
  show (dat2 (F := Ideal) V c).arrAt 2 cfg2.N (ix2 n j) = _
  rw [arr2_eq V c]
  rfl

end Cert.KernelIdeal.Hand.Val2

end
-- ==== Proof.Glue.lean ====
/-
  The idealized program's value. Between the regions the host only changes float formats (the identity on the
  extended reals), transposes and reshapes; so region 0 leaves the projection q of the arguments, region 1 the
  modulated keys of q and the arguments, region 2 their scaled product: the specification's function of the eight
  arguments. The only algebra is the commutation of the context's products and the reading of the product with
  the word 1/64 as the division by 64.
-/
import proofs.«159061_j38019050504386_1_alg».proof.Proof.Run
import proofs.«159061_j38019050504386_1_alg».proof.Proof.Spec
import proofs.«159061_j38019050504386_1_alg».proof.Proof.Arrs
import proofs.«159061_j38019050504386_1_alg».proof.Proof.Val0
import proofs.«159061_j38019050504386_1_alg».proof.Proof.Val1
import proofs.«159061_j38019050504386_1_alg».proof.Proof.Val2
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.AttnSpec
variable (m : (ℓ : Loc nD τ sig) → Buf (Elt Ideal) ℓ)

/-! ## The eight argument arrays, at their literal types -/

abbrev A0 (c : Dev nD) : S4096x4096.Idx → EReal := m ((c : Thread nD τ).loc main_arg0)
abbrev A1 (c : Dev nD) : S6x4096.Idx → EReal := m ((c : Thread nD τ).loc main_arg1)
abbrev A2 (c : Dev nD) : S4096x4096.Idx → EReal := m ((c : Thread nD τ).loc main_arg2)
abbrev A3 (c : Dev nD) : S4096.Idx → EReal := m ((c : Thread nD τ).loc main_arg3)
abbrev A4 (c : Dev nD) : S6x4096.Idx → EReal := m ((c : Thread nD τ).loc main_arg4)
abbrev A5 (c : Dev nD) : S6.Idx → EReal := m ((c : Thread nD τ).loc main_arg5)
abbrev A6 (c : Dev nD) : S4096x4096.Idx → EReal := m ((c : Thread nD τ).loc main_arg6)
abbrev A7 (c : Dev nD) : S4096.Idx → EReal := m ((c : Thread nD τ).loc main_arg7)

/-- A vector reshaped to one column is read at its row. -/
theorem shapeCast_a_a1 {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu]; omega)

/-- A buffer no region and no host stretch before region 1's entry writes still holds its launch contents there. -/
theorem B2_of_arg (c : Dev nD) (r : Ref sig .tc) (h1 : ∀ w, Pipeline.arrRef spec0 w ≠ r) (h0 : r ∉ hostOps0_W) :
    B2 m c (Proc.devRef .tc r) = m ((c : Thread nD τ).loc r) :=
  (B2_of_ne m c r h1).trans ((StableHlo.after_of_writes_sub hostOps0 _ hostOps0_writes h0).trans rfl)

/-! ## Region 0's entry arrays: the first host stretch read at an index

A change of float format is the identity on the extended reals; a transpose swaps the two coordinates; a vector
reshaped to one row is read at its column. -/

theorem U1_v0_apply (c : Dev nD) (i : S4096x4096.Idx) : v0A (U1 m) c i = A0 m c i := by
  have e : @Eq (FVec Ideal S4096x4096 .bf16) (U1 m c main_v0) (truncf .bf16 (A0 m c : FVec Ideal S4096x4096 .f32) bitsLt_bf16_f32) := by
    show StableHlo.after hostOps0 (B0 m c) (Proc.devRef .tc main_v0) = _
    after_results
    try rfl
  exact congrFun e i

theorem U1_v2_apply (c : Dev nD) (k mm : Fin 4096) : v2A (U1 m) c (ix2 k mm) = A2 m c (ix2 mm k) := by
  have e : @Eq (FVec Ideal S4096x4096 .bf16) (U1 m c main_v2)
      (truncf .bf16 (transpose S4096x4096 [1, 0] (A2 m c : FVec Ideal S4096x4096 .f32) transposes_S4096x4096_S4096x4096_1_0) bitsLt_bf16_f32) := by
    show StableHlo.after hostOps0 (B0 m c) (Proc.devRef .tc main_v2) = _
    after_results
    try rfl
  exact (congrFun e (ix2 k mm)).trans (transpose_ix2_apply (A2 m c) transposes_S4096x4096_S4096x4096_1_0 k mm)

theorem U1_v3_apply (c : Dev nD) (mm : Fin 4096) : v3A (U1 m) c (ix2 0 mm) = A3 m c (ix1 mm) := by
  have e : @Eq (FVec Ideal S1x4096 .f32) (U1 m c main_v3) (shapeCast S1x4096 (A3 m c : FVec Ideal S4096 .f32) shapeCasts_S4096_S1x4096) := by
    show StableHlo.after hostOps0 (B0 m c) (Proc.devRef .tc main_v3) = _
    after_results
    try rfl
  exact (congrFun e (ix2 0 mm)).trans (shapeCast_a_1a_apply (A3 m c) shapeCasts_S4096_S1x4096 0 mm)

/-- The projection q, as the specification's function of the arguments. -/
abbrev Q (c : Dev nD) : Fin 4096 → Fin 4096 → EReal := qS (A0 m c) (A2 m c) (A3 m c)

/-- What region 0 leaves in its output array is q. -/
theorem q_arr (c : Dev nD) (n mm : Fin 4096) :
    o0A (U1 m) c (ix2 n mm) = Q m c n mm := by
  rw [Val0.final0 (U1 m) c n mm]
  show (∑ k : Fin 4096, v0A (U1 m) c (ix2 n k) * v2A (U1 m) c (ix2 k mm)) + v3A (U1 m) c (ix2 0 mm)
    = (∑ i : Fin 4096, A0 m c (ix2 n i) * A2 m c (ix2 mm i)) + A3 m c (ix1 mm)
  rw [U1_v3_apply]
  congr 1
  exact Finset.sum_congr rfl fun k _ => by rw [U1_v0_apply, U1_v2_apply]

/-! ## Region 1's entry arrays -/

theorem U3_v4 (c : Dev nD) : v4A (U3 m) c = o0A (U1 m) c :=
  (StableHlo.after_of_writes_sub hostOps1 _ hostOps1_writes (r := main_v4) (by decide)).trans (B2_arr m c 3)

theorem U3_v5_apply (c : Dev nD) (i : S6x4096.Idx) : v5A (U3 m) c i = A4 m c i := by
  have e : @Eq (FVec Ideal S6x4096 .bf16) (U3 m c main_v5) (truncf .bf16 (B2 m c (Proc.devRef .tc main_arg4) : FVec Ideal S6x4096 .f32) bitsLt_bf16_f32) := by
    show StableHlo.after hostOps1 (B2 m c) (Proc.devRef .tc main_v5) = _
    after_results
    try rfl
  exact (congrFun e i).trans (congrFun (B2_of_arg m c main_arg4 (by decide) (by decide)) i)

theorem U3_v6_apply (c : Dev nD) (j : Fin 6) : v6A (U3 m) c (ix2 j 0) = A5 m c (ix1 j) := by
  have e : @Eq (FVec Ideal S6x1 .f32) (U3 m c main_v6) (shapeCast S6x1 (B2 m c (Proc.devRef .tc main_arg5) : FVec Ideal S6 .f32) shapeCasts_S6_S6x1) := by
    show StableHlo.after hostOps1 (B2 m c) (Proc.devRef .tc main_v6) = _
    after_results
    try rfl
  refine (congrFun e (ix2 j 0)).trans ?_
  refine (shapeCast_a_a1 (B2 m c (Proc.devRef .tc main_arg5) : FVec Ideal S6 .f32) shapeCasts_S6_S6x1 j 0).trans ?_
  exact congrFun (B2_of_arg m c main_arg5 (by decide) (by decide)) (ix1 j)

theorem U3_v7_apply (c : Dev nD) (i : S6x4096.Idx) : v7A (U3 m) c i = A1 m c i := by
  have e : @Eq (FVec Ideal S6x4096 .bf16) (U3 m c main_v7) (truncf .bf16 (B2 m c (Proc.devRef .tc main_arg1) : FVec Ideal S6x4096 .f32) bitsLt_bf16_f32) := by
    show StableHlo.after hostOps1 (B2 m c) (Proc.devRef .tc main_v7) = _
    after_results
    try rfl
  exact (congrFun e i).trans (congrFun (B2_of_arg m c main_arg1 (by decide) (by decide)) i)

theorem U3_v9_apply (c : Dev nD) (k mm : Fin 4096) : v9A (U3 m) c (ix2 k mm) = A6 m c (ix2 mm k) := by
  have e : @Eq (FVec Ideal S4096x4096 .bf16) (U3 m c main_v9)
      (truncf .bf16 (transpose S4096x4096 [1, 0] (B2 m c (Proc.devRef .tc main_arg6) : FVec Ideal S4096x4096 .f32) transposes_S4096x4096_S4096x4096_1_0) bitsLt_bf16_f32) := by
    show StableHlo.after hostOps1 (B2 m c) (Proc.devRef .tc main_v9) = _
    after_results
    try rfl
  refine (congrFun e (ix2 k mm)).trans ?_
  refine (transpose_ix2_apply (B2 m c (Proc.devRef .tc main_arg6) : FVec Ideal S4096x4096 .f32) transposes_S4096x4096_S4096x4096_1_0 k mm).trans ?_
  exact congrFun (B2_of_arg m c main_arg6 (by decide) (by decide)) (ix2 mm k)

theorem U3_v10_apply (c : Dev nD) (mm : Fin 4096) : v10A (U3 m) c (ix2 0 mm) = A7 m c (ix1 mm) := by
  have e : @Eq (FVec Ideal S1x4096 .f32) (U3 m c main_v10) (shapeCast S1x4096 (B2 m c (Proc.devRef .tc main_arg7) : FVec Ideal S4096 .f32) shapeCasts_S4096_S1x4096) := by
    show StableHlo.after hostOps1 (B2 m c) (Proc.devRef .tc main_v10) = _
    after_results
    try rfl
  refine (congrFun e (ix2 0 mm)).trans ?_
  refine (shapeCast_a_1a_apply (B2 m c (Proc.devRef .tc main_arg7) : FVec Ideal S4096 .f32) shapeCasts_S4096_S1x4096 0 mm).trans ?_
  exact congrFun (B2_of_arg m c main_arg7 (by decide) (by decide)) (ix1 mm)

/-- The modulated keys, as the specification's function of the arguments. -/
abbrev KM (c : Dev nD) : Fin 6 → Fin 4096 → EReal :=
  fun j mm => modS (kS (A1 m c) (A6 m c) (A7 m c) j mm) (ctxS (Q m c) (A4 m c) (A5 m c) j mm)

/-- What region 1 leaves in its output array is the modulated keys: the context's products commuted into the
    specification's order. -/
theorem km_arr (c : Dev nD) (j : Fin 6) (mm : Fin 4096) :
    o1A (U3 m) c (ix2 j mm) = KM m c j mm := by
  rw [Val1.final1 (U3 m) c j mm]
  show modS ((∑ i : Fin 4096, v7A (U3 m) c (ix2 j i) * v9A (U3 m) c (ix2 i mm)) + v10A (U3 m) c (ix2 0 mm))
      ((∑ n : Fin 4096, v5A (U3 m) c (ix2 j n) * v4A (U3 m) c (ix2 n mm)) + v6A (U3 m) c (ix2 j 0))
    = modS ((∑ i : Fin 4096, A1 m c (ix2 j i) * A6 m c (ix2 mm i)) + A7 m c (ix1 mm))
      ((∑ n : Fin 4096, Q m c n mm * A4 m c (ix2 j n)) + A5 m c (ix1 j))
  rw [U3_v10_apply, U3_v6_apply]
  have h1 : (∑ i : Fin 4096, v7A (U3 m) c (ix2 j i) * v9A (U3 m) c (ix2 i mm))
      = ∑ i : Fin 4096, A1 m c (ix2 j i) * A6 m c (ix2 mm i) :=
    Finset.sum_congr rfl fun i _ => by rw [U3_v7_apply, U3_v9_apply]
  have h2 : (∑ n : Fin 4096, v5A (U3 m) c (ix2 j n) * v4A (U3 m) c (ix2 n mm))
      = ∑ n : Fin 4096, Q m c n mm * A4 m c (ix2 j n) :=
    Finset.sum_congr rfl fun n _ => by rw [U3_v5_apply, U3_v4, q_arr, mul_comm]
  rw [h1, h2]

/-! ## Region 2's entry arrays -/

theorem U5_v4 (c : Dev nD) : v4A (U5 m) c = o0A (U1 m) c := by
  refine (StableHlo.after_of_writes_sub hostOps2 _ hostOps2_writes (r := main_v4) (by decide)).trans ?_
  refine (B4_arr m c 0).trans ?_
  refine ((dat1 (F := Ideal) (U3 m) c).arrAt_in 0 rfl _).trans ?_
  exact (A_eq1 (U3 m) c 0).trans (U3_v4 m c)

theorem U5_v12_apply (c : Dev nD) (mm : Fin 4096) (j : Fin 6) :
    v12A (U5 m) c (ix2 mm j) = o1A (U3 m) c (ix2 j mm) := by
  have e : @Eq (FVec Ideal S4096x6 .bf16) (U5 m c main_v12)
      (transpose S4096x6 [1, 0] (B4 m c (Proc.devRef .tc main_v11) : FVec Ideal S6x4096 .bf16) transposes_S6x4096_S4096x6_1_0) := by
    show StableHlo.after hostOps2 (B4 m c) (Proc.devRef .tc main_v12) = _
    after_results
    try rfl
  refine (congrFun e (ix2 mm j)).trans ?_
  refine (transpose_ix2_apply (B4 m c (Proc.devRef .tc main_v11) : FVec Ideal S6x4096 .bf16) transposes_S6x4096_S4096x6_1_0 mm j).trans ?_
  exact congrFun (B4_arr m c 6) (ix2 j mm)

/-! ## The kernel's result -/

/-- What the program leaves in its result buffer is the specification's function of the eight arguments: region 2's
    product of q with the transposed modulated keys, its scaling by the word 1/64 read as the division by 64. -/
theorem kernel_result (c : Dev nD) :
    (B6 m c (Proc.devRef .tc main_v13) : S4096x6.Idx → EReal)
      = resultS (A0 m c) (A1 m c) (A2 m c) (A3 m c) (A4 m c) (A5 m c) (A6 m c) (A7 m c) := by
  funext i
  obtain ⟨n, j, rfl⟩ : ∃ (n : Fin 4096) (j : Fin 6), i = ix2 n j := ⟨i 0, i 1, eq_ix2 i⟩
  refine (congrFun (B6_arr m c 2) (ix2 n j)).trans ?_
  show o2A (U5 m) c (ix2 n j) = _
  rw [Val2.final2 (U5 m) c n j]
  have h : (∑ mm : Fin 4096, v4A (U5 m) c (ix2 n mm) * v12A (U5 m) c (ix2 mm j))
      = ∑ mm : Fin 4096, Q m c n mm * KM m c j mm :=
    Finset.sum_congr rfl fun mm _ => by rw [U5_v4, q_arr, U5_v12_apply, km_arr]
  rw [h]
  exact (div64 _).symm

/-- The idealized program's run with its result named: every weakly fair execution terminates, the result buffer at
    the specification's function of the eight arguments, the arguments unchanged. -/
theorem run_value (ρ : Dev nD → PrngReg) :
    θ_run defs (onTc (τ := τ) (main (F := Ideal))) ⟨m, fun _ => 0, ρ⟩ (fun r => ∀ c : Dev nD,
      r.2.mem ((c.tc : Thread nD τ).loc main_v13)
          = (resultS (A0 m c) (A1 m c) (A2 m c) (A3 m c) (A4 m c) (A5 m c) (A6 m c) (A7 m c) : Buf (Elt Ideal) ((c.tc : Thread nD τ).loc main_v13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v13 (by decide))).trans (kernel_result m c),
     (h c _ (mem_uc main_arg0 (by decide))).trans (B6_main_arg0 m c),
     (h c _ (mem_uc main_arg1 (by decide))).trans (B6_main_arg1 m c),
     (h c _ (mem_uc main_arg2 (by decide))).trans (B6_main_arg2 m c),
     (h c _ (mem_uc main_arg3 (by decide))).trans (B6_main_arg3 m c),
     (h c _ (mem_uc main_arg4 (by decide))).trans (B6_main_arg4 m c),
     (h c _ (mem_uc main_arg5 (by decide))).trans (B6_main_arg5 m c),
     (h c _ (mem_uc main_arg6 (by decide))).trans (B6_main_arg6 m c),
     (h c _ (mem_uc main_arg7 (by decide))).trans (B6_main_arg7 m c)⟩) (run_all m ρ)

end Cert.KernelIdeal.Hand

end
-- ==== Proof.RefIsSpec.lean ====
/-
  The reference's result, read one operation at a time, is the specification's function of the eight arguments.
-/
import proofs.«159061_j38019050504386_1_alg».proof.Proof.Gen.ReferenceIdeal.Read
import proofs.«159061_j38019050504386_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.AttnSpec Idealize.ShloMosaic.StableHlo

/-! ## The query projection: q[n, m] = Σ_i x[n, i] · W_q[m, i] + b_q[m]

The product reads its left operand at row n, column i, and the transposed weight at (i, m), that is the weight at
(m, i); the bias is broadcast along the rows, so it is read at the column m. -/

theorem lidx_v1 (n m k : Fin 4096) : Read.lidx_main_v1 (ix2 n m) k = ix2 n k :=
  funext fun a => Fin.ext (by match a with | ⟨0, _⟩ => rfl | ⟨1, _⟩ => rfl)

theorem ridx_v1 (n m k : Fin 4096) : Read.idx_main_v0 (Read.ridx_main_v1 (ix2 n m) k) = ix2 m k :=
  funext fun a => Fin.ext (by match a with | ⟨0, _⟩ => rfl | ⟨1, _⟩ => rfl)

theorem bidx_v3 (n m : Fin 4096) : Read.idx_main_v2 (Read.idx_main_v3 (ix2 n m)) = ix1 m :=
  funext fun a => Fin.ext (by match a with | ⟨0, _⟩ => rfl)

theorem q_apply (a0 a2 : FVec Ideal S4096x4096 .f32) (a3 : FVec Ideal S4096 .f32) (n m : Fin 4096) :
    Read.val_main_v4 (F := Ideal) a0 a2 a3 (ix2 n m) = qS a0 a2 a3 n m := by
  rw [Read.val_main_v4_apply, Read.val_main_v1_apply, Read.val_main_v3_apply, Read.val_main_v2_apply]
  simp only [Read.val_main_v0_apply, lidx_v1, ridx_v1, bidx_v3, Ideal.addf_def]
  rfl

/-! ## The context: context[j, m] = Σ_n q[n, m] · W_lin[j, n] + b_lin[j]

The program computes it transposed, at (m, j): the product reads q transposed at (m, n), that is q at (n, m), and the
transposed weight at (n, j), that is the weight at (j, n); the bias is broadcast along the rows and read at j. -/

theorem lidx_v7 (m k : Fin 4096) (j : Fin 6) : Read.idx_main_v5 (Read.lidx_main_v7 (ix2 m j) k) = ix2 k m :=
  funext fun a => Fin.ext (by match a with | ⟨0, _⟩ => rfl | ⟨1, _⟩ => rfl)

theorem ridx_v7 (m k : Fin 4096) (j : Fin 6) : Read.idx_main_v6 (Read.ridx_main_v7 (ix2 m j) k) = ix2 j k :=
  funext fun a => Fin.ext (by match a with | ⟨0, _⟩ => rfl | ⟨1, _⟩ => rfl)

theorem bidx_v9 (m : Fin 4096) (j : Fin 6) : Read.idx_main_v8 (Read.idx_main_v9 (ix2 m j)) = ix1 j :=
  funext fun a => Fin.ext (by match a with | ⟨0, _⟩ => rfl)

theorem ctx_apply (a0 a2 : FVec Ideal S4096x4096 .f32) (a3 : FVec Ideal S4096 .f32) (a4 : FVec Ideal S6x4096 .f32)
    (a5 : FVec Ideal S6 .f32) (m : Fin 4096) (j : Fin 6) :
    Read.val_main_v10 (F := Ideal) a0 a2 a3 a4 a5 (ix2 m j) = ctxS (qS a0 a2 a3) a4 a5 j m := by
  rw [Read.val_main_v10_apply, Read.val_main_v7_apply, Read.val_main_v9_apply, Read.val_main_v8_apply]
  simp only [Read.val_main_v5_apply, Read.val_main_v6_apply, lidx_v7, ridx_v7, bidx_v9, q_apply, Ideal.addf_def]
  rfl

/-! ## The key projection: k[j, m] = Σ_i data_k[j, i] · W_k[m, i] + b_k[m] -/

theorem lidx_v12 (j : Fin 6) (m k : Fin 4096) : Read.lidx_main_v12 (ix2 j m) k = ix2 j k :=
  funext fun a => Fin.ext (by match a with | ⟨0, _⟩ => rfl | ⟨1, _⟩ => rfl)

theorem ridx_v12 (j : Fin 6) (m k : Fin 4096) : Read.idx_main_v11 (Read.ridx_main_v12 (ix2 j m) k) = ix2 m k :=
  funext fun a => Fin.ext (by match a with | ⟨0, _⟩ => rfl | ⟨1, _⟩ => rfl)

theorem bidx_v14 (j : Fin 6) (m : Fin 4096) : Read.idx_main_v13 (Read.idx_main_v14 (ix2 j m)) = ix1 m :=
  funext fun a => Fin.ext (by match a with | ⟨0, _⟩ => rfl)

theorem k_apply (a1 : FVec Ideal S6x4096 .f32) (a6 : FVec Ideal S4096x4096 .f32) (a7 : FVec Ideal S4096 .f32)
    (j : Fin 6) (m : Fin 4096) :
    Read.val_main_v15 (F := Ideal) a1 a6 a7 (ix2 j m) = kS a1 a6 a7 j m := by
  rw [Read.val_main_v15_apply, Read.val_main_v12_apply, Read.val_main_v14_apply, Read.val_main_v13_apply]
  simp only [Read.val_main_v11_apply, lidx_v12, ridx_v12, bidx_v14, Ideal.addf_def]
  rfl

/-! ## The modulated keys: k_mod[j, m] = min 6 (max 0 ((k·k + 2·k) + context · (1 + |k|)))

Every operation here is elementwise; the four constants are scalars broadcast to the whole array, and the context is
the transposed second projection, read at (m, j). -/

theorem tidx_v16 (j : Fin 6) (m : Fin 4096) : Read.idx_main_v16 (ix2 j m) = ix2 m j :=
  funext fun a => Fin.ext (by match a with | ⟨0, _⟩ => rfl | ⟨1, _⟩ => rfl)

theorem kmod_apply (a0 : FVec Ideal S4096x4096 .f32) (a1 : FVec Ideal S6x4096 .f32) (a2 : FVec Ideal S4096x4096 .f32)
    (a3 : FVec Ideal S4096 .f32) (a4 : FVec Ideal S6x4096 .f32) (a5 : FVec Ideal S6 .f32)
    (a6 : FVec Ideal S4096x4096 .f32) (a7 : FVec Ideal S4096 .f32) (j : Fin 6) (m : Fin 4096) :
    Read.val_main_v26 (F := Ideal) a0 a1 a2 a3 a4 a5 a6 a7 (ix2 j m)
      = modS (kS a1 a6 a7 j m) (ctxS (qS a0 a2 a3) a4 a5 j m) := by
  rw [Read.val_main_v26_apply, Read.val_main_call0_v4_apply, Read.val_main_call0_v3_apply, Read.val_main_cst_2_apply,
    Read.val_main_call0_v2_apply, Read.val_main_call0_v1_apply, Read.val_main_call0_v0_apply, Read.val_main_cst_1_apply,
    Read.val_main_v25_apply, Read.val_main_v20_apply, Read.val_main_v17_apply, Read.val_main_v19_apply,
    Read.val_main_v18_apply, Read.val_main_cst_apply, Read.val_main_v24_apply, Read.val_main_v16_apply,
    Read.val_main_v23_apply, Read.val_main_v22_apply, Read.val_main_cst_0_apply, Read.val_main_v21_apply,
    tidx_v16, ctx_apply, k_apply]
  simp only [Ideal.minimumf_def, Ideal.maximumf_def, Ideal.addf_def, Ideal.mulf_def, Ideal.hostAbsf_def,
    Ideal.absf_def, Ideal.ofBits_def]
  rfl

/-! ## The result: out[n, j] = (Σ_m q[n, m] · k_mod[j, m]) / 64

The product reads q at (n, m) and the transposed modulated keys at (m, j), that is the modulated keys at (j, m). -/

theorem lidx_v28 (n k : Fin 4096) (j : Fin 6) : Read.lidx_main_v28 (ix2 n j) k = ix2 n k :=
  funext fun a => Fin.ext (by match a with | ⟨0, _⟩ => rfl | ⟨1, _⟩ => rfl)

theorem ridx_v28 (n k : Fin 4096) (j : Fin 6) : Read.idx_main_v27 (Read.ridx_main_v28 (ix2 n j) k) = ix2 j k :=
  funext fun a => Fin.ext (by match a with | ⟨0, _⟩ => rfl | ⟨1, _⟩ => rfl)

theorem out_apply (a0 : FVec Ideal S4096x4096 .f32) (a1 : FVec Ideal S6x4096 .f32) (a2 : FVec Ideal S4096x4096 .f32)
    (a3 : FVec Ideal S4096 .f32) (a4 : FVec Ideal S6x4096 .f32) (a5 : FVec Ideal S6 .f32)
    (a6 : FVec Ideal S4096x4096 .f32) (a7 : FVec Ideal S4096 .f32) (n : Fin 4096) (j : Fin 6) :
    Read.val_main_v30 (F := Ideal) a0 a1 a2 a3 a4 a5 a6 a7 (ix2 n j)
      = resS (qS a0 a2 a3) (fun j m => modS (kS a1 a6 a7 j m) (ctxS (qS a0 a2 a3) a4 a5 j m)) n j := by
  rw [Read.val_main_v30_apply, Read.val_main_v28_apply, Read.val_main_v29_apply, Read.val_main_cst_3_apply]
  simp only [Read.val_main_v27_apply, lidx_v28, ridx_v28, q_apply, kmod_apply, Ideal.hostDivf_def, Ideal.ofBits_def]
  rfl

/-- The reference's last stage, as a whole array, is the specification. -/
theorem ref_value (a0 : FVec Ideal S4096x4096 .f32) (a1 : FVec Ideal S6x4096 .f32) (a2 : FVec Ideal S4096x4096 .f32)
    (a3 : FVec Ideal S4096 .f32) (a4 : FVec Ideal S6x4096 .f32) (a5 : FVec Ideal S6 .f32)
    (a6 : FVec Ideal S4096x4096 .f32) (a7 : FVec Ideal S4096 .f32) :
    Read.val_main_v30 (F := Ideal) a0 a1 a2 a3 a4 a5 a6 a7 = resultS a0 a1 a2 a3 a4 a5 a6 a7 := by
  funext i
  obtain ⟨p, q, rfl⟩ : ∃ (p : Fin 4096) (q : Fin 6), i = ix2 p q := ⟨i 0, i 1, eq_ix2 i⟩
  rw [out_apply]
  rfl

/-- The composed term that the reference's run ends at, of the eight argument arrays, is the specification. -/
theorem ref_result (a0 : FVec Ideal S4096x4096 .f32) (a1 : FVec Ideal S6x4096 .f32) (a2 : FVec Ideal S4096x4096 .f32)
    (a3 : FVec Ideal S4096 .f32) (a4 : FVec Ideal S6x4096 .f32) (a5 : FVec Ideal S6 .f32)
    (a6 : FVec Ideal S4096x4096 .f32) (a7 : FVec Ideal S4096 .f32) :
    Host.divf (Host.dotGeneral dot_S4096x4096_S4096x6_S4096x6_1_0_0_1_n_n none (addf (Host.dotGeneral dot_S4096x4096_S4096x4096_S4096x4096_1_0_0_1_n_n none a0 (transpose S4096x4096 [1, 0] a2 transposes_S4096x4096_S4096x4096_1_0)) (broadcastInDim S4096x4096 ![0, 1] bcast_S1x4096_S4096x4096_0_1 (broadcastInDim S1x4096 ![1] bcast_S4096_S1x4096_1 a3))) (transpose S4096x6 [1, 0] (minimumf (broadcastInDim S6x4096 ![] bcast_S_S6x4096 (id (constant S_ .f32 0x40C00000#32))) (maximumf (broadcastInDim S6x4096 ![] bcast_S_S6x4096 (id (constant S_ .f32 0x00000000#32))) (addf (addf (mulf (addf (Host.dotGeneral dot_S6x4096_S4096x4096_S6x4096_1_0_0_1_n_n none a1 (transpose S4096x4096 [1, 0] a6 transposes_S4096x4096_S4096x4096_1_0)) (broadcastInDim S6x4096 ![0, 1] bcast_S1x4096_S6x4096_0_1 (broadcastInDim S1x4096 ![1] bcast_S4096_S1x4096_1 a7))) (addf (Host.dotGeneral dot_S6x4096_S4096x4096_S6x4096_1_0_0_1_n_n none a1 (transpose S4096x4096 [1, 0] a6 transposes_S4096x4096_S4096x4096_1_0)) (broadcastInDim S6x4096 ![0, 1] bcast_S1x4096_S6x4096_0_1 (broadcastInDim S1x4096 ![1] bcast_S4096_S1x4096_1 a7)))) (mulf (broadcastInDim S6x4096 ![] bcast_S_S6x4096 (constant S_ .f32 0x40000000#32)) (addf (Host.dotGeneral dot_S6x4096_S4096x4096_S6x4096_1_0_0_1_n_n none a1 (transpose S4096x4096 [1, 0] a6 transposes_S4096x4096_S4096x4096_1_0)) (broadcastInDim S6x4096 ![0, 1] bcast_S1x4096_S6x4096_0_1 (broadcastInDim S1x4096 ![1] bcast_S4096_S1x4096_1 a7))))) (mulf (transpose S6x4096 [1, 0] (addf (Host.dotGeneral dot_S4096x4096_S4096x6_S4096x6_1_0_0_1_n_n none (transpose S4096x4096 [1, 0] (addf (Host.dotGeneral dot_S4096x4096_S4096x4096_S4096x4096_1_0_0_1_n_n none a0 (transpose S4096x4096 [1, 0] a2 transposes_S4096x4096_S4096x4096_1_0)) (broadcastInDim S4096x4096 ![0, 1] bcast_S1x4096_S4096x4096_0_1 (broadcastInDim S1x4096 ![1] bcast_S4096_S1x4096_1 a3))) transposes_S4096x4096_S4096x4096_1_0) (transpose S4096x6 [1, 0] a4 transposes_S6x4096_S4096x6_1_0)) (broadcastInDim S4096x6 ![0, 1] bcast_S1x6_S4096x6_0_1 (broadcastInDim S1x6 ![1] bcast_S6_S1x6_1 a5))) transposes_S4096x6_S6x4096_1_0) (addf (broadcastInDim S6x4096 ![] bcast_S_S6x4096 (constant S_ .f32 0x3F800000#32)) (Host.absf (addf (Host.dotGeneral dot_S6x4096_S4096x4096_S6x4096_1_0_0_1_n_n none a1 (transpose S4096x4096 [1, 0] a6 transposes_S4096x4096_S4096x4096_1_0)) (broadcastInDim S6x4096 ![0, 1] bcast_S1x4096_S6x4096_0_1 (broadcastInDim S1x4096 ![1] bcast_S4096_S1x4096_1 a7))))))))) transposes_S6x4096_S4096x6_1_0)) (broadcastInDim S4096x6 ![] bcast_S_S4096x6 (constant S_ .f32 0x42800000#32))
      = resultS a0 a1 a2 a3 a4 a5 a6 a7 :=
  (Read.val_main_v30_eq (F := Ideal) a0 a1 a2 a3 a4 a5 a6 a7).trans (ref_value a0 a1 a2 a3 a4 a5 a6 a7)

end Cert.ReferenceIdeal.RefValue

end
-- ==== Proof.lean ====
/-
  The claim: the Pallas program (three pallas_calls: the projection q = x · W_qᵀ + b_q accumulated over two halves
  of the contracted axis; the context W_lin · q + b_lin and the keys data_k · W_kᵀ + b_k accumulated over eight row
  blocks and modulated, clip(k² + 2k + context · (1 + |k|), 0, 6); the product q · k_modᵀ scaled by 1/64) and the
  jnp reference compute the same function of the eight arguments over the extended reals, and every program runs to
  its end leaving its arguments unchanged.

  Both kernels' frames are one run of @main as three host stretches and three regions (each region's invariant
  carries its scratch accumulator at its contents after every grid point); at the ideal instance that run names
  the result buffer, which the value modules read as the specification's function; the reference's generated run,
  read one operation at a time, is the same function. No finiteness is needed: the two sides differ by the grouping
  of sums, one commutation of a product and x / 64 = x · (1/64).
-/
import proofs.«159061_j38019050504386_1_alg».proof.Defs
import proofs.«159061_j38019050504386_1_alg».proof.Proof.Gen.Kernel
import proofs.«159061_j38019050504386_1_alg».proof.Proof.Gen.KernelIdeal
import proofs.«159061_j38019050504386_1_alg».proof.Proof.Gen.ReferenceIdeal
import proofs.«159061_j38019050504386_1_alg».proof.Proof.Gen.Pre_finite_inputs
import proofs.«159061_j38019050504386_1_alg».proof.Proof.Gen.ReferenceIdeal.Run
import proofs.«159061_j38019050504386_1_alg».proof.Proof.KRun
import proofs.«159061_j38019050504386_1_alg».proof.Proof.Glue
import proofs.«159061_j38019050504386_1_alg».proof.Proof.RefIsSpec
import Idealize.ShloMosaic.Adequacy
import Idealize.ShloMosaic.Init

noncomputable section

namespace Cert.Proof

open Idealize.ShloMosaic Idealize.ShloMosaic.TcCoe Idealize.SL.Sem

/-- The word-level program runs and leaves its arguments unchanged. -/
theorem frame_k : Cert.frame_Kernel := fun m ρ _ => Cert.Kernel.Hand.frame (F := Bits) m ρ

/-- So does the idealized program. -/
theorem frame_ki : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both idealized programs end with the specification's function of the
    arguments in their result buffers. -/
theorem algebraic : Cert.algebraic_KernelIdeal_ReferenceIdeal := by
  intro m ρ m' ρ' _ hagree
  refine ⟨_, Cert.KernelIdeal.Hand.run_value m ρ, ?_⟩
  refine (θ_run Cert.ReferenceIdeal.defs _ _).mono (fun r h c => ⟨?_, (h c).2⟩)
    (Cert.ReferenceIdeal.Value.run (F := Ideal) m' ρ')
  rw [(h c).1, Cert.ReferenceIdeal.RefValue.ref_result,
    (hagree c).1, (hagree c).2.1, (hagree c).2.2.1, (hagree c).2.2.2.1, (hagree c).2.2.2.2.1,
    (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
